-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 256]⟩ ⟨3, ![8, 256, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x256x256 : Shape := ⟨3, ![1, 256, 256]⟩
abbrev S_ : Shape := ⟨0, ![]⟩

class Facts : Prop where
  bcast_S_S1x256x256 : S_.BroadcastsInDim S1x256x256 (![] : Fin 0 → Fin S1x256x256.rank)
  reducesTo_S1x256x256_S_d0_1_2 : S1x256x256.ReducesTo [0, 1, 2] S_
  h_S_ : 0 < S_.numel

variable [Facts]

def fn {F : FTy → Type} [FloatOps F] (main_arg0 : FVec F S1x256x256 .f32) : IVec S_ 1 :=
  let main_v0 : FVec F S1x256x256 .f32 := Host.absf main_arg0
  let main_cst : FVec F S_ .f32 := constant S_ .f32 0x7F800000#32
  let main_v1 : FVec F S1x256x256 .f32 := broadcastInDim S1x256x256 ![] bcast_S_S1x256x256 main_cst
  let main_v2 : IVec S1x256x256 1 := cmpf .olt main_v0 main_v1
  let main_c : IVec S_ 1 := constantI S_ 1 1#1
  let main_v3 : IVec S_ 1 := (fun x v => Host.reduce IntOp.andi x v reducesTo_S1x256x256_S_d0_1_2 h_S_) main_v2 main_c
  main_v3
-- ==== Pre_finite_inputs_ReferenceIdeal.lean ====
abbrev S8x256x256 : Shape := ⟨3, ![8, 256, 256]⟩
abbrev S_ : Shape := ⟨0, ![]⟩

class Facts : Prop where
  bcast_S_S8x256x256 : S_.BroadcastsInDim S8x256x256 (![] : Fin 0 → Fin S8x256x256.rank)
  reducesTo_S8x256x256_S_d0_1_2 : S8x256x256.ReducesTo [0, 1, 2] S_
  h_S_ : 0 < S_.numel

variable [Facts]

def fn {F : FTy → Type} [FloatOps F] (main_arg0 : FVec F S8x256x256 .f32) : IVec S_ 1 :=
  let main_v0 : FVec F S8x256x256 .f32 := Host.absf main_arg0
  let main_cst : FVec F S_ .f32 := constant S_ .f32 0x7F800000#32
  let main_v1 : FVec F S8x256x256 .f32 := broadcastInDim S8x256x256 ![] bcast_S_S8x256x256 main_cst
  let main_v2 : IVec S8x256x256 1 := cmpf .olt main_v0 main_v1
  let main_c : IVec S_ 1 := constantI S_ 1 1#1
  let main_v3 : IVec S_ 1 := (fun x v => Host.reduce IntOp.andi x v reducesTo_S8x256x256_S_d0_1_2 h_S_) main_v2 main_c
  main_v3
-- ==== Kernel.lean ====
abbrev S1x256x256 : Shape := ⟨3, ![1, 256, 256]⟩
abbrev S256x256 : Shape := ⟨2, ![256, 256]⟩
abbrev S3x12x24x256 : Shape := ⟨4, ![3, 12, 24, 256]⟩
abbrev S3x12 : Shape := ⟨2, ![3, 12]⟩
abbrev S_ : Shape := ⟨0, ![]⟩
abbrev S1x1 : Shape := ⟨2, ![1, 1]⟩
abbrev S1x1x24x256 : Shape := ⟨4, ![1, 1, 24, 256]⟩
abbrev S24x256 : Shape := ⟨2, ![24, 256]⟩
abbrev S1x24x256 : Shape := ⟨3, ![1, 24, 256]⟩
abbrev S1x1x16x256 : Shape := ⟨4, ![1, 1, 16, 256]⟩
abbrev S16x256 : Shape := ⟨2, ![16, 256]⟩
abbrev S1x16x256 : Shape := ⟨3, ![1, 16, 256]⟩

abbrev nBuf : Space → Nat
  | .hbm => 2
  | .vmem => 3
  | .smem => 0
  | _ => 0

abbrev bufTy : (tb : Table) → Fin (tcTables nBuf tb) → BufTy
  | .hbm, ⟨0, _⟩ => ⟨S1x256x256, .f32⟩
  | .hbm, ⟨1, _⟩ => ⟨S256x256, .f32⟩
  | .local _ .vmem, ⟨0, _⟩ => ⟨S1x256x256, .f32⟩
  | .local _ .vmem, ⟨1, _⟩ => ⟨S256x256, .f32⟩
  | .local _ .vmem, ⟨2, _⟩ => ⟨S3x12x24x256, .f32⟩
  | _, _ => ⟨S1x256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 1 74 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.xori v2 c1_i32_10
  let c1_i32_18 : BitVec 32 := 1#32
  let v14 : BitVec 32 := Scalar.muli v13 c1_i32_18
  let v15 : BitVec 32 := Scalar.addi c0_i32_19 v14
  v15.toNat
def k0_dev5 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_24 : BitVec 32 := 3#32
  let v24 : BitVec 32 := Scalar.xori v2 c3_i32_24
  let c1_i32_32 : BitVec 32 := 1#32
  let v25 : BitVec 32 := Scalar.muli v24 c1_i32_32
  let v26 : BitVec 32 := Scalar.addi c0_i32_33 v25
  v26.toNat
def k0_dev6 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_37 : BitVec 32 := 4#32
  let v35 : BitVec 32 := Scalar.xori v2 c4_i32_37
  let c1_i32_44 : BitVec 32 := 1#32
  let v36 : BitVec 32 := Scalar.muli v35 c1_i32_44
  let v37 : BitVec 32 := Scalar.addi c0_i32_45 v36
  v37.toNat
def k0_dev7 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_49 : BitVec 32 := 1#32
  let v46 : BitVec 32 := Scalar.xori v2 c1_i32_49
  let c1_i32_57 : BitVec 32 := 1#32
  let v47 : BitVec 32 := Scalar.muli v46 c1_i32_57
  let v48 : BitVec 32 := Scalar.addi c0_i32_58 v47
  v48.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_62 : BitVec 32 := 3#32
  let v57 : BitVec 32 := Scalar.xori v2 c3_i32_62
  let c1_i32_70 : BitVec 32 := 1#32
  let v58 : BitVec 32 := Scalar.muli v57 c1_i32_70
  let v59 : BitVec 32 := Scalar.addi c0_i32_71 v58
  v59.toNat
def k0_dev9 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_75 : BitVec 32 := 4#32
  let v68 : BitVec 32 := Scalar.xori v2 c4_i32_75
  let c1_i32_82 : BitVec 32 := 1#32
  let v69 : BitVec 32 := Scalar.muli v68 c1_i32_82
  let v70 : BitVec 32 := Scalar.addi c0_i32_83 v69
  v70.toNat
def k0_dev10 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_87 : BitVec 32 := 1#32
  let v79 : BitVec 32 := Scalar.xori v2 c1_i32_87
  let c1_i32_94 : BitVec 32 := 1#32
  let v80 : BitVec 32 := Scalar.muli v79 c1_i32_94
  let v81 : BitVec 32 := Scalar.addi c0_i32_95 v80
  v81.toNat
def k0_dev11 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_99 : BitVec 32 := 3#32
  let v90 : BitVec 32 := Scalar.xori v2 c3_i32_99
  let c1_i32_106 : BitVec 32 := 1#32
  let v91 : BitVec 32 := Scalar.muli v90 c1_i32_106
  let v92 : BitVec 32 := Scalar.addi c0_i32_107 v91
  v92.toNat
def k0_dev12 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_111 : BitVec 32 := 4#32
  let v101 : BitVec 32 := Scalar.xori v2 c4_i32_111
  let c1_i32_119 : BitVec 32 := 1#32
  let v102 : BitVec 32 := Scalar.muli v101 c1_i32_119
  let v103 : BitVec 32 := Scalar.addi c0_i32_120 v102
  v103.toNat
def k0_dev13 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_124 : BitVec 32 := 1#32
  let v112 : BitVec 32 := Scalar.xori v2 c1_i32_124
  let c1_i32_131 : BitVec 32 := 1#32
  let v113 : BitVec 32 := Scalar.muli v112 c1_i32_131
  let v114 : BitVec 32 := Scalar.addi c0_i32_132 v113
  v114.toNat
def k0_dev14 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_136 : BitVec 32 := 3#32
  let v123 : BitVec 32 := Scalar.xori v2 c3_i32_136
  let c1_i32_143 : BitVec 32 := 1#32
  let v124 : BitVec 32 := Scalar.muli v123 c1_i32_143
  let v125 : BitVec 32 := Scalar.addi c0_i32_144 v124
  v125.toNat
def k0_dev15 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_148 : BitVec 32 := 4#32
  let v134 : BitVec 32 := Scalar.xori v2 c4_i32_148
  let c1_i32_155 : BitVec 32 := 1#32
  let v135 : BitVec 32 := Scalar.muli v134 c1_i32_155
  let v136 : BitVec 32 := Scalar.addi c0_i32_156 v135
  v136.toNat
def k0_dev16 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_193 : BitVec 32 := 3#32
  let v165 : BitVec 32 := Scalar.xori v2 c3_i32_193
  let c1_i32_200 : BitVec 32 := 1#32
  let v166 : BitVec 32 := Scalar.muli v165 c1_i32_200
  let v167 : BitVec 32 := Scalar.addi c0_i32_201 v166
  v167.toNat
def k0_dev17 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_238 : BitVec 32 := 4#32
  let v195 : BitVec 32 := Scalar.xori v2 c4_i32_238
  let c1_i32_245 : BitVec 32 := 1#32
  let v196 : BitVec 32 := Scalar.muli v195 c1_i32_245
  let v197 : BitVec 32 := Scalar.addi c0_i32_246 v196
  v197.toNat
def k0_dev18 (d0 : Dev nD) : Nat :=
  let c0_i32_291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_283 : BitVec 32 := 1#32
  let v225 : BitVec 32 := Scalar.xori v2 c1_i32_283
  let c1_i32_290 : BitVec 32 := 1#32
  let v226 : BitVec 32 := Scalar.muli v225 c1_i32_290
  let v227 : BitVec 32 := Scalar.addi c0_i32_291 v226
  v227.toNat
def k0_dev19 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_328 : BitVec 32 := 3#32
  let v255 : BitVec 32 := Scalar.xori v2 c3_i32_328
  let c1_i32_335 : BitVec 32 := 1#32
  let v256 : BitVec 32 := Scalar.muli v255 c1_i32_335
  let v257 : BitVec 32 := Scalar.addi c0_i32_336 v256
  v257.toNat
def k0_dev20 (d0 : Dev nD) : Nat :=
  let c0_i32_381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_373 : BitVec 32 := 4#32
  let v285 : BitVec 32 := Scalar.xori v2 c4_i32_373
  let c1_i32_380 : BitVec 32 := 1#32
  let v286 : BitVec 32 := Scalar.muli v285 c1_i32_380
  let v287 : BitVec 32 := Scalar.addi c0_i32_381 v286
  v287.toNat
def k0_dev21 (d0 : Dev nD) : Nat :=
  let c0_i32_426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_418 : BitVec 32 := 1#32
  let v315 : BitVec 32 := Scalar.xori v2 c1_i32_418
  let c1_i32_425 : BitVec 32 := 1#32
  let v316 : BitVec 32 := Scalar.muli v315 c1_i32_425
  let v317 : BitVec 32 := Scalar.addi c0_i32_426 v316
  v317.toNat
def k0_dev22 (d0 : Dev nD) : Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_463 : BitVec 32 := 3#32
  let v345 : BitVec 32 := Scalar.xori v2 c3_i32_463
  let c1_i32_470 : BitVec 32 := 1#32
  let v346 : BitVec 32 := Scalar.muli v345 c1_i32_470
  let v347 : BitVec 32 := Scalar.addi c0_i32_471 v346
  v347.toNat
def k0_dev23 (d0 : Dev nD) : Nat :=
  let c0_i32_516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_508 : BitVec 32 := 4#32
  let v375 : BitVec 32 := Scalar.xori v2 c4_i32_508
  let c1_i32_515 : BitVec 32 := 1#32
  let v376 : BitVec 32 := Scalar.muli v375 c1_i32_515
  let v377 : BitVec 32 := Scalar.addi c0_i32_516 v376
  v377.toNat
def k0_dev24 (d0 : Dev nD) : Nat :=
  let c0_i32_561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_553 : BitVec 32 := 1#32
  let v405 : BitVec 32 := Scalar.xori v2 c1_i32_553
  let c1_i32_560 : BitVec 32 := 1#32
  let v406 : BitVec 32 := Scalar.muli v405 c1_i32_560
  let v407 : BitVec 32 := Scalar.addi c0_i32_561 v406
  v407.toNat
def k0_dev25 (d0 : Dev nD) : Nat :=
  let c0_i32_606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_598 : BitVec 32 := 3#32
  let v435 : BitVec 32 := Scalar.xori v2 c3_i32_598
  let c1_i32_605 : BitVec 32 := 1#32
  let v436 : BitVec 32 := Scalar.muli v435 c1_i32_605
  let v437 : BitVec 32 := Scalar.addi c0_i32_606 v436
  v437.toNat
def k0_dev26 (d0 : Dev nD) : Nat :=
  let c0_i32_651 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_643 : BitVec 32 := 4#32
  let v465 : BitVec 32 := Scalar.xori v2 c4_i32_643
  let c1_i32_650 : BitVec 32 := 1#32
  let v466 : BitVec 32 := Scalar.muli v465 c1_i32_650
  let v467 : BitVec 32 := Scalar.addi c0_i32_651 v466
  v467.toNat
def k0_dev27 (d0 : Dev nD) : Nat :=
  let c0_i32_696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_688 : BitVec 32 := 1#32
  let v495 : BitVec 32 := Scalar.xori v2 c1_i32_688
  let c1_i32_695 : BitVec 32 := 1#32
  let v496 : BitVec 32 := Scalar.muli v495 c1_i32_695
  let v497 : BitVec 32 := Scalar.addi c0_i32_696 v496
  v497.toNat
def k0_dev28 (d0 : Dev nD) : Nat :=
  let c0_i32_740 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_732 : BitVec 32 := 4#32
  let v523 : BitVec 32 := Scalar.xori v2 c4_i32_732
  let c1_i32_739 : BitVec 32 := 1#32
  let v524 : BitVec 32 := Scalar.muli v523 c1_i32_739
  let v525 : BitVec 32 := Scalar.addi c0_i32_740 v524
  v525.toNat
def k0_dev29 (d0 : Dev nD) : Nat :=
  let c0_i32_784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_776 : BitVec 32 := 1#32
  let v551 : BitVec 32 := Scalar.xori v2 c1_i32_776
  let c1_i32_783 : BitVec 32 := 1#32
  let v552 : BitVec 32 := Scalar.muli v551 c1_i32_783
  let v553 : BitVec 32 := Scalar.addi c0_i32_784 v552
  v553.toNat
def k0_dev30 (d0 : Dev nD) : Nat :=
  let c0_i32_828 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_820 : BitVec 32 := 3#32
  let v579 : BitVec 32 := Scalar.xori v2 c3_i32_820
  let c1_i32_827 : BitVec 32 := 1#32
  let v580 : BitVec 32 := Scalar.muli v579 c1_i32_827
  let v581 : BitVec 32 := Scalar.addi c0_i32_828 v580
  v581.toNat
def k0_dev31 (d0 : Dev nD) : Nat :=
  let c0_i32_872 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_864 : BitVec 32 := 4#32
  let v607 : BitVec 32 := Scalar.xori v2 c4_i32_864
  let c1_i32_871 : BitVec 32 := 1#32
  let v608 : BitVec 32 := Scalar.muli v607 c1_i32_871
  let v609 : BitVec 32 := Scalar.addi c0_i32_872 v608
  v609.toNat
def k0_dev32 (d0 : Dev nD) : Nat :=
  let c0_i32_916 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_908 : BitVec 32 := 1#32
  let v635 : BitVec 32 := Scalar.xori v2 c1_i32_908
  let c1_i32_915 : BitVec 32 := 1#32
  let v636 : BitVec 32 := Scalar.muli v635 c1_i32_915
  let v637 : BitVec 32 := Scalar.addi c0_i32_916 v636
  v637.toNat
def k0_dev33 (d0 : Dev nD) : Nat :=
  let c0_i32_960 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_952 : BitVec 32 := 3#32
  let v663 : BitVec 32 := Scalar.xori v2 c3_i32_952
  let c1_i32_959 : BitVec 32 := 1#32
  let v664 : BitVec 32 := Scalar.muli v663 c1_i32_959
  let v665 : BitVec 32 := Scalar.addi c0_i32_960 v664
  v665.toNat
def k0_dev34 (d0 : Dev nD) : Nat :=
  let c0_i32_1004 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_996 : BitVec 32 := 4#32
  let v691 : BitVec 32 := Scalar.xori v2 c4_i32_996
  let c1_i32_1003 : BitVec 32 := 1#32
  let v692 : BitVec 32 := Scalar.muli v691 c1_i32_1003
  let v693 : BitVec 32 := Scalar.addi c0_i32_1004 v692
  v693.toNat
def k0_dev35 (d0 : Dev nD) : Nat :=
  let c0_i32_1048 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1040 : BitVec 32 := 1#32
  let v719 : BitVec 32 := Scalar.xori v2 c1_i32_1040
  let c1_i32_1047 : BitVec 32 := 1#32
  let v720 : BitVec 32 := Scalar.muli v719 c1_i32_1047
  let v721 : BitVec 32 := Scalar.addi c0_i32_1048 v720
  v721.toNat
def k0_dev36 (d0 : Dev nD) : Nat :=
  let c0_i32_1092 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1084 : BitVec 32 := 3#32
  let v747 : BitVec 32 := Scalar.xori v2 c3_i32_1084
  let c1_i32_1091 : BitVec 32 := 1#32
  let v748 : BitVec 32 := Scalar.muli v747 c1_i32_1091
  let v749 : BitVec 32 := Scalar.addi c0_i32_1092 v748
  v749.toNat
def k0_dev37 (d0 : Dev nD) : Nat :=
  let c0_i32_1136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1128 : BitVec 32 := 4#32
  let v775 : BitVec 32 := Scalar.xori v2 c4_i32_1128
  let c1_i32_1135 : BitVec 32 := 1#32
  let v776 : BitVec 32 := Scalar.muli v775 c1_i32_1135
  let v777 : BitVec 32 := Scalar.addi c0_i32_1136 v776
  v777.toNat
def k0_dev38 (d0 : Dev nD) : Nat :=
  let c0_i32_1180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1172 : BitVec 32 := 1#32
  let v803 : BitVec 32 := Scalar.xori v2 c1_i32_1172
  let c1_i32_1179 : BitVec 32 := 1#32
  let v804 : BitVec 32 := Scalar.muli v803 c1_i32_1179
  let v805 : BitVec 32 := Scalar.addi c0_i32_1180 v804
  v805.toNat
def k0_dev39 (d0 : Dev nD) : Nat :=
  let c0_i32_1224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1216 : BitVec 32 := 3#32
  let v831 : BitVec 32 := Scalar.xori v2 c3_i32_1216
  let c1_i32_1223 : BitVec 32 := 1#32
  let v832 : BitVec 32 := Scalar.muli v831 c1_i32_1223
  let v833 : BitVec 32 := Scalar.addi c0_i32_1224 v832
  v833.toNat
abbrev stage0_0 : Fin 1 → Memref sig .tc .vmem S1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  inb_S3x12_S1x1_0_0 : ∀ a, (![0, 0] : Fin 2 → Nat) a + S1x1.size a ≤ S3x12.size a
  squeezes_S1x1_S_ : S1x1.Squeezes S_
  inb_S3x12x24x256_S1x1x24x256_0_0_0_0 : ∀ a, (![0, 0, 0, 0] : Fin 4 → Nat) a + S1x1x24x256.size a ≤ S3x12x24x256.size a
  squeezes_S1x1x24x256_S24x256 : S1x1x24x256.Squeezes S24x256
  inb_S1x256x256_S1x24x256_0_0_0 : ∀ a, (![0, 0, 0] : Fin 3 → Nat) a + S1x24x256.size a ≤ S1x256x256.size a
  squeezes_S1x24x256_S24x256 : S1x24x256.Squeezes S24x256
  inb_S3x12_S1x1_0_1 : ∀ a, (![0, 1] : Fin 2 → Nat) a + S1x1.size a ≤ S3x12.size a
  inb_S3x12x24x256_S1x1x24x256_0_1_0_0 : ∀ a, (![0, 1, 0, 0] : Fin 4 → Nat) a + S1x1x24x256.size a ≤ S3x12x24x256.size a
  inb_S1x256x256_S1x24x256_0_24_0 : ∀ a, (![0, 24, 0] : Fin 3 → Nat) a + S1x24x256.size a ≤ S1x256x256.size a
  inb_S3x12_S1x1_0_2 : ∀ a, (![0, 2] : Fin 2 → Nat) a + S1x1.size a ≤ S3x12.size a
  inb_S3x12x24x256_S1x1x24x256_0_2_0_0 : ∀ a, (![0, 2, 0, 0] : Fin 4 → Nat) a + S1x1x24x256.size a ≤ S3x12x24x256.size a
  inb_S1x256x256_S1x24x256_0_48_0 : ∀ a, (![0, 48, 0] : Fin 3 → Nat) a + S1x24x256.size a ≤ S1x256x256.size a
  inb_S3x12_S1x1_0_3 : ∀ a, (![0, 3] : Fin 2 → Nat) a + S1x1.size a ≤ S3x12.size a
  inb_S3x12x24x256_S1x1x24x256_0_3_0_0 : ∀ a, (![0, 3, 0, 0] : Fin 4 → Nat) a + S1x1x24x256.size a ≤ S3x12x24x256.size a
  inb_S1x256x256_S1x24x256_0_72_0 : ∀ a, (![0, 72, 0] : Fin 3 → Nat) a + S1x24x256.size a ≤ S1x256x256.size a
  inb_S3x12_S1x1_0_4 : ∀ a, (![0, 4] : Fin 2 → Nat) a + S1x1.size a ≤ S3x12.size a
  inb_S3x12x24x256_S1x1x24x256_0_4_0_0 : ∀ a, (![0, 4, 0, 0] : Fin 4 → Nat) a + S1x1x24x256.size a ≤ S3x12x24x256.size a
  inb_S1x256x256_S1x24x256_0_96_0 : ∀ a, (![0, 96, 0] : Fin 3 → Nat) a + S1x24x256.size a ≤ S1x256x256.size a
  inb_S3x12_S1x1_0_5 : ∀ a, (![0, 5] : Fin 2 → Nat) a + S1x1.size a ≤ S3x12.size a
  inb_S3x12x24x256_S1x1x24x256_0_5_0_0 : ∀ a, (![0, 5, 0, 0] : Fin 4 → Nat) a + S1x1x24x256.size a ≤ S3x12x24x256.size a
  inb_S1x256x256_S1x24x256_0_120_0 : ∀ a, (![0, 120, 0] : Fin 3 → Nat) a + S1x24x256.size a ≤ S1x256x256.size a
  inb_S3x12_S1x1_0_6 : ∀ a, (![0, 6] : Fin 2 → Nat) a + S1x1.size a ≤ S3x12.size a
  inb_S3x12x24x256_S1x1x24x256_0_6_0_0 : ∀ a, (![0, 6, 0, 0] : Fin 4 → Nat) a + S1x1x24x256.size a ≤ S3x12x24x256.size a
  inb_S1x256x256_S1x24x256_0_144_0 : ∀ a, (![0, 144, 0] : Fin 3 → Nat) a + S1x24x256.size a ≤ S1x256x256.size a
  inb_S3x12_S1x1_0_7 : ∀ a, (![0, 7] : Fin 2 → Nat) a + S1x1.size a ≤ S3x12.size a
  inb_S3x12x24x256_S1x1x24x256_0_7_0_0 : ∀ a, (![0, 7, 0, 0] : Fin 4 → Nat) a + S1x1x24x256.size a ≤ S3x12x24x256.size a
  inb_S1x256x256_S1x24x256_0_168_0 : ∀ a, (![0, 168, 0] : Fin 3 → Nat) a + S1x24x256.size a ≤ S1x256x256.size a
  inb_S3x12_S1x1_0_8 : ∀ a, (![0, 8] : Fin 2 → Nat) a + S1x1.size a ≤ S3x12.size a
  inb_S3x12x24x256_S1x1x16x256_0_8_0_0 : ∀ a, (![0, 8, 0, 0] : Fin 4 → Nat) a + S1x1x16x256.size a ≤ S3x12x24x256.size a
  squeezes_S1x1x16x256_S16x256 : S1x1x16x256.Squeezes S16x256
  inb_S1x256x256_S1x16x256_0_192_0 : ∀ a, (![0, 192, 0] : Fin 3 → Nat) a + S1x16x256.size a ≤ S1x256x256.size a
  squeezes_S1x16x256_S16x256 : S1x16x256.Squeezes S16x256
  inb_S3x12_S1x1_0_9 : ∀ a, (![0, 9] : Fin 2 → Nat) a + S1x1.size a ≤ S3x12.size a
  inb_S3x12x24x256_S1x1x16x256_0_9_0_0 : ∀ a, (![0, 9, 0, 0] : Fin 4 → Nat) a + S1x1x16x256.size a ≤ S3x12x24x256.size a
  inb_S1x256x256_S1x16x256_0_208_0 : ∀ a, (![0, 208, 0] : Fin 3 → Nat) a + S1x16x256.size a ≤ S1x256x256.size a
  inb_S3x12_S1x1_0_10 : ∀ a, (![0, 10] : Fin 2 → Nat) a + S1x1.size a ≤ S3x12.size a
  inb_S3x12x24x256_S1x1x16x256_0_10_0_0 : ∀ a, (![0, 10, 0, 0] : Fin 4 → Nat) a + S1x1x16x256.size a ≤ S3x12x24x256.size a
  inb_S1x256x256_S1x16x256_0_224_0 : ∀ a, (![0, 224, 0] : Fin 3 → Nat) a + S1x16x256.size a ≤ S1x256x256.size a
  inb_S3x12_S1x1_0_11 : ∀ a, (![0, 11] : Fin 2 → Nat) a + S1x1.size a ≤ S3x12.size a
  inb_S3x12x24x256_S1x1x16x256_0_11_0_0 : ∀ a, (![0, 11, 0, 0] : Fin 4 → Nat) a + S1x1x16x256.size a ≤ S3x12x24x256.size a
  inb_S1x256x256_S1x16x256_0_240_0 : ∀ a, (![0, 240, 0] : Fin 3 → Nat) a + S1x16x256.size a ≤ S1x256x256.size a
  h_S1x24x256 : 0 < S1x24x256.numel
  shapeCasts_S1x24x256_S24x256 : S1x24x256.ShapeCasts S24x256
  h_S1x1x24x256 : 0 < S1x1x24x256.numel
  shapeCasts_S1x1x24x256_S24x256 : S1x1x24x256.ShapeCasts S24x256
  inb_S256x256_S24x256_0_0 : ∀ a, (![0, 0] : Fin 2 → Nat) a + S24x256.size a ≤ S256x256.size a
  h_S24x256 : 0 < S24x256.numel
  inb_S3x12_S1x1_1_0 : ∀ a, (![1, 0] : Fin 2 → Nat) a + S1x1.size a ≤ S3x12.size a
  inb_S3x12x24x256_S1x1x24x256_1_0_0_0 : ∀ a, (![1, 0, 0, 0] : Fin 4 → Nat) a + S1x1x24x256.size a ≤ S3x12x24x256.size a
  inb_S256x256_S24x256_24_0 : ∀ a, (![24, 0] : Fin 2 → Nat) a + S24x256.size a ≤ S256x256.size a
  inb_S3x12_S1x1_1_1 : ∀ a, (![1, 1] : Fin 2 → Nat) a + S1x1.size a ≤ S3x12.size a
  inb_S3x12x24x256_S1x1x24x256_1_1_0_0 : ∀ a, (![1, 1, 0, 0] : Fin 4 → Nat) a + S1x1x24x256.size a ≤ S3x12x24x256.size a
  inb_S256x256_S24x256_48_0 : ∀ a, (![48, 0] : Fin 2 → Nat) a + S24x256.size a ≤ S256x256.size a
  inb_S3x12_S1x1_1_2 : ∀ a, (![1, 2] : Fin 2 → Nat) a + S1x1.size a ≤ S3x12.size a
  inb_S3x12x24x256_S1x1x24x256_1_2_0_0 : ∀ a, (![1, 2, 0, 0] : Fin 4 → Nat) a + S1x1x24x256.size a ≤ S3x12x24x256.size a
  inb_S256x256_S24x256_72_0 : ∀ a, (![72, 0] : Fin 2 → Nat) a + S24x256.size a ≤ S256x256.size a
  inb_S3x12_S1x1_1_3 : ∀ a, (![1, 3] : Fin 2 → Nat) a + S1x1.size a ≤ S3x12.size a
  inb_S3x12x24x256_S1x1x24x256_1_3_0_0 : ∀ a, (![1, 3, 0, 0] : Fin 4 → Nat) a + S1x1x24x256.size a ≤ S3x12x24x256.size a
  inb_S256x256_S24x256_96_0 : ∀ a, (![96, 0] : Fin 2 → Nat) a + S24x256.size a ≤ S256x256.size a
  inb_S3x12_S1x1_1_4 : ∀ a, (![1, 4] : Fin 2 → Nat) a + S1x1.size a ≤ S3x12.size a
  inb_S3x12x24x256_S1x1x24x256_1_4_0_0 : ∀ a, (![1, 4, 0, 0] : Fin 4 → Nat) a + S1x1x24x256.size a ≤ S3x12x24x256.size a
  inb_S256x256_S24x256_120_0 : ∀ a, (![120, 0] : Fin 2 → Nat) a + S24x256.size a ≤ S256x256.size a
  inb_S3x12_S1x1_1_5 : ∀ a, (![1, 5] : Fin 2 → Nat) a + S1x1.size a ≤ S3x12.size a
  inb_S3x12x24x256_S1x1x24x256_1_5_0_0 : ∀ a, (![1, 5, 0, 0] : Fin 4 → Nat) a + S1x1x24x256.size a ≤ S3x12x24x256.size a
  inb_S256x256_S24x256_144_0 : ∀ a, (![144, 0] : Fin 2 → Nat) a + S24x256.size a ≤ S256x256.size a
  inb_S3x12_S1x1_1_6 : ∀ a, (![1, 6] : Fin 2 → Nat) a + S1x1.size a ≤ S3x12.size a
  inb_S3x12x24x256_S1x1x24x256_1_6_0_0 : ∀ a, (![1, 6, 0, 0] : Fin 4 → Nat) a + S1x1x24x256.size a ≤ S3x12x24x256.size a
  inb_S256x256_S24x256_168_0 : ∀ a, (![168, 0] : Fin 2 → Nat) a + S24x256.size a ≤ S256x256.size a
  inb_S3x12_S1x1_1_7 : ∀ a, (![1, 7] : Fin 2 → Nat) a + S1x1.size a ≤ S3x12.size a
  inb_S3x12x24x256_S1x1x24x256_1_7_0_0 : ∀ a, (![1, 7, 0, 0] : Fin 4 → Nat) a + S1x1x24x256.size a ≤ S3x12x24x256.size a
  h_S1x16x256 : 0 < S1x16x256.numel
  shapeCasts_S1x16x256_S16x256 : S1x16x256.ShapeCasts S16x256
  h_S1x1x16x256 : 0 < S1x1x16x256.numel
  shapeCasts_S1x1x16x256_S16x256 : S1x1x16x256.ShapeCasts S16x256
  inb_S256x256_S16x256_192_0 : ∀ a, (![192, 0] : Fin 2 → Nat) a + S16x256.size a ≤ S256x256.size a
  h_S16x256 : 0 < S16x256.numel
  inb_S3x12_S1x1_1_8 : ∀ a, (![1, 8] : Fin 2 → Nat) a + S1x1.size a ≤ S3x12.size a
  inb_S3x12x24x256_S1x1x16x256_1_8_0_0 : ∀ a, (![1, 8, 0, 0] : Fin 4 → Nat) a + S1x1x16x256.size a ≤ S3x12x24x256.size a
  inb_S256x256_S16x256_208_0 : ∀ a, (![208, 0] : Fin 2 → Nat) a + S16x256.size a ≤ S256x256.size a
  inb_S3x12_S1x1_1_9 : ∀ a, (![1, 9] : Fin 2 → Nat) a + S1x1.size a ≤ S3x12.size a
  inb_S3x12x24x256_S1x1x16x256_1_9_0_0 : ∀ a, (![1, 9, 0, 0] : Fin 4 → Nat) a + S1x1x16x256.size a ≤ S3x12x24x256.size a
  inb_S256x256_S16x256_224_0 : ∀ a, (![224, 0] : Fin 2 → Nat) a + S16x256.size a ≤ S256x256.size a
  inb_S3x12_S1x1_1_10 : ∀ a, (![1, 10] : Fin 2 → Nat) a + S1x1.size a ≤ S3x12.size a
  inb_S3x12x24x256_S1x1x16x256_1_10_0_0 : ∀ a, (![1, 10, 0, 0] : Fin 4 → Nat) a + S1x1x16x256.size a ≤ S3x12x24x256.size a
  inb_S256x256_S16x256_240_0 : ∀ a, (![240, 0] : Fin 2 → Nat) a + S16x256.size a ≤ S256x256.size a
  inb_S3x12_S1x1_1_11 : ∀ a, (![1, 11] : Fin 2 → Nat) a + S1x1.size a ≤ S3x12.size a
  inb_S3x12x24x256_S1x1x16x256_1_11_0_0 : ∀ a, (![1, 11, 0, 0] : Fin 4 → Nat) a + S1x1x16x256.size a ≤ S3x12x24x256.size a
  shapeCasts_S24x256_S24x256 : S24x256.ShapeCasts S24x256
  inb_S3x12_S1x1_2_0 : ∀ a, (![2, 0] : Fin 2 → Nat) a + S1x1.size a ≤ S3x12.size a
  inb_S3x12x24x256_S1x1x24x256_2_0_0_0 : ∀ a, (![2, 0, 0, 0] : Fin 4 → Nat) a + S1x1x24x256.size a ≤ S3x12x24x256.size a
  inb_S3x12_S1x1_2_1 : ∀ a, (![2, 1] : Fin 2 → Nat) a + S1x1.size a ≤ S3x12.size a
  inb_S3x12x24x256_S1x1x24x256_2_1_0_0 : ∀ a, (![2, 1, 0, 0] : Fin 4 → Nat) a + S1x1x24x256.size a ≤ S3x12x24x256.size a
  inb_S3x12_S1x1_2_2 : ∀ a, (![2, 2] : Fin 2 → Nat) a + S1x1.size a ≤ S3x12.size a
  inb_S3x12x24x256_S1x1x24x256_2_2_0_0 : ∀ a, (![2, 2, 0, 0] : Fin 4 → Nat) a + S1x1x24x256.size a ≤ S3x12x24x256.size a
  inb_S3x12_S1x1_2_3 : ∀ a, (![2, 3] : Fin 2 → Nat) a + S1x1.size a ≤ S3x12.size a
  inb_S3x12x24x256_S1x1x24x256_2_3_0_0 : ∀ a, (![2, 3, 0, 0] : Fin 4 → Nat) a + S1x1x24x256.size a ≤ S3x12x24x256.size a
  inb_S3x12_S1x1_2_4 : ∀ a, (![2, 4] : Fin 2 → Nat) a + S1x1.size a ≤ S3x12.size a
  inb_S3x12x24x256_S1x1x24x256_2_4_0_0 : ∀ a, (![2, 4, 0, 0] : Fin 4 → Nat) a + S1x1x24x256.size a ≤ S3x12x24x256.size a
  inb_S3x12_S1x1_2_5 : ∀ a, (![2, 5] : Fin 2 → Nat) a + S1x1.size a ≤ S3x12.size a
  inb_S3x12x24x256_S1x1x24x256_2_5_0_0 : ∀ a, (![2, 5, 0, 0] : Fin 4 → Nat) a + S1x1x24x256.size a ≤ S3x12x24x256.size a
  inb_S3x12_S1x1_2_6 : ∀ a, (![2, 6] : Fin 2 → Nat) a + S1x1.size a ≤ S3x12.size a
  inb_S3x12x24x256_S1x1x24x256_2_6_0_0 : ∀ a, (![2, 6, 0, 0] : Fin 4 → Nat) a + S1x1x24x256.size a ≤ S3x12x24x256.size a
  inb_S3x12_S1x1_2_7 : ∀ a, (![2, 7] : Fin 2 → Nat) a + S1x1.size a ≤ S3x12.size a
  inb_S3x12x24x256_S1x1x24x256_2_7_0_0 : ∀ a, (![2, 7, 0, 0] : Fin 4 → Nat) a + S1x1x24x256.size a ≤ S3x12x24x256.size a
  shapeCasts_S16x256_S16x256 : S16x256.ShapeCasts S16x256
  inb_S3x12_S1x1_2_8 : ∀ a, (![2, 8] : Fin 2 → Nat) a + S1x1.size a ≤ S3x12.size a
  inb_S3x12x24x256_S1x1x16x256_2_8_0_0 : ∀ a, (![2, 8, 0, 0] : Fin 4 → Nat) a + S1x1x16x256.size a ≤ S3x12x24x256.size a
  inb_S3x12_S1x1_2_9 : ∀ a, (![2, 9] : Fin 2 → Nat) a + S1x1.size a ≤ S3x12.size a
  inb_S3x12x24x256_S1x1x16x256_2_9_0_0 : ∀ a, (![2, 9, 0, 0] : Fin 4 → Nat) a + S1x1x16x256.size a ≤ S3x12x24x256.size a
  inb_S3x12_S1x1_2_10 : ∀ a, (![2, 10] : Fin 2 → Nat) a + S1x1.size a ≤ S3x12.size a
  inb_S3x12x24x256_S1x1x16x256_2_10_0_0 : ∀ a, (![2, 10, 0, 0] : Fin 4 → Nat) a + S1x1x16x256.size a ≤ S3x12x24x256.size a
  inb_S3x12_S1x1_2_11 : ∀ a, (![2, 11] : Fin 2 → Nat) a + S1x1.size a ≤ S3x12.size a
  inb_S3x12x24x256_S1x1x16x256_2_11_0_0 : ∀ a, (![2, 11, 0, 0] : Fin 4 → Nat) a + S1x1x16x256.size a ≤ S3x12x24x256.size a
  hcc0_scratch1 : 2 + S3x12.numel ≤ 74
  hcc0_scratch2 : 38 + S3x12.numel ≤ 74
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  hstage0_0 : ∀ j, (stage0_0 j).IsWhole
  hstage0_1 : ∀ j, (stage0_1 j).IsWhole

variable [Facts₀]

abbrev cc0_scratch1 : DmaSems sig S3x12 := SemArray.consecutive 2 S3x12 hcc0_scratch1
abbrev cc0_scratch2 : DmaSems sig S3x12 := SemArray.consecutive 38 S3x12 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x256x256 : Shape := ⟨3, ![8, 256, 256]⟩
abbrev S_ : Shape := ⟨0, ![]⟩
abbrev S256x256 : Shape := ⟨2, ![256, 256]⟩

abbrev nBuf : Space → Nat
  | .hbm => 3
  | .vmem => 0
  | .smem => 0
  | _ => 0

abbrev bufTy : (tb : Table) → Fin (tcTables nBuf tb) → BufTy
  | .hbm, ⟨0, _⟩ => ⟨S8x256x256, .f32⟩
  | .hbm, ⟨1, _⟩ => ⟨S_, .f32⟩
  | .hbm, ⟨2, _⟩ => ⟨S256x256, .f32⟩
  | _, _ => ⟨S8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S8x256x256_S256x256_d0 : S8x256x256.ReducesTo [0] S256x256
  h_S_ : 0 < S_.numel

variable [Facts₀]

class Facts : Prop extends Facts₀ where

variable [Facts]
-- ==== Proof.Spec.lean ====
/-
  The butterfly all-reduce as arithmetic, free of any program text.

  Eight devices, numbered 0..7, each hold one 256 x 256 block.  The rows are cut into twelve chunks (eight of 24
  rows, then four of 16).  For chunk `j` the reduction runs three exchange stages; at stage `s` device `c` adds
  to its running value the running value of the device `c xor mask`, where the mask is the `(j + s) mod 3`-th of
  1, 3, 4.  The three masks are linearly independent over the two-element field, so after the three stages every
  device holds the sum over all eight devices, whatever the order in which the masks were used.
-/
import Mathlib.Algebra.BigOperators.Fin
import Mathlib.Data.Fin.VecNotation
import Mathlib.Tactic.FinCases
import Mathlib.Tactic.Abel

namespace Cert.TreeSpec

/-- The three exchange masks. -/
def mk3 : Fin 3 → Nat := ![1, 3, 4]

/-- Which mask stage `s` uses on chunk `j`. -/
def maskIx (s j : Nat) : Fin 3 := ⟨(j + s) % 3, Nat.mod_lt _ (by decide)⟩

/-- The partner of device `c` under mask number `k`. -/
def xorDev (c : Fin 8) (k : Fin 3) : Fin 8 := ⟨(c.val ^^^ mk3 k) % 8, Nat.mod_lt _ (by decide)⟩

/-- The partner of device `c` at stage `s` of chunk `j`. -/
def peer (c : Fin 8) (s j : Nat) : Fin 8 := xorDev c (maskIx s j)

theorem xorDev_xorDev (c : Fin 8) (k : Fin 3) : xorDev (xorDev c k) k = c := by revert c k; decide

theorem peer_peer (c : Fin 8) (s j : Nat) : peer (peer c s j) s j = c := xorDev_xorDev c _

theorem xorDev_ne (c : Fin 8) (k : Fin 3) : xorDev c k ≠ c := by revert c k; decide

theorem xorDev_inj_mask (c : Fin 8) (k k' : Fin 3) (h : xorDev c k = xorDev c k') : k = k' := by
  revert c k k'; decide

/-- First row of chunk `j`. -/
def cstart (j : Nat) : Nat := if j < 8 then 24 * j else 192 + 16 * (j - 8)

/-- Number of rows of chunk `j`. -/
def crows (j : Nat) : Nat := if j < 8 then 24 else 16

/-- The chunk a row belongs to. -/
def chunkOf (r : Nat) : Nat := if r < 192 then r / 24 else 8 + (r - 192) / 16

theorem chunkOf_cstart_add (j r : Nat) (hj : j < 12) (hr : r < crows j) : chunkOf (cstart j + r) = j := by
  unfold chunkOf cstart crows at *
  by_cases h : j < 8
  · rw [if_pos h] at hr ⊢
    rw [if_pos (by omega)]; omega
  · rw [if_neg h] at hr ⊢
    rw [if_neg (by omega)]; omega

/-- The running value of device `c` on chunk `j` after `s` stages, over any addition. -/
def tree {α : Type} (add : α → α → α) (g : Fin 8 → α) (j : Nat) : Nat → Fin 8 → α
  | 0, c => g c
  | s + 1, c => add (tree add g j s c) (tree add g j s (peer c s j))

theorem tree_zero {α : Type} (add : α → α → α) (g : Fin 8 → α) (j : Nat) (c : Fin 8) : tree add g j 0 c = g c := rfl

theorem tree_succ {α : Type} (add : α → α → α) (g : Fin 8 → α) (j s : Nat) (c : Fin 8) :
    tree add g j (s + 1) c = add (tree add g j s c) (tree add g j s (peer c s j)) := rfl

/-- After three stages every device holds the sum over the eight devices: the three masks used on a chunk are
    1, 3, 4 in a rotated order, and xor-ing a device number with every sub-sum of them visits each device once. -/
theorem maskIx_rot (j : Nat) : ∃ a : Fin 3, maskIx 0 j = a ∧ maskIx 1 j = a + 1 ∧ maskIx 2 j = a + 2 := by
  refine ⟨maskIx 0 j, rfl, ?_, ?_⟩ <;> (apply Fin.ext; simp only [maskIx, Fin.add_def]; first | omega | (simp; omega) | simp)

theorem tree_three {α : Type} [AddCommMonoid α] (g : Fin 8 → α) (j : Nat) (c : Fin 8) :
    tree (· + ·) g j 3 c = ∑ d : Fin 8, g d := by
  obtain ⟨a, e0, e1, e2⟩ := maskIx_rot j
  simp only [tree, peer, e0, e1, e2, Fin.sum_univ_eight]
  fin_cases a <;> fin_cases c <;> simp [xorDev, mk3] <;> abel

end Cert.TreeSpec
-- ==== Proof.IdealSide.Proto.lean ====
/-
  The butterfly all-reduce on eight devices: the names this proof speaks in.

  Each device holds its 256 x 256 block of the input in a staging buffer, a result staging buffer of the same shape,
  a landing buffer of 3 x 12 slots (stage, chunk) of up to 24 rows, and two families of 36 transfer semaphores
  (departures and arrivals), besides the runtime's entry-barrier semaphore.  At stage `s` of chunk `j` a device
  sends its running rows of the chunk to the partner `c xor mask` and adds what the partner sent.
-/
import proofs.«900610_g7700000000000611_dist_treered_v7x_i8_m256_n256_f32_1_alg».proof.Proof.Spec
import proofs.«900610_g7700000000000611_dist_treered_v7x_i8_m256_n256_f32_1_alg».proof.Proof.Gen.KernelIdeal
import proofs.«900610_g7700000000000611_dist_treered_v7x_i8_m256_n256_f32_1_alg».proof.Proof.Gen.KernelIdeal.Skeleton
import proofs.«900610_g7700000000000611_dist_treered_v7x_i8_m256_n256_f32_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.Hand

open Cert.KernelIdeal Cert.KernelIdeal.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duty names `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Shapes of a chunk of `R` rows -/

abbrev SR2 (R : ℕ) : Shape := ⟨2, ![R, 256]⟩
abbrev SR3 (R : ℕ) : Shape := ⟨3, ![1, R, 256]⟩
abbrev SR4 (R : ℕ) : Shape := ⟨4, ![1, 1, R, 256]⟩

/-! ## The buffers, and the views of a chunk -/

abbrev xM : Memref sig .tc .vmem S1x256x256 .f32 := Memref.whole cc0_stg0_0
abbrev oM : Memref sig .tc .vmem S256x256 .f32 := Memref.whole cc0_stg1_0
abbrev cM : Memref sig .tc .vmem S3x12x24x256 .f32 := Memref.whole cc0_scratch0

abbrev XInb (a R : ℕ) : Prop := ∀ i, (![0, a, 0] : Fin 3 → ℕ) i + (SR3 R).size i ≤ S1x256x256.size i
abbrev OInb (a R : ℕ) : Prop := ∀ i, (![a, 0] : Fin 2 → ℕ) i + (SR2 R).size i ≤ S256x256.size i
abbrev CInb (s j R : ℕ) : Prop := ∀ i, (![s, j, 0, 0] : Fin 4 → ℕ) i + (SR4 R).size i ≤ S3x12x24x256.size i
abbrev SInb (s j : ℕ) : Prop := ∀ i, (![s, j] : Fin 2 → ℕ) i + S1x1.size i ≤ S3x12.size i

/-- Rows `a .. a + R` of the input block. -/
abbrev xRect (a R : ℕ) (h : XInb a R) : Rect S1x256x256 :=
  Rect.unit (s := S1x256x256) ![0, a, 0] (SR3 R).size h
/-- Rows `a .. a + R` of the result block. -/
abbrev oRect (a R : ℕ) (h : OInb a R) : Rect S256x256 :=
  Rect.unit (s := S256x256) ![a, 0] (SR2 R).size h
/-- The first `R` rows of landing slot `(s, j)`. -/
abbrev cRect (s j R : ℕ) (h : CInb s j R) : Rect S3x12x24x256 :=
  Rect.unit (s := S3x12x24x256) ![s, j, 0, 0] (SR4 R).size h

abbrev xCh (a R : ℕ) (h : XInb a R) (hq : (SR3 R).Squeezes (SR2 R)) : Memref sig .tc .vmem (SR2 R) .f32 :=
  ((xM.slice (xRect a R h) (fun _ => rfl)).squeeze (SR2 R) hq)
abbrev oCh (a R : ℕ) (h : OInb a R) : Memref sig .tc .vmem (SR2 R) .f32 := oM.slice (oRect a R h) (fun _ => rfl)
abbrev cSl (s j R : ℕ) (h : CInb s j R) (hq : (SR4 R).Squeezes (SR2 R)) : Memref sig .tc .vmem (SR2 R) .f32 :=
  ((cM.slice (cRect s j R h) (fun _ => rfl)).squeeze (SR2 R) hq)

/-- The departure and arrival semaphores of `(s, j)`. -/
abbrev sSem (s j : ℕ) (h : SInb s j) : DmaSem sig :=
  ((cc0_scratch1.slice (Rect.unit (s := S3x12) ![s, j] S1x1.size h)).squeeze S_ squeezes_S1x1_S_).sem
abbrev rSem (s j : ℕ) (h : SInb s j) : DmaSem sig :=
  ((cc0_scratch2.slice (Rect.unit (s := S3x12) ![s, j] S1x1.size h)).squeeze S_ squeezes_S1x1_S_).sem

abbrev barS : Sem sig := (SemArray.scalar (sig.barrier 0 rfl) : Sems sig S_).sem

/-! ## Chunks: bounds that hold for every chunk -/

theorem xinb (j : ℕ) (hj : j < 12) : XInb (cstart j) (crows j) := by
  intro i; unfold cstart crows; fin_cases i <;> simp <;> split <;> omega
theorem oinb (j : ℕ) (hj : j < 12) : OInb (cstart j) (crows j) := by
  intro i; unfold cstart crows; fin_cases i <;> simp <;> split <;> omega
theorem cinb (s j : ℕ) (hs : s < 3) (hj : j < 12) : CInb s j (crows j) := by
  intro i; unfold crows; fin_cases i <;> simp <;> first | omega | (split <;> omega)
theorem sinb (s j : ℕ) (hs : s < 3) (hj : j < 12) : SInb s j := by
  intro i; fin_cases i <;> simp <;> omega
theorem sq3 (j : ℕ) : (SR3 (crows j)).Squeezes (SR2 (crows j)) := by unfold crows; split <;> decide
theorem sq4 (j : ℕ) : (SR4 (crows j)).Squeezes (SR2 (crows j)) := by unfold crows; split <;> decide

/-- The units a transfer of a chunk of `R` rows adds to each semaphore it completes on. -/
abbrev NR (R : ℕ) : ℕ := (oM : Memref sig .tc .vmem S256x256 .f32).view.buf |> fun b => sig.dmaCredit .tc (Kind.tc.table .vmem) b (SR2 R) .f32

/-! ## Cells -/

abbrev barCell (c : Dev nD) : GSem nD τ sig := ((c : Thread nD τ), .reg barS)
abbrev dCell (c : Dev nD) (q : DmaSem sig) : GSem nD τ sig := ((c : Thread nD τ), .dma q)

/-- Stage and chunk of a transfer semaphore, read off its number (departures are 2 .. 37, arrivals 38 .. 73). -/
def stOf (q : DmaSem sig) : ℕ := ((q.val - 2) % 36) / 12
def chOf (q : DmaSem sig) : ℕ := ((q.val - 2) % 36) % 12
theorem stOf_lt (q : DmaSem sig) : stOf q < 3 := by unfold stOf; omega
theorem chOf_lt (q : DmaSem sig) : chOf q < 12 := by unfold chOf; omega

/-! ## Contents -/

variable (m : (ℓ : Loc nD τ sig) → Buf (Elt F) ℓ) (ρ : Dev nD → PrngReg)

/-- The memory at launch. -/
def s₀ : MemSt nD τ sig (Elt F) := ⟨m, fun _ => 0, ρ⟩

/-- Device `c`'s block of the input, as staged. -/
def xs (c : Dev nD) : (cc0_stg0_0 : Ref sig .tc).ty.Contents (Elt F) :=
  (win0_0.blk (0 : Fin 1)).view.read (Elt F) (m ((c : Thread nD τ).loc main_arg0))

/-- The same, as a 256 x 256 array. -/
def x2 (c : Dev nD) : S256x256.Idx → F .f32 := fun i => xs m c (ValueIdx.ix3 (0 : Fin 1) (i 0) (i 1))

/-- Device `c`'s running sum after `s` stages: entry by entry the butterfly of the eight devices' entries, on
    the masks of the entry's chunk. -/
def acc (c : Dev nD) (s : ℕ) : (cc0_stg1_0 : Ref sig .tc).ty.Contents (Elt F) :=
  fun i => tree (FloatOps.addf (F := F) (φ := .f32)) (fun d => x2 m d i) (chunkOf (i 0).val) s c

/-- Row `r` of chunk `j`, as a row of the block. -/
def rowOf (j r : ℕ) : Fin 256 := ⟨(cstart j + r) % 256, Nat.mod_lt _ (by decide)⟩

/-- What device `c`'s landing buffer comes to hold: slot `(s, j)` the partner's running rows of chunk `j` after `s` stages. -/
def landed (c : Dev nD) : (cc0_scratch0 : Ref sig .tc).ty.Contents (Elt F) :=
  fun i => acc m (peer c (i 0).val (i 1).val) (i 0).val (ValueIdx.ix2 (rowOf (i 1).val (i 2).val) (⟨(i 3).val, (i 3).isLt⟩ : Fin 256))

/-! ## The schedule -/

/-- Slot `(s, j)` of device `c`'s landing buffer, at contents `f`. -/
def slotPts (c : Dev nD) (s j : ℕ) (hs : s < 3) (hj : j < 12) (f : Buf (Elt F) ((cSl s j (crows j) (cinb s j hs hj) (sq4 j)).view.loc (c : Thread nD τ))) : sProp 𝕄 :=
  (cSl s j (crows j) (cinb s j hs hj) (sq4 j)).view.loc (c : Thread nD τ) ↦[(cSl s j (crows j) (cinb s j hs hj) (sq4 j)).view.set]{fullShare} f
/-- Chunk `j` of device `c`'s input staging buffer, at contents `f`. -/
def xPts (c : Dev nD) (j : ℕ) (hj : j < 12) (f : Buf (Elt F) ((xCh (cstart j) (crows j) (xinb j hj) (sq3 j)).view.loc (c : Thread nD τ))) : sProp 𝕄 :=
  (xCh (cstart j) (crows j) (xinb j hj) (sq3 j)).view.loc (c : Thread nD τ) ↦[(xCh (cstart j) (crows j) (xinb j hj) (sq3 j)).view.set]{fullShare} f
/-- Chunk `j` of device `c`'s result staging buffer, at contents `f`. -/
def oPts (c : Dev nD) (j : ℕ) (hj : j < 12) (f : Buf (Elt F) ((oCh (cstart j) (crows j) (oinb j hj)).view.loc (c : Thread nD τ))) : sProp 𝕄 :=
  (oCh (cstart j) (crows j) (oinb j hj)).view.loc (c : Thread nD τ) ↦[(oCh (cstart j) (crows j) (oinb j hj)).view.set]{fullShare} f

/-- The stage of chunk `j` at which the partner is the one under mask number `k`. -/
def stageOf (k : Fin 3) (j : ℕ) : ℕ := (k.val + 3 - j % 3) % 3
theorem stageOf_lt (k : Fin 3) (j : ℕ) : stageOf k j < 3 := Nat.mod_lt _ (by decide)

/-- The departure semaphore's number and the arrival semaphore's. -/
def sQ (s j : ℕ) : DmaSem sig := ⟨(2 + 12 * s + j) % 74, Nat.mod_lt _ (by decide)⟩
def rQ (s j : ℕ) : DmaSem sig := ⟨(38 + 12 * s + j) % 74, Nat.mod_lt _ (by decide)⟩

/-- What the entry signal of the partner `p` under mask `k` hands a device: `p`'s twelve landing slots the device
    will write, one per chunk, and that `p` is at the first round of their arrival cells. -/
def barPay (p : Dev nD) (k : Fin 3) : sProp 𝕄 :=
  bigSep (Finset.univ : Finset (Fin 12)) fun j =>
    iprop((∃ f, slotPts (F := F) p (stageOf k j.val) j.val (stageOf_lt k j.val) j.isLt f)
      ∗ reached ER (dCell p (rQ (stageOf k j.val) j.val)) 0)

/-- What the departure of `(s, j)` hands back: the rows sent. -/
def sendPay (c : Dev nD) (s j : ℕ) (hj : j < 12) : sProp 𝕄 :=
  if s = 0 then xPts c j hj (xs m c) else oPts c j hj (acc m c s)
/-- What the arrival of `(s, j)` hands over: the slot at the partner's rows. -/
def recvPay (c : Dev nD) (s j : ℕ) (hs : s < 3) (hj : j < 12) : sProp 𝕄 := slotPts c s j hs hj (landed m c)

/-- One round. The barrier cell has three duties of one unit, duty `k` paid by the partner under mask `k`; a
    departure or arrival cell one duty of the chunk's credit. -/
def treeRd : Rounds.Schedule (GSem nD τ sig) (Fin 3) 𝕄 where
  duties g r :=
    if r = 0 ∧ g.1.2 = .tc then
      (match g.2 with
        | .reg _ => Finset.univ
        | .dma q => if 2 ≤ q.val then {0} else ∅)
    else ∅
  unitless _ := False
  amount g _ _ := match g.2 with
    | .reg _ => 1
    | .dma q => NR (crows (chOf q))
  payload g _ d := match g.2 with
    | .reg _ => barPay (xorDev g.1.1 d) d
    | .dma q =>
      if q.val < 2 then iprop(emp)
      else if q.val < 38 then sendPay m g.1.1 (stOf q) (chOf q) (chOf_lt q)
      else recvPay m g.1.1 (stOf q) (chOf q) (stOf_lt q) (chOf_lt q)
  amount_pos g _ _ _ := by
    cases g.2 with
    | reg _ => exact Nat.one_pos
    | dma q => exact View.dmaCredit_pos (oCh (cstart (chOf q)) (crows (chOf q)) (oinb _ (chOf_lt q))).view (by unfold crows; split <;> decide)

/-! ## What a device owes, in the order it pays -/

/-- The unit a device owes the entry barrier of its partner under mask `k`. -/
def tallyBar (c : Dev nD) (k : Fin 3) : CellTallies nD τ sig Unit := tallyAt (barCell (xorDev c k)) () 1
/-- The credit the `n`-th transfer (stage `n / 12`, chunk `n % 12`) owes the partner's arrival cell. -/
def tallySend (c : Dev nD) (n : ℕ) : CellTallies nD τ sig Unit :=
  tallyAt (dCell (peer c (n / 12) (n % 12)) (rQ (n / 12) (n % 12))) () (NR (crows (n % 12)))
/-- The credits of the last `k` of the 36 transfers. -/
def owedRem (c : Dev nD) : ℕ → CellTallies nD τ sig Unit
  | 0 => 0
  | k + 1 => owedRem c k + tallySend c (35 - k)
/-- Everything, the three entry signals outermost in the order they are sent. -/
def O₀ (c : Dev nD) : CellTallies nD τ sig Unit := ((owedRem c 36 + tallyBar c 2) + tallyBar c 1) + tallyBar c 0

/-! ## Levels: entry barriers below arrivals, arrivals in the order their transfers are issued -/

def L (g : GSem nD τ sig) : Finset Unit := if g.1.2 = .tc then {()} else ∅
def lv (g : GSem nD τ sig) (_ : Unit) : ℕ := match g.2 with
  | .reg _ => 1
  | .dma q => if 38 ≤ q.val then 2 + (q.val - 38) else 0

/-! ## Cells by number: 0 the entry barrier, 1 .. 36 departures, 37 .. 72 arrivals -/

def csem (i : Fin 73) : SemLoc sig := if i.val = 0 then .reg barS else .dma ⟨(i.val + 1) % 74, Nat.mod_lt _ (by decide)⟩
abbrev kcell (ck : Dev nD × Fin 73) : GSem nD τ sig := ((ck.1 : Thread nD τ), csem ck.2)
/-- The kernel's own (scoped) semaphores: the 72 transfer semaphores. -/
def osem (i : Fin 72) : SemLoc sig := .dma ⟨(i.val + 2) % 74, Nat.mod_lt _ (by decide)⟩

/-! ## The ghost state a device starts from -/

/-- Every cell's invariant under the names the launch allocated, and every cell at its first round: shared by all. -/
def records (K : Dev nD × Fin 73 → ℕ) : sProp 𝕄 :=
  iprop((bigSep Finset.univ fun ck : Dev nD × Fin 73 => cellInv ER (treeRd m) (K ck) (kcell ck))
    ∗ bigSep Finset.univ fun ck : Dev nD × Fin 73 => reached ER (kcell ck) 0)

/-- The tokens of the duties device `c` pays: its three entry signals, its 36 departures, the 36 arrivals at its partners. -/
def payToks (c : Dev nD) : sProp 𝕄 :=
  iprop((bigSep Finset.univ fun k : Fin 3 => dutyTok ER (barCell (xorDev c k)) 0 k)
    ∗ (bigSep Finset.univ fun n : Fin 36 => dutyTok ER (dCell c (sQ (n.val / 12) (n.val % 12))) 0 (0 : Fin 3))
    ∗ (bigSep Finset.univ fun n : Fin 36 => dutyTok ER (dCell (peer c (n.val / 12) (n.val % 12)) (rQ (n.val / 12) (n.val % 12))) 0 (0 : Fin 3)))

/-- Its positions: every own cell at the start of its first round. -/
def positions (c : Dev nD) : sProp 𝕄 := bigSep Finset.univ fun i : Fin 73 => atPos ER (kcell (c, i)) 0 ∅ 0

def ghost (K : Dev nD × Fin 73 → ℕ) (c : Dev nD) : sProp 𝕄 := iprop(records m K ∗ positions c ∗ payToks c)

/-- The credit dealt at launch: three units on its entry barrier, each arrival's credit. -/
def creds (c : Dev nD) : sProp 𝕄 :=
  iprop(cred (tallyAt (barCell c) () 3)
    ∗ bigSep Finset.univ fun n : Fin 36 => cred (tallyAt (dCell c (rQ (n.val / 12) (n.val % 12))) () (NR (crows (n.val % 12)))))

def start (c : Dev nD) : sProp 𝕄 := iprop((∃ K, ghost m K c) ∗ creds c ∗ levAts L lv)

/-- Before the body: the start and the landing buffer at any contents. -/
def Φ₀ (c : Dev nD) : sProp 𝕄 := iprop(start m c ∗ ∃ f, ((c : Thread nD τ).loc cc0_scratch0) ↦{fullShare} f)
/-- After it: the landing buffer back, every own semaphore at zero. -/
def Φ₁ (c : Dev nD) : sProp 𝕄 :=
  iprop((∃ f, ((c : Thread nD τ).loc cc0_scratch0) ↦{fullShare} f) ∗ Pipeline.ownSems0 (Ix := Unit) (Name := ℕ) (U := UU) (Lvl := ℕ) (Val := Elt F) (τ := τ) osem c)

/-! ## The pipeline's proof data: one point, the input block kept, the result block the running sum after three stages -/

def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => acc m c 3
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

example : sSem 1 3 (by decide) = (⟨2 + 12 * 1 + 3, by decide⟩ : DmaSem sig) := by decide
example : rSem 2 11 (by decide) = (⟨38 + 12 * 2 + 11, by decide⟩ : DmaSem sig) := by decide

end Cert.KernelIdeal.Hand

end
-- ==== Proof.RefSide.lean ====
/-
  The reference, one whole-array program on one device: its result at an index is the sum over the eight blocks.
  Each device's input is one block of the whole array, so the running sum a device holds after the three exchange
  stages, which is the sum of the eight devices' entries, is the reference's entry, the same on every device.
-/
import proofs.«900610_g7700000000000611_dist_treered_v7x_i8_m256_n256_f32_1_alg».proof.Proof.Gen.ReferenceIdeal.Run
import proofs.«900610_g7700000000000611_dist_treered_v7x_i8_m256_n256_f32_1_alg».proof.Proof.Gen.ReferenceIdeal.Read
import proofs.«900610_g7700000000000611_dist_treered_v7x_i8_m256_n256_f32_1_alg».proof.Proof.Spec
import proofs.«900610_g7700000000000611_dist_treered_v7x_i8_m256_n256_f32_1_alg».proof.Proof.IdealSide.Proto
import Idealize.ShloMosaic.Lib.Layout

noncomputable section

namespace Cert.ReferenceIdeal.RefValue

open Idealize.ShloMosaic Idealize.ShloMosaic.TcCoe Idealize.SL.Sem Idealize.ShloMosaic.StableHlo

/-- The sum over the eight blocks of a whole array `x`: entry `(r, l)` is `∑ d, x (d, r, l)`. -/
def total (x : (⟨Cert.ReferenceIdeal.S8x256x256, .f32⟩ : BufTy).Contents (Elt Ideal)) :
    (⟨Cert.ReferenceIdeal.S256x256, .f32⟩ : BufTy).Contents (Elt Ideal) :=
  fun i => ∑ d : Fin 8, x (Cert.ReferenceIdeal.Read.idx_main_v0 i d)

/-- On the extended reals the reduction along the first axis from the initial value zero is that sum. -/
theorem reduce_eq (x : (⟨Cert.ReferenceIdeal.S8x256x256, .f32⟩ : BufTy).Contents (Elt Ideal)) :
    Host.reduceAdd (F := Ideal) x (constant Cert.ReferenceIdeal.S_ .f32 0x00000000#32)
      Cert.ReferenceIdeal.Gen.reducesTo_S8x256x256_S256x256_d0 Cert.ReferenceIdeal.Gen.h_S_ = total x := by
  funext i
  rw [Cert.ReferenceIdeal.Read.val_main_v0_eq, Cert.ReferenceIdeal.Read.val_main_v0_apply,
    Cert.ReferenceIdeal.Read.val_main_cst_apply]
  show Ideal.ofBits .f32 0x00000000#32 + _ = _
  rw [Ideal.ofBits_zero_f32, zero_add]
  rfl

end Cert.ReferenceIdeal.RefValue

namespace Cert.TreeBridge

open Idealize.ShloMosaic Idealize.ShloMosaic.TcCoe Idealize.SL.Sem
open Cert.KernelIdeal Cert.KernelIdeal.Hand Cert.TreeSpec

/-- A device's staged input is its input array: the window is the whole array, at offset zero on every axis. -/
theorem xs_eq {F : FTy → Type} [FloatOps F] (m : (ℓ : Loc nD τ sig) → Buf (Elt F) ℓ) (c : Dev nD) :
    xs m c = m ((c : Thread nD τ).loc main_arg0) := by
  unfold xs
  exact Memref.read_access_unit_zero (Elt F) main_arg0 (funext fun a => Nat.zero_mul _) _ _

/-- Where every device's input is its block of a whole array `X` cut along the first axis: device `d`'s entry
    `(r, l)` is `X (d, r, l)`. -/
theorem x2_of_block (m : (ℓ : Loc nD τ sig) → Buf (Elt Ideal) ℓ)
    (X : (⟨Cert.ReferenceIdeal.S8x256x256, .f32⟩ : BufTy).Contents (Elt Ideal))
    (hb : ∀ c : Dev nD, m ((c.tc : Thread nD τ).loc main_arg0)
      = Layout.block ⟨3, ![1, 256, 256]⟩ ⟨3, ![8, 256, 256]⟩ 0 8 c X)
    (d : Dev nD) (i : S256x256.Idx) :
    x2 m d i = X (Cert.ReferenceIdeal.Read.idx_main_v0 i d) := by
  unfold x2
  rw [xs_eq, hb d, Layout.block_apply]
  refine congrArg X (funext fun a => Fin.ext ?_)
  rw [Layout.Tiles.idx_val]
  match a with
  | ⟨0, _⟩ => simp
  | ⟨1, _⟩ => rfl
  | ⟨2, _⟩ => rfl

/-- After the three stages every device holds the sum over the eight blocks: the butterfly of the eight devices'
    entries is their sum, and those entries are the eight blocks' entries. -/
theorem acc_three_eq (m : (ℓ : Loc nD τ sig) → Buf (Elt Ideal) ℓ)
    (X : (⟨Cert.ReferenceIdeal.S8x256x256, .f32⟩ : BufTy).Contents (Elt Ideal))
    (hb : ∀ c : Dev nD, m ((c.tc : Thread nD τ).loc main_arg0)
      = Layout.block ⟨3, ![1, 256, 256]⟩ ⟨3, ![8, 256, 256]⟩ 0 8 c X)
    (c : Dev nD) :
    acc m c 3 = Cert.ReferenceIdeal.RefValue.total X := by
  funext i
  show (tree (· + ·) (fun d => (x2 m d i : EReal)) (chunkOf (i 0).val) 3 c : EReal)
    = ∑ d : Fin 8, (X (Cert.ReferenceIdeal.Read.idx_main_v0 i d) : EReal)
  rw [tree_three]
  exact Finset.sum_congr rfl fun d _ => x2_of_block m X hb d i

end Cert.TreeBridge

/-- info: 'Cert.TreeBridge.acc_three_eq' depends on axioms: [propext, Classical.choice, Quot.sound] -/
#guard_msgs in #print axioms Cert.TreeBridge.acc_three_eq
/-- info: 'Cert.ReferenceIdeal.RefValue.reduce_eq' depends on axioms: [propext, Classical.choice, Quot.sound] -/
#guard_msgs in #print axioms Cert.ReferenceIdeal.RefValue.reduce_eq

end
-- ==== Proof.IdealSide.Bundles.lean ====
/-
  The state of one chunk of the rows as the reduction proceeds: what a device holds about chunk `j` before its
  first transfer, between the stages, and at the end.
-/
import proofs.«900610_g7700000000000611_dist_treered_v7x_i8_m256_n256_f32_1_alg».proof.Proof.IdealSide.Proto

noncomputable section

namespace Cert.KernelIdeal.Hand

open Cert.KernelIdeal Cert.KernelIdeal.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pieces of one stage of one chunk -/

/-- The token of the departure duty of `(s, j)` on the device's own cell; of the arrival duty on the partner's. -/
def sTok (c : Dev nD) (s j : ℕ) : sProp 𝕄 := dutyTok ER (dCell c (sQ s j)) 0 (0 : Fin 3)
def rTok (c : Dev nD) (s j : ℕ) : sProp 𝕄 := dutyTok ER (dCell (peer c s j) (rQ s j)) 0 (0 : Fin 3)
/-- The device's positions on its own departure and arrival cells of `(s, j)`. -/
def sPos (c : Dev nD) (s j : ℕ) : sProp 𝕄 := atPos ER (dCell c (sQ s j)) 0 ∅ 0
def rPos (c : Dev nD) (s j : ℕ) : sProp 𝕄 := atPos ER (dCell c (rQ s j)) 0 ∅ 0
/-- The credit with which it waits for the arrival (dealt at launch) and for the departure (from its own transfer). -/
def rCred (c : Dev nD) (s j : ℕ) : sProp 𝕄 := cred (tallyAt (dCell c (rQ s j)) () (NR (crows j)))
def sCred (c : Dev nD) (s j : ℕ) : sProp 𝕄 := cred (tallyAt (dCell c (sQ s j)) () (NR (crows j)))
/-- The partner's landing slot the transfer of `(s, j)` writes, at any contents. -/
def dSlot (c : Dev nD) (s j : ℕ) (hs : s < 3) (hj : j < 12) : sProp 𝕄 := iprop(∃ f, slotPts (F := F) (peer c s j) s j hs hj f)
/-- Everything stage `s` of chunk `j` starts from. -/
def stageRes (c : Dev nD) (s j : ℕ) (hs : s < 3) (hj : j < 12) : sProp 𝕄 :=
  iprop(sTok c s j ∗ rTok c s j ∗ sPos c s j ∗ rPos c s j ∗ rCred c s j ∗ dSlot (F := F) c s j hs hj)
/-- A stage whose transfer is under way: the positions and the two credits. -/
def flying (c : Dev nD) (s j : ℕ) : sProp 𝕄 := iprop(sPos (F := F) c s j ∗ rPos c s j ∗ rCred c s j ∗ sCred c s j)
/-- A stage done: both semaphores back at zero, the own landing slot holding the partner's rows. -/
def done (c : Dev nD) (s j : ℕ) (hs : s < 3) (hj : j < 12) : sProp 𝕄 :=
  iprop(semVal (dCell c (sQ s j)) 0 ∗ semVal (dCell c (rQ s j)) 0 ∗ slotPts c s j hs hj (landed m c))

/-! ## The five states of chunk `j` -/

/-- Before the first transfer. -/
def St0 (c : Dev nD) (j : ℕ) (hj : j < 12) : sProp 𝕄 :=
  iprop(stageRes (F := F) c 0 j (by decide) hj ∗ stageRes (F := F) c 1 j (by decide) hj ∗ stageRes (F := F) c 2 j (by decide) hj
    ∗ xPts c j hj (xs m c) ∗ ∃ f, oPts c j hj f)
/-- The first transfer under way. -/
def St1 (c : Dev nD) (j : ℕ) (hj : j < 12) : sProp 𝕄 :=
  iprop(flying (F := F) c 0 j ∗ stageRes (F := F) c 1 j (by decide) hj ∗ stageRes (F := F) c 2 j (by decide) hj ∗ ∃ f, oPts c j hj f)
/-- The first stage added, the second transfer under way. -/
def St2 (c : Dev nD) (j : ℕ) (hj : j < 12) : sProp 𝕄 :=
  iprop(done m c 0 j (by decide) hj ∗ flying (F := F) c 1 j ∗ stageRes (F := F) c 2 j (by decide) hj ∗ xPts c j hj (xs m c))
/-- The second stage added, the third transfer under way. -/
def St3 (c : Dev nD) (j : ℕ) (hj : j < 12) : sProp 𝕄 :=
  iprop(done m c 0 j (by decide) hj ∗ done m c 1 j (by decide) hj ∗ flying (F := F) c 2 j ∗ xPts c j hj (xs m c))
/-- All three stages added. -/
def St4 (c : Dev nD) (j : ℕ) (hj : j < 12) : sProp 𝕄 :=
  iprop(done m c 0 j (by decide) hj ∗ done m c 1 j (by decide) hj ∗ done m c 2 j (by decide) hj
    ∗ xPts c j hj (xs m c) ∗ oPts c j hj (acc m c 3))

end Cert.KernelIdeal.Hand

end
-- ==== Proof.IdealSide.Sched.lean ====
/-
  The schedule read cell by cell: which duties, how many units, what each hands over; the levels that order the
  waits; and the cells by number.
-/
import proofs.«900610_g7700000000000611_dist_treered_v7x_i8_m256_n256_f32_1_alg».proof.Proof.IdealSide.Proto

noncomputable section

namespace Cert.KernelIdeal.Hand

open Cert.KernelIdeal Cert.KernelIdeal.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of `(s, j)` by number -/

/-- The printed departure semaphore of `(s, j)` has the number `2 + 12 s + j`: all 36 cases, by evaluation. -/
theorem sSem_val : ∀ s : Fin 3, ∀ j : Fin 12,
    (sSem s.val j.val (sinb s.val j.val s.isLt j.isLt)).val = (sQ s.val j.val).val := by decide
/-- The printed arrival semaphore of `(s, j)` has the number `38 + 12 s + j`. -/
theorem rSem_val : ∀ s : Fin 3, ∀ j : Fin 12,
    (rSem s.val j.val (sinb s.val j.val s.isLt j.isLt)).val = (rQ s.val j.val).val := by decide

theorem sQ_val (s j : ℕ) (hs : s < 3) (hj : j < 12) : (sQ s j).val = 2 + 12 * s + j := by
  show (2 + 12 * s + j) % 74 = 2 + 12 * s + j; omega
theorem rQ_val (s j : ℕ) (hs : s < 3) (hj : j < 12) : (rQ s j).val = 38 + 12 * s + j := by
  show (38 + 12 * s + j) % 74 = 38 + 12 * s + j; omega

theorem sSem_eq (s j : ℕ) (hs : s < 3) (hj : j < 12) (h : SInb s j) : sSem s j h = sQ s j :=
  Fin.ext (sSem_val ⟨s, hs⟩ ⟨j, hj⟩)
theorem rSem_eq (s j : ℕ) (hs : s < 3) (hj : j < 12) (h : SInb s j) : rSem s j h = rQ s j :=
  Fin.ext (rSem_val ⟨s, hs⟩ ⟨j, hj⟩)
theorem stOf_sQ (s j : ℕ) (hs : s < 3) (hj : j < 12) : stOf (sQ s j) = s := by
  unfold stOf; rw [sQ_val s j hs hj]; omega
theorem chOf_sQ (s j : ℕ) (hs : s < 3) (hj : j < 12) : chOf (sQ s j) = j := by
  unfold chOf; rw [sQ_val s j hs hj]; omega
theorem stOf_rQ (s j : ℕ) (hs : s < 3) (hj : j < 12) : stOf (rQ s j) = s := by
  unfold stOf; rw [rQ_val s j hs hj]; omega
theorem chOf_rQ (s j : ℕ) (hs : s < 3) (hj : j < 12) : chOf (rQ s j) = j := by
  unfold chOf; rw [rQ_val s j hs hj]; omega

/-! ## Duties, amounts, expected units -/

theorem duties_bar (c : Dev nD) : (treeRd (F := F) m).duties (barCell c) 0 = Finset.univ := by
  dsimp only [treeRd]; exact if_pos ⟨rfl, rfl⟩
theorem duties_s (c : Dev nD) (s j : ℕ) (hs : s < 3) (hj : j < 12) : (treeRd (F := F) m).duties (dCell c (sQ s j)) 0 = {0} := by
  dsimp only [treeRd]; rw [if_pos ⟨rfl, rfl⟩]; exact if_pos (by rw [sQ_val s j hs hj]; omega)
theorem duties_r (c : Dev nD) (s j : ℕ) (hs : s < 3) (hj : j < 12) : (treeRd (F := F) m).duties (dCell c (rQ s j)) 0 = {0} := by
  dsimp only [treeRd]; rw [if_pos ⟨rfl, rfl⟩]; exact if_pos (by rw [rQ_val s j hs hj]; omega)
theorem duties_later (g : GSem nD τ sig) : ∀ r, 1 ≤ r → (treeRd (F := F) m).duties g r = ∅ :=
  fun r hr => by dsimp only [treeRd]; exact if_neg fun h => by omega

theorem amount_bar (c : Dev nD) (d : Fin 3) : (treeRd (F := F) m).amount (barCell c) 0 d = 1 := rfl
theorem amount_s (c : Dev nD) (s j : ℕ) (hs : s < 3) (hj : j < 12) (d : Fin 3) : (treeRd (F := F) m).amount (dCell c (sQ s j)) 0 d = NR (crows j) := by
  show NR (crows (chOf (sQ s j))) = NR (crows j); rw [chOf_sQ s j hs hj]
theorem amount_r (c : Dev nD) (s j : ℕ) (hs : s < 3) (hj : j < 12) (d : Fin 3) : (treeRd (F := F) m).amount (dCell c (rQ s j)) 0 d = NR (crows j) := by
  show NR (crows (chOf (rQ s j))) = NR (crows j); rw [chOf_rQ s j hs hj]

theorem expect_bar (c : Dev nD) : (treeRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_s (c : Dev nD) (s j : ℕ) (hs : s < 3) (hj : j < 12) : (treeRd (F := F) m).expect (dCell c (sQ s j)) 0 = NR (crows j) := by
  unfold Schedule.expect Schedule.amountOf; rw [duties_s m c s j hs hj, Finset.sum_singleton, amount_s m c s j hs hj]
theorem expect_r (c : Dev nD) (s j : ℕ) (hs : s < 3) (hj : j < 12) : (treeRd (F := F) m).expect (dCell c (rQ s j)) 0 = NR (crows j) := by
  unfold Schedule.expect Schedule.amountOf; rw [duties_r m c s j hs hj, Finset.sum_singleton, amount_r m c s j hs hj]

/-! ## Payloads -/

theorem payload_bar (c : Dev nD) (k : Fin 3) : (treeRd (F := F) m).payload (barCell c) 0 k = barPay (xorDev c k) k := rfl

/-- A departure's payload depends on stage and chunk only through their values. -/
theorem sendPay_congr (c : Dev nD) {s s' j j' : ℕ} (es : s = s') (ej : j = j') (h : j < 12) (h' : j' < 12) :
    sendPay (F := F) m c s j h = sendPay m c s' j' h' := by subst es; subst ej; rfl
/-- Likewise an arrival's. -/
theorem recvPay_congr (c : Dev nD) {s s' j j' : ℕ} (es : s = s') (ej : j = j') (hs : s < 3) (hs' : s' < 3) (h : j < 12) (h' : j' < 12) :
    recvPay (F := F) m c s j hs h = recvPay m c s' j' hs' h' := by subst es; subst ej; rfl
theorem payload_s (c : Dev nD) (s j : ℕ) (hs : s < 3) (hj : j < 12) (d : Fin 3) :
    (treeRd (F := F) m).payload (dCell c (sQ s j)) 0 d = sendPay m c s j hj := by
  dsimp only [treeRd]
  rw [if_neg (by rw [sQ_val s j hs hj]; omega), if_pos (by rw [sQ_val s j hs hj]; omega)]
  exact sendPay_congr m c (stOf_sQ s j hs hj) (chOf_sQ s j hs hj) _ _
theorem payload_r (c : Dev nD) (s j : ℕ) (hs : s < 3) (hj : j < 12) (d : Fin 3) :
    (treeRd (F := F) m).payload (dCell c (rQ s j)) 0 d = recvPay m c s j hs hj := by
  dsimp only [treeRd]
  rw [if_neg (by rw [rQ_val s j hs hj]; omega), if_neg (by rw [rQ_val s j hs hj]; omega)]
  exact recvPay_congr m c (stOf_rQ s j hs hj) (chOf_rQ s j hs hj) _ _ _ _

/-- The whole round of the entry barrier: the three partners' slots. -/
theorem rest_bar (c : Dev nD) :
    bigSep ((treeRd (F := F) m).duties (barCell c) 0 \ ∅) (fun d => (treeRd (F := F) m).payload (barCell c) 0 d)
      = iprop(barPay (F := F) (xorDev c 0) 0 ∗ barPay (F := F) (xorDev c 1) 1 ∗ barPay (F := F) (xorDev c 2) 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_s (c : Dev nD) (s j : ℕ) (hs : s < 3) (hj : j < 12) :
    bigSep ((treeRd (F := F) m).duties (dCell c (sQ s j)) 0 \ ∅) (fun d => (treeRd (F := F) m).payload (dCell c (sQ s j)) 0 d) = sendPay m c s j hj := by
  rw [Finset.sdiff_empty, duties_s m c s j hs hj, bigSep_singleton, payload_s m c s j hs hj]
theorem rest_r (c : Dev nD) (s j : ℕ) (hs : s < 3) (hj : j < 12) :
    bigSep ((treeRd (F := F) m).duties (dCell c (rQ s j)) 0 \ ∅) (fun d => (treeRd (F := F) m).payload (dCell c (rQ s j)) 0 d) = recvPay m c s j hs hj := by
  rw [Finset.sdiff_empty, duties_r m c s j hs hj, bigSep_singleton, payload_r m c s j hs hj]

/-! ## What is owed, and the levels -/

theorem tallySend_eq (c : Dev nD) (s j : ℕ) (hs : s < 3) (hj : j < 12) :
    tallySend c (12 * s + j) = tallyAt (dCell (peer c s j) (rQ s j)) () (NR (crows j)) := by
  have e1 : (12 * s + j) / 12 = s := by omega
  have e2 : (12 * s + j) % 12 = j := by omega
  unfold tallySend; rw [e1, e2]

/-- Every cell of a device's core carries the one level index. -/
theorem L_tc (c : Dev nD) (sm : SemLoc sig) : L ((c : Thread nD τ), sm) = {()} := if_pos rfl

/-- The level of the arrival cell of `(s, j)`. -/
theorem lv_rQ (p : Dev nD) (s j : ℕ) (hs : s < 3) (hj : j < 12) (u : Unit) : lv (dCell p (rQ s j)) u = 2 + 12 * s + j := by
  show (if 38 ≤ (rQ s j).val then 2 + ((rQ s j).val - 38) else 0) = 2 + 12 * s + j
  rw [rQ_val s j hs hj, if_pos (by omega)]; omega
/-- The level of the arrival cell of the `n`-th transfer. -/
theorem lv_r (p : Dev nD) (n : ℕ) (hn : n < 36) (u : Unit) : lv (dCell p (rQ (n / 12) (n % 12))) u = 2 + n := by
  rw [lv_rQ p (n / 12) (n % 12) (by omega) (by omega)]; omega
/-- Departure cells are at the bottom. -/
theorem lv_sQ (p : Dev nD) (s j : ℕ) (hs : s < 3) (hj : j < 12) (u : Unit) : lv (dCell p (sQ s j)) u = 0 := by
  show (if 38 ≤ (sQ s j).val then 2 + ((sQ s j).val - 38) else 0) = 0
  rw [sQ_val s j hs hj, if_neg (by omega)]

/-- A positive tally among the credits of the last `k` transfers sits on the arrival cell of one of them. -/
theorem owedRem_pos (c : Dev nD) : ∀ k, k ≤ 36 → ∀ (g : GSem nD τ sig) (u : Unit), 0 < owedRem c k g u →
    ∃ n, 36 - k ≤ n ∧ n < 36 ∧ g = dCell (peer c (n / 12) (n % 12)) (rQ (n / 12) (n % 12))
  | 0, _, g, u, h => absurd h (Nat.lt_irrefl 0)
  | k + 1, hk, g, u, h => by
    have h' : 0 < (owedRem c k + tallySend c (35 - k)) g u := h
    rw [Pi.add_apply, Finsupp.add_apply] at h'
    by_cases h1 : 0 < owedRem c k g u
    · obtain ⟨n, hn1, hn2, e⟩ := owedRem_pos c k (by omega) g u h1
      exact ⟨n, by omega, hn2, e⟩
    · have h2 : 0 < tallySend c (35 - k) g u := by omega
      unfold tallySend at h2
      rw [tallyAt_apply] at h2
      by_cases h3 : g = dCell (peer c ((35 - k) / 12) ((35 - k) % 12)) (rQ ((35 - k) / 12) ((35 - k) % 12)) ∧ u = ()
      · exact ⟨35 - k, by omega, by omega, h3.1⟩
      · rw [if_neg h3] at h2; exact absurd h2 (Nat.lt_irrefl 0)

/-- A positive tally of everything owed sits on an arrival cell of a transfer or on a partner's entry barrier. -/
theorem O₀_pos {c : Dev nD} {g : GSem nD τ sig} {u : Unit} (h : 0 < O₀ c g u) :
    (∃ n, n < 36 ∧ g = dCell (peer c (n / 12) (n % 12)) (rQ (n / 12) (n % 12))) ∨ ∃ k : Fin 3, g = barCell (xorDev c k) := by
  unfold O₀ tallyBar at h
  rw [Pi.add_apply, Finsupp.add_apply, Pi.add_apply, Finsupp.add_apply, Pi.add_apply, Finsupp.add_apply,
    tallyAt_apply, tallyAt_apply, tallyAt_apply] at h
  by_cases h0 : 0 < owedRem c 36 g u
  · obtain ⟨n, _, hn, e⟩ := owedRem_pos c 36 le_rfl g u h0
    exact .inl ⟨n, hn, e⟩
  · right
    by_contra hn
    rw [not_exists] at hn
    rw [if_neg (fun h' => hn 2 h'.1), if_neg (fun h' => hn 1 h'.1), if_neg (fun h' => hn 0 h'.1)] at h
    omega

/-- At its entry-barrier wait a device owes only arrival credits, which lie above the barrier. -/
theorem mayWait_bar (c : Dev nD) : (levAts L lv : sProp 𝕄) ⊢ MayWait (c : Thread nD τ) (.reg barS) () (owedRem c 36) :=
  MayOwe.of_cut (L := L) (lev := lv) 1 (fun p hp => by rw [Finset.mem_singleton.mp hp, L_tc]; exact Finset.mem_singleton_self _)
    (fun g u hg => by
      obtain ⟨n, _, hn, rfl⟩ := owedRem_pos c 36 le_rfl g u hg
      rw [L_tc]; exact Finset.mem_singleton_self _)
    (fun p hp => by rw [Finset.mem_singleton.mp hp]; exact le_refl 1)
    (fun g u hg => by
      obtain ⟨n, _, hn, rfl⟩ := owedRem_pos c 36 le_rfl g u hg
      rw [lv_r _ n hn]; omega)
/-- A departure cell lies below everything a device can owe. -/
theorem mayWait_s (c : Dev nD) (s j : ℕ) (hs : s < 3) (hj : j < 12) (k : ℕ) (hk : k ≤ 36) :
    (levAts L lv : sProp 𝕄) ⊢ MayWait (c : Thread nD τ) (.dma (sQ s j)) () (owedRem c k) :=
  MayOwe.of_cut (L := L) (lev := lv) 0 (fun p hp => by rw [Finset.mem_singleton.mp hp, L_tc]; exact Finset.mem_singleton_self _)
    (fun g u hg => by
      obtain ⟨n, _, hn, rfl⟩ := owedRem_pos c k hk g u hg
      rw [L_tc]; exact Finset.mem_singleton_self _)
    (fun p hp => by rw [Finset.mem_singleton.mp hp]; exact le_of_eq (lv_sQ c s j hs hj ()))
    (fun g u hg => by
      obtain ⟨n, _, hn, rfl⟩ := owedRem_pos c k hk g u hg
      rw [lv_r _ n hn]; omega)
/-- An arrival cell lies below the arrivals of the transfers issued after it. -/
theorem mayWait_r (c : Dev nD) (s j : ℕ) (hs : s < 3) (hj : j < 12) (k : ℕ) (hk : k + 12 * s + j < 36) :
    (levAts L lv : sProp 𝕄) ⊢ MayWait (c : Thread nD τ) (.dma (rQ s j)) () (owedRem c k) :=
  MayOwe.of_cut (L := L) (lev := lv) (2 + 12 * s + j)
    (fun p hp => by rw [Finset.mem_singleton.mp hp, L_tc]; exact Finset.mem_singleton_self _)
    (fun g u hg => by
      obtain ⟨n, _, hn, rfl⟩ := owedRem_pos c k (by omega) g u hg
      rw [L_tc]; exact Finset.mem_singleton_self _)
    (fun p hp => by rw [Finset.mem_singleton.mp hp]; exact le_of_eq (lv_rQ c s j hs hj ()))
    (fun g u hg => by
      obtain ⟨n, hn1, hn, rfl⟩ := owedRem_pos c k (by omega) g u hg
      rw [lv_r _ n hn]; omega)
/-- The pipeline's two staging semaphores (numbers 0 and 1) lie below everything. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨n, hn, rfl⟩ | ⟨k, rfl⟩ <;> (rw [L_tc]; exact Finset.mem_singleton_self _))
      (fun p hp => by
        rw [Finset.mem_singleton.mp hp]
        show (if 38 ≤ q.val then 2 + (q.val - 38) else 0) ≤ 0
        rw [if_neg (by omega)])
      (fun g u hg => by
        rcases O₀_pos hg with ⟨n, hn, rfl⟩ | ⟨k, rfl⟩
        · rw [lv_r _ n hn]; omega
        · exact Nat.one_pos)
  · rw [MayWait_zero]; iintro -; iempintro

/-! ## Cells by number -/

theorem kcell_bar (c : Dev nD) : kcell (c, (0 : Fin 73)) = barCell c := by
  refine Prod.ext rfl ?_
  show csem 0 = SemLoc.reg barS
  unfold csem; exact if_pos rfl
theorem kcell_s (c : Dev nD) (s j : ℕ) (hs : s < 3) (hj : j < 12) : kcell (c, (⟨1 + 12 * s + j, by omega⟩ : Fin 73)) = dCell c (sQ s j) := by
  refine Prod.ext rfl ?_
  show csem ⟨1 + 12 * s + j, _⟩ = SemLoc.dma (sQ s j)
  unfold csem
  rw [if_neg (by show ¬ (1 + 12 * s + j = 0); omega)]
  exact congrArg SemLoc.dma (Fin.ext (by show (1 + 12 * s + j + 1) % 74 = (2 + 12 * s + j) % 74; omega))
theorem kcell_r (c : Dev nD) (s j : ℕ) (hs : s < 3) (hj : j < 12) : kcell (c, (⟨37 + 12 * s + j, by omega⟩ : Fin 73)) = dCell c (rQ s j) := by
  refine Prod.ext rfl ?_
  show csem ⟨37 + 12 * s + j, _⟩ = SemLoc.dma (rQ s j)
  unfold csem
  rw [if_neg (by show ¬ (37 + 12 * s + j = 0); omega)]
  exact congrArg SemLoc.dma (Fin.ext (by show (37 + 12 * s + j + 1) % 74 = (38 + 12 * s + j) % 74; omega))

/-- The records hold every numbered cell's invariant. -/
theorem inv_at (K : Dev nD × Fin 73 → ℕ) (ck : Dev nD × Fin 73) :
    records m K ⊢ (cellInv ER (treeRd (F := F) m) (K ck) (kcell ck) : sProp 𝕄) := by
  unfold records
  exact sep_elim_left.trans (bigSep_elim (Finset.mem_univ ck))
/-- And that every numbered cell is at its first round. -/
theorem reached_at (K : Dev nD × Fin 73 → ℕ) (ck : Dev nD × Fin 73) :
    records m K ⊢ (reached ER (kcell ck) 0 : sProp 𝕄) := by
  unfold records
  exact sep_elim_right.trans (bigSep_elim (Finset.mem_univ ck))

/-- From the shared records: any cell's invariant and that it is at its first round. -/
theorem inv_bar (K : Dev nD × Fin 73 → ℕ) (c : Dev nD) : records m K ⊢ (cellInv ER (treeRd (F := F) m) (K (c, 0)) (barCell c) : sProp 𝕄) := by
  have h := inv_at m K (c, (0 : Fin 73)); rwa [kcell_bar] at h
theorem inv_s (K : Dev nD × Fin 73 → ℕ) (c : Dev nD) (s j : ℕ) (hs : s < 3) (hj : j < 12) :
    records m K ⊢ (cellInv ER (treeRd (F := F) m) (K (c, ⟨1 + 12 * s + j, by omega⟩)) (dCell c (sQ s j)) : sProp 𝕄) := by
  have h := inv_at m K (c, (⟨1 + 12 * s + j, by omega⟩ : Fin 73)); rwa [kcell_s c s j hs hj] at h
theorem inv_r (K : Dev nD × Fin 73 → ℕ) (c : Dev nD) (s j : ℕ) (hs : s < 3) (hj : j < 12) :
    records m K ⊢ (cellInv ER (treeRd (F := F) m) (K (c, ⟨37 + 12 * s + j, by omega⟩)) (dCell c (rQ s j)) : sProp 𝕄) := by
  have h := inv_at m K (c, (⟨37 + 12 * s + j, by omega⟩ : Fin 73)); rwa [kcell_r c s j hs hj] at h
theorem reached_bar (K : Dev nD × Fin 73 → ℕ) (c : Dev nD) : records m K ⊢ (reached ER (barCell c) 0 : sProp 𝕄) := by
  have h := reached_at m K (c, (0 : Fin 73)); rwa [kcell_bar] at h
theorem reached_s (K : Dev nD × Fin 73 → ℕ) (c : Dev nD) (s j : ℕ) (hs : s < 3) (hj : j < 12) :
    records m K ⊢ (reached ER (dCell c (sQ s j)) 0 : sProp 𝕄) := by
  have h := reached_at m K (c, (⟨1 + 12 * s + j, by omega⟩ : Fin 73)); rwa [kcell_s c s j hs hj] at h
theorem reached_r (K : Dev nD × Fin 73 → ℕ) (c : Dev nD) (s j : ℕ) (hs : s < 3) (hj : j < 12) :
    records m K ⊢ (reached ER (dCell c (rQ s j)) 0 : sProp 𝕄) := by
  have h := reached_at m K (c, (⟨37 + 12 * s + j, by omega⟩ : Fin 73)); rwa [kcell_r c s j hs hj] at h

instance records_persistent (K : Dev nD × Fin 73 → ℕ) : BI.Persistent (records (F := F) m K) := by unfold records; infer_instance

end Cert.KernelIdeal.Hand

end
-- ==== Proof.IdealSide.Data.lean ====
/-
  The values the transfers and the additions move, read entry by entry: what lands in a partner's slot is the
  sender's running rows, and a stage's addition turns a chunk of the running sum after `s` stages into the one
  after `s + 1`.
-/
import proofs.«900610_g7700000000000611_dist_treered_v7x_i8_m256_n256_f32_1_alg».proof.Proof.IdealSide.Proto
import Idealize.ShloMosaic.Lib.Pipeline.Value
import Idealize.ShloMosaic.Lib.ValueLayout

noncomputable section

namespace Cert.KernelIdeal.Hand

open Cert.KernelIdeal Cert.KernelIdeal.Gen Cert.TreeSpec

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The stage's arithmetic on a chunk of `R` rows: the two loaded vectors brought to `R x 256` and added. -/
abbrev pay {R : ℕ} {S₁ S₂ : Shape} (v₁ : Vec F S₁ .f32) (v₂ : Vec F S₂ .f32) (h₁ : S₁.ShapeCasts (SR2 R)) (h₂ : S₂.ShapeCasts (SR2 R)) : FVec F (SR2 R) .f32 :=
  addf (shapeCast (SR2 R) v₁ h₁) (shapeCast (SR2 R) v₂ h₂)

/-- A row of chunk `j` lies inside the block, so its number is not reduced. -/
theorem rowOf_val (j r : ℕ) (hj : j < 12) (hr : r < crows j) : (rowOf j r).val = cstart j + r := by
  have h' : cstart j + crows j ≤ 256 := oinb j hj 0
  show (cstart j + r) % 256 = cstart j + r
  exact Nat.mod_eq_of_lt (by omega)

/-- A chunk has at most 24 rows. -/
theorem crows_le (j : ℕ) : crows j ≤ 24 := by unfold crows; split <;> omega

/-! ## Where a chunk's entry `(a, b)` sits in each buffer -/

/-- In the result block: row `cstart j + a`, column `b`. -/
theorem oEmb_eq (j : ℕ) (hj : j < 12) (a : Fin (crows j)) (b : Fin 256) :
    (oCh (cstart j) (crows j) (oinb j hj)).view.emb (ix2 a b) = ix2 (rowOf j a.val) b := by
  funext e
  match e with
  | ⟨0, _⟩ =>
    refine Fin.ext ?_
    show cstart j + 1 * a.val = (rowOf j a.val).val
    rw [rowOf_val j _ hj a.isLt, Nat.one_mul]
  | ⟨1, _⟩ =>
    refine Fin.ext ?_
    show 0 + 1 * b.val = b.val
    omega

/-- In the input block: plane 0, row `cstart j + a`, column `b`. -/
theorem xEmb_eq (j : ℕ) (hj : j < 12) (a : Fin (crows j)) (b : Fin 256) :
    (xCh (cstart j) (crows j) (xinb j hj) (sq3 j)).view.emb (ix2 a b) = ix3 (0 : Fin 1) (rowOf j a.val) b := by
  show (xRect (cstart j) (crows j) (xinb j hj)).emb (Shape.reshapeEquiv (sq3 j).numel_eq (ix2 a b)) = _
  rw [reshapeEquiv_ix2_1ab]
  funext e
  match e with
  | ⟨0, _⟩ => exact Fin.ext rfl
  | ⟨1, _⟩ =>
    refine Fin.ext ?_
    show cstart j + 1 * a.val = (rowOf j a.val).val
    rw [rowOf_val j _ hj a.isLt, Nat.one_mul]
  | ⟨2, _⟩ =>
    refine Fin.ext ?_
    show 0 + 1 * b.val = b.val
    omega

/-- In the landing buffer: slot `(s, j)`, row `a`, column `b`. -/
theorem slotEmb_eq (s j : ℕ) (hs : s < 3) (hj : j < 12) (a : Fin (crows j)) (b : Fin 256) :
    (cSl s j (crows j) (cinb s j hs hj) (sq4 j)).view.emb (ix2 a b)
      = ix4 (⟨s, hs⟩ : Fin 3) (⟨j, hj⟩ : Fin 12) (⟨a.val, Nat.lt_of_lt_of_le a.isLt (crows_le j)⟩ : Fin 24) b := by
  show (cRect s j (crows j) (cinb s j hs hj)).emb (Shape.reshapeEquiv (sq4 j).numel_eq (ix2 a b)) = _
  rw [reshapeEquiv_ix2_11ab]
  funext e
  match e with
  | ⟨0, _⟩ => exact Fin.ext (show s + 1 * 0 = s by omega)
  | ⟨1, _⟩ => exact Fin.ext (show j + 1 * 0 = j by omega)
  | ⟨2, _⟩ => exact Fin.ext (show 0 + 1 * a.val = a.val by omega)
  | ⟨3, _⟩ => exact Fin.ext (show 0 + 1 * b.val = b.val by omega)

/-! ## The contents named in the protocol, at a chunk's entry -/

/-- Before any stage the running sum is the device's own input. -/
theorem acc_zero_at (c : Dev nD) (r col : Fin 256) : acc m c 0 (ix2 r col) = xs m c (ix3 (0 : Fin 1) r col) := rfl

/-- One stage on, at a row of chunk `j`: the device's running entry plus its partner's on that chunk. -/
theorem acc_succ_row (c : Dev nD) (s j r : ℕ) (hj : j < 12) (hr : r < crows j) (col : Fin 256) :
    acc m c (s + 1) (ix2 (rowOf j r) col)
      = FloatOps.addf (acc m c s (ix2 (rowOf j r) col)) (acc m (peer c s j) s (ix2 (rowOf j r) col)) := by
  have hc : chunkOf (rowOf j r).val = j := by rw [rowOf_val j r hj hr]; exact chunkOf_cstart_add j r hj hr
  show tree _ _ (chunkOf (rowOf j r).val) (s + 1) c
      = FloatOps.addf (tree _ _ (chunkOf (rowOf j r).val) s c) (tree _ _ (chunkOf (rowOf j r).val) s (peer c s j))
  rw [hc]; rfl

/-- Slot `(s, j)` of a device's landing buffer is said to hold its partner's running rows of chunk `j`. -/
theorem landed_slot (p : Dev nD) (s j : ℕ) (hs : s < 3) (hj : j < 12) (a : Fin 24) (b : Fin 256) :
    landed m p (ix4 (⟨s, hs⟩ : Fin 3) (⟨j, hj⟩ : Fin 12) a b) = acc m (peer p s j) s (ix2 (rowOf j a.val) b) := rfl

/-! ## The loads of a stage, at a chunk's entry -/

/-- The chunk of the result block, loaded at its own shape. -/
theorem oRead_at (j : ℕ) (hj : j < 12) (f : (cc0_stg1_0 : Ref sig .tc).ty.Contents (Elt F))
    (h₁ : (SR2 (crows j)).ShapeCasts (SR2 (crows j))) (a : Fin (crows j)) (b : Fin 256) :
    shapeCast (SR2 (crows j)) ((oM : Memref sig .tc .vmem S256x256 .f32).view.readAt (Elt F) (oRect (cstart j) (crows j) (oinb j hj)).toLoadRect f) h₁ (ix2 a b)
      = f (ix2 (rowOf j a.val) b) := by
  refine (congrFun (shapeCast_self (s := SR2 (crows j)) _ h₁) (ix2 a b)).trans ?_
  rw [← oEmb_eq j hj a b]; rfl

/-- The chunk of the input block, loaded with its unit plane and brought to two axes. -/
theorem xRead_at (j : ℕ) (hj : j < 12) (f : (cc0_stg0_0 : Ref sig .tc).ty.Contents (Elt F))
    (h₁ : (SR3 (crows j)).ShapeCasts (SR2 (crows j))) (a : Fin (crows j)) (b : Fin 256) :
    shapeCast (SR2 (crows j)) ((xM : Memref sig .tc .vmem S1x256x256 .f32).view.readAt (Elt F) (xRect (cstart j) (crows j) (xinb j hj)).toLoadRect f) h₁ (ix2 a b)
      = f (ix3 (0 : Fin 1) (rowOf j a.val) b) := by
  rw [shapeCast_1ab_ab_apply, ← xEmb_eq j hj a b]
  show f ((xRect (cstart j) (crows j) (xinb j hj)).emb (ix3 (0 : Fin 1) a b)) = f ((xRect (cstart j) (crows j) (xinb j hj)).emb (Shape.reshapeEquiv (sq3 j).numel_eq (ix2 a b)))
  rw [reshapeEquiv_ix2_1ab]; rfl

/-- Slot `(s, j)` of the landing buffer, loaded with its two unit axes and brought to two axes. -/
theorem cRead_at (s j : ℕ) (hs : s < 3) (hj : j < 12) (f : (cc0_scratch0 : Ref sig .tc).ty.Contents (Elt F))
    (h₂ : (SR4 (crows j)).ShapeCasts (SR2 (crows j))) (a : Fin (crows j)) (b : Fin 256) :
    shapeCast (SR2 (crows j)) ((cM : Memref sig .tc .vmem S3x12x24x256 .f32).view.readAt (Elt F) (cRect s j (crows j) (cinb s j hs hj)).toLoadRect f) h₂ (ix2 a b)
      = f (ix4 (⟨s, hs⟩ : Fin 3) (⟨j, hj⟩ : Fin 12) (⟨a.val, Nat.lt_of_lt_of_le a.isLt (crows_le j)⟩ : Fin 24) b) := by
  rw [← slotEmb_eq s j hs hj a b]
  refine (shapeCast_apply _ h₂ (ix2 a b) (ix4 (0 : Fin 1) (0 : Fin 1) a b) ?_).trans ?_
  · rw [Shape.rowMajor_val_four, Shape.rowMajor_val_two]
    show ((0 * 1 + 0) * crows j + a.val) * 256 + b.val = a.val * 256 + b.val
    simp only [Nat.zero_mul, Nat.zero_add]
  · show f ((cRect s j (crows j) (cinb s j hs hj)).emb (ix4 (0 : Fin 1) (0 : Fin 1) a b)) = f ((cRect s j (crows j) (cinb s j hs hj)).emb (Shape.reshapeEquiv (sq4 j).numel_eq (ix2 a b)))
    rw [reshapeEquiv_ix2_11ab]; rfl

/-! ## What a transfer lands -/

/-- Stage 0: the partner's slot `(0, j)`, rewritten with the sender's input rows of chunk `j`, holds what the
    partner's landing buffer is said to hold there. -/
theorem landing0 (c : Dev nD) (j : ℕ) (hj : j < 12) (fd : Buf (Elt F) ((cSl 0 j (crows j) (cinb 0 j (by decide) hj) (sq4 j)).view.loc ((peer c 0 j : Dev nD) : Thread nD τ))) :
    slotPts (F := F) (peer c 0 j) 0 j (by decide) hj
        ((cSl 0 j (crows j) (cinb 0 j (by decide) hj) (sq4 j)).view.write (Elt F) fd
          ((xCh (cstart j) (crows j) (xinb j hj) (sq3 j)).view.read (Elt F) (xs m c)) Finset.univ)
      = slotPts (F := F) (peer c 0 j) 0 j (by decide) hj (landed m (peer c 0 j)) := by
  unfold slotPts
  refine Region.is_congr (fun i hi => ?_)
  obtain ⟨y, rfl⟩ := View.exists_emb_of_mem_set _ hi
  clear hi
  obtain ⟨a, b, rfl⟩ : ∃ (a : Fin (crows j)) (b : Fin 256), y = ix2 a b := ⟨y 0, y 1, eq_ix2 y⟩
  rw [View.write_emb_of_mem _ _ (Finset.mem_univ _), cast_eq, View.read_apply, cast_eq, xEmb_eq j hj a b]
  refine Eq.trans ?_ (congrArg (landed m (peer c 0 j)) (slotEmb_eq 0 j (by decide) hj a b)).symm
  rw [landed_slot, peer_peer, acc_zero_at]

/-- Stages 1 and 2: the same with the sender's running rows after `s` stages. -/
theorem landingS (c : Dev nD) (s j : ℕ) (hs0 : 0 < s) (hs : s < 3) (hj : j < 12) (fd : Buf (Elt F) ((cSl s j (crows j) (cinb s j hs hj) (sq4 j)).view.loc ((peer c s j : Dev nD) : Thread nD τ))) :
    slotPts (F := F) (peer c s j) s j hs hj
        ((cSl s j (crows j) (cinb s j hs hj) (sq4 j)).view.write (Elt F) fd
          ((oCh (cstart j) (crows j) (oinb j hj)).view.read (Elt F) (acc m c s)) Finset.univ)
      = slotPts (F := F) (peer c s j) s j hs hj (landed m (peer c s j)) := by
  unfold slotPts
  refine Region.is_congr (fun i hi => ?_)
  obtain ⟨y, rfl⟩ := View.exists_emb_of_mem_set _ hi
  clear hi
  obtain ⟨a, b, rfl⟩ : ∃ (a : Fin (crows j)) (b : Fin 256), y = ix2 a b := ⟨y 0, y 1, eq_ix2 y⟩
  rw [View.write_emb_of_mem _ _ (Finset.mem_univ _), cast_eq, View.read_apply, cast_eq, oEmb_eq j hj a b]
  refine Eq.trans ?_ (congrArg (landed m (peer c s j)) (slotEmb_eq s j hs hj a b)).symm
  rw [landed_slot, peer_peer]

/-! ## What a stage's addition stores -/

/-- Stage 0: input rows plus landed rows, stored over anything, are the running sum after one stage on the chunk. -/
theorem reduce0_val (c : Dev nD) (j : ℕ) (hj : j < 12) (f : Buf (Elt F) ((oCh (cstart j) (crows j) (oinb j hj)).view.loc (c : Thread nD τ)))
    (h₁ : (SR3 (crows j)).ShapeCasts (SR2 (crows j))) (h₂ : (SR4 (crows j)).ShapeCasts (SR2 (crows j))) :
    oPts (F := F) c j hj
        (((oM : Memref sig .tc .vmem S256x256 .f32).access (oRect (cstart j) (crows j) (oinb j hj))).write (Elt F) f
          (pay (F := F) (R := crows j)
            ((xM : Memref sig .tc .vmem S1x256x256 .f32).view.readAt (Elt F) (xRect (cstart j) (crows j) (xinb j hj)).toLoadRect (xs m c))
            ((cM : Memref sig .tc .vmem S3x12x24x256 .f32).view.readAt (Elt F) (cRect 0 j (crows j) (cinb 0 j (by decide) hj)).toLoadRect (landed m c)) h₁ h₂)
          Finset.univ)
      = oPts (F := F) c j hj (acc m c 1) := by
  unfold oPts
  refine Region.is_congr (fun i hi => ?_)
  obtain ⟨y, rfl⟩ := View.exists_emb_of_mem_set _ hi
  clear hi
  obtain ⟨a, b, rfl⟩ : ∃ (a : Fin (crows j)) (b : Fin 256), y = ix2 a b := ⟨y 0, y 1, eq_ix2 y⟩
  refine (View.write_emb_of_mem (v := (oM : Memref sig .tc .vmem S256x256 .f32).access (oRect (cstart j) (crows j) (oinb j hj))) _ _ (Finset.mem_univ _)).trans ?_
  rw [cast_eq, oEmb_eq j hj a b, acc_succ_row m c 0 j a.val hj a.isLt b, acc_zero_at]
  show FloatOps.addf (shapeCast _ _ h₁ (ix2 a b)) (shapeCast _ _ h₂ (ix2 a b)) = _
  rw [xRead_at j hj _ h₁ a b, cRead_at 0 j (by decide) hj _ h₂ a b, landed_slot]

/-- Stages 1 and 2: running rows plus landed rows are the running sum after one more stage. -/
theorem reduceS_val (c : Dev nD) (s j : ℕ) (hs0 : 0 < s) (hs : s < 3) (hj : j < 12)
    (h₁ : (SR2 (crows j)).ShapeCasts (SR2 (crows j))) (h₂ : (SR4 (crows j)).ShapeCasts (SR2 (crows j))) :
    oPts (F := F) c j hj
        (((oM : Memref sig .tc .vmem S256x256 .f32).access (oRect (cstart j) (crows j) (oinb j hj))).write (Elt F) (acc m c s)
          (pay (F := F) (R := crows j)
            ((oM : Memref sig .tc .vmem S256x256 .f32).view.readAt (Elt F) (oRect (cstart j) (crows j) (oinb j hj)).toLoadRect (acc m c s))
            ((cM : Memref sig .tc .vmem S3x12x24x256 .f32).view.readAt (Elt F) (cRect s j (crows j) (cinb s j hs hj)).toLoadRect (landed m c)) h₁ h₂)
          Finset.univ)
      = oPts (F := F) c j hj (acc m c (s + 1)) := by
  unfold oPts
  refine Region.is_congr (fun i hi => ?_)
  obtain ⟨y, rfl⟩ := View.exists_emb_of_mem_set _ hi
  clear hi
  obtain ⟨a, b, rfl⟩ : ∃ (a : Fin (crows j)) (b : Fin 256), y = ix2 a b := ⟨y 0, y 1, eq_ix2 y⟩
  refine (View.write_emb_of_mem (v := (oM : Memref sig .tc .vmem S256x256 .f32).access (oRect (cstart j) (crows j) (oinb j hj))) _ _ (Finset.mem_univ _)).trans ?_
  rw [cast_eq, oEmb_eq j hj a b, acc_succ_row m c s j a.val hj a.isLt b]
  show FloatOps.addf (shapeCast _ _ h₁ (ix2 a b)) (shapeCast _ _ h₂ (ix2 a b)) = _
  rw [oRead_at j hj _ h₁ a b, cRead_at s j hs hj _ h₂ a b, landed_slot]

end Cert.KernelIdeal.Hand

end
-- ==== Proof.IdealSide.Parts.lean ====
/-
  The three buffers cut into the pieces the protocol moves: the input and result blocks into their twelve chunks,
  the landing buffer into its 36 slots and the rows no transfer touches.
-/
import proofs.«900610_g7700000000000611_dist_treered_v7x_i8_m256_n256_f32_1_alg».proof.Proof.IdealSide.Proto
import Idealize.ShloMosaic.Lib.Pipeline.Value

noncomputable section

namespace Cert.KernelIdeal.Hand

open Cert.KernelIdeal Cert.KernelIdeal.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Chunk arithmetic: every row below 256 lies in exactly one chunk -/

/-- A row below 256 lies inside the chunk `chunkOf` names, and that chunk is one of the twelve. -/
theorem chunk_bounds {r : ℕ} (hr : r < 256) :
    chunkOf r < 12 ∧ cstart (chunkOf r) ≤ r ∧ r < cstart (chunkOf r) + crows (chunkOf r) := by
  unfold chunkOf cstart crows; split_ifs <;> omega

/-- Two different chunks are separated: one ends before the other starts. -/
theorem chunk_sep {j j' : ℕ} (hj : j < 12) (hj' : j' < 12) (h : j ≠ j') :
    cstart j + crows j ≤ cstart j' ∨ cstart j' + crows j' ≤ cstart j := by
  unfold cstart crows; split_ifs <;> omega

/-! ## The element sets of the pieces are unit-stride rectangles, and membership is coordinatewise -/

theorem o_set (j : ℕ) (hj : j < 12) :
    (oCh (cstart j) (crows j) (oinb j hj)).view.set = (oRect (cstart j) (crows j) (oinb j hj)).set :=
  View.set_slice_whole _ _

theorem x_set (j : ℕ) (hj : j < 12) :
    (xCh (cstart j) (crows j) (xinb j hj) (sq3 j)).view.set = (xRect (cstart j) (crows j) (xinb j hj)).set :=
  (View.set_reshape _ _).trans (View.set_slice_whole _ _)

theorem c_set (s j : ℕ) (hs : s < 3) (hj : j < 12) :
    (cSl s j (crows j) (cinb s j hs hj) (sq4 j)).view.set = (cRect s j (crows j) (cinb s j hs hj)).set :=
  (View.set_reshape _ _).trans (View.set_slice_whole _ _)

/-- An element of the result block lies in chunk `j` exactly when its row does. -/
theorem mem_o_set (j : ℕ) (hj : j < 12) (i : S256x256.Idx) :
    i ∈ (oCh (cstart j) (crows j) (oinb j hj)).view.set
      ↔ cstart j ≤ (i 0).val ∧ (i 0).val < cstart j + crows j := by
  refine ((Finset.ext_iff.mp (o_set j hj) i).trans Rect.mem_set_unit).trans ?_
  have h1 : (i 1).val < 256 := (i 1).isLt
  constructor
  · intro h; simpa using h 0
  · intro h a; fin_cases a <;> simp <;> omega

/-- An element of the input block lies in chunk `j` exactly when its row does. -/
theorem mem_x_set (j : ℕ) (hj : j < 12) (i : S1x256x256.Idx) :
    i ∈ (xCh (cstart j) (crows j) (xinb j hj) (sq3 j)).view.set
      ↔ cstart j ≤ (i 1).val ∧ (i 1).val < cstart j + crows j := by
  refine ((Finset.ext_iff.mp (x_set j hj) i).trans Rect.mem_set_unit).trans ?_
  have h0 : (i 0).val < 1 := (i 0).isLt
  have h2 : (i 2).val < 256 := (i 2).isLt
  constructor
  · intro h; simpa using h 1
  · intro h a; fin_cases a <;> simp <;> omega

/-- An element of the landing buffer lies in the first rows of slot `(s, j)` exactly when its stage and chunk
    coordinates are `s` and `j` and its row is below the chunk's row count. -/
theorem mem_c_set (s j : ℕ) (hs : s < 3) (hj : j < 12) (i : S3x12x24x256.Idx) :
    i ∈ (cSl s j (crows j) (cinb s j hs hj) (sq4 j)).view.set
      ↔ (i 0).val = s ∧ (i 1).val = j ∧ (i 2).val < crows j := by
  refine ((Finset.ext_iff.mp (c_set s j hs hj) i).trans Rect.mem_set_unit).trans ?_
  have h3 : (i 3).val < 256 := (i 3).isLt
  constructor
  · intro h
    have a0 := h 0; have a1 := h 1; have a2 := h 2
    simp at a0 a1 a2
    omega
  · intro h a; fin_cases a <;> simp <;> omega

/-- The input staging buffer is its twelve chunks. -/
theorem x_split (c : Dev nD) (f : Buf (Elt F) ((c : Thread nD τ).loc cc0_stg0_0)) :
    ((((c : Thread nD τ).loc cc0_stg0_0) ↦{fullShare} f : sProp 𝕄))
      ⊣⊢ bigSep Finset.univ fun j : Fin 12 => xPts (F := F) c j.val j.isLt f := by
  classical
  have hd : ∀ j ∈ (Finset.univ : Finset (Fin 12)), ∀ j' ∈ (Finset.univ : Finset (Fin 12)), j ≠ j' →
      Disjoint ((xCh (cstart j.val) (crows j.val) (xinb j.val j.isLt) (sq3 j.val)).view.set)
               ((xCh (cstart j'.val) (crows j'.val) (xinb j'.val j'.isLt) (sq3 j'.val)).view.set) := by
    intro j _ j' _ hne
    refine Finset.disjoint_left.mpr fun i hi hi' => ?_
    have a := (mem_x_set j.val j.isLt i).mp hi
    have b := (mem_x_set j'.val j'.isLt i).mp hi'
    have := chunk_sep j.isLt j'.isLt (fun e => hne (Fin.ext e))
    omega
  have hc : (Finset.univ : Finset (Idx ((c : Thread nD τ).loc cc0_stg0_0))) =
      (Finset.univ : Finset (Fin 12)).biUnion fun j =>
        (xCh (cstart j.val) (crows j.val) (xinb j.val j.isLt) (sq3 j.val)).view.set := by
    refine (Finset.eq_univ_iff_forall.mpr fun i => ?_).symm
    obtain ⟨h1, h2, h3⟩ := chunk_bounds (r := (i 1).val) (i 1).isLt
    exact Finset.mem_biUnion.mpr ⟨⟨chunkOf (i 1).val, h1⟩, Finset.mem_univ _, (mem_x_set _ h1 i).mpr ⟨h2, h3⟩⟩
  rw [hc, pointsTo_biUnion _ _ hd]
  exact .rfl

/-- The result staging buffer is its twelve chunks. -/
theorem o_split (c : Dev nD) (f : Buf (Elt F) ((c : Thread nD τ).loc cc0_stg1_0)) :
    ((((c : Thread nD τ).loc cc0_stg1_0) ↦{fullShare} f : sProp 𝕄))
      ⊣⊢ bigSep Finset.univ fun j : Fin 12 => oPts (F := F) c j.val j.isLt f := by
  classical
  have hd : ∀ j ∈ (Finset.univ : Finset (Fin 12)), ∀ j' ∈ (Finset.univ : Finset (Fin 12)), j ≠ j' →
      Disjoint ((oCh (cstart j.val) (crows j.val) (oinb j.val j.isLt)).view.set)
               ((oCh (cstart j'.val) (crows j'.val) (oinb j'.val j'.isLt)).view.set) := by
    intro j _ j' _ hne
    refine Finset.disjoint_left.mpr fun i hi hi' => ?_
    have a := (mem_o_set j.val j.isLt i).mp hi
    have b := (mem_o_set j'.val j'.isLt i).mp hi'
    have := chunk_sep j.isLt j'.isLt (fun e => hne (Fin.ext e))
    omega
  have hc : (Finset.univ : Finset (Idx ((c : Thread nD τ).loc cc0_stg1_0))) =
      (Finset.univ : Finset (Fin 12)).biUnion fun j =>
        (oCh (cstart j.val) (crows j.val) (oinb j.val j.isLt)).view.set := by
    refine (Finset.eq_univ_iff_forall.mpr fun i => ?_).symm
    obtain ⟨h1, h2, h3⟩ := chunk_bounds (r := (i 0).val) (i 0).isLt
    exact Finset.mem_biUnion.mpr ⟨⟨chunkOf (i 0).val, h1⟩, Finset.mem_univ _, (mem_o_set _ h1 i).mpr ⟨h2, h3⟩⟩
  rw [hc, pointsTo_biUnion _ _ hd]
  exact .rfl

/-- The rows of the landing buffer outside every slot's first `crows j` rows. -/
def restSet (c : Dev nD) : Finset (Idx ((c : Thread nD τ).loc cc0_scratch0)) :=
  Finset.univ \ (Finset.univ : Finset (Fin 3 × Fin 12)).biUnion fun sj =>
    (cSl sj.1.val sj.2.val (crows sj.2.val) (cinb sj.1.val sj.2.val sj.1.isLt sj.2.isLt) (sq4 sj.2.val)).view.set

/-- The landing buffer is its 36 slots and the rest. -/
theorem c_split (c : Dev nD) (f : Buf (Elt F) ((c : Thread nD τ).loc cc0_scratch0)) :
    ((((c : Thread nD τ).loc cc0_scratch0) ↦{fullShare} f : sProp 𝕄))
      ⊣⊢ iprop((bigSep Finset.univ fun sj : Fin 3 × Fin 12 => slotPts (F := F) c sj.1.val sj.2.val sj.1.isLt sj.2.isLt f)
          ∗ (((c : Thread nD τ).loc cc0_scratch0) ↦[restSet c]{fullShare} f)) := by
  classical
  have hd : ∀ sj ∈ (Finset.univ : Finset (Fin 3 × Fin 12)), ∀ sj' ∈ (Finset.univ : Finset (Fin 3 × Fin 12)), sj ≠ sj' →
      Disjoint ((cSl sj.1.val sj.2.val (crows sj.2.val) (cinb sj.1.val sj.2.val sj.1.isLt sj.2.isLt) (sq4 sj.2.val)).view.set)
               ((cSl sj'.1.val sj'.2.val (crows sj'.2.val) (cinb sj'.1.val sj'.2.val sj'.1.isLt sj'.2.isLt) (sq4 sj'.2.val)).view.set) := by
    intro sj _ sj' _ hne
    refine Finset.disjoint_left.mpr fun i hi hi' => ?_
    have a := (mem_c_set _ _ sj.1.isLt sj.2.isLt i).mp hi
    have b := (mem_c_set _ _ sj'.1.isLt sj'.2.isLt i).mp hi'
    exact hne (Prod.ext (Fin.ext (a.1.symm.trans b.1)) (Fin.ext (a.2.1.symm.trans b.2.1)))
  refine (pointsTo_split_subset (Finset.subset_univ ((Finset.univ : Finset (Fin 3 × Fin 12)).biUnion fun sj =>
    (cSl sj.1.val sj.2.val (crows sj.2.val) (cinb sj.1.val sj.2.val sj.1.isLt sj.2.isLt) (sq4 sj.2.val)).view.set))).trans ?_
  rw [pointsTo_biUnion _ _ hd]
  exact .rfl

/-- The landing buffer re-joined from its 36 slots at one contents and the untouched rows at another: the
    contents that takes the second on the untouched rows and the first elsewhere agrees with each piece on
    its own elements. -/
theorem c_join (c : Dev nD) (f g : Buf (Elt F) ((c : Thread nD τ).loc cc0_scratch0)) :
    iprop((bigSep Finset.univ fun sj : Fin 3 × Fin 12 => slotPts (F := F) c sj.1.val sj.2.val sj.1.isLt sj.2.isLt f)
        ∗ (((c : Thread nD τ).loc cc0_scratch0) ↦[restSet c]{fullShare} g))
      ⊢ (iprop(∃ h, (((c : Thread nD τ).loc cc0_scratch0) ↦{fullShare} h)) : sProp 𝕄) := by
  classical
  have e1 : ∀ sj : Fin 3 × Fin 12,
      slotPts (F := F) c sj.1.val sj.2.val sj.1.isLt sj.2.isLt f
        = slotPts (F := F) c sj.1.val sj.2.val sj.1.isLt sj.2.isLt ((restSet c).piecewise g f) := by
    intro sj
    unfold slotPts
    refine pointsTo_congr fun i hi => ?_
    have hni : i ∉ restSet c := fun hr =>
      (Finset.mem_sdiff.mp hr).2 (Finset.mem_biUnion.mpr ⟨sj, Finset.mem_univ _, hi⟩)
    exact (Finset.piecewise_eq_of_notMem _ _ _ hni).symm
  rw [bigSep_congr (fun sj _ => e1 sj),
    pointsTo_congr (I := restSet c) (f := g) (g := (restSet c).piecewise g f)
      (fun i hi => (Finset.piecewise_eq_of_mem _ _ _ hi).symm)]
  iintro H
  iexists (restSet c).piecewise g f
  iapply (c_split c ((restSet c).piecewise g f)).mpr
  iexact H

end Cert.KernelIdeal.Hand

end
-- ==== Proof.IdealSide.Steps.lean ====
/-
  One device's protocol, a piece at a time: a transfer issued, the two waits of a transfer, a stage's addition.
  Each piece is stated at the head of any program, for any chunk and stage.
-/
import proofs.«900610_g7700000000000611_dist_treered_v7x_i8_m256_n256_f32_1_alg».proof.Proof.IdealSide.Bundles
import proofs.«900610_g7700000000000611_dist_treered_v7x_i8_m256_n256_f32_1_alg».proof.Proof.IdealSide.Sched
import proofs.«900610_g7700000000000611_dist_treered_v7x_i8_m256_n256_f32_1_alg».proof.Proof.IdealSide.Data
import proofs.«900610_g7700000000000611_dist_treered_v7x_i8_m256_n256_f32_1_alg».proof.Proof.IdealSide.Parts

noncomputable section

namespace Cert.KernelIdeal.Hand

open Cert.KernelIdeal Cert.KernelIdeal.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 73 → ℕ)

/-! ## Views of a chunk: the same elements however the chunk is addressed -/

omit [FloatOps F] in
/-- A transfer of a chunk of `R` rows counts the same units whichever buffer holds the chunk. -/
theorem credit_eq {R : ℕ} (v : Memref sig .tc .vmem (SR2 R) .f32) : v.view.dmaCredit = NR R := rfl

omit [FloatOps F] in
/-- A load at a rectangle reads what the rectangle's view reads. -/
theorem readAt_eq_read {sp : CoreSpace} {s : Shape} {e : EltTy} (mm : Memref sig .tc sp s e) (r : Rect s) (f : mm.view.ty.Contents (Elt F)) :
    mm.view.readAt (Elt F) r.toLoadRect f = (mm.access r).read (Elt F) f := rfl

/-! ## A transfer issued -/

/-- The transfer of `(s, j)` at the head of a program: the rows `src` (which the departure hands back) go to the
    partner's slot (which the arrival hands the partner at the rows sent); the arrival's credit comes off what the
    device owes. -/
theorem step_send (c p : Dev nD) (s j R : ℕ) (hs : s < 3) (hj : j < 12) (hp : p = peer c s j) (hR : R = crows j)
    (src : Memref sig .tc .vmem (SR2 R) .f32) (hc : CInb s j R) (hq4 : (SR4 R).Squeezes (SR2 R)) (hsi : SInb s j)
    {hsc : (cSl s j R hc hq4 : Memref sig (Dev.tc p : Thread nD τ).2.kind .vmem (SR2 R) .f32).view.ref.isScScratch = false}
    {hsrc : src.view.WordExact} {hdst : (cSl s j R hc hq4).view.WordExact}
    {hsem : DmaTarget.Typed .vmem (.dma (rSem s j hsi)) (.remote (Dev.tc p : Thread nD τ) (cSl s j R hc hq4) (.dma (sSem s j hsi)) hsc)}
    (fs : Buf (Elt F) (src.view.loc (c : Thread nD τ)))
    (hpay₁ : ((src.view.loc (c : Thread nD τ) ↦[src.view.set]{fullShare} fs : sProp 𝕄)) ⊢ sendPay m c s j hj)
    (hpay₂ : ∀ fd, ((cSl s j R hc hq4).view.loc ((peer c s j : Dev nD) : Thread nD τ) ↦[(cSl s j R hc hq4).view.set]{fullShare}
        ((cSl s j R hc hq4).view.write (Elt F) fd (src.view.read (Elt F) fs) Finset.univ) : sProp 𝕄) ⊢ recvPay m (peer c s j) s j hs hj)
    (k : ℕ) (hk : k + (12 * s + j) = 35) (W : Waits sig Unit)
    {α : Type} {Q : α → sProp 𝕄} {kont : PUnit → Prog (TpuEff nD τ sig (Elt F) Λ₀ .tc) α} :
    iprop(records m K ∗ (src.view.loc (c : Thread nD τ) ↦[src.view.set]{fullShare} fs) ∗ sTok (F := F) c s j ∗ rTok (F := F) c s j
        ∗ (∃ fd, ((cSl s j R hc hq4).view.loc ((peer c s j : Dev nD) : Thread nD τ) ↦[(cSl s j R hc hq4).view.set]{fullShare} fd))
        ∗ owes (c : Thread nD τ) (owedRem c (k + 1)) W)
      ⊢ iprop(((sCred (F := F) c s j ∗ owes (c : Thread nD τ) (owedRem c k) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src (.remote (Dev.tc p : Thread nD τ) (cSl s j R hc hq4) (.dma (sSem s j hsi)) hsc) (.dma (rSem s j hsi)) hsrc hdst hsem) kont) Q) := by
  subst hp; subst hR
  have e1 := sSem_eq s j hs hj hsi
  have e2 := rSem_eq s j hs hj hsi
  have hn : 35 - k = 12 * s + j := by omega
  iintro ⟨#Hrec, Hsrc, Hts, Htr, ⟨%fd, Hd⟩, HO⟩
  unfold sTok rTok sCred
  ihave HIs := (inv_s m K c s j hs hj) $$ Hrec
  ihave HIr := (inv_r m K (peer c s j) s j hs hj) $$ Hrec
  ihave Hrs := (reached_s m K c s j hs hj) $$ Hrec
  ihave Hrr := (reached_r m K (peer c s j) s j hs hj) $$ Hrec
  rw [← e1, ← e2]
  iapply (Rounds.wp_send_pointsTo 𝒱₀ ER (treeRd m) (c : Thread nD τ) none
      (κ₁ := K (c, ⟨1 + 12 * s + j, by omega⟩)) (κ₂ := K (peer c s j, ⟨37 + 12 * s + j, by omega⟩))
      (r₁ := 0) (r₂ := 0) (d₁ := (0 : Fin 3)) (d₂ := (0 : Fin 3)) (fd := fd)
      (by rw [e1, duties_s m c s j hs hj]; exact Finset.mem_singleton_self _)
      (by rw [e2, duties_r m (peer c s j) s j hs hj]; exact Finset.mem_singleton_self _)
      () () (NR (crows j)) rfl (by rw [e1]; exact amount_s m c s j hs hj 0) (by rw [e2]; exact amount_r m (peer c s j) s j hs hj 0)
      (O₀ := owedRem c (k + 1)) (owedRem c k) (by show owedRem c k + tallySend c (35 - k) = _; rw [hn, tallySend_eq c s j hs hj, e2]) (W := W)
      (by rw [e1, payload_s m c s j hs hj]; exact hpay₁)
      (by rw [e2, payload_r m (peer c s j) s j hs hj]; exact hpay₂ fd)) $$ [Hsrc Hts Htr Hd HO]
  · isplitr; · iexact HIs
    isplitr; · iexact HIr
    isplitl [Hsrc]; · iexact Hsrc
    isplitl [Hd]; · iexact Hd
    isplitl [HO]; · iexact HO
    isplitl [Hts]; · iexact Hts
    isplitr; · iexact Hrs
    isplitl [Htr]; · iexact Htr
    iexact Hrr

/-! ## The two waits of a transfer -/

/-- The wait for the departure of `(s, j)` and the wait for its arrival, at the head of any program: the rows sent
    come back, the own slot comes holding the partner's rows, and both semaphores are at zero again. -/
theorem step_waits (c : Dev nD) (s j R : ℕ) (hs : s < 3) (hj : j < 12) (hR : R = crows j) (hsi : SInb s j)
    (V₁ V₂ V₃ V₄ : Memref sig .tc .vmem (SR2 R) .f32)
    {h1 : V₁.view.WordExact} {h2 : V₂.view.WordExact} {h3 : V₃.view.WordExact} {h4 : V₄.view.WordExact}
    (k : ℕ) (hk : k + 12 * s + j < 36) (W : Waits sig Unit)
    {α : Type} {Q : α → sProp 𝕄} {kont : PUnit → Prog (TpuEff nD τ sig (Elt F) Λ₀ .tc) α} :
    iprop(records m K ∗ levAts L lv ∗ flying (F := F) c s j ∗ owes (c : Thread nD τ) (owedRem c k) W)
      ⊢ iprop(((sendPay m c s j hj ∗ recvPay m c s j hs hj ∗ semVal (dCell c (sQ s j)) 0 ∗ semVal (dCell c (rQ s j)) 0
              ∗ ∃ W', owes (c : Thread nD τ) (owedRem c k) W')
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sSem s j hsi) V₁ V₂ h1 h2) fun _ => .op (.waitDma2 (rSem s j hsi) V₃ V₄ h3 h4) kont) Q) := by
  subst hR
  have e1 := sSem_eq s j hs hj hsi
  have e2 := rSem_eq s j hs hj hsi
  iintro ⟨#Hrec, #Hlev, Hfly, HO⟩ Hk
  unfold flying sPos rPos rCred sCred
  icases Hfly with ⟨HatS, HatR, HcR, HcS⟩
  ihave HIs := (inv_s m K c s j hs hj) $$ Hrec
  ihave HIr := (inv_r m K c s j hs hj) $$ Hrec
  rw [e1, e2]
  iapply (Rounds.wp_wait_rest_token 𝒱₀ ER (treeRd m) (c : Thread nD τ) none (κ := K (c, ⟨1 + 12 * s + j, by omega⟩))
      (wpE_waitDma2_eq 𝒱₀ (c : Thread nD τ) none Set.univ) (Set.mem_univ _) () (O := owedRem c k) (W := W) (R := 0) (m := 0) (T := ∅)
      (by rw [Nat.zero_add, expect_s m c s j hs hj])) $$ [HcS HO HatS]
  · isplitr; · iexact HIs
    isplitl [HcS]; · iexact HcS
    isplitl [HO]; · iexact HO
    isplitr; · iapply (mayWait_s c s j hs hj k (by omega)); iexact Hlev
    iexact HatS
  iintro ⟨HO, HatS, -, HpayS⟩
  ihave HpS := (Entails.of_eq (rest_s m c s j hs hj)) $$ HpayS
  iapply (Rounds.wp_wait_rest_token 𝒱₀ ER (treeRd m) (c : Thread nD τ) none (κ := K (c, ⟨37 + 12 * s + j, by omega⟩))
      (wpE_waitDma2_eq 𝒱₀ (c : Thread nD τ) none Set.univ) (Set.mem_univ _) () (O := owedRem c k)
      (W := insert (SemLoc.dma (sQ s j), ()) W) (R := 0) (m := 0) (T := ∅)
      (by rw [Nat.zero_add, expect_r m c s j hs hj])) $$ [HcR HO HatR]
  · isplitr; · iexact HIr
    isplitl [HcR]; · iexact HcR
    isplitl [HO]; · iexact HO
    isplitr; · iapply (mayWait_r c s j hs hj k hk); iexact Hlev
    iexact HatR
  iintro ⟨HO, HatR, -, HpayR⟩
  ihave HpR := (Entails.of_eq (rest_r m c s j hs hj)) $$ HpayR
  imod (Rounds.cell_close ER (treeRd m) (Set.mem_univ (K (c, ⟨1 + 12 * s + j, by omega⟩))) (fun h => h) (R := 0 + 1) (duties_later m (dCell c (sQ s j)))) $$ [HatS] with HzS
  · isplitr; · iexact HIs
    iexact HatS
  imod (Rounds.cell_close ER (treeRd m) (Set.mem_univ (K (c, ⟨37 + 12 * s + j, by omega⟩))) (fun h => h) (R := 0 + 1) (duties_later m (dCell c (rQ s j)))) $$ [HatR] with HzR
  · isplitr; · iexact HIr
    iexact HatR
  iapply Hk
  isplitl [HpS]; · iexact HpS
  isplitl [HpR]; · iexact HpR
  isplitl [HzS]; · iexact HzS
  isplitl [HzR]; · iexact HzR
  iexists _; iexact HO

/-- The two value facts with the loads read through the rectangle's view (the same reading, spelt as the load rule leaves it). -/
theorem reduce0_val' (c : Dev nD) (j : ℕ) (hj : j < 12) (fo : Buf (Elt F) ((oCh (cstart j) (crows j) (oinb j hj)).view.loc (c : Thread nD τ)))
    (hx : XInb (cstart j) (crows j)) (hc : CInb 0 j (crows j)) (ho : OInb (cstart j) (crows j))
    (h₁ : (SR3 (crows j)).ShapeCasts (SR2 (crows j))) (h₂ : (SR4 (crows j)).ShapeCasts (SR2 (crows j))) :
    oPts (F := F) c j hj
        (((oM : Memref sig .tc .vmem S256x256 .f32).access (oRect (cstart j) (crows j) ho)).write (Elt F) fo
          (pay (F := F) (R := crows j)
            (((xM : Memref sig .tc .vmem S1x256x256 .f32).access (xRect (cstart j) (crows j) hx)).read (Elt F) (xs m c))
            (((cM : Memref sig .tc .vmem S3x12x24x256 .f32).access (cRect 0 j (crows j) hc)).read (Elt F) (landed m c)) h₁ h₂)
          Finset.univ)
      = oPts (F := F) c j hj (acc m c 1) := reduce0_val m c j hj fo h₁ h₂

theorem reduceS_val' (c : Dev nD) (s j : ℕ) (hs0 : 0 < s) (hs : s < 3) (hj : j < 12)
    (hc : CInb s j (crows j)) (ho : OInb (cstart j) (crows j))
    (h₁ : (SR2 (crows j)).ShapeCasts (SR2 (crows j))) (h₂ : (SR4 (crows j)).ShapeCasts (SR2 (crows j))) :
    oPts (F := F) c j hj
        (((oM : Memref sig .tc .vmem S256x256 .f32).access (oRect (cstart j) (crows j) ho)).write (Elt F) (acc m c s)
          (pay (F := F) (R := crows j)
            (((oM : Memref sig .tc .vmem S256x256 .f32).access (oRect (cstart j) (crows j) ho)).read (Elt F) (acc m c s))
            (((cM : Memref sig .tc .vmem S3x12x24x256 .f32).access (cRect s j (crows j) hc)).read (Elt F) (landed m c)) h₁ h₂)
          Finset.univ)
      = oPts (F := F) c j hj (acc m c (s + 1)) := reduceS_val m c s j hs0 hs hj h₁ h₂

/-! ## A stage's addition -/

set_option maxHeartbeats 1600000 in
/-- Stage 0 on chunk `j`, at the head of any program: the input rows and the landed rows are loaded, their sum is
    stored over the chunk of the result block, which then holds the running sum after one stage. -/
theorem step_reduce0 (c : Dev nD) (j a R : ℕ) (hj : j < 12) (ha : a = cstart j) (hR : R = crows j)
    (hx : XInb a R) (hc : CInb 0 j R) (ho : OInb a R)
    {hl1 : (xM : Memref sig .tc .vmem S1x256x256 .f32).view.LoadsAt (xRect a R hx).toLoadRect}
    {hl2 : (cM : Memref sig .tc .vmem S3x12x24x256 .f32).view.LoadsAt (cRect 0 j R hc).toLoadRect}
    {hl3 : (oM : Memref sig .tc .vmem S256x256 .f32).view.LoadsAt (oRect a R ho).toLoadRect}
    {hst : ((oM : Memref sig .tc .vmem S256x256 .f32).access (oRect a R ho)).Stores Finset.univ}
    {hm : (Finset.univ : Finset (oRect a R ho).shape.Idx) = Finset.univ ∨ ∀ i, (oRect a R ho).stride i = 1}
    (h₁ : (SR3 R).ShapeCasts (SR2 R)) (h₂ : (SR4 R).ShapeCasts (SR2 R))
    {α : Type} {Q : α → sProp 𝕄} {kont : PUnit → Prog (TpuEff nD τ sig (Elt F) Λ₀ .tc) α} :
    iprop(xPts c j hj (xs m c) ∗ slotPts c 0 j (by decide) hj (landed m c) ∗ (∃ fo, oPts (F := F) c j hj fo))
      ⊢ iprop(((xPts c j hj (xs m c) ∗ slotPts c 0 j (by decide) hj (landed m c) ∗ oPts c j hj (acc m c 1))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.load xM (xRect a R hx).toLoadRect hl1) fun v₁ =>
                .op (.load cM (cRect 0 j R hc).toLoadRect hl2) fun v₂ =>
                .op (.load oM (oRect a R ho).toLoadRect hl3) fun _ =>
                .op (.store oM (oRect a R ho) (pay (F := F) (R := R) v₁ v₂ h₁ h₂) Finset.univ hst hm) kont) Q) := by
  subst ha; subst hR
  iintro ⟨Hx, Hc, ⟨%fo, Ho⟩⟩ Hk
  unfold xPts slotPts oPts
  iapply (wp_load_rect 𝒱₀ (c : Thread nD τ) none Set.univ (m := xM) (r := xRect (cstart j) (crows j) hx) (le_of_eq ((View.set_slice_whole _ _).trans (x_set j hj).symm))) $$ Hx; iintro Hx
  iapply (wp_load_rect 𝒱₀ (c : Thread nD τ) none Set.univ (m := cM) (r := cRect 0 j (crows j) hc) (le_of_eq ((View.set_slice_whole _ _).trans (c_set 0 j (by decide) hj).symm))) $$ Hc; iintro Hc
  iapply (wp_load_rect 𝒱₀ (c : Thread nD τ) none Set.univ (m := oM) (r := oRect (cstart j) (crows j) ho) (le_of_eq ((View.set_slice_whole _ _).trans (o_set j hj).symm))) $$ Ho; iintro Ho
  iapply (wp_store 𝒱₀ (c : Thread nD τ) none Set.univ (m := oM) (r := oRect (cstart j) (crows j) ho) (Mk := Finset.univ) (S := (oCh (cstart j) (crows j) (oinb j hj)).view.set) (le_of_eq rfl)) $$ Ho; iintro Ho
  iapply Hk
  isplitl [Hx]; · iexact Hx
  isplitl [Hc]; · iexact Hc
  have hv := reduce0_val' m c j hj fo hx hc ho h₁ h₂
  unfold oPts at hv
  ihave Ho' := (Entails.of_eq hv) $$ Ho
  iexact Ho'

set_option maxHeartbeats 1600000 in
/-- Stages 1 and 2 on chunk `j`: the running rows and the landed rows are loaded, their sum stored back. -/
theorem step_reduceS (c : Dev nD) (s j a R : ℕ) (hs0 : 0 < s) (hs : s < 3) (hj : j < 12) (ha : a = cstart j) (hR : R = crows j)
    (hc : CInb s j R) (ho : OInb a R)
    {hl1 : (oM : Memref sig .tc .vmem S256x256 .f32).view.LoadsAt (oRect a R ho).toLoadRect}
    {hl2 : (cM : Memref sig .tc .vmem S3x12x24x256 .f32).view.LoadsAt (cRect s j R hc).toLoadRect}
    {hl3 : (oM : Memref sig .tc .vmem S256x256 .f32).view.LoadsAt (oRect a R ho).toLoadRect}
    {hst : ((oM : Memref sig .tc .vmem S256x256 .f32).access (oRect a R ho)).Stores Finset.univ}
    {hm : (Finset.univ : Finset (oRect a R ho).shape.Idx) = Finset.univ ∨ ∀ i, (oRect a R ho).stride i = 1}
    (h₁ : (SR2 R).ShapeCasts (SR2 R)) (h₂ : (SR4 R).ShapeCasts (SR2 R))
    {α : Type} {Q : α → sProp 𝕄} {kont : PUnit → Prog (TpuEff nD τ sig (Elt F) Λ₀ .tc) α} :
    iprop(slotPts c s j hs hj (landed m c) ∗ oPts c j hj (acc m c s))
      ⊢ iprop(((slotPts c s j hs hj (landed m c) ∗ oPts c j hj (acc m c (s + 1)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.load oM (oRect a R ho).toLoadRect hl1) fun v₁ =>
                .op (.load cM (cRect s j R hc).toLoadRect hl2) fun v₂ =>
                .op (.load oM (oRect a R ho).toLoadRect hl3) fun _ =>
                .op (.store oM (oRect a R ho) (pay (F := F) (R := R) v₁ v₂ h₁ h₂) Finset.univ hst hm) kont) Q) := by
  subst ha; subst hR
  iintro ⟨Hc, Ho⟩ Hk
  unfold slotPts oPts
  iapply (wp_load_rect 𝒱₀ (c : Thread nD τ) none Set.univ (m := oM) (r := oRect (cstart j) (crows j) ho) (le_of_eq ((View.set_slice_whole _ _).trans (o_set j hj).symm))) $$ Ho; iintro Ho
  iapply (wp_load_rect 𝒱₀ (c : Thread nD τ) none Set.univ (m := cM) (r := cRect s j (crows j) hc) (le_of_eq ((View.set_slice_whole _ _).trans (c_set s j hs hj).symm))) $$ Hc; iintro Hc
  iapply (wp_load_rect 𝒱₀ (c : Thread nD τ) none Set.univ (m := oM) (r := oRect (cstart j) (crows j) ho) (le_of_eq ((View.set_slice_whole _ _).trans (o_set j hj).symm))) $$ Ho; iintro Ho
  iapply (wp_store 𝒱₀ (c : Thread nD τ) none Set.univ (m := oM) (r := oRect (cstart j) (crows j) ho) (Mk := Finset.univ) (S := (oCh (cstart j) (crows j) (oinb j hj)).view.set) (le_of_eq rfl)) $$ Ho; iintro Ho
  iapply Hk
  isplitl [Hc]; · iexact Hc
  have hv := reduceS_val' m c s j hs0 hs hj hc ho h₁ h₂
  unfold oPts at hv
  ihave Ho' := (Entails.of_eq hv) $$ Ho
  iexact Ho'

/-! ## The chunk's states, one to the next -/

theorem sendPay_zero (c : Dev nD) (j : ℕ) (hj : j < 12) : sendPay m c 0 j hj = xPts c j hj (xs m c) := if_pos rfl
theorem sendPay_pos (c : Dev nD) (s j : ℕ) (hj : j < 12) (hs0 : 0 < s) : sendPay m c s j hj = oPts c j hj (acc m c s) := if_neg (by omega)
theorem recvPay_eq (c : Dev nD) (s j : ℕ) (hs : s < 3) (hj : j < 12) : recvPay m c s j hs hj = slotPts c s j hs hj (landed m c) := rfl

/-- Chunk `j`'s first transfer. -/
theorem stepA (c p : Dev nD) (j a R : ℕ) (hj : j < 12) (hp : p = peer c 0 j) (ha : a = cstart j) (hR : R = crows j)
    (hx : XInb a R) (hq3 : (SR3 R).Squeezes (SR2 R)) (hc : CInb 0 j R) (hq4 : (SR4 R).Squeezes (SR2 R)) (hsi : SInb 0 j)
    {hsc : (cSl 0 j R hc hq4 : Memref sig (Dev.tc p : Thread nD τ).2.kind .vmem (SR2 R) .f32).view.ref.isScScratch = false}
    {hsrc : (xCh a R hx hq3).view.WordExact} {hdst : (cSl 0 j R hc hq4).view.WordExact}
    {hsem : DmaTarget.Typed .vmem (.dma (rSem 0 j hsi)) (.remote (Dev.tc p : Thread nD τ) (cSl 0 j R hc hq4) (.dma (sSem 0 j hsi)) hsc)}
    (k : ℕ) (hk : k + j = 35) (W : Waits sig Unit)
    {α : Type} {Q : α → sProp 𝕄} {kont : PUnit → Prog (TpuEff nD τ sig (Elt F) Λ₀ .tc) α} :
    iprop(records m K ∗ St0 m c j hj ∗ owes (c : Thread nD τ) (owedRem c (k + 1)) W)
      ⊢ iprop(((St1 (F := F) c j hj ∗ ∃ W', owes (c : Thread nD τ) (owedRem c k) W')
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xCh a R hx hq3) (.remote (Dev.tc p : Thread nD τ) (cSl 0 j R hc hq4) (.dma (sSem 0 j hsi)) hsc) (.dma (rSem 0 j hsi)) hsrc hdst hsem) kont) Q) := by
  subst hp; subst ha; subst hR
  iintro ⟨#Hrec, HS, HO⟩ Hk
  unfold St0 stageRes dSlot
  icases HS with ⟨⟨Hts, Htr, Hps, Hpr, Hcr, Hd⟩, S1, S2, Hx, Ho⟩
  unfold xPts slotPts
  iapply (step_send m K c (peer c 0 j) 0 j (crows j) (by decide) hj rfl rfl (xCh (cstart j) (crows j) hx hq3) hc hq4 hsi (xs m c)
      (by rw [sendPay_zero]; exact Entails.of_eq rfl)
      (fun fd => by unfold recvPay; exact Entails.of_eq (landing0 m c j hj fd))
      k (by omega) W) $$ [Hx Hts Htr Hd HO]
  · isplitr; · iexact Hrec
    isplitl [Hx]; · iexact Hx
    isplitl [Hts]; · iexact Hts
    isplitl [Htr]; · iexact Htr
    isplitl [Hd]; · iexact Hd
    iexact HO
  iintro ⟨HcS, HO⟩
  iapply Hk
  unfold St1 flying
  isplitr [HO]
  · isplitl [Hps Hpr Hcr HcS]
    · isplitl [Hps]; · iexact Hps
      isplitl [Hpr]; · iexact Hpr
      isplitl [Hcr]; · iexact Hcr
      iexact HcS
    isplitl [S1]; · unfold stageRes dSlot slotPts; iexact S1
    isplitl [S2]; · unfold stageRes dSlot slotPts; iexact S2
    unfold oPts; iexact Ho
  · iexists W; iexact HO

end Cert.KernelIdeal.Hand

end
-- ==== Proof.IdealSide.StepB.lean ====
/-
  Chunk by chunk: the first transfer's waits, the first addition, the second transfer.
-/
import proofs.«900610_g7700000000000611_dist_treered_v7x_i8_m256_n256_f32_1_alg».proof.Proof.IdealSide.Steps

noncomputable section

namespace Cert.KernelIdeal.Hand

open Cert.KernelIdeal Cert.KernelIdeal.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 73 → ℕ)

set_option maxHeartbeats 800000 in
/-- Chunk `j`: the first transfer's waits, the first addition, the second transfer. -/
theorem stepB (c p : Dev nD) (j a R : ℕ) (hj : j < 12) (hp : p = peer c 1 j) (ha : a = cstart j) (hR : R = crows j)
    (hx : XInb a R) (hq3 : (SR3 R).Squeezes (SR2 R)) (hc0 : CInb 0 j R) (hq4 : (SR4 R).Squeezes (SR2 R)) (ho : OInb a R) (hc1 : CInb 1 j R)
    (hsi0 : SInb 0 j) (hsi1 : SInb 1 j)
    {h1 : (cSl 0 j R hc0 hq4).view.WordExact} {h2 : (xCh a R hx hq3).view.WordExact} {h3 : (xCh a R hx hq3).view.WordExact} {h4 : (cSl 0 j R hc0 hq4).view.WordExact}
    {hl1 : (xM : Memref sig .tc .vmem S1x256x256 .f32).view.LoadsAt (xRect a R hx).toLoadRect}
    {hl2 : (cM : Memref sig .tc .vmem S3x12x24x256 .f32).view.LoadsAt (cRect 0 j R hc0).toLoadRect}
    {hl3 : (oM : Memref sig .tc .vmem S256x256 .f32).view.LoadsAt (oRect a R ho).toLoadRect}
    {hst : ((oM : Memref sig .tc .vmem S256x256 .f32).access (oRect a R ho)).Stores Finset.univ}
    {hm : (Finset.univ : Finset (oRect a R ho).shape.Idx) = Finset.univ ∨ ∀ i, (oRect a R ho).stride i = 1}
    (h₁ : (SR3 R).ShapeCasts (SR2 R)) (h₂ : (SR4 R).ShapeCasts (SR2 R))
    {hsc : (cSl 1 j R hc1 hq4 : Memref sig (Dev.tc p : Thread nD τ).2.kind .vmem (SR2 R) .f32).view.ref.isScScratch = false}
    {hsrc : (oCh a R ho).view.WordExact} {hdst : (cSl 1 j R hc1 hq4).view.WordExact}
    {hsem : DmaTarget.Typed .vmem (.dma (rSem 1 j hsi1)) (.remote (Dev.tc p : Thread nD τ) (cSl 1 j R hc1 hq4) (.dma (sSem 1 j hsi1)) hsc)}
    (k : ℕ) (hk : k + (12 + j) = 35) (W : Waits sig Unit)
    {α : Type} {Q : α → sProp 𝕄} {kont : PUnit → Prog (TpuEff nD τ sig (Elt F) Λ₀ .tc) α} :
    iprop(records m K ∗ levAts L lv ∗ St1 (F := F) c j hj ∗ owes (c : Thread nD τ) (owedRem c (k + 1)) W)
      ⊢ iprop(((St2 m c j hj ∗ ∃ W', owes (c : Thread nD τ) (owedRem c k) W')
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sSem 0 j hsi0) (cSl 0 j R hc0 hq4) (xCh a R hx hq3) h1 h2) fun _ =>
                .op (.waitDma2 (rSem 0 j hsi0) (xCh a R hx hq3) (cSl 0 j R hc0 hq4) h3 h4) fun _ =>
                .op (.load xM (xRect a R hx).toLoadRect hl1) fun v₁ =>
                .op (.load cM (cRect 0 j R hc0).toLoadRect hl2) fun v₂ =>
                .op (.load oM (oRect a R ho).toLoadRect hl3) fun _ =>
                .op (.store oM (oRect a R ho) (pay (F := F) (R := R) v₁ v₂ h₁ h₂) Finset.univ hst hm) fun _ =>
                .op (.enqueueDma (oCh a R ho) (.remote (Dev.tc p : Thread nD τ) (cSl 1 j R hc1 hq4) (.dma (sSem 1 j hsi1)) hsc) (.dma (rSem 1 j hsi1)) hsrc hdst hsem) kont) Q) := by
  subst hp; subst ha; subst hR
  have h03 : (0 : ℕ) < 3 := by decide
  have h13 : (1 : ℕ) < 3 := by decide
  have h01 : (0 : ℕ) < 1 := by decide
  have hpay₁ : (((oCh (cstart j) (crows j) ho).view.loc (c : Thread nD τ) ↦[(oCh (cstart j) (crows j) ho).view.set]{fullShare} (acc m c 1) : sProp 𝕄))
      ⊢ sendPay m c 1 j hj := by
    rw [sendPay_pos m c 1 j hj h01]; unfold oPts; exact Entails.of_eq rfl
  have hpay₂ : ∀ fd, (((cSl 1 j (crows j) hc1 hq4).view.loc ((peer c 1 j : Dev nD) : Thread nD τ) ↦[(cSl 1 j (crows j) hc1 hq4).view.set]{fullShare}
        ((cSl 1 j (crows j) hc1 hq4).view.write (Elt F) fd ((oCh (cstart j) (crows j) ho).view.read (Elt F) (acc m c 1)) Finset.univ) : sProp 𝕄))
      ⊢ recvPay m (peer c 1 j) 1 j h13 hj := by
    intro fd
    have h := landingS m c 1 j h01 h13 hj fd
    unfold slotPts at h
    unfold recvPay slotPts
    exact Entails.of_eq h
  iintro ⟨#Hrec, #Hlev, HS, HO⟩ Hk
  unfold St1
  icases HS with ⟨Hfly, S1, S2, Ho⟩
  iapply (step_waits m K c 0 j (crows j) h03 hj rfl hsi0 _ _ _ _ (k + 1) (by omega) W) $$ [Hfly HO]
  · isplitr; · iexact Hrec
    isplitr; · iexact Hlev
    isplitl [Hfly]; · iexact Hfly
    iexact HO
  iintro ⟨Hx0, Hc0, HzS, HzR, ⟨%W1, HO⟩⟩
  ihave Hx := (Entails.of_eq (sendPay_zero m c j hj)) $$ Hx0
  ihave Hc := (Entails.of_eq (recvPay_eq m c 0 j h03 hj)) $$ Hc0
  iapply (step_reduce0 m c j (cstart j) (crows j) hj rfl rfl hx hc0 ho h₁ h₂) $$ [Hx Hc Ho]
  · isplitl [Hx]; · iexact Hx
    isplitl [Hc]; · iexact Hc
    iexact Ho
  iintro ⟨Hx, Hc, Ho⟩
  unfold stageRes dSlot
  icases S1 with ⟨Hts, Htr, Hps, Hpr, Hcr, Hd⟩
  unfold oPts slotPts
  iapply (step_send m K c (peer c 1 j) 1 j (crows j) h13 hj rfl rfl (oCh (cstart j) (crows j) ho) hc1 hq4 hsi1 (acc m c 1)
      hpay₁ hpay₂ k (by omega) W1) $$ [Ho Hts Htr Hd HO]
  · isplitr; · iexact Hrec
    isplitl [Ho]; · iexact Ho
    isplitl [Hts]; · iexact Hts
    isplitl [Htr]; · iexact Htr
    isplitl [Hd]; · iexact Hd
    iexact HO
  iintro ⟨HcS, HO⟩
  iapply Hk
  unfold St2 done flying
  isplitr [HO]
  · isplitl [HzS HzR Hc]
    · isplitl [HzS]; · iexact HzS
      isplitl [HzR]; · iexact HzR
      unfold slotPts; iexact Hc
    isplitl [Hps Hpr Hcr HcS]
    · isplitl [Hps]; · iexact Hps
      isplitl [Hpr]; · iexact Hpr
      isplitl [Hcr]; · iexact Hcr
      iexact HcS
    isplitl [S2]; · unfold stageRes dSlot slotPts; iexact S2
    unfold xPts; iexact Hx
  · iexists W1; iexact HO

end Cert.KernelIdeal.Hand

end
-- ==== Proof.IdealSide.StepC.lean ====
/-
  Chunk by chunk: the second transfer's waits, the second addition, the third transfer.
-/
import proofs.«900610_g7700000000000611_dist_treered_v7x_i8_m256_n256_f32_1_alg».proof.Proof.IdealSide.Steps

noncomputable section

namespace Cert.KernelIdeal.Hand

open Cert.KernelIdeal Cert.KernelIdeal.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 73 → ℕ)

/-! ## The chunk's second and third states, taken apart and put together -/

/-- The state with the second transfer under way, in its pieces; the partner's slot for the third transfer at its points-to. -/
theorem St2_elim (c : Dev nD) (j : ℕ) (hj : j < 12) :
    St2 m c j hj ⊢ iprop(done m c 0 j (by decide) hj ∗ flying (F := F) c 1 j
      ∗ (sTok (F := F) c 2 j ∗ rTok (F := F) c 2 j ∗ sPos (F := F) c 2 j ∗ rPos (F := F) c 2 j ∗ rCred (F := F) c 2 j
        ∗ ∃ fd, ((cSl 2 j (crows j) (cinb 2 j (by decide) hj) (sq4 j)).view.loc ((peer c 2 j : Dev nD) : Thread nD τ)
            ↦[(cSl 2 j (crows j) (cinb 2 j (by decide) hj) (sq4 j)).view.set]{fullShare} fd))
      ∗ xPts c j hj (xs m c)) :=
  Entails.of_eq rfl

/-- The state with the third transfer under way, from its pieces. -/
theorem St3_intro (c : Dev nD) (j : ℕ) (hj : j < 12) :
    iprop(done m c 0 j (by decide) hj
      ∗ (semVal (dCell c (sQ 1 j)) 0 ∗ semVal (dCell c (rQ 1 j)) 0 ∗ slotPts c 1 j (by decide) hj (landed m c))
      ∗ (sPos (F := F) c 2 j ∗ rPos (F := F) c 2 j ∗ rCred (F := F) c 2 j ∗ sCred (F := F) c 2 j)
      ∗ xPts c j hj (xs m c)) ⊢ St3 m c j hj :=
  Entails.of_eq rfl

/-- The chunk of the result block at the running sum after two stages, as the rows the third transfer sends. -/
theorem oPts_two (c : Dev nD) (j : ℕ) (hj : j < 12) (ho : OInb (cstart j) (crows j)) :
    oPts (F := F) c j hj (acc m c (1 + 1))
      ⊢ ((oCh (cstart j) (crows j) ho).view.loc (c : Thread nD τ) ↦[(oCh (cstart j) (crows j) ho).view.set]{fullShare} (acc m c 2) : sProp 𝕄) :=
  Entails.of_eq rfl

/-- The rows the third transfer sends are what its departure hands back. -/
theorem send2_pay₁ (c : Dev nD) (j : ℕ) (hj : j < 12) (ho : OInb (cstart j) (crows j)) (h02 : 0 < 2) :
    ((oCh (cstart j) (crows j) ho).view.loc (c : Thread nD τ) ↦[(oCh (cstart j) (crows j) ho).view.set]{fullShare} (acc m c 2) : sProp 𝕄)
      ⊢ sendPay m c 2 j hj :=
  Entails.of_eq (sendPay_pos m c 2 j hj h02).symm

/-- The partner's slot, once the rows sent have landed in it, is what the arrival hands the partner. -/
theorem send2_pay₂ (c : Dev nD) (j : ℕ) (hj : j < 12) (ho : OInb (cstart j) (crows j)) (hc2 : CInb 2 j (crows j))
    (hq4 : (SR4 (crows j)).Squeezes (SR2 (crows j))) (h02 : 0 < 2) (h23 : 2 < 3)
    (fd : Buf (Elt F) ((cSl 2 j (crows j) hc2 hq4).view.loc ((peer c 2 j : Dev nD) : Thread nD τ))) :
    ((cSl 2 j (crows j) hc2 hq4).view.loc ((peer c 2 j : Dev nD) : Thread nD τ) ↦[(cSl 2 j (crows j) hc2 hq4).view.set]{fullShare}
        ((cSl 2 j (crows j) hc2 hq4).view.write (Elt F) fd ((oCh (cstart j) (crows j) ho).view.read (Elt F) (acc m c 2)) Finset.univ) : sProp 𝕄)
      ⊢ recvPay m (peer c 2 j) 2 j h23 hj :=
  Entails.of_eq (landingS m c 2 j h02 h23 hj fd)

set_option maxHeartbeats 800000 in
/-- Chunk `j`: the second transfer's waits, the second addition, the third transfer. -/
theorem stepC (c p : Dev nD) (j a R : ℕ) (hj : j < 12) (hp : p = peer c 2 j) (ha : a = cstart j) (hR : R = crows j)
    (hq4 : (SR4 R).Squeezes (SR2 R)) (ho : OInb a R) (hc1 : CInb 1 j R) (hc2 : CInb 2 j R)
    (hsi1 : SInb 1 j) (hsi2 : SInb 2 j)
    {h1 : (cSl 1 j R hc1 hq4).view.WordExact} {h2 : (oCh a R ho).view.WordExact} {h3 : (oCh a R ho).view.WordExact} {h4 : (cSl 1 j R hc1 hq4).view.WordExact}
    {hl1 : (oM : Memref sig .tc .vmem S256x256 .f32).view.LoadsAt (oRect a R ho).toLoadRect}
    {hl2 : (cM : Memref sig .tc .vmem S3x12x24x256 .f32).view.LoadsAt (cRect 1 j R hc1).toLoadRect}
    {hl3 : (oM : Memref sig .tc .vmem S256x256 .f32).view.LoadsAt (oRect a R ho).toLoadRect}
    {hst : ((oM : Memref sig .tc .vmem S256x256 .f32).access (oRect a R ho)).Stores Finset.univ}
    {hm : (Finset.univ : Finset (oRect a R ho).shape.Idx) = Finset.univ ∨ ∀ i, (oRect a R ho).stride i = 1}
    (h₁ : (SR2 R).ShapeCasts (SR2 R)) (h₂ : (SR4 R).ShapeCasts (SR2 R))
    {hsc : (cSl 2 j R hc2 hq4 : Memref sig (Dev.tc p : Thread nD τ).2.kind .vmem (SR2 R) .f32).view.ref.isScScratch = false}
    {hsrc : (oCh a R ho).view.WordExact} {hdst : (cSl 2 j R hc2 hq4).view.WordExact}
    {hsem : DmaTarget.Typed .vmem (.dma (rSem 2 j hsi2)) (.remote (Dev.tc p : Thread nD τ) (cSl 2 j R hc2 hq4) (.dma (sSem 2 j hsi2)) hsc)}
    (k : ℕ) (hk : k + (24 + j) = 35) (W : Waits sig Unit)
    {α : Type} {Q : α → sProp 𝕄} {kont : PUnit → Prog (TpuEff nD τ sig (Elt F) Λ₀ .tc) α} :
    iprop(records m K ∗ levAts L lv ∗ St2 m c j hj ∗ owes (c : Thread nD τ) (owedRem c (k + 1)) W)
      ⊢ iprop(((St3 m c j hj ∗ ∃ W', owes (c : Thread nD τ) (owedRem c k) W')
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sSem 1 j hsi1) (cSl 1 j R hc1 hq4) (oCh a R ho) h1 h2) fun _ =>
                .op (.waitDma2 (rSem 1 j hsi1) (oCh a R ho) (cSl 1 j R hc1 hq4) h3 h4) fun _ =>
                .op (.load oM (oRect a R ho).toLoadRect hl1) fun v₁ =>
                .op (.load cM (cRect 1 j R hc1).toLoadRect hl2) fun v₂ =>
                .op (.load oM (oRect a R ho).toLoadRect hl3) fun _ =>
                .op (.store oM (oRect a R ho) (pay (F := F) (R := R) v₁ v₂ h₁ h₂) Finset.univ hst hm) fun _ =>
                .op (.enqueueDma (oCh a R ho) (.remote (Dev.tc p : Thread nD τ) (cSl 2 j R hc2 hq4) (.dma (sSem 2 j hsi2)) hsc) (.dma (rSem 2 j hsi2)) hsrc hdst hsem) kont) Q) := by
  subst hp; subst ha; subst hR
  have h01 : (0 : ℕ) < 1 := by decide
  have h02 : (0 : ℕ) < 2 := by decide
  have h13 : (1 : ℕ) < 3 := by decide
  have h23 : (2 : ℕ) < 3 := by decide
  have hk1 : (k + 1) + 12 * 1 + j < 36 := by omega
  have hk2 : k + (12 * 2 + j) = 35 := by omega
  iintro ⟨#Hrec, #Hlev, HS, HO⟩ Hk
  ihave HS' := (St2_elim m c j hj) $$ HS
  icases HS' with ⟨D0, Hfly, ⟨Hts, Htr, Hps, Hpr, Hcr, Hd⟩, Hx⟩
  iapply (step_waits m K c 1 j (crows j) h13 hj rfl hsi1 _ _ _ _ (k + 1) hk1 W) $$ [Hfly HO]
  · isplitr; · iexact Hrec
    isplitr; · iexact Hlev
    isplitl [Hfly]; · iexact Hfly
    iexact HO
  iintro ⟨Ho0, Hc0, HzS, HzR, ⟨%W1, HO⟩⟩
  ihave Ho := (Entails.of_eq (sendPay_pos m c 1 j hj h01)) $$ Ho0
  ihave Hc := (Entails.of_eq (recvPay_eq m c 1 j h13 hj)) $$ Hc0
  iapply (step_reduceS m c 1 j (cstart j) (crows j) h01 h13 hj rfl rfl hc1 ho h₁ h₂) $$ [Hc Ho]
  · isplitl [Hc]; · iexact Hc
    iexact Ho
  iintro ⟨Hc, Ho1⟩
  ihave Ho := (oPts_two m c j hj ho) $$ Ho1
  iapply (step_send m K c (peer c 2 j) 2 j (crows j) h23 hj rfl rfl (oCh (cstart j) (crows j) ho) hc2 hq4 hsi2 (acc m c 2)
      (send2_pay₁ m c j hj ho h02) (fun fd => send2_pay₂ m c j hj ho hc2 hq4 h02 h23 fd) k hk2 W1) $$ [Ho Hts Htr Hd HO]
  · isplitr; · iexact Hrec
    isplitl [Ho]; · iexact Ho
    isplitl [Hts]; · iexact Hts
    isplitl [Htr]; · iexact Htr
    isplitl [Hd]; · iexact Hd
    iexact HO
  iintro ⟨HcS, HO⟩
  iapply Hk
  isplitr [HO]
  · iapply (St3_intro m c j hj)
    isplitl [D0]; · iexact D0
    isplitl [HzS HzR Hc]
    · isplitl [HzS]; · iexact HzS
      isplitl [HzR]; · iexact HzR
      iexact Hc
    isplitl [Hps Hpr Hcr HcS]
    · isplitl [Hps]; · iexact Hps
      isplitl [Hpr]; · iexact Hpr
      isplitl [Hcr]; · iexact Hcr
      iexact HcS
    iexact Hx
  · iexists W1; iexact HO

end Cert.KernelIdeal.Hand

end
-- ==== Proof.IdealSide.StepD.lean ====
/-
  Chunk by chunk: the third transfer's waits and the third addition.
-/
import proofs.«900610_g7700000000000611_dist_treered_v7x_i8_m256_n256_f32_1_alg».proof.Proof.IdealSide.Steps

noncomputable section

namespace Cert.KernelIdeal.Hand

open Cert.KernelIdeal Cert.KernelIdeal.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 73 → ℕ)

set_option maxHeartbeats 800000 in
/-- Chunk `j`: the third transfer's waits and the third addition. -/
theorem stepD (c : Dev nD) (j a R : ℕ) (hj : j < 12) (ha : a = cstart j) (hR : R = crows j)
    (hq4 : (SR4 R).Squeezes (SR2 R)) (ho : OInb a R) (hc2 : CInb 2 j R) (hsi2 : SInb 2 j)
    {h1 : (cSl 2 j R hc2 hq4).view.WordExact} {h2 : (oCh a R ho).view.WordExact} {h3 : (oCh a R ho).view.WordExact} {h4 : (cSl 2 j R hc2 hq4).view.WordExact}
    {hl1 : (oM : Memref sig .tc .vmem S256x256 .f32).view.LoadsAt (oRect a R ho).toLoadRect}
    {hl2 : (cM : Memref sig .tc .vmem S3x12x24x256 .f32).view.LoadsAt (cRect 2 j R hc2).toLoadRect}
    {hl3 : (oM : Memref sig .tc .vmem S256x256 .f32).view.LoadsAt (oRect a R ho).toLoadRect}
    {hst : ((oM : Memref sig .tc .vmem S256x256 .f32).access (oRect a R ho)).Stores Finset.univ}
    {hm : (Finset.univ : Finset (oRect a R ho).shape.Idx) = Finset.univ ∨ ∀ i, (oRect a R ho).stride i = 1}
    (h₁ : (SR2 R).ShapeCasts (SR2 R)) (h₂ : (SR4 R).ShapeCasts (SR2 R)) (W : Waits sig Unit)
    {α : Type} {Q : α → sProp 𝕄} {kont : PUnit → Prog (TpuEff nD τ sig (Elt F) Λ₀ .tc) α} :
    iprop(records m K ∗ levAts L lv ∗ St3 m c j hj ∗ owes (c : Thread nD τ) (owedRem c 0) W)
      ⊢ iprop(((St4 m c j hj ∗ ∃ W', owes (c : Thread nD τ) (owedRem c 0) W')
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sSem 2 j hsi2) (cSl 2 j R hc2 hq4) (oCh a R ho) h1 h2) fun _ =>
                .op (.waitDma2 (rSem 2 j hsi2) (oCh a R ho) (cSl 2 j R hc2 hq4) h3 h4) fun _ =>
                .op (.load oM (oRect a R ho).toLoadRect hl1) fun v₁ =>
                .op (.load cM (cRect 2 j R hc2).toLoadRect hl2) fun v₂ =>
                .op (.load oM (oRect a R ho).toLoadRect hl3) fun _ =>
                .op (.store oM (oRect a R ho) (pay (F := F) (R := R) v₁ v₂ h₁ h₂) Finset.univ hst hm) kont) Q) := by
  subst ha; subst hR
  have h23 : (2 : ℕ) < 3 := by decide
  have h02 : (0 : ℕ) < 2 := by decide
  iintro ⟨#Hrec, #Hlev, HS, HO⟩ Hk
  unfold St3
  icases HS with ⟨D0, D1, Hfly, Hx⟩
  iapply (step_waits m K c 2 j (crows j) h23 hj rfl hsi2 _ _ _ _ 0 (by omega) W) $$ [Hfly HO]
  · isplitr; · iexact Hrec
    isplitr; · iexact Hlev
    isplitl [Hfly]; · iexact Hfly
    iexact HO
  iintro ⟨Ho0, Hc0, HzS, HzR, HO⟩
  ihave Ho := (Entails.of_eq (sendPay_pos m c 2 j hj h02)) $$ Ho0
  ihave Hc := (Entails.of_eq (recvPay_eq m c 2 j h23 hj)) $$ Hc0
  iapply (step_reduceS m c 2 j (cstart j) (crows j) h02 h23 hj rfl rfl hc2 ho h₁ h₂) $$ [Hc Ho]
  · isplitl [Hc]; · iexact Hc
    iexact Ho
  iintro ⟨Hc, Ho1⟩
  ihave Ho := (Entails.of_eq (show oPts (F := F) c j hj (acc m c (2 + 1)) = oPts c j hj (acc m c 3) from rfl)) $$ Ho1
  iapply Hk
  unfold St4
  isplitr [HO]
  · isplitl [D0]; · iexact D0
    isplitl [D1]; · iexact D1
    isplitl [HzS HzR Hc]
    · unfold done
      isplitl [HzS]; · iexact HzS
      isplitl [HzR]; · iexact HzR
      iexact Hc
    isplitl [Hx]; · iexact Hx
    iexact Ho
  · iexact HO

end Cert.KernelIdeal.Hand

end
-- ==== Proof.IdealSide.Regroup.lean ====
/-
  Dealing what a device holds at launch out to its twelve chunks, and collecting the chunks again at the end.
-/
import proofs.«900610_g7700000000000611_dist_treered_v7x_i8_m256_n256_f32_1_alg».proof.Proof.IdealSide.Bundles
import proofs.«900610_g7700000000000611_dist_treered_v7x_i8_m256_n256_f32_1_alg».proof.Proof.IdealSide.Parts
import proofs.«900610_g7700000000000611_dist_treered_v7x_i8_m256_n256_f32_1_alg».proof.Proof.IdealSide.Sched

noncomputable section

namespace Cert.KernelIdeal.Hand

open Cert.KernelIdeal Cert.KernelIdeal.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Re-indexing: the 36 transfers by (stage, chunk), the 73 cells by kind -/

/-- Transfer `n` is stage `n / 12` of chunk `n % 12`. -/
def e36 : Fin 3 × Fin 12 ≃ Fin 36 where
  toFun sj := ⟨12 * sj.1.val + sj.2.val, by have := sj.1.isLt; have := sj.2.isLt; omega⟩
  invFun n := (⟨n.val / 12, by have := n.isLt; omega⟩, ⟨n.val % 12, Nat.mod_lt _ (by decide)⟩)
  left_inv sj := by
    have h1 := sj.1.isLt; have h2 := sj.2.isLt
    refine Prod.ext (Fin.ext ?_) (Fin.ext ?_)
    · show (12 * sj.1.val + sj.2.val) / 12 = sj.1.val; omega
    · show (12 * sj.1.val + sj.2.val) % 12 = sj.2.val; omega
  right_inv n := by
    refine Fin.ext ?_
    show 12 * (n.val / 12) + n.val % 12 = n.val; omega

/-- Separating conjunction, as the assertion notation spells it, is commutative and associative. -/
local instance sep_comm_cls : Std.Commutative (α := sProp 𝕄) BIBase.sep :=
  ⟨fun a b => Std.Commutative.comm (op := fun (P Q : sProp 𝕄) => BI.sep P Q) a b⟩
local instance sep_assoc_cls : Std.Associative (α := sProp 𝕄) BIBase.sep :=
  ⟨fun a b c => Std.Associative.assoc (op := fun (P Q : sProp 𝕄) => BI.sep P Q) a b c⟩

/-- Equal assertions entail one another. -/
theorem entails_of_eq {P Q : sProp 𝕄} (h : P = Q) : Idealize.SL.BI.Entails P Q := h ▸ Idealize.SL.BI.Entails.refl P

theorem bigSep_fin3' (Φ : Fin 3 → sProp 𝕄) : bigSep Finset.univ Φ = iprop(Φ 0 ∗ Φ 1 ∗ Φ 2) :=
  bigSep_univ_eq_bigSepL [0, 1, 2] (by decide) (by decide) Φ

/-- A family over (stage, chunk), chunk by chunk. -/
theorem bigSep_3x12 (Ψ : Fin 3 × Fin 12 → sProp 𝕄) :
    bigSep Finset.univ Ψ = bigSep Finset.univ fun j : Fin 12 => iprop(Ψ (0, j) ∗ Ψ (1, j) ∗ Ψ (2, j)) := by
  rw [bigSep_univ_equiv (Equiv.prodComm (Fin 12) (Fin 3)) Ψ, bigSep_univ_prod]
  exact bigSep_congr fun j _ => bigSep_fin3' fun s => Ψ (s, j)

/-- A family over the 36 transfers, chunk by chunk. -/
theorem bigSep_36 (Φ : ℕ → ℕ → sProp 𝕄) :
    (bigSep Finset.univ fun n : Fin 36 => Φ (n.val / 12) (n.val % 12))
      = bigSep Finset.univ fun j : Fin 12 => iprop(Φ 0 j.val ∗ Φ 1 j.val ∗ Φ 2 j.val) := by
  rw [bigSep_univ_equiv e36 fun n : Fin 36 => Φ (n.val / 12) (n.val % 12)]
  have e : (fun sj : Fin 3 × Fin 12 => Φ ((e36 sj).val / 12) ((e36 sj).val % 12)) = fun sj => Φ sj.1.val sj.2.val := by
    funext sj
    have h1 := sj.1.isLt; have h2 := sj.2.isLt
    have a : (e36 sj).val / 12 = sj.1.val := by show (12 * sj.1.val + sj.2.val) / 12 = sj.1.val; omega
    have b : (e36 sj).val % 12 = sj.2.val := by show (12 * sj.1.val + sj.2.val) % 12 = sj.2.val; omega
    rw [a, b]
  rw [e, bigSep_3x12 fun sj => Φ sj.1.val sj.2.val]
  rfl

/-- A family over `Fin (a + b)`: the first `a`, then the last `b`. -/
theorem bigSep_fin_add (a b : ℕ) (Φ : Fin (a + b) → sProp 𝕄) :
    bigSep Finset.univ Φ = iprop((bigSep Finset.univ fun i : Fin a => Φ (Fin.castAdd b i))
      ∗ bigSep Finset.univ fun i : Fin b => Φ (Fin.natAdd a i)) := by
  rw [bigSep_univ_equiv finSumFinEquiv Φ, bigSep_univ_sum]; rfl

/-! ## The stage at which a mask is used, and back -/

theorem maskIx_stageOf (k : Fin 3) (j : ℕ) : maskIx (stageOf k j) j = k := by
  refine Fin.ext ?_
  show (j + (k.val + 3 - j % 3) % 3) % 3 = k.val
  have := k.isLt; omega
theorem stageOf_maskIx (s j : ℕ) (hs : s < 3) : stageOf (maskIx s j) j = s := by
  show ((j + s) % 3 + 3 - j % 3) % 3 = s; omega
theorem peer_stageOf (c : Dev nD) (k : Fin 3) (j : ℕ) : peer c (stageOf k j) j = xorDev c k := by
  unfold peer; rw [maskIx_stageOf]

/-- For each chunk, mask numbers and stages correspond one to one. -/
def stEquiv : Fin 3 × Fin 12 ≃ Fin 3 × Fin 12 where
  toFun kj := (⟨stageOf kj.1 kj.2.val, stageOf_lt _ _⟩, kj.2)
  invFun sj := (maskIx sj.1.val sj.2.val, sj.2)
  left_inv kj := Prod.ext (maskIx_stageOf kj.1 kj.2.val) rfl
  right_inv sj := Prod.ext (Fin.ext (stageOf_maskIx sj.1.val sj.2.val sj.1.isLt)) rfl

/-- The numbered cells `1 + n` and `37 + n` are the departure and arrival cells of transfer `n`. -/
theorem kcell_dep (c : Dev nD) (n : Fin 36) : kcell (c, Fin.natAdd 1 (Fin.castAdd 36 n)) = dCell c (sQ (n.val / 12) (n.val % 12)) := by
  have hn := n.isLt
  rw [← kcell_s c (n.val / 12) (n.val % 12) (by omega) (Nat.mod_lt _ (by decide))]
  exact congrArg (fun i : Fin 73 => kcell (c, i)) (Fin.ext (by show 1 + n.val = 1 + 12 * (n.val / 12) + n.val % 12; omega))
theorem kcell_arr (c : Dev nD) (n : Fin 36) : kcell (c, Fin.natAdd 1 (Fin.natAdd 36 n)) = dCell c (rQ (n.val / 12) (n.val % 12)) := by
  have hn := n.isLt
  rw [← kcell_r c (n.val / 12) (n.val % 12) (by omega) (Nat.mod_lt _ (by decide))]
  exact congrArg (fun i : Fin 73 => kcell (c, i)) (Fin.ext (by show 1 + (36 + n.val) = 37 + 12 * (n.val / 12) + n.val % 12; omega))

theorem positions_eq (c : Dev nD) :
    (positions (F := F) c : sProp 𝕄)
      = iprop(atPos ER (barCell c) 0 ∅ 0
          ∗ (bigSep Finset.univ fun n : Fin 36 => sPos (F := F) c (n.val / 12) (n.val % 12))
          ∗ bigSep Finset.univ fun n : Fin 36 => rPos (F := F) c (n.val / 12) (n.val % 12)) := by
  unfold positions
  rw [bigSep_fin_add 1 72 (fun i : Fin 73 => (atPos ER (kcell (c, i)) 0 ∅ 0 : sProp 𝕄)),
    bigSep_univ_of_subsingleton (0 : Fin 1),
    bigSep_fin_add 36 36 (fun i : Fin 72 => (atPos ER (kcell (c, Fin.natAdd 1 i)) 0 ∅ 0 : sProp 𝕄))]
  have e0 : kcell (c, Fin.castAdd 72 (0 : Fin 1)) = barCell c := kcell_bar c
  have hS : (bigSep Finset.univ fun n : Fin 36 => (atPos ER (kcell (c, Fin.natAdd 1 (Fin.castAdd 36 n))) 0 ∅ 0 : sProp 𝕄))
      = bigSep Finset.univ fun n : Fin 36 => sPos (F := F) c (n.val / 12) (n.val % 12) :=
    bigSep_congr fun n _ => by rw [kcell_dep c n]; rfl
  have hR : (bigSep Finset.univ fun n : Fin 36 => (atPos ER (kcell (c, Fin.natAdd 1 (Fin.natAdd 36 n))) 0 ∅ 0 : sProp 𝕄))
      = bigSep Finset.univ fun n : Fin 36 => rPos (F := F) c (n.val / 12) (n.val % 12) :=
    bigSep_congr fun n _ => by rw [kcell_arr c n]; rfl
  rw [e0, hS, hR]

/-- A device's positions: the entry barrier's, the 36 departures', the 36 arrivals'. -/
theorem positions_split (c : Dev nD) :
    (positions (F := F) c : sProp 𝕄)
      ⊣⊢ iprop(atPos ER (barCell c) 0 ∅ 0
          ∗ (bigSep Finset.univ fun n : Fin 36 => sPos (F := F) c (n.val / 12) (n.val % 12))
          ∗ bigSep Finset.univ fun n : Fin 36 => rPos (F := F) c (n.val / 12) (n.val % 12)) :=
  .of_eq (positions_eq c)

/-- What the entry signal under a mask says of one (stage, chunk) of device `p`: the slot, at any contents, and that its
    arrival cell is at the first round. -/
def slotWord (p : Dev nD) (sj : Fin 3 × Fin 12) : sProp 𝕄 :=
  iprop((∃ g, slotPts (F := F) p sj.1.val sj.2.val sj.1.isLt sj.2.isLt g) ∗ reached ER (dCell p (rQ sj.1.val sj.2.val)) 0)

/-- The three entry signals of one device, over (stage, chunk). -/
theorem barPays_eq (p : Dev nD) :
    iprop(barPay (F := F) p 0 ∗ barPay (F := F) p 1 ∗ barPay (F := F) p 2) = bigSep Finset.univ (slotWord (F := F) p) := by
  rw [bigSep_univ_equiv stEquiv (slotWord (F := F) p), bigSep_univ_prod, bigSep_fin3']
  rfl

/-- A device's own 36 landing slots, at any contents, with the records' word that their arrival cells are at the
    first round, are what its three entry signals hand its partners. -/
theorem own_slots_to_pays (K : Dev nD × Fin 73 → ℕ) (c : Dev nD) (f : Buf (Elt F) ((c : Thread nD τ).loc cc0_scratch0)) :
    iprop(records m K ∗ bigSep Finset.univ fun sj : Fin 3 × Fin 12 => slotPts (F := F) c sj.1.val sj.2.val sj.1.isLt sj.2.isLt f)
      ⊢ iprop(barPay (F := F) c 0 ∗ barPay (F := F) c 1 ∗ barPay (F := F) c 2) := by
  rw [barPays_eq]
  refine bigSep_with_persistent fun sj _ => ?_
  unfold slotWord
  iintro ⟨#R, H⟩
  isplitl [H]
  · iexists f; iexact H
  · iapply (reached_r m K c sj.1.val sj.2.val sj.1.isLt sj.2.isLt); iexact R

/-- The partner's slot a device writes at one (stage, chunk). -/
def dSlotAt (c : Dev nD) (sj : Fin 3 × Fin 12) : sProp 𝕄 := dSlot (F := F) c sj.1.val sj.2.val sj.1.isLt sj.2.isLt

/-- What the partner under mask `k` says of chunk `j`. -/
def payAt (c : Dev nD) (kj : Fin 3 × Fin 12) : sProp 𝕄 :=
  iprop((∃ f, slotPts (F := F) (xorDev c kj.1) (stageOf kj.1 kj.2.val) kj.2.val (stageOf_lt kj.1 kj.2.val) kj.2.isLt f)
    ∗ reached ER (dCell (xorDev c kj.1) (rQ (stageOf kj.1 kj.2.val) kj.2.val)) 0)

theorem payAt_dSlot (c : Dev nD) (kj : Fin 3 × Fin 12) : payAt (F := F) c kj ⊢ dSlotAt (F := F) c (stEquiv kj) := by
  show payAt (F := F) c kj ⊢ iprop(∃ f, slotPts (F := F) (peer c (stageOf kj.1 kj.2.val) kj.2.val) (stageOf kj.1 kj.2.val) kj.2.val
    (stageOf_lt kj.1 kj.2.val) kj.2.isLt f)
  rw [peer_stageOf]
  exact sep_elim_left

/-- The three partners' entry signals hand a device, chunk by chunk, the three slots it will write. -/
theorem pays_to_dslots (c : Dev nD) :
    iprop(barPay (F := F) (xorDev c 0) 0 ∗ barPay (F := F) (xorDev c 1) 1 ∗ barPay (F := F) (xorDev c 2) 2)
      ⊢ bigSep Finset.univ fun j : Fin 12 => iprop(dSlot (F := F) c 0 j.val (by decide) j.isLt
          ∗ dSlot (F := F) c 1 j.val (by decide) j.isLt ∗ dSlot (F := F) c 2 j.val (by decide) j.isLt) := by
  have e : iprop(barPay (F := F) (xorDev c 0) 0 ∗ barPay (F := F) (xorDev c 1) 1 ∗ barPay (F := F) (xorDev c 2) 2)
      = bigSep Finset.univ (payAt (F := F) c) := by
    rw [bigSep_univ_prod, bigSep_fin3']; rfl
  have h1 : bigSep Finset.univ (payAt (F := F) c) ⊢ bigSep Finset.univ fun kj => dSlotAt (F := F) c (stEquiv kj) :=
    bigSep_mono fun kj _ => payAt_dSlot c kj
  have h2 : (bigSep Finset.univ fun kj => dSlotAt (F := F) c (stEquiv kj))
      = bigSep Finset.univ fun j : Fin 12 => iprop(dSlotAt (F := F) c (0, j) ∗ dSlotAt (F := F) c (1, j) ∗ dSlotAt (F := F) c (2, j)) := by
    rw [← bigSep_univ_equiv stEquiv (dSlotAt (F := F) c), bigSep_3x12]
  rw [e]
  exact h1.trans (Entails.of_eq h2)

/-- The positions, tokens and credits of the 36 transfers, the partners' slots the entry barrier handed over, the
    input block and the result block at any contents: chunk by chunk, the state before the first transfer. -/
theorem chunks_intro (c : Dev nD) (fo : Buf (Elt F) ((c : Thread nD τ).loc cc0_stg1_0)) :
    iprop(((bigSep Finset.univ fun n : Fin 36 => sPos (F := F) c (n.val / 12) (n.val % 12))
          ∗ bigSep Finset.univ fun n : Fin 36 => rPos (F := F) c (n.val / 12) (n.val % 12))
        ∗ ((bigSep Finset.univ fun n : Fin 36 => sTok (F := F) c (n.val / 12) (n.val % 12))
          ∗ bigSep Finset.univ fun n : Fin 36 => rTok (F := F) c (n.val / 12) (n.val % 12))
        ∗ (bigSep Finset.univ fun n : Fin 36 => rCred (F := F) c (n.val / 12) (n.val % 12))
        ∗ (barPay (F := F) (xorDev c 0) 0 ∗ barPay (F := F) (xorDev c 1) 1 ∗ barPay (F := F) (xorDev c 2) 2)
        ∗ ((((c : Thread nD τ).loc cc0_stg0_0) ↦{fullShare} xs m c))
        ∗ ((((c : Thread nD τ).loc cc0_stg1_0) ↦{fullShare} fo)))
      ⊢ bigSep Finset.univ fun j : Fin 12 => St0 m c j.val j.isLt := by
  rw [bigSep_36 fun s j => sPos (F := F) c s j, bigSep_36 fun s j => rPos (F := F) c s j,
    bigSep_36 fun s j => sTok (F := F) c s j, bigSep_36 fun s j => rTok (F := F) c s j,
    bigSep_36 fun s j => rCred (F := F) c s j]
  have hO : ((((c : Thread nD τ).loc cc0_stg1_0) ↦{fullShare} fo : sProp 𝕄))
      ⊢ bigSep Finset.univ fun j : Fin 12 => iprop(∃ f, oPts (F := F) c j.val j.isLt f) :=
    (o_split (F := F) c fo).mp.trans (bigSep_mono fun j _ => exists_intro (Φ := fun f => oPts (F := F) c j.val j.isLt f) fo)
  refine (sep_mono_right (sep_mono_right (sep_mono_right
    (BIClass.sep_mono (pays_to_dslots c) (BIClass.sep_mono (x_split (F := F) c (xs m c)).mp hO))))).trans ?_
  simp only [← bigSep_sep']
  refine bigSep_mono fun j _ => ?_
  refine entails_of_eq ?_
  unfold St0 stageRes
  ac_rfl

/-- The kernel's own 72 semaphores at zero, chunk by chunk: departures, then arrivals. -/
theorem ownSems0_split (c : Dev nD) :
    (Pipeline.ownSems0 (Ix := Unit) (Name := ℕ) (U := UU) (Lvl := ℕ) (Val := Elt F) (τ := τ) osem c : sProp 𝕄)
      = iprop((bigSep Finset.univ fun j : Fin 12 => iprop(semVal (dCell c (sQ 0 j.val)) 0 ∗ semVal (dCell c (sQ 1 j.val)) 0 ∗ semVal (dCell c (sQ 2 j.val)) 0))
          ∗ bigSep Finset.univ fun j : Fin 12 => iprop(semVal (dCell c (rQ 0 j.val)) 0 ∗ semVal (dCell c (rQ 1 j.val)) 0 ∗ semVal (dCell c (rQ 2 j.val)) 0)) := by
  unfold Pipeline.ownSems0
  rw [bigSep_fin_add 36 36 (fun k : Fin 72 => (semVal ((c.tc : Thread nD τ), osem k) 0 : sProp 𝕄))]
  have es : ∀ n : Fin 36, osem (Fin.castAdd 36 n) = SemLoc.dma (sQ (n.val / 12) (n.val % 12)) := fun n => by
    have hn := n.isLt
    unfold osem
    exact congrArg SemLoc.dma (Fin.ext (by show (n.val + 2) % 74 = (2 + 12 * (n.val / 12) + n.val % 12) % 74; omega))
  have er : ∀ n : Fin 36, osem (Fin.natAdd 36 n) = SemLoc.dma (rQ (n.val / 12) (n.val % 12)) := fun n => by
    have hn := n.isLt
    unfold osem
    exact congrArg SemLoc.dma (Fin.ext (by show (36 + n.val + 2) % 74 = (38 + 12 * (n.val / 12) + n.val % 12) % 74; omega))
  have hS : (bigSep Finset.univ fun n : Fin 36 => (semVal ((c.tc : Thread nD τ), osem (Fin.castAdd 36 n)) 0 : sProp 𝕄))
      = bigSep Finset.univ fun n : Fin 36 => semVal (dCell c (sQ (n.val / 12) (n.val % 12))) 0 :=
    bigSep_congr fun n _ => by rw [es n]
  have hR : (bigSep Finset.univ fun n : Fin 36 => (semVal ((c.tc : Thread nD τ), osem (Fin.natAdd 36 n)) 0 : sProp 𝕄))
      = bigSep Finset.univ fun n : Fin 36 => semVal (dCell c (rQ (n.val / 12) (n.val % 12))) 0 :=
    bigSep_congr fun n _ => by rw [er n]
  rw [hS, hR, bigSep_36 fun s j => (semVal (dCell c (sQ s j)) 0 : sProp 𝕄), bigSep_36 fun s j => (semVal (dCell c (rQ s j)) 0 : sProp 𝕄)]

/-- At the end: the input block as it was, the result block at the running sum after three stages, the 36 own
    slots at what landed, and every own semaphore at zero. -/
theorem chunks_elim (c : Dev nD) :
    (bigSep Finset.univ fun j : Fin 12 => St4 m c j.val j.isLt)
      ⊢ iprop(((((c : Thread nD τ).loc cc0_stg0_0) ↦{fullShare} xs m c))
          ∗ ((((c : Thread nD τ).loc cc0_stg1_0) ↦{fullShare} acc m c 3))
          ∗ (bigSep Finset.univ fun sj : Fin 3 × Fin 12 => slotPts (F := F) c sj.1.val sj.2.val sj.1.isLt sj.2.isLt (landed m c))
          ∗ Pipeline.ownSems0 (Ix := Unit) (Name := ℕ) (U := UU) (Lvl := ℕ) (Val := Elt F) (τ := τ) osem c) := by
  have hx : ((((c : Thread nD τ).loc cc0_stg0_0) ↦{fullShare} xs m c : sProp 𝕄))
      = bigSep Finset.univ fun j : Fin 12 => xPts (F := F) c j.val j.isLt (xs m c) :=
    equiv_iff.mp ⟨(x_split (F := F) c (xs m c)).mp, (x_split (F := F) c (xs m c)).mpr⟩
  have ho : ((((c : Thread nD τ).loc cc0_stg1_0) ↦{fullShare} acc m c 3 : sProp 𝕄))
      = bigSep Finset.univ fun j : Fin 12 => oPts (F := F) c j.val j.isLt (acc m c 3) :=
    equiv_iff.mp ⟨(o_split (F := F) c (acc m c 3)).mp, (o_split (F := F) c (acc m c 3)).mpr⟩
  have hs : (bigSep Finset.univ fun sj : Fin 3 × Fin 12 => slotPts (F := F) c sj.1.val sj.2.val sj.1.isLt sj.2.isLt (landed m c))
      = bigSep Finset.univ fun j : Fin 12 => iprop(slotPts (F := F) c 0 j.val (by decide) j.isLt (landed m c)
          ∗ slotPts (F := F) c 1 j.val (by decide) j.isLt (landed m c) ∗ slotPts (F := F) c 2 j.val (by decide) j.isLt (landed m c)) :=
    bigSep_3x12 fun sj : Fin 3 × Fin 12 => slotPts (F := F) c sj.1.val sj.2.val sj.1.isLt sj.2.isLt (landed m c)
  rw [hx, ho, hs, ownSems0_split]
  simp only [← bigSep_sep']
  refine bigSep_mono fun j _ => ?_
  refine entails_of_eq ?_
  unfold St4 done
  ac_rfl

end Cert.KernelIdeal.Hand

end
-- ==== Proof.IdealSide.Prologue.lean ====
/-
  The entry handshake: a device tells its three partners it is inside the kernel, handing each the landing slots
  that partner will write, and waits until its three partners have told it the same.
-/
import proofs.«900610_g7700000000000611_dist_treered_v7x_i8_m256_n256_f32_1_alg».proof.Proof.IdealSide.Bundles
import proofs.«900610_g7700000000000611_dist_treered_v7x_i8_m256_n256_f32_1_alg».proof.Proof.IdealSide.Sched

noncomputable section

namespace Cert.KernelIdeal.Hand

open Cert.KernelIdeal Cert.KernelIdeal.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 73 → ℕ)

/-- A device's posts reach each of its three partners: both are TensorCores. -/
theorem routes_xor (c : Dev nD) (k : Fin 3) :
    τ.routes (c : Thread nD τ) (Dev.tc (xorDev c k) : Thread nD τ) = true := by routes

/-- The three entry signals and the wait for three, at the head of any program: the device pays duty `k` of the
    entry barrier of its partner under mask `k` with its own slots of that partner's stages, and receives from its
    own barrier's round the three partners' slots. What it owes goes from everything to the 36 transfers' credits. -/
theorem step_prologue (c : Dev nD) (W : Waits sig Unit)
    {α : Type} {Q : α → sProp 𝕄} {kont : PUnit → Prog (TpuEff nD τ sig (Elt F) Λ₀ .tc) α} :
    iprop(records m K ∗ levAts L lv ∗ atPos ER (barCell c) 0 ∅ 0
        ∗ (bigSep Finset.univ fun k : Fin 3 => dutyTok ER (barCell (xorDev c k)) 0 k)
        ∗ cred (tallyAt (barCell c) () 3)
        ∗ (barPay (F := F) c 0 ∗ barPay (F := F) c 1 ∗ barPay (F := F) c 2)
        ∗ owes (c : Thread nD τ) (O₀ c) W)
      ⊢ iprop((((barPay (F := F) (xorDev c 0) 0 ∗ barPay (F := F) (xorDev c 1) 1 ∗ barPay (F := F) (xorDev c 2) 2)
              ∗ ∃ W', owes (c : Thread nD τ) (owedRem c 36) W')
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal (Dev.tc (xorDev c 0) : Thread nD τ) barS (1#32).toNat) fun _ =>
                .op (.semSignal (Dev.tc (xorDev c 1) : Thread nD τ) barS (1#32).toNat) fun _ =>
                .op (.semSignal (Dev.tc (xorDev c 2) : Thread nD τ) barS (1#32).toNat) fun _ =>
                .op (.semWait barS (3#32).toNat) kont) Q) := by
  have e1 : (1#32).toNat = 1 := by decide
  have e3 : (3#32).toNat = 3 := by decide
  have h3 : ∀ Φ : Fin 3 → sProp 𝕄, bigSep Finset.univ Φ = iprop(Φ 0 ∗ Φ 1 ∗ Φ 2) :=
    fun Φ => bigSep_univ_eq_bigSepL [0, 1, 2] (by decide) (by decide) Φ
  rw [e1, e3, h3]
  iintro ⟨#Hrec, Hlev, Hat, ⟨Ht0, Ht1, Ht2⟩, Hc, ⟨Hp0, Hp1, Hp2⟩, HO⟩ Hk
  -- the signal to the partner under mask 0: duty 0 of that partner's entry barrier is this device's to pay
  iapply (Rounds.wp_signal 𝒱₀ ER (treeRd (F := F) m) (c : Thread nD τ) none (dst := (Dev.tc (xorDev c 0) : Thread nD τ))
      (κ := K (xorDev c 0, 0)) (d := (0 : Fin 3)) (r := 0) (k' := 1)
      (by rw [duties_bar]; exact Finset.mem_univ _) (amount_bar m (xorDev c 0) 0) ()
      ((owedRem c 36 + tallyBar c 2) + tallyBar c 1) rfl (routes_xor c 0)) $$ [HO Ht0 Hp0]
  · isplitr; · iapply (inv_bar m K (xorDev c 0)); iexact Hrec
    isplitl [HO]; · iexact HO
    isplitl [Ht0]; · iexact Ht0
    isplitl [Hp0]; · rw [payload_bar, xorDev_xorDev]; iexact Hp0
    iapply (reached_bar m K (xorDev c 0)); iexact Hrec
  iintro HO
  -- the signal to the partner under mask 1
  iapply (Rounds.wp_signal 𝒱₀ ER (treeRd (F := F) m) (c : Thread nD τ) none (dst := (Dev.tc (xorDev c 1) : Thread nD τ))
      (κ := K (xorDev c 1, 0)) (d := (1 : Fin 3)) (r := 0) (k' := 1)
      (by rw [duties_bar]; exact Finset.mem_univ _) (amount_bar m (xorDev c 1) 1) ()
      (owedRem c 36 + tallyBar c 2) rfl (routes_xor c 1)) $$ [HO Ht1 Hp1]
  · isplitr; · iapply (inv_bar m K (xorDev c 1)); iexact Hrec
    isplitl [HO]; · iexact HO
    isplitl [Ht1]; · iexact Ht1
    isplitl [Hp1]; · rw [payload_bar, xorDev_xorDev]; iexact Hp1
    iapply (reached_bar m K (xorDev c 1)); iexact Hrec
  iintro HO
  -- the signal to the partner under mask 2
  iapply (Rounds.wp_signal 𝒱₀ ER (treeRd (F := F) m) (c : Thread nD τ) none (dst := (Dev.tc (xorDev c 2) : Thread nD τ))
      (κ := K (xorDev c 2, 0)) (d := (2 : Fin 3)) (r := 0) (k' := 1)
      (by rw [duties_bar]; exact Finset.mem_univ _) (amount_bar m (xorDev c 2) 2) ()
      (owedRem c 36) rfl (routes_xor c 2)) $$ [HO Ht2 Hp2]
  · isplitr; · iapply (inv_bar m K (xorDev c 2)); iexact Hrec
    isplitl [HO]; · iexact HO
    isplitl [Ht2]; · iexact Ht2
    isplitl [Hp2]; · rw [payload_bar, xorDev_xorDev]; iexact Hp2
    iapply (reached_bar m K (xorDev c 2)); iexact Hrec
  iintro HO
  -- the wait for the three units of the own entry barrier's first round: what is still owed, the 36 arrival
  -- credits, lies above the barrier, and the round hands over the three partners' slots
  iapply (Rounds.wp_wait_rest_token 𝒱₀ ER (treeRd (F := F) m) (c : Thread nD τ) none (κ := K (c, 0))
      (wpE_semWait_eq 𝒱₀ (c : Thread nD τ) none Set.univ) (Set.mem_univ _) () (O := owedRem c 36) (W := W)
      (R := 0) (m := 0) (T := ∅) (by rw [expect_bar])) $$ [Hc HO Hlev Hat]
  · isplitr; · iapply (inv_bar m K c); iexact Hrec
    isplitl [Hc]; · iexact Hc
    isplitl [HO]; · iexact HO
    isplitl [Hlev]; · iapply (mayWait_bar c); iexact Hlev
    iexact Hat
  iintro ⟨HO, -, -, Hpay⟩
  iapply Hk
  isplitl [Hpay]
  · iapply (Entails.of_eq (rest_bar m c)); iexact Hpay
  · iexists _; iexact HO

end Cert.KernelIdeal.Hand

end
-- ==== Proof.IdealSide.Devs.lean ====
/-
  The device numbers the kernel computes (its own number xor a mask) are the partners.
-/
import proofs.«900610_g7700000000000611_dist_treered_v7x_i8_m256_n256_f32_1_alg».proof.Proof.IdealSide.Proto
import Lean.Elab.Command

noncomputable section

namespace Cert.KernelIdeal.Hand

open Cert.KernelIdeal Cert.KernelIdeal.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The three entry signals go to the partners under masks 0, 1, 2. -/
theorem dev1_eq (c : Dev nD) : (⟨k0_dev1 c, k0_dev1_lt c⟩ : Dev nD) = xorDev c 0 := by revert c; decide
theorem dev2_eq (c : Dev nD) : (⟨k0_dev2 c, k0_dev2_lt c⟩ : Dev nD) = xorDev c 1 := by revert c; decide
theorem dev3_eq (c : Dev nD) : (⟨k0_dev3 c, k0_dev3_lt c⟩ : Dev nD) = xorDev c 2 := by revert c; decide

open Lean Elab Command in
/-- The `n`-th transfer in program order (`n = 0 .. 35`) is the one of stage `n / 12` and chunk `n % 12`, and
    the device it addresses is the partner of that stage and chunk: one equation per transfer, `dev4_eq` for
    `n = 0` up to `dev39_eq` for `n = 35`, stage and chunk written as numerals. -/
local elab "transfer_device_equations" : command => do
  for n in [0:36] do
    let thm := mkIdent (Name.mkSimple s!"dev{n + 4}_eq")
    let dev := mkIdent (Name.mkSimple s!"k0_dev{n + 4}")
    let devLt := mkIdent (Name.mkSimple s!"k0_dev{n + 4}_lt")
    let st := Syntax.mkNumLit (toString (n / 12))
    let ch := Syntax.mkNumLit (toString (n % 12))
    elabCommand (← `(theorem $thm (c : Dev nD) : (⟨$dev c, $devLt c⟩ : Dev nD) = peer c $st $ch := by revert c; decide))

transfer_device_equations

end Cert.KernelIdeal.Hand

end
-- ==== Proof.IdealSide.BodyRun.lean ====
/-
  One device's whole body: the entry handshake, the twelve first transfers, then stage by stage and chunk by chunk
  the waits, the addition and the next transfer.
-/
import proofs.«900610_g7700000000000611_dist_treered_v7x_i8_m256_n256_f32_1_alg».proof.Proof.IdealSide.Steps
import proofs.«900610_g7700000000000611_dist_treered_v7x_i8_m256_n256_f32_1_alg».proof.Proof.IdealSide.StepB
import proofs.«900610_g7700000000000611_dist_treered_v7x_i8_m256_n256_f32_1_alg».proof.Proof.IdealSide.StepC
import proofs.«900610_g7700000000000611_dist_treered_v7x_i8_m256_n256_f32_1_alg».proof.Proof.IdealSide.StepD
import proofs.«900610_g7700000000000611_dist_treered_v7x_i8_m256_n256_f32_1_alg».proof.Proof.IdealSide.Regroup
import proofs.«900610_g7700000000000611_dist_treered_v7x_i8_m256_n256_f32_1_alg».proof.Proof.IdealSide.Prologue
import proofs.«900610_g7700000000000611_dist_treered_v7x_i8_m256_n256_f32_1_alg».proof.Proof.IdealSide.Devs
import Lean.Elab.Tactic
import proofs.«900610_g7700000000000611_dist_treered_v7x_i8_m256_n256_f32_1_alg».proof.Proof.Gen.KernelIdeal.Points

noncomputable section

namespace Cert.KernelIdeal.Hand

open Cert.KernelIdeal Cert.KernelIdeal.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 73 → ℕ)

theorem cfg0_N : cfg0.N = 1 := by decide
/-- The one grid point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A whole staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, the names of the cells' invariants fixed. -/
def bodyPre (c : Dev nD) : sProp 𝕄 :=
  iprop((ghost m K c ∗ creds (F := F) c ∗ levAts L lv ∗ ∃ f, (((c : Thread nD τ).loc cc0_scratch0) ↦{fullShare} f))
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- What it ends in. -/
def bodyPost (c : Dev nD) : sProp 𝕄 :=
  iprop(Φ₁ (F := F) c ∗ (dats m 0 c).owesAt () t₀.succ ∗ stg c cc0_stg0_0 (xs m c) ∗ stg c cc0_stg1_0 (acc m c 3))

omit [FloatOps F] in
/-- Twelve chunks, one by one. -/
theorem bigSep_fin12 (Φ : Fin 12 → sProp 𝕄) :
    bigSep Finset.univ Φ = iprop(Φ ⟨0, by decide⟩ ∗ Φ ⟨1, by decide⟩ ∗ Φ ⟨2, by decide⟩ ∗ Φ ⟨3, by decide⟩ ∗ Φ ⟨4, by decide⟩ ∗ Φ ⟨5, by decide⟩
      ∗ Φ ⟨6, by decide⟩ ∗ Φ ⟨7, by decide⟩ ∗ Φ ⟨8, by decide⟩ ∗ Φ ⟨9, by decide⟩ ∗ Φ ⟨10, by decide⟩ ∗ Φ ⟨11, by decide⟩) :=
  bigSep_univ_eq_bigSepL ([⟨0, by decide⟩, ⟨1, by decide⟩, ⟨2, by decide⟩, ⟨3, by decide⟩, ⟨4, by decide⟩, ⟨5, by decide⟩,
    ⟨6, by decide⟩, ⟨7, by decide⟩, ⟨8, by decide⟩, ⟨9, by decide⟩, ⟨10, by decide⟩, ⟨11, by decide⟩] : List (Fin 12)) (by decide) (by decide) Φ

theorem fetch_0 (t : Fin cfg0.N) : (cfg0.win (0 : Fin 2)).fetch t = true := by rw [fin_N t]; rfl

/-! The chunk's four steps at the head of the remaining program: chunk `C` at rows `a .. a + R`, the device equation
    of the transfer issued, and how many transfers remain after it. -/

set_option hygiene false in
macro "runA " C:ident d:ident j:num a:num R:num k:num : tactic => `(tactic| (
  icases HO with ⟨%Wn, HO⟩
  iapply (stepA m K c _ $j $a $R (by decide) ($d c) rfl rfl (by decide) (by decide) (by decide) (by decide) (by decide) $k (by decide) Wn) $$ [$C:ident HO]
  · isplitr; · iexact Hrec
    isplitl [$C:ident]; · iexact $C:ident
    iexact HO
  iintro ⟨$C:ident, HO⟩))

set_option hygiene false in
macro "runB " C:ident d:ident j:num a:num R:num k:num : tactic => `(tactic| (
  icases HO with ⟨%Wn, HO⟩
  iapply (stepB m K c _ $j $a $R (by decide) ($d c) rfl rfl (by decide) (by decide) (by decide) (by decide) (by decide) (by decide) (by decide) (by decide)
      (by decide) (by decide) $k (by decide) Wn) $$ [$C:ident HO]
  · isplitr; · iexact Hrec
    isplitr; · iexact Hlev
    isplitl [$C:ident]; · iexact $C:ident
    iexact HO
  iintro ⟨$C:ident, HO⟩))

set_option hygiene false in
macro "runC " C:ident d:ident j:num a:num R:num k:num : tactic => `(tactic| (
  icases HO with ⟨%Wn, HO⟩
  iapply (stepC m K c _ $j $a $R (by decide) ($d c) rfl rfl (by decide) (by decide) (by decide) (by decide) (by decide) (by decide)
      (by decide) (by decide) $k (by decide) Wn) $$ [$C:ident HO]
  · isplitr; · iexact Hrec
    isplitr; · iexact Hlev
    isplitl [$C:ident]; · iexact $C:ident
    iexact HO
  iintro ⟨$C:ident, HO⟩))

set_option hygiene false in
macro "runD " C:ident j:num a:num R:num : tactic => `(tactic| (
  icases HO with ⟨%Wn, HO⟩
  iapply (stepD m K c $j $a $R (by decide) rfl rfl (by decide) (by decide) (by decide) (by decide) (by decide) (by decide) Wn) $$ [$C:ident HO]
  · isplitr; · iexact Hrec
    isplitr; · iexact Hlev
    isplitl [$C:ident]; · iexact $C:ident
    iexact HO
  iintro ⟨$C:ident, HO⟩))

/-! The twelve chunks of a stage in order: chunk `j` starts at row `24 j` (eight chunks of 24 rows) or `192 + 16 (j - 8)`
    (four of 16); the `n`-th transfer's device equation is number `4 + n`; after it `35 - n` transfers remain. -/

open Lean Elab Tactic in
elab "run_stage_A" : tactic => do
  for j in [0:12] do
    let a := if j < 8 then 24 * j else 192 + 16 * (j - 8)
    let R := if j < 8 then 24 else 16
    let C := mkIdent (Name.mkSimple s!"C{j}")
    let d := mkIdent (Name.mkSimple s!"dev{4 + j}_eq")
    evalTactic (← `(tactic| runA $C $d $(Syntax.mkNumLit (toString j)) $(Syntax.mkNumLit (toString a)) $(Syntax.mkNumLit (toString R)) $(Syntax.mkNumLit (toString (35 - j)))))

open Lean Elab Tactic in
elab "run_stage_B" : tactic => do
  for j in [0:12] do
    let a := if j < 8 then 24 * j else 192 + 16 * (j - 8)
    let R := if j < 8 then 24 else 16
    let C := mkIdent (Name.mkSimple s!"C{j}")
    let d := mkIdent (Name.mkSimple s!"dev{16 + j}_eq")
    evalTactic (← `(tactic| runB $C $d $(Syntax.mkNumLit (toString j)) $(Syntax.mkNumLit (toString a)) $(Syntax.mkNumLit (toString R)) $(Syntax.mkNumLit (toString (23 - j)))))

open Lean Elab Tactic in
elab "run_stage_C" : tactic => do
  for j in [0:12] do
    let a := if j < 8 then 24 * j else 192 + 16 * (j - 8)
    let R := if j < 8 then 24 else 16
    let C := mkIdent (Name.mkSimple s!"C{j}")
    let d := mkIdent (Name.mkSimple s!"dev{28 + j}_eq")
    evalTactic (← `(tactic| runC $C $d $(Syntax.mkNumLit (toString j)) $(Syntax.mkNumLit (toString a)) $(Syntax.mkNumLit (toString R)) $(Syntax.mkNumLit (toString (11 - j)))))

open Lean Elab Tactic in
elab "run_stage_D" : tactic => do
  for j in [0:12] do
    let a := if j < 8 then 24 * j else 192 + 16 * (j - 8)
    let R := if j < 8 then 24 else 16
    let C := mkIdent (Name.mkSimple s!"C{j}")
    evalTactic (← `(tactic| runD $C $(Syntax.mkNumLit (toString j)) $(Syntax.mkNumLit (toString a)) $(Syntax.mkNumLit (toString R))))

set_option maxRecDepth 65536 in
set_option maxHeartbeats 40000000 in
/-- The body, from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (F := F) xM (Memref.isWhole_whole _) oM (Memref.isWhole_whole _) cM (Memref.isWhole_whole _) cc0_scratch1 cc0_scratch2) Kt := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel,
    semSignalWord, semWaitWord, Prog.lift, Prog.bind_op, Prog.bind_ret, Prog.pure_eq_ret, wp_deviceId]
  simp only [dev1_eq c, dev2_eq c, dev3_eq c]
  unfold bodyPre ghost
  iintro ⟨⟨⟨⟨#Hrec, Hpos, Htoks⟩, Hcr, #Hlev, ⟨%f0, Hcomm⟩⟩, Ho, ⟨%d0, %g0, %hg0, Hx⟩, ⟨%d1, %g1, %hg1, Hout⟩⟩, Hk⟩
  have hx : g0 = xs m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  -- the launch's dealing, taken apart
  ihave Hpos' := (positions_split c).1 $$ Hpos
  icases Hpos' with ⟨HatB, HsP, HrP⟩
  unfold payToks creds
  icases Htoks with ⟨HtB, HtS, HtR⟩
  icases Hcr with ⟨HcB, HcR⟩
  -- the own landing slots go to the partners with the entry signals
  ihave Hsl := (c_split c f0).1 $$ Hcomm
  icases Hsl with ⟨Hslots, Hrest⟩
  ihave Hpays := (own_slots_to_pays m K c f0) $$ [Hslots]
  · isplitr; · iexact Hrec
    iexact Hslots
  iapply (step_prologue m K c W) $$ [HatB HtB HcB Hpays HO]
  · isplitr; · iexact Hrec
    isplitr; · iexact Hlev
    isplitl [HatB]; · iexact HatB
    isplitl [HtB]; · iexact HtB
    isplitl [HcB]; · iexact HcB
    isplitl [Hpays]; · iexact Hpays
    iexact HO
  iintro ⟨Hpp, HO⟩
  -- chunk by chunk
  ihave Hch := (chunks_intro m c g1) $$ [HsP HrP HtS HtR HcR Hpp Hx Hout]
  · isplitl [HsP HrP]
    · isplitl [HsP]; · iexact HsP
      iexact HrP
    isplitl [HtS HtR]
    · isplitl [HtS]; · iexact HtS
      iexact HtR
    isplitl [HcR]; · iexact HcR
    isplitl [Hpp]; · iexact Hpp
    isplitl [Hx]; · iexact Hx
    iexact Hout
  ihave Hch' := (Entails.of_eq (bigSep_fin12 _)) $$ Hch
  icases Hch' with ⟨C0, C1, C2, C3, C4, C5, C6, C7, C8, C9, C10, C11⟩
  run_stage_A
  run_stage_B
  run_stage_C
  run_stage_D
  -- the chunks collected
  icases HO with ⟨%Wn, HO⟩
  ihave Hall := (Entails.of_eq (bigSep_fin12 (fun j : Fin 12 => St4 m c j.val j.isLt)).symm) $$ [C0 C1 C2 C3 C4 C5 C6 C7 C8 C9 C10 C11]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    iexact C11
  ihave Hend := (chunks_elim m c) $$ Hall
  icases Hend with ⟨Hx, Hout, Hslots, Hsems⟩
  ihave Hcomm := (c_join c (landed m c) f0) $$ [Hslots Hrest]
  · isplitl [Hslots]; · iexact Hslots
    iexact Hrest
  rw [wp_ret]; imodintro
  iapply Hk
  unfold bodyPost Φ₁ Dat.owesAt Pipeline.owesWithin
  rw [show (dats m 0 c).owed t₀.succ = 0 from rfl]
  isplitl [Hcomm Hsems]
  · isplitl [Hcomm]; · iexact Hcomm
    iexact Hsems
  isplitl [HO]
  · iexists Wn
    isplitr; · ipureintro; exact fun _ _ => Or.inl trivial
    iexact HO
  isplitl [Hx]
  · iexists _; isplitr; · (ipureintro; rfl)
    iexact Hx
  iexists _; isplitr; · (ipureintro; rfl)
  iexact Hout

end Cert.KernelIdeal.Hand

end
-- ==== Proof.IdealSide.Body.lean ====
/-
  The library's body obligation from the body's run.
-/
import proofs.«900610_g7700000000000611_dist_treered_v7x_i8_m256_n256_f32_1_alg».proof.Proof.IdealSide.BodyRun

noncomputable section

namespace Cert.KernelIdeal.Hand

open Cert.KernelIdeal Cert.KernelIdeal.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A whole buffer owned at contents `X` is that buffer at some contents that equal `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A separating product over the two windows, written out. -/
theorem bigSep_W (Φ : Fin cfg0.W → sProp 𝕄) : bigSep Finset.univ Φ = iprop(Φ (0 : Fin 2) ∗ Φ (1 : Fin 2)) := bigSep_W0 Φ

/-- The obligation's precondition at the one grid point: the invariant before the body, what the device owes, and
    the two staging buffers at what they then hold. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (F := F) xM (Memref.isWhole_whole _) oM (Memref.isWhole_whole _) cM (Memref.isWhole_whole _) cc0_scratch1 cc0_scratch2)
    (fun _ => bodyPost m c)
  unfold bodyPre' Φ₀ start
  iintro ⟨⟨⟨⟨%K, Hg⟩, Hc, Hl⟩, Hscr⟩, Ho, Hx, Hout⟩
  iapply (sound_body m K c fun _ => bodyPost m c)
  unfold bodyPre
  isplitr []
  · isplitl [Hg Hc Hl Hscr]
    · isplitl [Hg]; · iexact Hg
      isplitl [Hc]; · iexact Hc
      isplitl [Hl]; · iexact Hl
      iexact Hscr
    isplitl [Ho]; · iexact Ho
    isplitl [Hx] <;> iassumption
  · iintro H; iexact H

end Cert.KernelIdeal.Hand

end
-- ==== Proof.IdealSide.Launch.lean ====
/-
  The launch: from each device's body to the run of the whole mesh.
-/
import proofs.«900610_g7700000000000611_dist_treered_v7x_i8_m256_n256_f32_1_alg».proof.Proof.IdealSide.Body

noncomputable section

namespace Cert.KernelIdeal.Hand

open Cert.KernelIdeal Cert.KernelIdeal.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m 0 c).share w = fullShare := by unfold Dat.share; split <;> rfl

theorem L_of_ne (g : GSem nD τ sig) (h : g.1.2 ≠ .tc) : L g = ∅ := if_neg h

theorem csem_injective : Function.Injective csem := by
  intro i i' h
  unfold csem at h
  by_cases h0 : i.val = 0 <;> by_cases h0' : i'.val = 0
  · exact Fin.ext (h0.trans h0'.symm)
  · rw [if_pos h0, if_neg h0'] at h; cases h
  · rw [if_neg h0, if_pos h0'] at h; cases h
  · rw [if_neg h0, if_neg h0'] at h
    have h1 := congrArg Fin.val (SemLoc.dma.inj h)
    have h2 : (i.val + 1) % 74 = (i'.val + 1) % 74 := h1
    exact Fin.ext (by omega)

theorem kcell_injective : Function.Injective (kcell : Dev nD × Fin 73 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def treeCells : Finset (GSem nD τ sig) := Finset.univ.map ⟨kcell, kcell_injective⟩

/-- The duties of a device's own cells: the three of its entry barrier, one per departure, one per arrival. -/
abbrev TI : Type := Fin 3 ⊕ (Fin 36 ⊕ Fin 36)

/-- A device's own cells' duty tokens as minted. -/
def tokOf (cj : Dev nD × TI) : GSem nD τ sig × ℕ × Fin 3 := match cj.2 with
  | .inl k => (barCell cj.1, 0, k)
  | .inr (.inl n) => (dCell cj.1 (sQ (n.val / 12) (n.val % 12)), 0, 0)
  | .inr (.inr n) => (dCell cj.1 (rQ (n.val / 12) (n.val % 12)), 0, 0)

theorem sQn_val (n : Fin 36) : (sQ (n.val / 12) (n.val % 12)).val = 2 + n.val := by
  rw [sQ_val _ _ (by omega) (by omega)]; omega
theorem rQn_val (n : Fin 36) : (rQ (n.val / 12) (n.val % 12)).val = 38 + n.val := by
  rw [rQ_val _ _ (by omega) (by omega)]; omega

theorem tokOf_injective : Function.Injective (tokOf : Dev nD × TI → GSem nD τ sig × ℕ × Fin 3) := by
  rintro ⟨c, j⟩ ⟨c', j'⟩ h
  have h1 : c = c' := by
    have := congrArg (fun x : GSem nD τ sig × ℕ × Fin 3 => x.1.1.1) h
    rcases j with k | n | n <;> rcases j' with k' | n' | n' <;> exact this
  subst h1
  have h2 := congrArg (fun x : GSem nD τ sig × ℕ × Fin 3 => (x.1.2, x.2.2)) h
  have : j = j' := by
    rcases j with k | n | n <;> rcases j' with k' | n' | n' <;> simp only [tokOf, Prod.mk.injEq] at h2
    · rw [h2.2]
    · exact absurd h2.1 (by intro h'; cases h')
    · exact absurd h2.1 (by intro h'; cases h')
    · exact absurd h2.1 (by intro h'; cases h')
    · have := congrArg Fin.val (SemLoc.dma.inj h2.1); rw [sQn_val, sQn_val] at this
      exact congrArg _ (congrArg _ (Fin.ext (by omega)))
    · have := congrArg Fin.val (SemLoc.dma.inj h2.1); rw [sQn_val, rQn_val] at this
      exact absurd this (by omega)
    · exact absurd h2.1 (by intro h'; cases h')
    · have := congrArg Fin.val (SemLoc.dma.inj h2.1); rw [rQn_val, sQn_val] at this
      exact absurd this (by omega)
    · have := congrArg Fin.val (SemLoc.dma.inj h2.1); rw [rQn_val, rQn_val] at this
      exact congrArg _ (congrArg _ (Fin.ext (by omega)))
  subst this; rfl
def treeToks : Finset (GSem nD τ sig × ℕ × Fin 3) := Finset.univ.map ⟨tokOf, tokOf_injective⟩

def u₀ : UU :=
  (initOf (Pipeline.cells cfgs cellOf_inj) (Pipeline.launchToks cfgs cellOf_inj), initOf treeCells treeToks)

/-- The duty tokens of device `c`'s own cells. -/
def toks (c : Dev nD) : sProp 𝕄 :=
  iprop((bigSep Finset.univ fun k : Fin 3 => dutyTok ER (barCell c) 0 k)
    ∗ (bigSep Finset.univ fun n : Fin 36 => dutyTok ER (dCell c (sQ (n.val / 12) (n.val % 12))) 0 (0 : Fin 3))
    ∗ (bigSep Finset.univ fun n : Fin 36 => dutyTok ER (dCell c (rQ (n.val / 12) (n.val % 12))) 0 (0 : Fin 3)))

/-- What the launch element deals device `c`. -/
def G (c : Dev nD) : sProp 𝕄 :=
  iprop((bigSep Finset.univ fun i : Fin 73 => roundState ER (treeRd m) (kcell (c, i)) 0)
    ∗ (bigSep Finset.univ fun i : Fin 73 => iprop(atPos ER (kcell (c, i)) 0 ∅ 0 ∗ reached ER (kcell (c, i)) 0)) ∗ toks c)

/-- What the global step makes of it. -/
def G' (c : Dev nD) : sProp 𝕄 := iprop(∃ K, ghost m K c)

theorem fund_tree : BI.own (ER (initOf treeCells treeToks)) ⊢ (|==> bigSep Finset.univ (G m) : sProp 𝕄) := by
  have hX (Φ : GSem nD τ sig → sProp 𝕄) : bigSep treeCells Φ = bigSep Finset.univ fun c : Dev nD => bigSep Finset.univ fun i : Fin 73 => Φ (kcell (c, i)) := by
    unfold treeCells; rw [bigSep_map, bigSep_univ_prod]; rfl
  have hT : bigSep treeToks (fun x => (dutyTok ER x.1 x.2.1 x.2.2 : sProp 𝕄)) = bigSep Finset.univ fun c : Dev nD => toks c := by
    unfold treeToks; rw [bigSep_map, bigSep_univ_prod]
    exact bigSep_congr fun c _ => by unfold toks; rw [bigSep_univ_sum, bigSep_univ_sum]; rfl
  iintro HX
  imod (Rounds.fund ER (treeRd m) treeCells treeToks) $$ HX with ⟨Hst, Hr, Hat, Htok⟩
  imodintro
  ihave Hst' := (Entails.of_eq (hX fun g => roundState ER (treeRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- Every payload of the schedule can be kept in an invariant. -/
instance treeRd_payload_storable_L (g : GSem nD τ sig) (r : ℕ) (d : Fin 3) :
    BI.Storable (upEmb : UEmb _ 𝕄) ((treeRd (F := F) m).payload g r d) := by
  dsimp only [treeRd]
  unfold barPay sendPay recvPay slotPts xPts oPts
  (repeat' split) <;> infer_instance

/-! ### The semaphores at zero, cell by cell -/

theorem bigSep_fin_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp [Fin.succ_ne_zero]), bigSep_map]; rfl

/-- The runtime's entry-barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem osem_eq (k : Fin 72) : osem k = csem k.succ := by
  unfold osem csem
  rw [if_neg (by simp)]
  exact congrArg SemLoc.dma (Fin.ext (by simp only [Fin.val_succ]))

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 73 => semVal (kcell (c, i)) 0 : sProp 𝕄) := by
  rw [unscopedSems0_eq, bigSep_fin_succ]
  unfold Pipeline.ownSems0
  iintro ⟨HS, HB⟩
  isplitl [HB]
  · rw [kcell_bar]; iexact HB
  · iapply (Entails.of_eq (bigSep_congr (s := Finset.univ) fun (k : Fin 72) _ =>
      show (semVal ((c.tc : Thread nD τ), osem k) 0 : sProp 𝕄) = semVal (kcell (c, k.succ)) 0 from by rw [osem_eq]))
    iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 73 => iprop(∃ κ : ℕ, cellInv ER (treeRd m) κ (kcell (c, i))))
          ∗ (bigSep Finset.univ fun i : Fin 73 => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Fin 73 => semVal (kcell (c, i)) 0) ∗ bigSep Finset.univ fun i : Fin 73 => roundState ER (treeRd m) (kcell (c, i)) 0)
      ⊢ (|={Set.univ}=> bigSep Finset.univ fun i : Fin 73 => iprop(∃ κ : ℕ, cellInv ER (treeRd m) κ (kcell (c, i))) : sProp 𝕄) from by
        rw [← bigSep_sep']
        exact (bigSep_mono fun i _ => (Rounds.body_intro ER (treeRd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt to the devices that pay them -/

/-- The partner under mask `k`, as a permutation of the devices. -/
def xorEquiv (k : Fin 3) : Dev nD ≃ Dev nD :=
  ⟨fun c => xorDev c k, fun c => xorDev c k, fun c => xorDev_xorDev c k, fun c => xorDev_xorDev c k⟩

/-- One duty name's tokens, dealt along the mask's permutation. -/
theorem deal (k : Fin 3) (Φ : Dev nD → sProp 𝕄) :
    (bigSep Finset.univ fun c : Dev nD => Φ c) = bigSep Finset.univ fun c : Dev nD => Φ (xorDev c k) :=
  bigSep_univ_equiv (xorEquiv k) Φ

/-- A family of tokens over the devices and an index, each index's dealt along its own permutation. -/
theorem deal_all {J : Type} [Fintype J] (κ : J → Fin 3) (Φ : Dev nD → J → sProp 𝕄) :
    (bigSep Finset.univ fun c : Dev nD => bigSep Finset.univ fun j : J => Φ c j)
      = bigSep Finset.univ fun c : Dev nD => bigSep Finset.univ fun j : J => Φ (xorDev c (κ j)) j := by
  rw [bigSep_univ_comm, bigSep_univ_comm (fun (c : Dev nD) (j : J) => Φ (xorDev c (κ j)) j)]
  exact bigSep_congr fun j _ => deal (κ j) fun c => Φ c j

/-- The entry token `k` of a device goes to its partner under mask `k`; the arrival token of `(s, j)` to the partner
    at that stage of that chunk; the departure tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal_all (fun k : Fin 3 => k) (fun (c : Dev nD) (k : Fin 3) => (dutyTok ER (barCell c) 0 k : sProp 𝕄)),
    deal_all (fun n : Fin 36 => maskIx (n.val / 12) (n.val % 12))
      (fun (c : Dev nD) (n : Fin 36) => (dutyTok ER (dCell c (rQ (n.val / 12) (n.val % 12))) 0 (0 : Fin 3) : sProp 𝕄))]
  exact BI.Entails.refl _

/-! ### From the allocated cells to what each device starts from -/

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 73 → ℕ) (c : Dev nD) : iprop(records m K ∗ positions c ∗ payToks c) ⊢ G' m c := by
  unfold G' ghost
  iintro H
  iexists K
  iexact H

theorem regroup :
    (bigSep Finset.univ fun c : Dev nD => iprop((bigSep Finset.univ fun i : Fin 73 => iprop(∃ κ : ℕ, cellInv ER (treeRd m) κ (kcell (c, i))))
          ∗ (bigSep Finset.univ fun i : Fin 73 => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × Fin 73 => iprop(∃ κ : ℕ, cellInv ER (treeRd m) κ (kcell ck))),
    bigSep_congr (s := Finset.univ) (fun (c : Dev nD) _ => bigSep_sep' Finset.univ (fun i : Fin 73 => (atPos ER (kcell (c, i)) 0 ∅ 0 : sProp 𝕄)) (fun i => reached ER (kcell (c, i)) 0)),
    bigSep_sep', ← bigSep_univ_prod (fun ck : Dev nD × Fin 73 => (reached ER (kcell ck) 0 : sProp 𝕄))]
  iintro ⟨HI, ⟨Hat, #HR⟩, Htok⟩
  ihave HK := (BI.bigSep_exists_pi Finset.univ (fun (ck : Dev nD × Fin 73) (κ : ℕ) => (cellInv ER (treeRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- The partner under mask `k` owes a device's entry barrier one unit. -/
theorem cred_bar (k : Fin 3) (c : Dev nD) :
    (Pipeline.launchCred (fun d => tallyBar d k) c : sProp 𝕄) ⊢ cred (tallyAt (barCell c) () 1) :=
  Pipeline.launchCred_tallyAt (SemLoc.reg barS) (fun d => xorDev d k) (fun d => xorDev d k) (fun c => xorDev_xorDev c k) (fun d => xorDev_xorDev d k) () 1 c

/-- The partner at the `n`-th transfer's stage and chunk owes the arrival cell of that transfer the chunk's credit. -/
theorem cred_send (n : ℕ) (c : Dev nD) :
    (Pipeline.launchCred (fun d => tallySend d n) c : sProp 𝕄)
      ⊢ cred (tallyAt (dCell c (rQ (n / 12) (n % 12))) () (NR (crows (n % 12)))) :=
  Pipeline.launchCred_tallyAt (SemLoc.dma (rQ (n / 12) (n % 12))) (fun d => peer d (n / 12) (n % 12)) (fun d => peer d (n / 12) (n % 12))
    (fun c => peer_peer c _ _) (fun d => peer_peer d _ _) () (NR (crows (n % 12))) c

theorem bigSep_insert_i {I : Type} [DecidableEq I] {s : Finset I} {i : I} (hi : i ∉ s) (Φ : I → sProp 𝕄) :
    bigSep (insert i s) Φ = iprop(Φ i ∗ bigSep s Φ) := BI.bigSep_insert hi

/-- The credits of the last `k` transfers. -/
theorem cred_rem (c : Dev nD) : ∀ k, k ≤ 36 →
    (Pipeline.launchCred (fun d => owedRem d k) c : sProp 𝕄)
      ⊢ bigSep (Finset.univ.filter fun n : Fin 36 => 36 - k ≤ n.val)
          fun n => cred (tallyAt (dCell c (rQ (n.val / 12) (n.val % 12))) () (NR (crows (n.val % 12))))
  | 0, _ => by
    rw [show (fun d : Dev nD => owedRem d 0) = fun _ => (0 : CellTallies nD τ sig Unit) from rfl, Pipeline.launchCred_zero,
      Finset.filter_false_of_mem (fun n _ => by have := n.isLt; omega)]
    exact Entails.of_eq rfl
  | k + 1, hk => by
    have hs : (Finset.univ.filter fun n : Fin 36 => 36 - (k + 1) ≤ n.val)
        = insert (⟨35 - k, by omega⟩ : Fin 36) (Finset.univ.filter fun n : Fin 36 => 36 - k ≤ n.val) := by
      ext n; simp only [Finset.mem_filter, Finset.mem_univ, true_and, Finset.mem_insert, Fin.ext_iff]; omega
    rw [show (fun d : Dev nD => owedRem d (k + 1)) = fun d => owedRem d k + tallySend d (35 - k) from rfl, Pipeline.launchCred_add, hs,
      bigSep_insert_i (by simp only [Finset.mem_filter, Finset.mem_univ, true_and]; omega)]
    iintro ⟨H1, H2⟩
    isplitl [H2]
    · iapply (cred_send (F := F) (35 - k) c); iexact H2
    · iapply (cred_rem c k (by omega)); iexact H1

theorem cred3 (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

/-- What the launch credits a device: three units on its entry barrier, each arrival's credit. -/
theorem creds_intro (c : Dev nD) : (Pipeline.launchCred O₀ c : sProp 𝕄) ⊢ creds c := by
  rw [show (O₀ : Dev nD → CellTallies nD τ sig Unit) = fun d => ((owedRem d 36 + tallyBar d 2) + tallyBar d 1) + tallyBar d 0 from rfl,
    Pipeline.launchCred_add, Pipeline.launchCred_add, Pipeline.launchCred_add]
  unfold creds
  iintro ⟨⟨⟨HR, H2⟩, H1⟩, H0⟩
  ihave H2' := (cred_bar (F := F) 2 c) $$ H2
  ihave H1' := (cred_bar (F := F) 1 c) $$ H1
  ihave H0' := (cred_bar (F := F) 0 c) $$ H0
  ihave HR' := (cred_rem (F := F) c 36 le_rfl) $$ HR
  isplitl [H0' H1' H2']
  · iapply (cred3 (F := F) (barCell c))
    isplitl [H0']; · iexact H0'
    isplitl [H1'] <;> iassumption
  · rw [Finset.filter_true_of_mem (fun n _ => by omega)]
    iexact HR'

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁
  iintro ⟨Hr, Hz⟩
  isplitr; · iempintro
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The statements -/

/-- What device `c`'s result array holds after the run. -/
def result (c : Dev nD) : Buf (Elt F) ((c.tc : Thread nD τ).loc main_v1) := (dats m 0 c).arrAt (1 : Fin 2) cfg0.N

/-- It is the running sum after three stages. -/
theorem result_eq (c : Dev nD) : result m c = acc m c 3 := by
  unfold result
  -- the one grid point writes the result window back
  have h := (dats m 0 c).arrAt_succ (1 : Fin 2) (⟨0, by decide⟩ : Fin cfg0.N)
  rw [if_pos (flush0_1 _)] at h
  refine h.trans ?_
  -- the window's one block is the whole 256 x 256 array at block index 0: reading it reads the array
  have hz : (fun a => (win0_1.index (⟨0, by decide⟩ : Fin grid0.N)) a * main_v1.ty.shape.size a) = fun _ => 0 :=
    funext fun a => by fin_cases a <;> decide
  have hr := fun f => Memref.read_access_unit_zero (Elt F) main_v1 hz (fun a => by fin_cases a <;> decide) f
  refine (hr _).symm.trans ?_
  -- and what was written over the whole block is what is read back: the body's result
  refine (View.read_write_univ _ _).trans ?_
  rfl

set_option maxRecDepth 100000 in
/-- At the compiled mesh of eight devices, from any memory with every semaphore at zero: every weakly fair execution
    terminates without a fault, each device's result array ends at its running sum after three stages, and its
    input array ends as it was. -/
theorem run_main : θ_run defs (onTc (τ := τ) (main (F := F))) ⟨m, fun _ => 0, ρ⟩ (fun r => ∀ c : Dev nD,
    r.2.mem ((c.tc : Thread nD τ).loc main_v1) = result m c
    ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_tree m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c => ⟨(h c).1 (1 : Fin 2), ((h c).1 (0 : Fin 2)).trans ((dats (F := F) m 0 c).arrAt_in (0 : Fin 2) rfl _)⟩)

end Cert.KernelIdeal.Hand

end
-- ==== Proof.BitsSide.Proto.lean ====
/-
  The butterfly all-reduce on eight devices: the names this proof speaks in.

  Each device holds its 256 x 256 block of the input in a staging buffer, a result staging buffer of the same shape,
  a landing buffer of 3 x 12 slots (stage, chunk) of up to 24 rows, and two families of 36 transfer semaphores
  (departures and arrivals), besides the runtime's entry-barrier semaphore.  At stage `s` of chunk `j` a device
  sends its running rows of the chunk to the partner `c xor mask` and adds what the partner sent.
-/
import proofs.«900610_g7700000000000611_dist_treered_v7x_i8_m256_n256_f32_1_alg».proof.Proof.Spec
import proofs.«900610_g7700000000000611_dist_treered_v7x_i8_m256_n256_f32_1_alg».proof.Proof.Gen.Kernel
import proofs.«900610_g7700000000000611_dist_treered_v7x_i8_m256_n256_f32_1_alg».proof.Proof.Gen.Kernel.Skeleton
import proofs.«900610_g7700000000000611_dist_treered_v7x_i8_m256_n256_f32_1_alg».proof.Proof.Gen.Kernel.Launch
import Idealize.ShloMosaic.Lib.Pipeline.Launch
import Idealize.ShloMosaic.Lib.Pipeline.Kit
import Idealize.ShloMosaic.Lib.Tactic
import Idealize.ShloMosaic.Lib.ValueIdx

noncomputable section

namespace Cert.Kernel.Hand

open Cert.Kernel Cert.Kernel.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duty names `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Shapes of a chunk of `R` rows -/

abbrev SR2 (R : ℕ) : Shape := ⟨2, ![R, 256]⟩
abbrev SR3 (R : ℕ) : Shape := ⟨3, ![1, R, 256]⟩
abbrev SR4 (R : ℕ) : Shape := ⟨4, ![1, 1, R, 256]⟩

/-! ## The buffers, and the views of a chunk -/

abbrev xM : Memref sig .tc .vmem S1x256x256 .f32 := Memref.whole cc0_stg0_0
abbrev oM : Memref sig .tc .vmem S256x256 .f32 := Memref.whole cc0_stg1_0
abbrev cM : Memref sig .tc .vmem S3x12x24x256 .f32 := Memref.whole cc0_scratch0

abbrev XInb (a R : ℕ) : Prop := ∀ i, (![0, a, 0] : Fin 3 → ℕ) i + (SR3 R).size i ≤ S1x256x256.size i
abbrev OInb (a R : ℕ) : Prop := ∀ i, (![a, 0] : Fin 2 → ℕ) i + (SR2 R).size i ≤ S256x256.size i
abbrev CInb (s j R : ℕ) : Prop := ∀ i, (![s, j, 0, 0] : Fin 4 → ℕ) i + (SR4 R).size i ≤ S3x12x24x256.size i
abbrev SInb (s j : ℕ) : Prop := ∀ i, (![s, j] : Fin 2 → ℕ) i + S1x1.size i ≤ S3x12.size i

/-- Rows `a .. a + R` of the input block. -/
abbrev xRect (a R : ℕ) (h : XInb a R) : Rect S1x256x256 :=
  Rect.unit (s := S1x256x256) ![0, a, 0] (SR3 R).size h
/-- Rows `a .. a + R` of the result block. -/
abbrev oRect (a R : ℕ) (h : OInb a R) : Rect S256x256 :=
  Rect.unit (s := S256x256) ![a, 0] (SR2 R).size h
/-- The first `R` rows of landing slot `(s, j)`. -/
abbrev cRect (s j R : ℕ) (h : CInb s j R) : Rect S3x12x24x256 :=
  Rect.unit (s := S3x12x24x256) ![s, j, 0, 0] (SR4 R).size h

abbrev xCh (a R : ℕ) (h : XInb a R) (hq : (SR3 R).Squeezes (SR2 R)) : Memref sig .tc .vmem (SR2 R) .f32 :=
  ((xM.slice (xRect a R h) (fun _ => rfl)).squeeze (SR2 R) hq)
abbrev oCh (a R : ℕ) (h : OInb a R) : Memref sig .tc .vmem (SR2 R) .f32 := oM.slice (oRect a R h) (fun _ => rfl)
abbrev cSl (s j R : ℕ) (h : CInb s j R) (hq : (SR4 R).Squeezes (SR2 R)) : Memref sig .tc .vmem (SR2 R) .f32 :=
  ((cM.slice (cRect s j R h) (fun _ => rfl)).squeeze (SR2 R) hq)

/-- The departure and arrival semaphores of `(s, j)`. -/
abbrev sSem (s j : ℕ) (h : SInb s j) : DmaSem sig :=
  ((cc0_scratch1.slice (Rect.unit (s := S3x12) ![s, j] S1x1.size h)).squeeze S_ squeezes_S1x1_S_).sem
abbrev rSem (s j : ℕ) (h : SInb s j) : DmaSem sig :=
  ((cc0_scratch2.slice (Rect.unit (s := S3x12) ![s, j] S1x1.size h)).squeeze S_ squeezes_S1x1_S_).sem

abbrev barS : Sem sig := (SemArray.scalar (sig.barrier 0 rfl) : Sems sig S_).sem

/-! ## Chunks: bounds that hold for every chunk -/

theorem xinb (j : ℕ) (hj : j < 12) : XInb (cstart j) (crows j) := by
  intro i; unfold cstart crows; fin_cases i <;> simp <;> split <;> omega
theorem oinb (j : ℕ) (hj : j < 12) : OInb (cstart j) (crows j) := by
  intro i; unfold cstart crows; fin_cases i <;> simp <;> split <;> omega
theorem cinb (s j : ℕ) (hs : s < 3) (hj : j < 12) : CInb s j (crows j) := by
  intro i; unfold crows; fin_cases i <;> simp <;> first | omega | (split <;> omega)
theorem sinb (s j : ℕ) (hs : s < 3) (hj : j < 12) : SInb s j := by
  intro i; fin_cases i <;> simp <;> omega
theorem sq3 (j : ℕ) : (SR3 (crows j)).Squeezes (SR2 (crows j)) := by unfold crows; split <;> decide
theorem sq4 (j : ℕ) : (SR4 (crows j)).Squeezes (SR2 (crows j)) := by unfold crows; split <;> decide

/-- The units a transfer of a chunk of `R` rows adds to each semaphore it completes on. -/
abbrev NR (R : ℕ) : ℕ := (oM : Memref sig .tc .vmem S256x256 .f32).view.buf |> fun b => sig.dmaCredit .tc (Kind.tc.table .vmem) b (SR2 R) .f32

/-! ## Cells -/

abbrev barCell (c : Dev nD) : GSem nD τ sig := ((c : Thread nD τ), .reg barS)
abbrev dCell (c : Dev nD) (q : DmaSem sig) : GSem nD τ sig := ((c : Thread nD τ), .dma q)

/-- Stage and chunk of a transfer semaphore, read off its number (departures are 2 .. 37, arrivals 38 .. 73). -/
def stOf (q : DmaSem sig) : ℕ := ((q.val - 2) % 36) / 12
def chOf (q : DmaSem sig) : ℕ := ((q.val - 2) % 36) % 12
theorem stOf_lt (q : DmaSem sig) : stOf q < 3 := by unfold stOf; omega
theorem chOf_lt (q : DmaSem sig) : chOf q < 12 := by unfold chOf; omega

/-! ## Contents -/

variable (m : (ℓ : Loc nD τ sig) → Buf (Elt F) ℓ) (ρ : Dev nD → PrngReg)

/-- The memory at launch. -/
def s₀ : MemSt nD τ sig (Elt F) := ⟨m, fun _ => 0, ρ⟩

/-- Device `c`'s block of the input, as staged. -/
def xs (c : Dev nD) : (cc0_stg0_0 : Ref sig .tc).ty.Contents (Elt F) :=
  (win0_0.blk (0 : Fin 1)).view.read (Elt F) (m ((c : Thread nD τ).loc main_arg0))

/-- The same, as a 256 x 256 array. -/
def x2 (c : Dev nD) : S256x256.Idx → F .f32 := fun i => xs m c (ValueIdx.ix3 (0 : Fin 1) (i 0) (i 1))

/-- Device `c`'s running sum after `s` stages: entry by entry the butterfly of the eight devices' entries, on
    the masks of the entry's chunk. -/
def acc (c : Dev nD) (s : ℕ) : (cc0_stg1_0 : Ref sig .tc).ty.Contents (Elt F) :=
  fun i => tree (FloatOps.addf (F := F) (φ := .f32)) (fun d => x2 m d i) (chunkOf (i 0).val) s c

/-- Row `r` of chunk `j`, as a row of the block. -/
def rowOf (j r : ℕ) : Fin 256 := ⟨(cstart j + r) % 256, Nat.mod_lt _ (by decide)⟩

/-- What device `c`'s landing buffer comes to hold: slot `(s, j)` the partner's running rows of chunk `j` after `s` stages. -/
def landed (c : Dev nD) : (cc0_scratch0 : Ref sig .tc).ty.Contents (Elt F) :=
  fun i => acc m (peer c (i 0).val (i 1).val) (i 0).val (ValueIdx.ix2 (rowOf (i 1).val (i 2).val) (⟨(i 3).val, (i 3).isLt⟩ : Fin 256))

/-! ## The schedule -/

/-- Slot `(s, j)` of device `c`'s landing buffer, at contents `f`. -/
def slotPts (c : Dev nD) (s j : ℕ) (hs : s < 3) (hj : j < 12) (f : Buf (Elt F) ((cSl s j (crows j) (cinb s j hs hj) (sq4 j)).view.loc (c : Thread nD τ))) : sProp 𝕄 :=
  (cSl s j (crows j) (cinb s j hs hj) (sq4 j)).view.loc (c : Thread nD τ) ↦[(cSl s j (crows j) (cinb s j hs hj) (sq4 j)).view.set]{fullShare} f
/-- Chunk `j` of device `c`'s input staging buffer, at contents `f`. -/
def xPts (c : Dev nD) (j : ℕ) (hj : j < 12) (f : Buf (Elt F) ((xCh (cstart j) (crows j) (xinb j hj) (sq3 j)).view.loc (c : Thread nD τ))) : sProp 𝕄 :=
  (xCh (cstart j) (crows j) (xinb j hj) (sq3 j)).view.loc (c : Thread nD τ) ↦[(xCh (cstart j) (crows j) (xinb j hj) (sq3 j)).view.set]{fullShare} f
/-- Chunk `j` of device `c`'s result staging buffer, at contents `f`. -/
def oPts (c : Dev nD) (j : ℕ) (hj : j < 12) (f : Buf (Elt F) ((oCh (cstart j) (crows j) (oinb j hj)).view.loc (c : Thread nD τ))) : sProp 𝕄 :=
  (oCh (cstart j) (crows j) (oinb j hj)).view.loc (c : Thread nD τ) ↦[(oCh (cstart j) (crows j) (oinb j hj)).view.set]{fullShare} f

/-- The stage of chunk `j` at which the partner is the one under mask number `k`. -/
def stageOf (k : Fin 3) (j : ℕ) : ℕ := (k.val + 3 - j % 3) % 3
theorem stageOf_lt (k : Fin 3) (j : ℕ) : stageOf k j < 3 := Nat.mod_lt _ (by decide)

/-- The departure semaphore's number and the arrival semaphore's. -/
def sQ (s j : ℕ) : DmaSem sig := ⟨(2 + 12 * s + j) % 74, Nat.mod_lt _ (by decide)⟩
def rQ (s j : ℕ) : DmaSem sig := ⟨(38 + 12 * s + j) % 74, Nat.mod_lt _ (by decide)⟩

/-- What the entry signal of the partner `p` under mask `k` hands a device: `p`'s twelve landing slots the device
    will write, one per chunk, and that `p` is at the first round of their arrival cells. -/
def barPay (p : Dev nD) (k : Fin 3) : sProp 𝕄 :=
  bigSep (Finset.univ : Finset (Fin 12)) fun j =>
    iprop((∃ f, slotPts (F := F) p (stageOf k j.val) j.val (stageOf_lt k j.val) j.isLt f)
      ∗ reached ER (dCell p (rQ (stageOf k j.val) j.val)) 0)

/-- What the departure of `(s, j)` hands back: the rows sent. -/
def sendPay (c : Dev nD) (s j : ℕ) (hj : j < 12) : sProp 𝕄 :=
  if s = 0 then xPts c j hj (xs m c) else oPts c j hj (acc m c s)
/-- What the arrival of `(s, j)` hands over: the slot at the partner's rows. -/
def recvPay (c : Dev nD) (s j : ℕ) (hs : s < 3) (hj : j < 12) : sProp 𝕄 := slotPts c s j hs hj (landed m c)

/-- One round. The barrier cell has three duties of one unit, duty `k` paid by the partner under mask `k`; a
    departure or arrival cell one duty of the chunk's credit. -/
def treeRd : Rounds.Schedule (GSem nD τ sig) (Fin 3) 𝕄 where
  duties g r :=
    if r = 0 ∧ g.1.2 = .tc then
      (match g.2 with
        | .reg _ => Finset.univ
        | .dma q => if 2 ≤ q.val then {0} else ∅)
    else ∅
  unitless _ := False
  amount g _ _ := match g.2 with
    | .reg _ => 1
    | .dma q => NR (crows (chOf q))
  payload g _ d := match g.2 with
    | .reg _ => barPay (xorDev g.1.1 d) d
    | .dma q =>
      if q.val < 2 then iprop(emp)
      else if q.val < 38 then sendPay m g.1.1 (stOf q) (chOf q) (chOf_lt q)
      else recvPay m g.1.1 (stOf q) (chOf q) (stOf_lt q) (chOf_lt q)
  amount_pos g _ _ _ := by
    cases g.2 with
    | reg _ => exact Nat.one_pos
    | dma q => exact View.dmaCredit_pos (oCh (cstart (chOf q)) (crows (chOf q)) (oinb _ (chOf_lt q))).view (by unfold crows; split <;> decide)

/-! ## What a device owes, in the order it pays -/

/-- The unit a device owes the entry barrier of its partner under mask `k`. -/
def tallyBar (c : Dev nD) (k : Fin 3) : CellTallies nD τ sig Unit := tallyAt (barCell (xorDev c k)) () 1
/-- The credit the `n`-th transfer (stage `n / 12`, chunk `n % 12`) owes the partner's arrival cell. -/
def tallySend (c : Dev nD) (n : ℕ) : CellTallies nD τ sig Unit :=
  tallyAt (dCell (peer c (n / 12) (n % 12)) (rQ (n / 12) (n % 12))) () (NR (crows (n % 12)))
/-- The credits of the last `k` of the 36 transfers. -/
def owedRem (c : Dev nD) : ℕ → CellTallies nD τ sig Unit
  | 0 => 0
  | k + 1 => owedRem c k + tallySend c (35 - k)
/-- Everything, the three entry signals outermost in the order they are sent. -/
def O₀ (c : Dev nD) : CellTallies nD τ sig Unit := ((owedRem c 36 + tallyBar c 2) + tallyBar c 1) + tallyBar c 0

/-! ## Levels: entry barriers below arrivals, arrivals in the order their transfers are issued -/

def L (g : GSem nD τ sig) : Finset Unit := if g.1.2 = .tc then {()} else ∅
def lv (g : GSem nD τ sig) (_ : Unit) : ℕ := match g.2 with
  | .reg _ => 1
  | .dma q => if 38 ≤ q.val then 2 + (q.val - 38) else 0

/-! ## Cells by number: 0 the entry barrier, 1 .. 36 departures, 37 .. 72 arrivals -/

def csem (i : Fin 73) : SemLoc sig := if i.val = 0 then .reg barS else .dma ⟨(i.val + 1) % 74, Nat.mod_lt _ (by decide)⟩
abbrev kcell (ck : Dev nD × Fin 73) : GSem nD τ sig := ((ck.1 : Thread nD τ), csem ck.2)
/-- The kernel's own (scoped) semaphores: the 72 transfer semaphores. -/
def osem (i : Fin 72) : SemLoc sig := .dma ⟨(i.val + 2) % 74, Nat.mod_lt _ (by decide)⟩

/-! ## The ghost state a device starts from -/

/-- Every cell's invariant under the names the launch allocated, and every cell at its first round: shared by all. -/
def records (K : Dev nD × Fin 73 → ℕ) : sProp 𝕄 :=
  iprop((bigSep Finset.univ fun ck : Dev nD × Fin 73 => cellInv ER (treeRd m) (K ck) (kcell ck))
    ∗ bigSep Finset.univ fun ck : Dev nD × Fin 73 => reached ER (kcell ck) 0)

/-- The tokens of the duties device `c` pays: its three entry signals, its 36 departures, the 36 arrivals at its partners. -/
def payToks (c : Dev nD) : sProp 𝕄 :=
  iprop((bigSep Finset.univ fun k : Fin 3 => dutyTok ER (barCell (xorDev c k)) 0 k)
    ∗ (bigSep Finset.univ fun n : Fin 36 => dutyTok ER (dCell c (sQ (n.val / 12) (n.val % 12))) 0 (0 : Fin 3))
    ∗ (bigSep Finset.univ fun n : Fin 36 => dutyTok ER (dCell (peer c (n.val / 12) (n.val % 12)) (rQ (n.val / 12) (n.val % 12))) 0 (0 : Fin 3)))

/-- Its positions: every own cell at the start of its first round. -/
def positions (c : Dev nD) : sProp 𝕄 := bigSep Finset.univ fun i : Fin 73 => atPos ER (kcell (c, i)) 0 ∅ 0

def ghost (K : Dev nD × Fin 73 → ℕ) (c : Dev nD) : sProp 𝕄 := iprop(records m K ∗ positions c ∗ payToks c)

/-- The credit dealt at launch: three units on its entry barrier, each arrival's credit. -/
def creds (c : Dev nD) : sProp 𝕄 :=
  iprop(cred (tallyAt (barCell c) () 3)
    ∗ bigSep Finset.univ fun n : Fin 36 => cred (tallyAt (dCell c (rQ (n.val / 12) (n.val % 12))) () (NR (crows (n.val % 12)))))

def start (c : Dev nD) : sProp 𝕄 := iprop((∃ K, ghost m K c) ∗ creds c ∗ levAts L lv)

/-- Before the body: the start and the landing buffer at any contents. -/
def Φ₀ (c : Dev nD) : sProp 𝕄 := iprop(start m c ∗ ∃ f, ((c : Thread nD τ).loc cc0_scratch0) ↦{fullShare} f)
/-- After it: the landing buffer back, every own semaphore at zero. -/
def Φ₁ (c : Dev nD) : sProp 𝕄 :=
  iprop((∃ f, ((c : Thread nD τ).loc cc0_scratch0) ↦{fullShare} f) ∗ Pipeline.ownSems0 (Ix := Unit) (Name := ℕ) (U := UU) (Lvl := ℕ) (Val := Elt F) (τ := τ) osem c)

/-! ## The pipeline's proof data: one point, the input block kept, the result block the running sum after three stages -/

def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => acc m c 3
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

example : sSem 1 3 (by decide) = (⟨2 + 12 * 1 + 3, by decide⟩ : DmaSem sig) := by decide
example : rSem 2 11 (by decide) = (⟨38 + 12 * 2 + 11, by decide⟩ : DmaSem sig) := by decide

end Cert.Kernel.Hand

end
-- ==== Proof.BitsSide.Bundles.lean ====
/-
  The state of one chunk of the rows as the reduction proceeds: what a device holds about chunk `j` before its
  first transfer, between the stages, and at the end.
-/
import proofs.«900610_g7700000000000611_dist_treered_v7x_i8_m256_n256_f32_1_alg».proof.Proof.BitsSide.Proto

noncomputable section

namespace Cert.Kernel.Hand

open Cert.Kernel Cert.Kernel.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pieces of one stage of one chunk -/

/-- The token of the departure duty of `(s, j)` on the device's own cell; of the arrival duty on the partner's. -/
def sTok (c : Dev nD) (s j : ℕ) : sProp 𝕄 := dutyTok ER (dCell c (sQ s j)) 0 (0 : Fin 3)
def rTok (c : Dev nD) (s j : ℕ) : sProp 𝕄 := dutyTok ER (dCell (peer c s j) (rQ s j)) 0 (0 : Fin 3)
/-- The device's positions on its own departure and arrival cells of `(s, j)`. -/
def sPos (c : Dev nD) (s j : ℕ) : sProp 𝕄 := atPos ER (dCell c (sQ s j)) 0 ∅ 0
def rPos (c : Dev nD) (s j : ℕ) : sProp 𝕄 := atPos ER (dCell c (rQ s j)) 0 ∅ 0
/-- The credit with which it waits for the arrival (dealt at launch) and for the departure (from its own transfer). -/
def rCred (c : Dev nD) (s j : ℕ) : sProp 𝕄 := cred (tallyAt (dCell c (rQ s j)) () (NR (crows j)))
def sCred (c : Dev nD) (s j : ℕ) : sProp 𝕄 := cred (tallyAt (dCell c (sQ s j)) () (NR (crows j)))
/-- The partner's landing slot the transfer of `(s, j)` writes, at any contents. -/
def dSlot (c : Dev nD) (s j : ℕ) (hs : s < 3) (hj : j < 12) : sProp 𝕄 := iprop(∃ f, slotPts (F := F) (peer c s j) s j hs hj f)
/-- Everything stage `s` of chunk `j` starts from. -/
def stageRes (c : Dev nD) (s j : ℕ) (hs : s < 3) (hj : j < 12) : sProp 𝕄 :=
  iprop(sTok c s j ∗ rTok c s j ∗ sPos c s j ∗ rPos c s j ∗ rCred c s j ∗ dSlot (F := F) c s j hs hj)
/-- A stage whose transfer is under way: the positions and the two credits. -/
def flying (c : Dev nD) (s j : ℕ) : sProp 𝕄 := iprop(sPos (F := F) c s j ∗ rPos c s j ∗ rCred c s j ∗ sCred c s j)
/-- A stage done: both semaphores back at zero, the own landing slot holding the partner's rows. -/
def done (c : Dev nD) (s j : ℕ) (hs : s < 3) (hj : j < 12) : sProp 𝕄 :=
  iprop(semVal (dCell c (sQ s j)) 0 ∗ semVal (dCell c (rQ s j)) 0 ∗ slotPts c s j hs hj (landed m c))

/-! ## The five states of chunk `j` -/

/-- Before the first transfer. -/
def St0 (c : Dev nD) (j : ℕ) (hj : j < 12) : sProp 𝕄 :=
  iprop(stageRes (F := F) c 0 j (by decide) hj ∗ stageRes (F := F) c 1 j (by decide) hj ∗ stageRes (F := F) c 2 j (by decide) hj
    ∗ xPts c j hj (xs m c) ∗ ∃ f, oPts c j hj f)
/-- The first transfer under way. -/
def St1 (c : Dev nD) (j : ℕ) (hj : j < 12) : sProp 𝕄 :=
  iprop(flying (F := F) c 0 j ∗ stageRes (F := F) c 1 j (by decide) hj ∗ stageRes (F := F) c 2 j (by decide) hj ∗ ∃ f, oPts c j hj f)
/-- The first stage added, the second transfer under way. -/
def St2 (c : Dev nD) (j : ℕ) (hj : j < 12) : sProp 𝕄 :=
  iprop(done m c 0 j (by decide) hj ∗ flying (F := F) c 1 j ∗ stageRes (F := F) c 2 j (by decide) hj ∗ xPts c j hj (xs m c))
/-- The second stage added, the third transfer under way. -/
def St3 (c : Dev nD) (j : ℕ) (hj : j < 12) : sProp 𝕄 :=
  iprop(done m c 0 j (by decide) hj ∗ done m c 1 j (by decide) hj ∗ flying (F := F) c 2 j ∗ xPts c j hj (xs m c))
/-- All three stages added. -/
def St4 (c : Dev nD) (j : ℕ) (hj : j < 12) : sProp 𝕄 :=
  iprop(done m c 0 j (by decide) hj ∗ done m c 1 j (by decide) hj ∗ done m c 2 j (by decide) hj
    ∗ xPts c j hj (xs m c) ∗ oPts c j hj (acc m c 3))

end Cert.Kernel.Hand

end
-- ==== Proof.BitsSide.Sched.lean ====
/-
  The schedule read cell by cell: which duties, how many units, what each hands over; the levels that order the
  waits; and the cells by number.
-/
import proofs.«900610_g7700000000000611_dist_treered_v7x_i8_m256_n256_f32_1_alg».proof.Proof.BitsSide.Proto

noncomputable section

namespace Cert.Kernel.Hand

open Cert.Kernel Cert.Kernel.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of `(s, j)` by number -/

/-- The printed departure semaphore of `(s, j)` has the number `2 + 12 s + j`: all 36 cases, by evaluation. -/
theorem sSem_val : ∀ s : Fin 3, ∀ j : Fin 12,
    (sSem s.val j.val (sinb s.val j.val s.isLt j.isLt)).val = (sQ s.val j.val).val := by decide
/-- The printed arrival semaphore of `(s, j)` has the number `38 + 12 s + j`. -/
theorem rSem_val : ∀ s : Fin 3, ∀ j : Fin 12,
    (rSem s.val j.val (sinb s.val j.val s.isLt j.isLt)).val = (rQ s.val j.val).val := by decide

theorem sQ_val (s j : ℕ) (hs : s < 3) (hj : j < 12) : (sQ s j).val = 2 + 12 * s + j := by
  show (2 + 12 * s + j) % 74 = 2 + 12 * s + j; omega
theorem rQ_val (s j : ℕ) (hs : s < 3) (hj : j < 12) : (rQ s j).val = 38 + 12 * s + j := by
  show (38 + 12 * s + j) % 74 = 38 + 12 * s + j; omega

theorem sSem_eq (s j : ℕ) (hs : s < 3) (hj : j < 12) (h : SInb s j) : sSem s j h = sQ s j :=
  Fin.ext (sSem_val ⟨s, hs⟩ ⟨j, hj⟩)
theorem rSem_eq (s j : ℕ) (hs : s < 3) (hj : j < 12) (h : SInb s j) : rSem s j h = rQ s j :=
  Fin.ext (rSem_val ⟨s, hs⟩ ⟨j, hj⟩)
theorem stOf_sQ (s j : ℕ) (hs : s < 3) (hj : j < 12) : stOf (sQ s j) = s := by
  unfold stOf; rw [sQ_val s j hs hj]; omega
theorem chOf_sQ (s j : ℕ) (hs : s < 3) (hj : j < 12) : chOf (sQ s j) = j := by
  unfold chOf; rw [sQ_val s j hs hj]; omega
theorem stOf_rQ (s j : ℕ) (hs : s < 3) (hj : j < 12) : stOf (rQ s j) = s := by
  unfold stOf; rw [rQ_val s j hs hj]; omega
theorem chOf_rQ (s j : ℕ) (hs : s < 3) (hj : j < 12) : chOf (rQ s j) = j := by
  unfold chOf; rw [rQ_val s j hs hj]; omega

/-! ## Duties, amounts, expected units -/

theorem duties_bar (c : Dev nD) : (treeRd (F := F) m).duties (barCell c) 0 = Finset.univ := by
  dsimp only [treeRd]; exact if_pos ⟨rfl, rfl⟩
theorem duties_s (c : Dev nD) (s j : ℕ) (hs : s < 3) (hj : j < 12) : (treeRd (F := F) m).duties (dCell c (sQ s j)) 0 = {0} := by
  dsimp only [treeRd]; rw [if_pos ⟨rfl, rfl⟩]; exact if_pos (by rw [sQ_val s j hs hj]; omega)
theorem duties_r (c : Dev nD) (s j : ℕ) (hs : s < 3) (hj : j < 12) : (treeRd (F := F) m).duties (dCell c (rQ s j)) 0 = {0} := by
  dsimp only [treeRd]; rw [if_pos ⟨rfl, rfl⟩]; exact if_pos (by rw [rQ_val s j hs hj]; omega)
theorem duties_later (g : GSem nD τ sig) : ∀ r, 1 ≤ r → (treeRd (F := F) m).duties g r = ∅ :=
  fun r hr => by dsimp only [treeRd]; exact if_neg fun h => by omega

theorem amount_bar (c : Dev nD) (d : Fin 3) : (treeRd (F := F) m).amount (barCell c) 0 d = 1 := rfl
theorem amount_s (c : Dev nD) (s j : ℕ) (hs : s < 3) (hj : j < 12) (d : Fin 3) : (treeRd (F := F) m).amount (dCell c (sQ s j)) 0 d = NR (crows j) := by
  show NR (crows (chOf (sQ s j))) = NR (crows j); rw [chOf_sQ s j hs hj]
theorem amount_r (c : Dev nD) (s j : ℕ) (hs : s < 3) (hj : j < 12) (d : Fin 3) : (treeRd (F := F) m).amount (dCell c (rQ s j)) 0 d = NR (crows j) := by
  show NR (crows (chOf (rQ s j))) = NR (crows j); rw [chOf_rQ s j hs hj]

theorem expect_bar (c : Dev nD) : (treeRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_s (c : Dev nD) (s j : ℕ) (hs : s < 3) (hj : j < 12) : (treeRd (F := F) m).expect (dCell c (sQ s j)) 0 = NR (crows j) := by
  unfold Schedule.expect Schedule.amountOf; rw [duties_s m c s j hs hj, Finset.sum_singleton, amount_s m c s j hs hj]
theorem expect_r (c : Dev nD) (s j : ℕ) (hs : s < 3) (hj : j < 12) : (treeRd (F := F) m).expect (dCell c (rQ s j)) 0 = NR (crows j) := by
  unfold Schedule.expect Schedule.amountOf; rw [duties_r m c s j hs hj, Finset.sum_singleton, amount_r m c s j hs hj]

/-! ## Payloads -/

theorem payload_bar (c : Dev nD) (k : Fin 3) : (treeRd (F := F) m).payload (barCell c) 0 k = barPay (xorDev c k) k := rfl

/-- A departure's payload depends on stage and chunk only through their values. -/
theorem sendPay_congr (c : Dev nD) {s s' j j' : ℕ} (es : s = s') (ej : j = j') (h : j < 12) (h' : j' < 12) :
    sendPay (F := F) m c s j h = sendPay m c s' j' h' := by subst es; subst ej; rfl
/-- Likewise an arrival's. -/
theorem recvPay_congr (c : Dev nD) {s s' j j' : ℕ} (es : s = s') (ej : j = j') (hs : s < 3) (hs' : s' < 3) (h : j < 12) (h' : j' < 12) :
    recvPay (F := F) m c s j hs h = recvPay m c s' j' hs' h' := by subst es; subst ej; rfl
theorem payload_s (c : Dev nD) (s j : ℕ) (hs : s < 3) (hj : j < 12) (d : Fin 3) :
    (treeRd (F := F) m).payload (dCell c (sQ s j)) 0 d = sendPay m c s j hj := by
  dsimp only [treeRd]
  rw [if_neg (by rw [sQ_val s j hs hj]; omega), if_pos (by rw [sQ_val s j hs hj]; omega)]
  exact sendPay_congr m c (stOf_sQ s j hs hj) (chOf_sQ s j hs hj) _ _
theorem payload_r (c : Dev nD) (s j : ℕ) (hs : s < 3) (hj : j < 12) (d : Fin 3) :
    (treeRd (F := F) m).payload (dCell c (rQ s j)) 0 d = recvPay m c s j hs hj := by
  dsimp only [treeRd]
  rw [if_neg (by rw [rQ_val s j hs hj]; omega), if_neg (by rw [rQ_val s j hs hj]; omega)]
  exact recvPay_congr m c (stOf_rQ s j hs hj) (chOf_rQ s j hs hj) _ _ _ _

/-- The whole round of the entry barrier: the three partners' slots. -/
theorem rest_bar (c : Dev nD) :
    bigSep ((treeRd (F := F) m).duties (barCell c) 0 \ ∅) (fun d => (treeRd (F := F) m).payload (barCell c) 0 d)
      = iprop(barPay (F := F) (xorDev c 0) 0 ∗ barPay (F := F) (xorDev c 1) 1 ∗ barPay (F := F) (xorDev c 2) 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_s (c : Dev nD) (s j : ℕ) (hs : s < 3) (hj : j < 12) :
    bigSep ((treeRd (F := F) m).duties (dCell c (sQ s j)) 0 \ ∅) (fun d => (treeRd (F := F) m).payload (dCell c (sQ s j)) 0 d) = sendPay m c s j hj := by
  rw [Finset.sdiff_empty, duties_s m c s j hs hj, bigSep_singleton, payload_s m c s j hs hj]
theorem rest_r (c : Dev nD) (s j : ℕ) (hs : s < 3) (hj : j < 12) :
    bigSep ((treeRd (F := F) m).duties (dCell c (rQ s j)) 0 \ ∅) (fun d => (treeRd (F := F) m).payload (dCell c (rQ s j)) 0 d) = recvPay m c s j hs hj := by
  rw [Finset.sdiff_empty, duties_r m c s j hs hj, bigSep_singleton, payload_r m c s j hs hj]

/-! ## What is owed, and the levels -/

theorem tallySend_eq (c : Dev nD) (s j : ℕ) (hs : s < 3) (hj : j < 12) :
    tallySend c (12 * s + j) = tallyAt (dCell (peer c s j) (rQ s j)) () (NR (crows j)) := by
  have e1 : (12 * s + j) / 12 = s := by omega
  have e2 : (12 * s + j) % 12 = j := by omega
  unfold tallySend; rw [e1, e2]

/-- Every cell of a device's core carries the one level index. -/
theorem L_tc (c : Dev nD) (sm : SemLoc sig) : L ((c : Thread nD τ), sm) = {()} := if_pos rfl

/-- The level of the arrival cell of `(s, j)`. -/
theorem lv_rQ (p : Dev nD) (s j : ℕ) (hs : s < 3) (hj : j < 12) (u : Unit) : lv (dCell p (rQ s j)) u = 2 + 12 * s + j := by
  show (if 38 ≤ (rQ s j).val then 2 + ((rQ s j).val - 38) else 0) = 2 + 12 * s + j
  rw [rQ_val s j hs hj, if_pos (by omega)]; omega
/-- The level of the arrival cell of the `n`-th transfer. -/
theorem lv_r (p : Dev nD) (n : ℕ) (hn : n < 36) (u : Unit) : lv (dCell p (rQ (n / 12) (n % 12))) u = 2 + n := by
  rw [lv_rQ p (n / 12) (n % 12) (by omega) (by omega)]; omega
/-- Departure cells are at the bottom. -/
theorem lv_sQ (p : Dev nD) (s j : ℕ) (hs : s < 3) (hj : j < 12) (u : Unit) : lv (dCell p (sQ s j)) u = 0 := by
  show (if 38 ≤ (sQ s j).val then 2 + ((sQ s j).val - 38) else 0) = 0
  rw [sQ_val s j hs hj, if_neg (by omega)]

/-- A positive tally among the credits of the last `k` transfers sits on the arrival cell of one of them. -/
theorem owedRem_pos (c : Dev nD) : ∀ k, k ≤ 36 → ∀ (g : GSem nD τ sig) (u : Unit), 0 < owedRem c k g u →
    ∃ n, 36 - k ≤ n ∧ n < 36 ∧ g = dCell (peer c (n / 12) (n % 12)) (rQ (n / 12) (n % 12))
  | 0, _, g, u, h => absurd h (Nat.lt_irrefl 0)
  | k + 1, hk, g, u, h => by
    have h' : 0 < (owedRem c k + tallySend c (35 - k)) g u := h
    rw [Pi.add_apply, Finsupp.add_apply] at h'
    by_cases h1 : 0 < owedRem c k g u
    · obtain ⟨n, hn1, hn2, e⟩ := owedRem_pos c k (by omega) g u h1
      exact ⟨n, by omega, hn2, e⟩
    · have h2 : 0 < tallySend c (35 - k) g u := by omega
      unfold tallySend at h2
      rw [tallyAt_apply] at h2
      by_cases h3 : g = dCell (peer c ((35 - k) / 12) ((35 - k) % 12)) (rQ ((35 - k) / 12) ((35 - k) % 12)) ∧ u = ()
      · exact ⟨35 - k, by omega, by omega, h3.1⟩
      · rw [if_neg h3] at h2; exact absurd h2 (Nat.lt_irrefl 0)

/-- A positive tally of everything owed sits on an arrival cell of a transfer or on a partner's entry barrier. -/
theorem O₀_pos {c : Dev nD} {g : GSem nD τ sig} {u : Unit} (h : 0 < O₀ c g u) :
    (∃ n, n < 36 ∧ g = dCell (peer c (n / 12) (n % 12)) (rQ (n / 12) (n % 12))) ∨ ∃ k : Fin 3, g = barCell (xorDev c k) := by
  unfold O₀ tallyBar at h
  rw [Pi.add_apply, Finsupp.add_apply, Pi.add_apply, Finsupp.add_apply, Pi.add_apply, Finsupp.add_apply,
    tallyAt_apply, tallyAt_apply, tallyAt_apply] at h
  by_cases h0 : 0 < owedRem c 36 g u
  · obtain ⟨n, _, hn, e⟩ := owedRem_pos c 36 le_rfl g u h0
    exact .inl ⟨n, hn, e⟩
  · right
    by_contra hn
    rw [not_exists] at hn
    rw [if_neg (fun h' => hn 2 h'.1), if_neg (fun h' => hn 1 h'.1), if_neg (fun h' => hn 0 h'.1)] at h
    omega

/-- At its entry-barrier wait a device owes only arrival credits, which lie above the barrier. -/
theorem mayWait_bar (c : Dev nD) : (levAts L lv : sProp 𝕄) ⊢ MayWait (c : Thread nD τ) (.reg barS) () (owedRem c 36) :=
  MayOwe.of_cut (L := L) (lev := lv) 1 (fun p hp => by rw [Finset.mem_singleton.mp hp, L_tc]; exact Finset.mem_singleton_self _)
    (fun g u hg => by
      obtain ⟨n, _, hn, rfl⟩ := owedRem_pos c 36 le_rfl g u hg
      rw [L_tc]; exact Finset.mem_singleton_self _)
    (fun p hp => by rw [Finset.mem_singleton.mp hp]; exact le_refl 1)
    (fun g u hg => by
      obtain ⟨n, _, hn, rfl⟩ := owedRem_pos c 36 le_rfl g u hg
      rw [lv_r _ n hn]; omega)
/-- A departure cell lies below everything a device can owe. -/
theorem mayWait_s (c : Dev nD) (s j : ℕ) (hs : s < 3) (hj : j < 12) (k : ℕ) (hk : k ≤ 36) :
    (levAts L lv : sProp 𝕄) ⊢ MayWait (c : Thread nD τ) (.dma (sQ s j)) () (owedRem c k) :=
  MayOwe.of_cut (L := L) (lev := lv) 0 (fun p hp => by rw [Finset.mem_singleton.mp hp, L_tc]; exact Finset.mem_singleton_self _)
    (fun g u hg => by
      obtain ⟨n, _, hn, rfl⟩ := owedRem_pos c k hk g u hg
      rw [L_tc]; exact Finset.mem_singleton_self _)
    (fun p hp => by rw [Finset.mem_singleton.mp hp]; exact le_of_eq (lv_sQ c s j hs hj ()))
    (fun g u hg => by
      obtain ⟨n, _, hn, rfl⟩ := owedRem_pos c k hk g u hg
      rw [lv_r _ n hn]; omega)
/-- An arrival cell lies below the arrivals of the transfers issued after it. -/
theorem mayWait_r (c : Dev nD) (s j : ℕ) (hs : s < 3) (hj : j < 12) (k : ℕ) (hk : k + 12 * s + j < 36) :
    (levAts L lv : sProp 𝕄) ⊢ MayWait (c : Thread nD τ) (.dma (rQ s j)) () (owedRem c k) :=
  MayOwe.of_cut (L := L) (lev := lv) (2 + 12 * s + j)
    (fun p hp => by rw [Finset.mem_singleton.mp hp, L_tc]; exact Finset.mem_singleton_self _)
    (fun g u hg => by
      obtain ⟨n, _, hn, rfl⟩ := owedRem_pos c k (by omega) g u hg
      rw [L_tc]; exact Finset.mem_singleton_self _)
    (fun p hp => by rw [Finset.mem_singleton.mp hp]; exact le_of_eq (lv_rQ c s j hs hj ()))
    (fun g u hg => by
      obtain ⟨n, hn1, hn, rfl⟩ := owedRem_pos c k (by omega) g u hg
      rw [lv_r _ n hn]; omega)
/-- The pipeline's two staging semaphores (numbers 0 and 1) lie below everything. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨n, hn, rfl⟩ | ⟨k, rfl⟩ <;> (rw [L_tc]; exact Finset.mem_singleton_self _))
      (fun p hp => by
        rw [Finset.mem_singleton.mp hp]
        show (if 38 ≤ q.val then 2 + (q.val - 38) else 0) ≤ 0
        rw [if_neg (by omega)])
      (fun g u hg => by
        rcases O₀_pos hg with ⟨n, hn, rfl⟩ | ⟨k, rfl⟩
        · rw [lv_r _ n hn]; omega
        · exact Nat.one_pos)
  · rw [MayWait_zero]; iintro -; iempintro

/-! ## Cells by number -/

theorem kcell_bar (c : Dev nD) : kcell (c, (0 : Fin 73)) = barCell c := by
  refine Prod.ext rfl ?_
  show csem 0 = SemLoc.reg barS
  unfold csem; exact if_pos rfl
theorem kcell_s (c : Dev nD) (s j : ℕ) (hs : s < 3) (hj : j < 12) : kcell (c, (⟨1 + 12 * s + j, by omega⟩ : Fin 73)) = dCell c (sQ s j) := by
  refine Prod.ext rfl ?_
  show csem ⟨1 + 12 * s + j, _⟩ = SemLoc.dma (sQ s j)
  unfold csem
  rw [if_neg (by show ¬ (1 + 12 * s + j = 0); omega)]
  exact congrArg SemLoc.dma (Fin.ext (by show (1 + 12 * s + j + 1) % 74 = (2 + 12 * s + j) % 74; omega))
theorem kcell_r (c : Dev nD) (s j : ℕ) (hs : s < 3) (hj : j < 12) : kcell (c, (⟨37 + 12 * s + j, by omega⟩ : Fin 73)) = dCell c (rQ s j) := by
  refine Prod.ext rfl ?_
  show csem ⟨37 + 12 * s + j, _⟩ = SemLoc.dma (rQ s j)
  unfold csem
  rw [if_neg (by show ¬ (37 + 12 * s + j = 0); omega)]
  exact congrArg SemLoc.dma (Fin.ext (by show (37 + 12 * s + j + 1) % 74 = (38 + 12 * s + j) % 74; omega))

/-- The records hold every numbered cell's invariant. -/
theorem inv_at (K : Dev nD × Fin 73 → ℕ) (ck : Dev nD × Fin 73) :
    records m K ⊢ (cellInv ER (treeRd (F := F) m) (K ck) (kcell ck) : sProp 𝕄) := by
  unfold records
  exact sep_elim_left.trans (bigSep_elim (Finset.mem_univ ck))
/-- And that every numbered cell is at its first round. -/
theorem reached_at (K : Dev nD × Fin 73 → ℕ) (ck : Dev nD × Fin 73) :
    records m K ⊢ (reached ER (kcell ck) 0 : sProp 𝕄) := by
  unfold records
  exact sep_elim_right.trans (bigSep_elim (Finset.mem_univ ck))

/-- From the shared records: any cell's invariant and that it is at its first round. -/
theorem inv_bar (K : Dev nD × Fin 73 → ℕ) (c : Dev nD) : records m K ⊢ (cellInv ER (treeRd (F := F) m) (K (c, 0)) (barCell c) : sProp 𝕄) := by
  have h := inv_at m K (c, (0 : Fin 73)); rwa [kcell_bar] at h
theorem inv_s (K : Dev nD × Fin 73 → ℕ) (c : Dev nD) (s j : ℕ) (hs : s < 3) (hj : j < 12) :
    records m K ⊢ (cellInv ER (treeRd (F := F) m) (K (c, ⟨1 + 12 * s + j, by omega⟩)) (dCell c (sQ s j)) : sProp 𝕄) := by
  have h := inv_at m K (c, (⟨1 + 12 * s + j, by omega⟩ : Fin 73)); rwa [kcell_s c s j hs hj] at h
theorem inv_r (K : Dev nD × Fin 73 → ℕ) (c : Dev nD) (s j : ℕ) (hs : s < 3) (hj : j < 12) :
    records m K ⊢ (cellInv ER (treeRd (F := F) m) (K (c, ⟨37 + 12 * s + j, by omega⟩)) (dCell c (rQ s j)) : sProp 𝕄) := by
  have h := inv_at m K (c, (⟨37 + 12 * s + j, by omega⟩ : Fin 73)); rwa [kcell_r c s j hs hj] at h
theorem reached_bar (K : Dev nD × Fin 73 → ℕ) (c : Dev nD) : records m K ⊢ (reached ER (barCell c) 0 : sProp 𝕄) := by
  have h := reached_at m K (c, (0 : Fin 73)); rwa [kcell_bar] at h
theorem reached_s (K : Dev nD × Fin 73 → ℕ) (c : Dev nD) (s j : ℕ) (hs : s < 3) (hj : j < 12) :
    records m K ⊢ (reached ER (dCell c (sQ s j)) 0 : sProp 𝕄) := by
  have h := reached_at m K (c, (⟨1 + 12 * s + j, by omega⟩ : Fin 73)); rwa [kcell_s c s j hs hj] at h
theorem reached_r (K : Dev nD × Fin 73 → ℕ) (c : Dev nD) (s j : ℕ) (hs : s < 3) (hj : j < 12) :
    records m K ⊢ (reached ER (dCell c (rQ s j)) 0 : sProp 𝕄) := by
  have h := reached_at m K (c, (⟨37 + 12 * s + j, by omega⟩ : Fin 73)); rwa [kcell_r c s j hs hj] at h

instance records_persistent (K : Dev nD × Fin 73 → ℕ) : BI.Persistent (records (F := F) m K) := by unfold records; infer_instance

end Cert.Kernel.Hand

end
-- ==== Proof.BitsSide.Data.lean ====
/-
  The values the transfers and the additions move, read entry by entry: what lands in a partner's slot is the
  sender's running rows, and a stage's addition turns a chunk of the running sum after `s` stages into the one
  after `s + 1`.
-/
import proofs.«900610_g7700000000000611_dist_treered_v7x_i8_m256_n256_f32_1_alg».proof.Proof.BitsSide.Proto
import Idealize.ShloMosaic.Lib.Pipeline.Value
import Idealize.ShloMosaic.Lib.ValueLayout

noncomputable section

namespace Cert.Kernel.Hand

open Cert.Kernel Cert.Kernel.Gen Cert.TreeSpec

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The stage's arithmetic on a chunk of `R` rows: the two loaded vectors brought to `R x 256` and added. -/
abbrev pay {R : ℕ} {S₁ S₂ : Shape} (v₁ : Vec F S₁ .f32) (v₂ : Vec F S₂ .f32) (h₁ : S₁.ShapeCasts (SR2 R)) (h₂ : S₂.ShapeCasts (SR2 R)) : FVec F (SR2 R) .f32 :=
  addf (shapeCast (SR2 R) v₁ h₁) (shapeCast (SR2 R) v₂ h₂)

/-- A row of chunk `j` lies inside the block, so its number is not reduced. -/
theorem rowOf_val (j r : ℕ) (hj : j < 12) (hr : r < crows j) : (rowOf j r).val = cstart j + r := by
  have h' : cstart j + crows j ≤ 256 := oinb j hj 0
  show (cstart j + r) % 256 = cstart j + r
  exact Nat.mod_eq_of_lt (by omega)

/-- A chunk has at most 24 rows. -/
theorem crows_le (j : ℕ) : crows j ≤ 24 := by unfold crows; split <;> omega

/-! ## Where a chunk's entry `(a, b)` sits in each buffer -/

/-- In the result block: row `cstart j + a`, column `b`. -/
theorem oEmb_eq (j : ℕ) (hj : j < 12) (a : Fin (crows j)) (b : Fin 256) :
    (oCh (cstart j) (crows j) (oinb j hj)).view.emb (ix2 a b) = ix2 (rowOf j a.val) b := by
  funext e
  match e with
  | ⟨0, _⟩ =>
    refine Fin.ext ?_
    show cstart j + 1 * a.val = (rowOf j a.val).val
    rw [rowOf_val j _ hj a.isLt, Nat.one_mul]
  | ⟨1, _⟩ =>
    refine Fin.ext ?_
    show 0 + 1 * b.val = b.val
    omega

/-- In the input block: plane 0, row `cstart j + a`, column `b`. -/
theorem xEmb_eq (j : ℕ) (hj : j < 12) (a : Fin (crows j)) (b : Fin 256) :
    (xCh (cstart j) (crows j) (xinb j hj) (sq3 j)).view.emb (ix2 a b) = ix3 (0 : Fin 1) (rowOf j a.val) b := by
  show (xRect (cstart j) (crows j) (xinb j hj)).emb (Shape.reshapeEquiv (sq3 j).numel_eq (ix2 a b)) = _
  rw [reshapeEquiv_ix2_1ab]
  funext e
  match e with
  | ⟨0, _⟩ => exact Fin.ext rfl
  | ⟨1, _⟩ =>
    refine Fin.ext ?_
    show cstart j + 1 * a.val = (rowOf j a.val).val
    rw [rowOf_val j _ hj a.isLt, Nat.one_mul]
  | ⟨2, _⟩ =>
    refine Fin.ext ?_
    show 0 + 1 * b.val = b.val
    omega

/-- In the landing buffer: slot `(s, j)`, row `a`, column `b`. -/
theorem slotEmb_eq (s j : ℕ) (hs : s < 3) (hj : j < 12) (a : Fin (crows j)) (b : Fin 256) :
    (cSl s j (crows j) (cinb s j hs hj) (sq4 j)).view.emb (ix2 a b)
      = ix4 (⟨s, hs⟩ : Fin 3) (⟨j, hj⟩ : Fin 12) (⟨a.val, Nat.lt_of_lt_of_le a.isLt (crows_le j)⟩ : Fin 24) b := by
  show (cRect s j (crows j) (cinb s j hs hj)).emb (Shape.reshapeEquiv (sq4 j).numel_eq (ix2 a b)) = _
  rw [reshapeEquiv_ix2_11ab]
  funext e
  match e with
  | ⟨0, _⟩ => exact Fin.ext (show s + 1 * 0 = s by omega)
  | ⟨1, _⟩ => exact Fin.ext (show j + 1 * 0 = j by omega)
  | ⟨2, _⟩ => exact Fin.ext (show 0 + 1 * a.val = a.val by omega)
  | ⟨3, _⟩ => exact Fin.ext (show 0 + 1 * b.val = b.val by omega)

/-! ## The contents named in the protocol, at a chunk's entry -/

/-- Before any stage the running sum is the device's own input. -/
theorem acc_zero_at (c : Dev nD) (r col : Fin 256) : acc m c 0 (ix2 r col) = xs m c (ix3 (0 : Fin 1) r col) := rfl

/-- One stage on, at a row of chunk `j`: the device's running entry plus its partner's on that chunk. -/
theorem acc_succ_row (c : Dev nD) (s j r : ℕ) (hj : j < 12) (hr : r < crows j) (col : Fin 256) :
    acc m c (s + 1) (ix2 (rowOf j r) col)
      = FloatOps.addf (acc m c s (ix2 (rowOf j r) col)) (acc m (peer c s j) s (ix2 (rowOf j r) col)) := by
  have hc : chunkOf (rowOf j r).val = j := by rw [rowOf_val j r hj hr]; exact chunkOf_cstart_add j r hj hr
  show tree _ _ (chunkOf (rowOf j r).val) (s + 1) c
      = FloatOps.addf (tree _ _ (chunkOf (rowOf j r).val) s c) (tree _ _ (chunkOf (rowOf j r).val) s (peer c s j))
  rw [hc]; rfl

/-- Slot `(s, j)` of a device's landing buffer is said to hold its partner's running rows of chunk `j`. -/
theorem landed_slot (p : Dev nD) (s j : ℕ) (hs : s < 3) (hj : j < 12) (a : Fin 24) (b : Fin 256) :
    landed m p (ix4 (⟨s, hs⟩ : Fin 3) (⟨j, hj⟩ : Fin 12) a b) = acc m (peer p s j) s (ix2 (rowOf j a.val) b) := rfl

/-! ## The loads of a stage, at a chunk's entry -/

/-- The chunk of the result block, loaded at its own shape. -/
theorem oRead_at (j : ℕ) (hj : j < 12) (f : (cc0_stg1_0 : Ref sig .tc).ty.Contents (Elt F))
    (h₁ : (SR2 (crows j)).ShapeCasts (SR2 (crows j))) (a : Fin (crows j)) (b : Fin 256) :
    shapeCast (SR2 (crows j)) ((oM : Memref sig .tc .vmem S256x256 .f32).view.readAt (Elt F) (oRect (cstart j) (crows j) (oinb j hj)).toLoadRect f) h₁ (ix2 a b)
      = f (ix2 (rowOf j a.val) b) := by
  refine (congrFun (shapeCast_self (s := SR2 (crows j)) _ h₁) (ix2 a b)).trans ?_
  rw [← oEmb_eq j hj a b]; rfl

/-- The chunk of the input block, loaded with its unit plane and brought to two axes. -/
theorem xRead_at (j : ℕ) (hj : j < 12) (f : (cc0_stg0_0 : Ref sig .tc).ty.Contents (Elt F))
    (h₁ : (SR3 (crows j)).ShapeCasts (SR2 (crows j))) (a : Fin (crows j)) (b : Fin 256) :
    shapeCast (SR2 (crows j)) ((xM : Memref sig .tc .vmem S1x256x256 .f32).view.readAt (Elt F) (xRect (cstart j) (crows j) (xinb j hj)).toLoadRect f) h₁ (ix2 a b)
      = f (ix3 (0 : Fin 1) (rowOf j a.val) b) := by
  rw [shapeCast_1ab_ab_apply, ← xEmb_eq j hj a b]
  show f ((xRect (cstart j) (crows j) (xinb j hj)).emb (ix3 (0 : Fin 1) a b)) = f ((xRect (cstart j) (crows j) (xinb j hj)).emb (Shape.reshapeEquiv (sq3 j).numel_eq (ix2 a b)))
  rw [reshapeEquiv_ix2_1ab]; rfl

/-- Slot `(s, j)` of the landing buffer, loaded with its two unit axes and brought to two axes. -/
theorem cRead_at (s j : ℕ) (hs : s < 3) (hj : j < 12) (f : (cc0_scratch0 : Ref sig .tc).ty.Contents (Elt F))
    (h₂ : (SR4 (crows j)).ShapeCasts (SR2 (crows j))) (a : Fin (crows j)) (b : Fin 256) :
    shapeCast (SR2 (crows j)) ((cM : Memref sig .tc .vmem S3x12x24x256 .f32).view.readAt (Elt F) (cRect s j (crows j) (cinb s j hs hj)).toLoadRect f) h₂ (ix2 a b)
      = f (ix4 (⟨s, hs⟩ : Fin 3) (⟨j, hj⟩ : Fin 12) (⟨a.val, Nat.lt_of_lt_of_le a.isLt (crows_le j)⟩ : Fin 24) b) := by
  rw [← slotEmb_eq s j hs hj a b]
  refine (shapeCast_apply _ h₂ (ix2 a b) (ix4 (0 : Fin 1) (0 : Fin 1) a b) ?_).trans ?_
  · rw [Shape.rowMajor_val_four, Shape.rowMajor_val_two]
    show ((0 * 1 + 0) * crows j + a.val) * 256 + b.val = a.val * 256 + b.val
    simp only [Nat.zero_mul, Nat.zero_add]
  · show f ((cRect s j (crows j) (cinb s j hs hj)).emb (ix4 (0 : Fin 1) (0 : Fin 1) a b)) = f ((cRect s j (crows j) (cinb s j hs hj)).emb (Shape.reshapeEquiv (sq4 j).numel_eq (ix2 a b)))
    rw [reshapeEquiv_ix2_11ab]; rfl

/-! ## What a transfer lands -/

/-- Stage 0: the partner's slot `(0, j)`, rewritten with the sender's input rows of chunk `j`, holds what the
    partner's landing buffer is said to hold there. -/
theorem landing0 (c : Dev nD) (j : ℕ) (hj : j < 12) (fd : Buf (Elt F) ((cSl 0 j (crows j) (cinb 0 j (by decide) hj) (sq4 j)).view.loc ((peer c 0 j : Dev nD) : Thread nD τ))) :
    slotPts (F := F) (peer c 0 j) 0 j (by decide) hj
        ((cSl 0 j (crows j) (cinb 0 j (by decide) hj) (sq4 j)).view.write (Elt F) fd
          ((xCh (cstart j) (crows j) (xinb j hj) (sq3 j)).view.read (Elt F) (xs m c)) Finset.univ)
      = slotPts (F := F) (peer c 0 j) 0 j (by decide) hj (landed m (peer c 0 j)) := by
  unfold slotPts
  refine Region.is_congr (fun i hi => ?_)
  obtain ⟨y, rfl⟩ := View.exists_emb_of_mem_set _ hi
  clear hi
  obtain ⟨a, b, rfl⟩ : ∃ (a : Fin (crows j)) (b : Fin 256), y = ix2 a b := ⟨y 0, y 1, eq_ix2 y⟩
  rw [View.write_emb_of_mem _ _ (Finset.mem_univ _), cast_eq, View.read_apply, cast_eq, xEmb_eq j hj a b]
  refine Eq.trans ?_ (congrArg (landed m (peer c 0 j)) (slotEmb_eq 0 j (by decide) hj a b)).symm
  rw [landed_slot, peer_peer, acc_zero_at]

/-- Stages 1 and 2: the same with the sender's running rows after `s` stages. -/
theorem landingS (c : Dev nD) (s j : ℕ) (hs0 : 0 < s) (hs : s < 3) (hj : j < 12) (fd : Buf (Elt F) ((cSl s j (crows j) (cinb s j hs hj) (sq4 j)).view.loc ((peer c s j : Dev nD) : Thread nD τ))) :
    slotPts (F := F) (peer c s j) s j hs hj
        ((cSl s j (crows j) (cinb s j hs hj) (sq4 j)).view.write (Elt F) fd
          ((oCh (cstart j) (crows j) (oinb j hj)).view.read (Elt F) (acc m c s)) Finset.univ)
      = slotPts (F := F) (peer c s j) s j hs hj (landed m (peer c s j)) := by
  unfold slotPts
  refine Region.is_congr (fun i hi => ?_)
  obtain ⟨y, rfl⟩ := View.exists_emb_of_mem_set _ hi
  clear hi
  obtain ⟨a, b, rfl⟩ : ∃ (a : Fin (crows j)) (b : Fin 256), y = ix2 a b := ⟨y 0, y 1, eq_ix2 y⟩
  rw [View.write_emb_of_mem _ _ (Finset.mem_univ _), cast_eq, View.read_apply, cast_eq, oEmb_eq j hj a b]
  refine Eq.trans ?_ (congrArg (landed m (peer c s j)) (slotEmb_eq s j hs hj a b)).symm
  rw [landed_slot, peer_peer]

/-! ## What a stage's addition stores -/

/-- Stage 0: input rows plus landed rows, stored over anything, are the running sum after one stage on the chunk. -/
theorem reduce0_val (c : Dev nD) (j : ℕ) (hj : j < 12) (f : Buf (Elt F) ((oCh (cstart j) (crows j) (oinb j hj)).view.loc (c : Thread nD τ)))
    (h₁ : (SR3 (crows j)).ShapeCasts (SR2 (crows j))) (h₂ : (SR4 (crows j)).ShapeCasts (SR2 (crows j))) :
    oPts (F := F) c j hj
        (((oM : Memref sig .tc .vmem S256x256 .f32).access (oRect (cstart j) (crows j) (oinb j hj))).write (Elt F) f
          (pay (F := F) (R := crows j)
            ((xM : Memref sig .tc .vmem S1x256x256 .f32).view.readAt (Elt F) (xRect (cstart j) (crows j) (xinb j hj)).toLoadRect (xs m c))
            ((cM : Memref sig .tc .vmem S3x12x24x256 .f32).view.readAt (Elt F) (cRect 0 j (crows j) (cinb 0 j (by decide) hj)).toLoadRect (landed m c)) h₁ h₂)
          Finset.univ)
      = oPts (F := F) c j hj (acc m c 1) := by
  unfold oPts
  refine Region.is_congr (fun i hi => ?_)
  obtain ⟨y, rfl⟩ := View.exists_emb_of_mem_set _ hi
  clear hi
  obtain ⟨a, b, rfl⟩ : ∃ (a : Fin (crows j)) (b : Fin 256), y = ix2 a b := ⟨y 0, y 1, eq_ix2 y⟩
  refine (View.write_emb_of_mem (v := (oM : Memref sig .tc .vmem S256x256 .f32).access (oRect (cstart j) (crows j) (oinb j hj))) _ _ (Finset.mem_univ _)).trans ?_
  rw [cast_eq, oEmb_eq j hj a b, acc_succ_row m c 0 j a.val hj a.isLt b, acc_zero_at]
  show FloatOps.addf (shapeCast _ _ h₁ (ix2 a b)) (shapeCast _ _ h₂ (ix2 a b)) = _
  rw [xRead_at j hj _ h₁ a b, cRead_at 0 j (by decide) hj _ h₂ a b, landed_slot]

/-- Stages 1 and 2: running rows plus landed rows are the running sum after one more stage. -/
theorem reduceS_val (c : Dev nD) (s j : ℕ) (hs0 : 0 < s) (hs : s < 3) (hj : j < 12)
    (h₁ : (SR2 (crows j)).ShapeCasts (SR2 (crows j))) (h₂ : (SR4 (crows j)).ShapeCasts (SR2 (crows j))) :
    oPts (F := F) c j hj
        (((oM : Memref sig .tc .vmem S256x256 .f32).access (oRect (cstart j) (crows j) (oinb j hj))).write (Elt F) (acc m c s)
          (pay (F := F) (R := crows j)
            ((oM : Memref sig .tc .vmem S256x256 .f32).view.readAt (Elt F) (oRect (cstart j) (crows j) (oinb j hj)).toLoadRect (acc m c s))
            ((cM : Memref sig .tc .vmem S3x12x24x256 .f32).view.readAt (Elt F) (cRect s j (crows j) (cinb s j hs hj)).toLoadRect (landed m c)) h₁ h₂)
          Finset.univ)
      = oPts (F := F) c j hj (acc m c (s + 1)) := by
  unfold oPts
  refine Region.is_congr (fun i hi => ?_)
  obtain ⟨y, rfl⟩ := View.exists_emb_of_mem_set _ hi
  clear hi
  obtain ⟨a, b, rfl⟩ : ∃ (a : Fin (crows j)) (b : Fin 256), y = ix2 a b := ⟨y 0, y 1, eq_ix2 y⟩
  refine (View.write_emb_of_mem (v := (oM : Memref sig .tc .vmem S256x256 .f32).access (oRect (cstart j) (crows j) (oinb j hj))) _ _ (Finset.mem_univ _)).trans ?_
  rw [cast_eq, oEmb_eq j hj a b, acc_succ_row m c s j a.val hj a.isLt b]
  show FloatOps.addf (shapeCast _ _ h₁ (ix2 a b)) (shapeCast _ _ h₂ (ix2 a b)) = _
  rw [oRead_at j hj _ h₁ a b, cRead_at s j hs hj _ h₂ a b, landed_slot]

end Cert.Kernel.Hand

end
-- ==== Proof.BitsSide.Parts.lean ====
/-
  The three buffers cut into the pieces the protocol moves: the input and result blocks into their twelve chunks,
  the landing buffer into its 36 slots and the rows no transfer touches.
-/
import proofs.«900610_g7700000000000611_dist_treered_v7x_i8_m256_n256_f32_1_alg».proof.Proof.BitsSide.Proto
import Idealize.ShloMosaic.Lib.Pipeline.Value

noncomputable section

namespace Cert.Kernel.Hand

open Cert.Kernel Cert.Kernel.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Chunk arithmetic: every row below 256 lies in exactly one chunk -/

/-- A row below 256 lies inside the chunk `chunkOf` names, and that chunk is one of the twelve. -/
theorem chunk_bounds {r : ℕ} (hr : r < 256) :
    chunkOf r < 12 ∧ cstart (chunkOf r) ≤ r ∧ r < cstart (chunkOf r) + crows (chunkOf r) := by
  unfold chunkOf cstart crows; split_ifs <;> omega

/-- Two different chunks are separated: one ends before the other starts. -/
theorem chunk_sep {j j' : ℕ} (hj : j < 12) (hj' : j' < 12) (h : j ≠ j') :
    cstart j + crows j ≤ cstart j' ∨ cstart j' + crows j' ≤ cstart j := by
  unfold cstart crows; split_ifs <;> omega

/-! ## The element sets of the pieces are unit-stride rectangles, and membership is coordinatewise -/

theorem o_set (j : ℕ) (hj : j < 12) :
    (oCh (cstart j) (crows j) (oinb j hj)).view.set = (oRect (cstart j) (crows j) (oinb j hj)).set :=
  View.set_slice_whole _ _

theorem x_set (j : ℕ) (hj : j < 12) :
    (xCh (cstart j) (crows j) (xinb j hj) (sq3 j)).view.set = (xRect (cstart j) (crows j) (xinb j hj)).set :=
  (View.set_reshape _ _).trans (View.set_slice_whole _ _)

theorem c_set (s j : ℕ) (hs : s < 3) (hj : j < 12) :
    (cSl s j (crows j) (cinb s j hs hj) (sq4 j)).view.set = (cRect s j (crows j) (cinb s j hs hj)).set :=
  (View.set_reshape _ _).trans (View.set_slice_whole _ _)

/-- An element of the result block lies in chunk `j` exactly when its row does. -/
theorem mem_o_set (j : ℕ) (hj : j < 12) (i : S256x256.Idx) :
    i ∈ (oCh (cstart j) (crows j) (oinb j hj)).view.set
      ↔ cstart j ≤ (i 0).val ∧ (i 0).val < cstart j + crows j := by
  refine ((Finset.ext_iff.mp (o_set j hj) i).trans Rect.mem_set_unit).trans ?_
  have h1 : (i 1).val < 256 := (i 1).isLt
  constructor
  · intro h; simpa using h 0
  · intro h a; fin_cases a <;> simp <;> omega

/-- An element of the input block lies in chunk `j` exactly when its row does. -/
theorem mem_x_set (j : ℕ) (hj : j < 12) (i : S1x256x256.Idx) :
    i ∈ (xCh (cstart j) (crows j) (xinb j hj) (sq3 j)).view.set
      ↔ cstart j ≤ (i 1).val ∧ (i 1).val < cstart j + crows j := by
  refine ((Finset.ext_iff.mp (x_set j hj) i).trans Rect.mem_set_unit).trans ?_
  have h0 : (i 0).val < 1 := (i 0).isLt
  have h2 : (i 2).val < 256 := (i 2).isLt
  constructor
  · intro h; simpa using h 1
  · intro h a; fin_cases a <;> simp <;> omega

/-- An element of the landing buffer lies in the first rows of slot `(s, j)` exactly when its stage and chunk
    coordinates are `s` and `j` and its row is below the chunk's row count. -/
theorem mem_c_set (s j : ℕ) (hs : s < 3) (hj : j < 12) (i : S3x12x24x256.Idx) :
    i ∈ (cSl s j (crows j) (cinb s j hs hj) (sq4 j)).view.set
      ↔ (i 0).val = s ∧ (i 1).val = j ∧ (i 2).val < crows j := by
  refine ((Finset.ext_iff.mp (c_set s j hs hj) i).trans Rect.mem_set_unit).trans ?_
  have h3 : (i 3).val < 256 := (i 3).isLt
  constructor
  · intro h
    have a0 := h 0; have a1 := h 1; have a2 := h 2
    simp at a0 a1 a2
    omega
  · intro h a; fin_cases a <;> simp <;> omega

/-- The input staging buffer is its twelve chunks. -/
theorem x_split (c : Dev nD) (f : Buf (Elt F) ((c : Thread nD τ).loc cc0_stg0_0)) :
    ((((c : Thread nD τ).loc cc0_stg0_0) ↦{fullShare} f : sProp 𝕄))
      ⊣⊢ bigSep Finset.univ fun j : Fin 12 => xPts (F := F) c j.val j.isLt f := by
  classical
  have hd : ∀ j ∈ (Finset.univ : Finset (Fin 12)), ∀ j' ∈ (Finset.univ : Finset (Fin 12)), j ≠ j' →
      Disjoint ((xCh (cstart j.val) (crows j.val) (xinb j.val j.isLt) (sq3 j.val)).view.set)
               ((xCh (cstart j'.val) (crows j'.val) (xinb j'.val j'.isLt) (sq3 j'.val)).view.set) := by
    intro j _ j' _ hne
    refine Finset.disjoint_left.mpr fun i hi hi' => ?_
    have a := (mem_x_set j.val j.isLt i).mp hi
    have b := (mem_x_set j'.val j'.isLt i).mp hi'
    have := chunk_sep j.isLt j'.isLt (fun e => hne (Fin.ext e))
    omega
  have hc : (Finset.univ : Finset (Idx ((c : Thread nD τ).loc cc0_stg0_0))) =
      (Finset.univ : Finset (Fin 12)).biUnion fun j =>
        (xCh (cstart j.val) (crows j.val) (xinb j.val j.isLt) (sq3 j.val)).view.set := by
    refine (Finset.eq_univ_iff_forall.mpr fun i => ?_).symm
    obtain ⟨h1, h2, h3⟩ := chunk_bounds (r := (i 1).val) (i 1).isLt
    exact Finset.mem_biUnion.mpr ⟨⟨chunkOf (i 1).val, h1⟩, Finset.mem_univ _, (mem_x_set _ h1 i).mpr ⟨h2, h3⟩⟩
  rw [hc, pointsTo_biUnion _ _ hd]
  exact .rfl

/-- The result staging buffer is its twelve chunks. -/
theorem o_split (c : Dev nD) (f : Buf (Elt F) ((c : Thread nD τ).loc cc0_stg1_0)) :
    ((((c : Thread nD τ).loc cc0_stg1_0) ↦{fullShare} f : sProp 𝕄))
      ⊣⊢ bigSep Finset.univ fun j : Fin 12 => oPts (F := F) c j.val j.isLt f := by
  classical
  have hd : ∀ j ∈ (Finset.univ : Finset (Fin 12)), ∀ j' ∈ (Finset.univ : Finset (Fin 12)), j ≠ j' →
      Disjoint ((oCh (cstart j.val) (crows j.val) (oinb j.val j.isLt)).view.set)
               ((oCh (cstart j'.val) (crows j'.val) (oinb j'.val j'.isLt)).view.set) := by
    intro j _ j' _ hne
    refine Finset.disjoint_left.mpr fun i hi hi' => ?_
    have a := (mem_o_set j.val j.isLt i).mp hi
    have b := (mem_o_set j'.val j'.isLt i).mp hi'
    have := chunk_sep j.isLt j'.isLt (fun e => hne (Fin.ext e))
    omega
  have hc : (Finset.univ : Finset (Idx ((c : Thread nD τ).loc cc0_stg1_0))) =
      (Finset.univ : Finset (Fin 12)).biUnion fun j =>
        (oCh (cstart j.val) (crows j.val) (oinb j.val j.isLt)).view.set := by
    refine (Finset.eq_univ_iff_forall.mpr fun i => ?_).symm
    obtain ⟨h1, h2, h3⟩ := chunk_bounds (r := (i 0).val) (i 0).isLt
    exact Finset.mem_biUnion.mpr ⟨⟨chunkOf (i 0).val, h1⟩, Finset.mem_univ _, (mem_o_set _ h1 i).mpr ⟨h2, h3⟩⟩
  rw [hc, pointsTo_biUnion _ _ hd]
  exact .rfl

/-- The rows of the landing buffer outside every slot's first `crows j` rows. -/
def restSet (c : Dev nD) : Finset (Idx ((c : Thread nD τ).loc cc0_scratch0)) :=
  Finset.univ \ (Finset.univ : Finset (Fin 3 × Fin 12)).biUnion fun sj =>
    (cSl sj.1.val sj.2.val (crows sj.2.val) (cinb sj.1.val sj.2.val sj.1.isLt sj.2.isLt) (sq4 sj.2.val)).view.set

/-- The landing buffer is its 36 slots and the rest. -/
theorem c_split (c : Dev nD) (f : Buf (Elt F) ((c : Thread nD τ).loc cc0_scratch0)) :
    ((((c : Thread nD τ).loc cc0_scratch0) ↦{fullShare} f : sProp 𝕄))
      ⊣⊢ iprop((bigSep Finset.univ fun sj : Fin 3 × Fin 12 => slotPts (F := F) c sj.1.val sj.2.val sj.1.isLt sj.2.isLt f)
          ∗ (((c : Thread nD τ).loc cc0_scratch0) ↦[restSet c]{fullShare} f)) := by
  classical
  have hd : ∀ sj ∈ (Finset.univ : Finset (Fin 3 × Fin 12)), ∀ sj' ∈ (Finset.univ : Finset (Fin 3 × Fin 12)), sj ≠ sj' →
      Disjoint ((cSl sj.1.val sj.2.val (crows sj.2.val) (cinb sj.1.val sj.2.val sj.1.isLt sj.2.isLt) (sq4 sj.2.val)).view.set)
               ((cSl sj'.1.val sj'.2.val (crows sj'.2.val) (cinb sj'.1.val sj'.2.val sj'.1.isLt sj'.2.isLt) (sq4 sj'.2.val)).view.set) := by
    intro sj _ sj' _ hne
    refine Finset.disjoint_left.mpr fun i hi hi' => ?_
    have a := (mem_c_set _ _ sj.1.isLt sj.2.isLt i).mp hi
    have b := (mem_c_set _ _ sj'.1.isLt sj'.2.isLt i).mp hi'
    exact hne (Prod.ext (Fin.ext (a.1.symm.trans b.1)) (Fin.ext (a.2.1.symm.trans b.2.1)))
  refine (pointsTo_split_subset (Finset.subset_univ ((Finset.univ : Finset (Fin 3 × Fin 12)).biUnion fun sj =>
    (cSl sj.1.val sj.2.val (crows sj.2.val) (cinb sj.1.val sj.2.val sj.1.isLt sj.2.isLt) (sq4 sj.2.val)).view.set))).trans ?_
  rw [pointsTo_biUnion _ _ hd]
  exact .rfl

/-- The landing buffer re-joined from its 36 slots at one contents and the untouched rows at another: the
    contents that takes the second on the untouched rows and the first elsewhere agrees with each piece on
    its own elements. -/
theorem c_join (c : Dev nD) (f g : Buf (Elt F) ((c : Thread nD τ).loc cc0_scratch0)) :
    iprop((bigSep Finset.univ fun sj : Fin 3 × Fin 12 => slotPts (F := F) c sj.1.val sj.2.val sj.1.isLt sj.2.isLt f)
        ∗ (((c : Thread nD τ).loc cc0_scratch0) ↦[restSet c]{fullShare} g))
      ⊢ (iprop(∃ h, (((c : Thread nD τ).loc cc0_scratch0) ↦{fullShare} h)) : sProp 𝕄) := by
  classical
  have e1 : ∀ sj : Fin 3 × Fin 12,
      slotPts (F := F) c sj.1.val sj.2.val sj.1.isLt sj.2.isLt f
        = slotPts (F := F) c sj.1.val sj.2.val sj.1.isLt sj.2.isLt ((restSet c).piecewise g f) := by
    intro sj
    unfold slotPts
    refine pointsTo_congr fun i hi => ?_
    have hni : i ∉ restSet c := fun hr =>
      (Finset.mem_sdiff.mp hr).2 (Finset.mem_biUnion.mpr ⟨sj, Finset.mem_univ _, hi⟩)
    exact (Finset.piecewise_eq_of_notMem _ _ _ hni).symm
  rw [bigSep_congr (fun sj _ => e1 sj),
    pointsTo_congr (I := restSet c) (f := g) (g := (restSet c).piecewise g f)
      (fun i hi => (Finset.piecewise_eq_of_mem _ _ _ hi).symm)]
  iintro H
  iexists (restSet c).piecewise g f
  iapply (c_split c ((restSet c).piecewise g f)).mpr
  iexact H

end Cert.Kernel.Hand

end
-- ==== Proof.BitsSide.Steps.lean ====
/-
  One device's protocol, a piece at a time: a transfer issued, the two waits of a transfer, a stage's addition.
  Each piece is stated at the head of any program, for any chunk and stage.
-/
import proofs.«900610_g7700000000000611_dist_treered_v7x_i8_m256_n256_f32_1_alg».proof.Proof.BitsSide.Bundles
import proofs.«900610_g7700000000000611_dist_treered_v7x_i8_m256_n256_f32_1_alg».proof.Proof.BitsSide.Sched
import proofs.«900610_g7700000000000611_dist_treered_v7x_i8_m256_n256_f32_1_alg».proof.Proof.BitsSide.Data
import proofs.«900610_g7700000000000611_dist_treered_v7x_i8_m256_n256_f32_1_alg».proof.Proof.BitsSide.Parts

noncomputable section

namespace Cert.Kernel.Hand

open Cert.Kernel Cert.Kernel.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 73 → ℕ)

/-! ## Views of a chunk: the same elements however the chunk is addressed -/

omit [FloatOps F] in
/-- A transfer of a chunk of `R` rows counts the same units whichever buffer holds the chunk. -/
theorem credit_eq {R : ℕ} (v : Memref sig .tc .vmem (SR2 R) .f32) : v.view.dmaCredit = NR R := rfl

omit [FloatOps F] in
/-- A load at a rectangle reads what the rectangle's view reads. -/
theorem readAt_eq_read {sp : CoreSpace} {s : Shape} {e : EltTy} (mm : Memref sig .tc sp s e) (r : Rect s) (f : mm.view.ty.Contents (Elt F)) :
    mm.view.readAt (Elt F) r.toLoadRect f = (mm.access r).read (Elt F) f := rfl

/-! ## A transfer issued -/

/-- The transfer of `(s, j)` at the head of a program: the rows `src` (which the departure hands back) go to the
    partner's slot (which the arrival hands the partner at the rows sent); the arrival's credit comes off what the
    device owes. -/
theorem step_send (c p : Dev nD) (s j R : ℕ) (hs : s < 3) (hj : j < 12) (hp : p = peer c s j) (hR : R = crows j)
    (src : Memref sig .tc .vmem (SR2 R) .f32) (hc : CInb s j R) (hq4 : (SR4 R).Squeezes (SR2 R)) (hsi : SInb s j)
    {hsc : (cSl s j R hc hq4 : Memref sig (Dev.tc p : Thread nD τ).2.kind .vmem (SR2 R) .f32).view.ref.isScScratch = false}
    {hsrc : src.view.WordExact} {hdst : (cSl s j R hc hq4).view.WordExact}
    {hsem : DmaTarget.Typed .vmem (.dma (rSem s j hsi)) (.remote (Dev.tc p : Thread nD τ) (cSl s j R hc hq4) (.dma (sSem s j hsi)) hsc)}
    (fs : Buf (Elt F) (src.view.loc (c : Thread nD τ)))
    (hpay₁ : ((src.view.loc (c : Thread nD τ) ↦[src.view.set]{fullShare} fs : sProp 𝕄)) ⊢ sendPay m c s j hj)
    (hpay₂ : ∀ fd, ((cSl s j R hc hq4).view.loc ((peer c s j : Dev nD) : Thread nD τ) ↦[(cSl s j R hc hq4).view.set]{fullShare}
        ((cSl s j R hc hq4).view.write (Elt F) fd (src.view.read (Elt F) fs) Finset.univ) : sProp 𝕄) ⊢ recvPay m (peer c s j) s j hs hj)
    (k : ℕ) (hk : k + (12 * s + j) = 35) (W : Waits sig Unit)
    {α : Type} {Q : α → sProp 𝕄} {kont : PUnit → Prog (TpuEff nD τ sig (Elt F) Λ₀ .tc) α} :
    iprop(records m K ∗ (src.view.loc (c : Thread nD τ) ↦[src.view.set]{fullShare} fs) ∗ sTok (F := F) c s j ∗ rTok (F := F) c s j
        ∗ (∃ fd, ((cSl s j R hc hq4).view.loc ((peer c s j : Dev nD) : Thread nD τ) ↦[(cSl s j R hc hq4).view.set]{fullShare} fd))
        ∗ owes (c : Thread nD τ) (owedRem c (k + 1)) W)
      ⊢ iprop(((sCred (F := F) c s j ∗ owes (c : Thread nD τ) (owedRem c k) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src (.remote (Dev.tc p : Thread nD τ) (cSl s j R hc hq4) (.dma (sSem s j hsi)) hsc) (.dma (rSem s j hsi)) hsrc hdst hsem) kont) Q) := by
  subst hp; subst hR
  have e1 := sSem_eq s j hs hj hsi
  have e2 := rSem_eq s j hs hj hsi
  have hn : 35 - k = 12 * s + j := by omega
  iintro ⟨#Hrec, Hsrc, Hts, Htr, ⟨%fd, Hd⟩, HO⟩
  unfold sTok rTok sCred
  ihave HIs := (inv_s m K c s j hs hj) $$ Hrec
  ihave HIr := (inv_r m K (peer c s j) s j hs hj) $$ Hrec
  ihave Hrs := (reached_s m K c s j hs hj) $$ Hrec
  ihave Hrr := (reached_r m K (peer c s j) s j hs hj) $$ Hrec
  rw [← e1, ← e2]
  iapply (Rounds.wp_send_pointsTo 𝒱₀ ER (treeRd m) (c : Thread nD τ) none
      (κ₁ := K (c, ⟨1 + 12 * s + j, by omega⟩)) (κ₂ := K (peer c s j, ⟨37 + 12 * s + j, by omega⟩))
      (r₁ := 0) (r₂ := 0) (d₁ := (0 : Fin 3)) (d₂ := (0 : Fin 3)) (fd := fd)
      (by rw [e1, duties_s m c s j hs hj]; exact Finset.mem_singleton_self _)
      (by rw [e2, duties_r m (peer c s j) s j hs hj]; exact Finset.mem_singleton_self _)
      () () (NR (crows j)) rfl (by rw [e1]; exact amount_s m c s j hs hj 0) (by rw [e2]; exact amount_r m (peer c s j) s j hs hj 0)
      (O₀ := owedRem c (k + 1)) (owedRem c k) (by show owedRem c k + tallySend c (35 - k) = _; rw [hn, tallySend_eq c s j hs hj, e2]) (W := W)
      (by rw [e1, payload_s m c s j hs hj]; exact hpay₁)
      (by rw [e2, payload_r m (peer c s j) s j hs hj]; exact hpay₂ fd)) $$ [Hsrc Hts Htr Hd HO]
  · isplitr; · iexact HIs
    isplitr; · iexact HIr
    isplitl [Hsrc]; · iexact Hsrc
    isplitl [Hd]; · iexact Hd
    isplitl [HO]; · iexact HO
    isplitl [Hts]; · iexact Hts
    isplitr; · iexact Hrs
    isplitl [Htr]; · iexact Htr
    iexact Hrr

/-! ## The two waits of a transfer -/

/-- The wait for the departure of `(s, j)` and the wait for its arrival, at the head of any program: the rows sent
    come back, the own slot comes holding the partner's rows, and both semaphores are at zero again. -/
theorem step_waits (c : Dev nD) (s j R : ℕ) (hs : s < 3) (hj : j < 12) (hR : R = crows j) (hsi : SInb s j)
    (V₁ V₂ V₃ V₄ : Memref sig .tc .vmem (SR2 R) .f32)
    {h1 : V₁.view.WordExact} {h2 : V₂.view.WordExact} {h3 : V₃.view.WordExact} {h4 : V₄.view.WordExact}
    (k : ℕ) (hk : k + 12 * s + j < 36) (W : Waits sig Unit)
    {α : Type} {Q : α → sProp 𝕄} {kont : PUnit → Prog (TpuEff nD τ sig (Elt F) Λ₀ .tc) α} :
    iprop(records m K ∗ levAts L lv ∗ flying (F := F) c s j ∗ owes (c : Thread nD τ) (owedRem c k) W)
      ⊢ iprop(((sendPay m c s j hj ∗ recvPay m c s j hs hj ∗ semVal (dCell c (sQ s j)) 0 ∗ semVal (dCell c (rQ s j)) 0
              ∗ ∃ W', owes (c : Thread nD τ) (owedRem c k) W')
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sSem s j hsi) V₁ V₂ h1 h2) fun _ => .op (.waitDma2 (rSem s j hsi) V₃ V₄ h3 h4) kont) Q) := by
  subst hR
  have e1 := sSem_eq s j hs hj hsi
  have e2 := rSem_eq s j hs hj hsi
  iintro ⟨#Hrec, #Hlev, Hfly, HO⟩ Hk
  unfold flying sPos rPos rCred sCred
  icases Hfly with ⟨HatS, HatR, HcR, HcS⟩
  ihave HIs := (inv_s m K c s j hs hj) $$ Hrec
  ihave HIr := (inv_r m K c s j hs hj) $$ Hrec
  rw [e1, e2]
  iapply (Rounds.wp_wait_rest_token 𝒱₀ ER (treeRd m) (c : Thread nD τ) none (κ := K (c, ⟨1 + 12 * s + j, by omega⟩))
      (wpE_waitDma2_eq 𝒱₀ (c : Thread nD τ) none Set.univ) (Set.mem_univ _) () (O := owedRem c k) (W := W) (R := 0) (m := 0) (T := ∅)
      (by rw [Nat.zero_add, expect_s m c s j hs hj])) $$ [HcS HO HatS]
  · isplitr; · iexact HIs
    isplitl [HcS]; · iexact HcS
    isplitl [HO]; · iexact HO
    isplitr; · iapply (mayWait_s c s j hs hj k (by omega)); iexact Hlev
    iexact HatS
  iintro ⟨HO, HatS, -, HpayS⟩
  ihave HpS := (Entails.of_eq (rest_s m c s j hs hj)) $$ HpayS
  iapply (Rounds.wp_wait_rest_token 𝒱₀ ER (treeRd m) (c : Thread nD τ) none (κ := K (c, ⟨37 + 12 * s + j, by omega⟩))
      (wpE_waitDma2_eq 𝒱₀ (c : Thread nD τ) none Set.univ) (Set.mem_univ _) () (O := owedRem c k)
      (W := insert (SemLoc.dma (sQ s j), ()) W) (R := 0) (m := 0) (T := ∅)
      (by rw [Nat.zero_add, expect_r m c s j hs hj])) $$ [HcR HO HatR]
  · isplitr; · iexact HIr
    isplitl [HcR]; · iexact HcR
    isplitl [HO]; · iexact HO
    isplitr; · iapply (mayWait_r c s j hs hj k hk); iexact Hlev
    iexact HatR
  iintro ⟨HO, HatR, -, HpayR⟩
  ihave HpR := (Entails.of_eq (rest_r m c s j hs hj)) $$ HpayR
  imod (Rounds.cell_close ER (treeRd m) (Set.mem_univ (K (c, ⟨1 + 12 * s + j, by omega⟩))) (fun h => h) (R := 0 + 1) (duties_later m (dCell c (sQ s j)))) $$ [HatS] with HzS
  · isplitr; · iexact HIs
    iexact HatS
  imod (Rounds.cell_close ER (treeRd m) (Set.mem_univ (K (c, ⟨37 + 12 * s + j, by omega⟩))) (fun h => h) (R := 0 + 1) (duties_later m (dCell c (rQ s j)))) $$ [HatR] with HzR
  · isplitr; · iexact HIr
    iexact HatR
  iapply Hk
  isplitl [HpS]; · iexact HpS
  isplitl [HpR]; · iexact HpR
  isplitl [HzS]; · iexact HzS
  isplitl [HzR]; · iexact HzR
  iexists _; iexact HO

/-- The two value facts with the loads read through the rectangle's view (the same reading, spelt as the load rule leaves it). -/
theorem reduce0_val' (c : Dev nD) (j : ℕ) (hj : j < 12) (fo : Buf (Elt F) ((oCh (cstart j) (crows j) (oinb j hj)).view.loc (c : Thread nD τ)))
    (hx : XInb (cstart j) (crows j)) (hc : CInb 0 j (crows j)) (ho : OInb (cstart j) (crows j))
    (h₁ : (SR3 (crows j)).ShapeCasts (SR2 (crows j))) (h₂ : (SR4 (crows j)).ShapeCasts (SR2 (crows j))) :
    oPts (F := F) c j hj
        (((oM : Memref sig .tc .vmem S256x256 .f32).access (oRect (cstart j) (crows j) ho)).write (Elt F) fo
          (pay (F := F) (R := crows j)
            (((xM : Memref sig .tc .vmem S1x256x256 .f32).access (xRect (cstart j) (crows j) hx)).read (Elt F) (xs m c))
            (((cM : Memref sig .tc .vmem S3x12x24x256 .f32).access (cRect 0 j (crows j) hc)).read (Elt F) (landed m c)) h₁ h₂)
          Finset.univ)
      = oPts (F := F) c j hj (acc m c 1) := reduce0_val m c j hj fo h₁ h₂

theorem reduceS_val' (c : Dev nD) (s j : ℕ) (hs0 : 0 < s) (hs : s < 3) (hj : j < 12)
    (hc : CInb s j (crows j)) (ho : OInb (cstart j) (crows j))
    (h₁ : (SR2 (crows j)).ShapeCasts (SR2 (crows j))) (h₂ : (SR4 (crows j)).ShapeCasts (SR2 (crows j))) :
    oPts (F := F) c j hj
        (((oM : Memref sig .tc .vmem S256x256 .f32).access (oRect (cstart j) (crows j) ho)).write (Elt F) (acc m c s)
          (pay (F := F) (R := crows j)
            (((oM : Memref sig .tc .vmem S256x256 .f32).access (oRect (cstart j) (crows j) ho)).read (Elt F) (acc m c s))
            (((cM : Memref sig .tc .vmem S3x12x24x256 .f32).access (cRect s j (crows j) hc)).read (Elt F) (landed m c)) h₁ h₂)
          Finset.univ)
      = oPts (F := F) c j hj (acc m c (s + 1)) := reduceS_val m c s j hs0 hs hj h₁ h₂

/-! ## A stage's addition -/

set_option maxHeartbeats 1600000 in
/-- Stage 0 on chunk `j`, at the head of any program: the input rows and the landed rows are loaded, their sum is
    stored over the chunk of the result block, which then holds the running sum after one stage. -/
theorem step_reduce0 (c : Dev nD) (j a R : ℕ) (hj : j < 12) (ha : a = cstart j) (hR : R = crows j)
    (hx : XInb a R) (hc : CInb 0 j R) (ho : OInb a R)
    {hl1 : (xM : Memref sig .tc .vmem S1x256x256 .f32).view.LoadsAt (xRect a R hx).toLoadRect}
    {hl2 : (cM : Memref sig .tc .vmem S3x12x24x256 .f32).view.LoadsAt (cRect 0 j R hc).toLoadRect}
    {hl3 : (oM : Memref sig .tc .vmem S256x256 .f32).view.LoadsAt (oRect a R ho).toLoadRect}
    {hst : ((oM : Memref sig .tc .vmem S256x256 .f32).access (oRect a R ho)).Stores Finset.univ}
    {hm : (Finset.univ : Finset (oRect a R ho).shape.Idx) = Finset.univ ∨ ∀ i, (oRect a R ho).stride i = 1}
    (h₁ : (SR3 R).ShapeCasts (SR2 R)) (h₂ : (SR4 R).ShapeCasts (SR2 R))
    {α : Type} {Q : α → sProp 𝕄} {kont : PUnit → Prog (TpuEff nD τ sig (Elt F) Λ₀ .tc) α} :
    iprop(xPts c j hj (xs m c) ∗ slotPts c 0 j (by decide) hj (landed m c) ∗ (∃ fo, oPts (F := F) c j hj fo))
      ⊢ iprop(((xPts c j hj (xs m c) ∗ slotPts c 0 j (by decide) hj (landed m c) ∗ oPts c j hj (acc m c 1))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.load xM (xRect a R hx).toLoadRect hl1) fun v₁ =>
                .op (.load cM (cRect 0 j R hc).toLoadRect hl2) fun v₂ =>
                .op (.load oM (oRect a R ho).toLoadRect hl3) fun _ =>
                .op (.store oM (oRect a R ho) (pay (F := F) (R := R) v₁ v₂ h₁ h₂) Finset.univ hst hm) kont) Q) := by
  subst ha; subst hR
  iintro ⟨Hx, Hc, ⟨%fo, Ho⟩⟩ Hk
  unfold xPts slotPts oPts
  iapply (wp_load_rect 𝒱₀ (c : Thread nD τ) none Set.univ (m := xM) (r := xRect (cstart j) (crows j) hx) (le_of_eq ((View.set_slice_whole _ _).trans (x_set j hj).symm))) $$ Hx; iintro Hx
  iapply (wp_load_rect 𝒱₀ (c : Thread nD τ) none Set.univ (m := cM) (r := cRect 0 j (crows j) hc) (le_of_eq ((View.set_slice_whole _ _).trans (c_set 0 j (by decide) hj).symm))) $$ Hc; iintro Hc
  iapply (wp_load_rect 𝒱₀ (c : Thread nD τ) none Set.univ (m := oM) (r := oRect (cstart j) (crows j) ho) (le_of_eq ((View.set_slice_whole _ _).trans (o_set j hj).symm))) $$ Ho; iintro Ho
  iapply (wp_store 𝒱₀ (c : Thread nD τ) none Set.univ (m := oM) (r := oRect (cstart j) (crows j) ho) (Mk := Finset.univ) (S := (oCh (cstart j) (crows j) (oinb j hj)).view.set) (le_of_eq rfl)) $$ Ho; iintro Ho
  iapply Hk
  isplitl [Hx]; · iexact Hx
  isplitl [Hc]; · iexact Hc
  have hv := reduce0_val' m c j hj fo hx hc ho h₁ h₂
  unfold oPts at hv
  ihave Ho' := (Entails.of_eq hv) $$ Ho
  iexact Ho'

set_option maxHeartbeats 1600000 in
/-- Stages 1 and 2 on chunk `j`: the running rows and the landed rows are loaded, their sum stored back. -/
theorem step_reduceS (c : Dev nD) (s j a R : ℕ) (hs0 : 0 < s) (hs : s < 3) (hj : j < 12) (ha : a = cstart j) (hR : R = crows j)
    (hc : CInb s j R) (ho : OInb a R)
    {hl1 : (oM : Memref sig .tc .vmem S256x256 .f32).view.LoadsAt (oRect a R ho).toLoadRect}
    {hl2 : (cM : Memref sig .tc .vmem S3x12x24x256 .f32).view.LoadsAt (cRect s j R hc).toLoadRect}
    {hl3 : (oM : Memref sig .tc .vmem S256x256 .f32).view.LoadsAt (oRect a R ho).toLoadRect}
    {hst : ((oM : Memref sig .tc .vmem S256x256 .f32).access (oRect a R ho)).Stores Finset.univ}
    {hm : (Finset.univ : Finset (oRect a R ho).shape.Idx) = Finset.univ ∨ ∀ i, (oRect a R ho).stride i = 1}
    (h₁ : (SR2 R).ShapeCasts (SR2 R)) (h₂ : (SR4 R).ShapeCasts (SR2 R))
    {α : Type} {Q : α → sProp 𝕄} {kont : PUnit → Prog (TpuEff nD τ sig (Elt F) Λ₀ .tc) α} :
    iprop(slotPts c s j hs hj (landed m c) ∗ oPts c j hj (acc m c s))
      ⊢ iprop(((slotPts c s j hs hj (landed m c) ∗ oPts c j hj (acc m c (s + 1)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.load oM (oRect a R ho).toLoadRect hl1) fun v₁ =>
                .op (.load cM (cRect s j R hc).toLoadRect hl2) fun v₂ =>
                .op (.load oM (oRect a R ho).toLoadRect hl3) fun _ =>
                .op (.store oM (oRect a R ho) (pay (F := F) (R := R) v₁ v₂ h₁ h₂) Finset.univ hst hm) kont) Q) := by
  subst ha; subst hR
  iintro ⟨Hc, Ho⟩ Hk
  unfold slotPts oPts
  iapply (wp_load_rect 𝒱₀ (c : Thread nD τ) none Set.univ (m := oM) (r := oRect (cstart j) (crows j) ho) (le_of_eq ((View.set_slice_whole _ _).trans (o_set j hj).symm))) $$ Ho; iintro Ho
  iapply (wp_load_rect 𝒱₀ (c : Thread nD τ) none Set.univ (m := cM) (r := cRect s j (crows j) hc) (le_of_eq ((View.set_slice_whole _ _).trans (c_set s j hs hj).symm))) $$ Hc; iintro Hc
  iapply (wp_load_rect 𝒱₀ (c : Thread nD τ) none Set.univ (m := oM) (r := oRect (cstart j) (crows j) ho) (le_of_eq ((View.set_slice_whole _ _).trans (o_set j hj).symm))) $$ Ho; iintro Ho
  iapply (wp_store 𝒱₀ (c : Thread nD τ) none Set.univ (m := oM) (r := oRect (cstart j) (crows j) ho) (Mk := Finset.univ) (S := (oCh (cstart j) (crows j) (oinb j hj)).view.set) (le_of_eq rfl)) $$ Ho; iintro Ho
  iapply Hk
  isplitl [Hc]; · iexact Hc
  have hv := reduceS_val' m c s j hs0 hs hj hc ho h₁ h₂
  unfold oPts at hv
  ihave Ho' := (Entails.of_eq hv) $$ Ho
  iexact Ho'

/-! ## The chunk's states, one to the next -/

theorem sendPay_zero (c : Dev nD) (j : ℕ) (hj : j < 12) : sendPay m c 0 j hj = xPts c j hj (xs m c) := if_pos rfl
theorem sendPay_pos (c : Dev nD) (s j : ℕ) (hj : j < 12) (hs0 : 0 < s) : sendPay m c s j hj = oPts c j hj (acc m c s) := if_neg (by omega)
theorem recvPay_eq (c : Dev nD) (s j : ℕ) (hs : s < 3) (hj : j < 12) : recvPay m c s j hs hj = slotPts c s j hs hj (landed m c) := rfl

/-- Chunk `j`'s first transfer. -/
theorem stepA (c p : Dev nD) (j a R : ℕ) (hj : j < 12) (hp : p = peer c 0 j) (ha : a = cstart j) (hR : R = crows j)
    (hx : XInb a R) (hq3 : (SR3 R).Squeezes (SR2 R)) (hc : CInb 0 j R) (hq4 : (SR4 R).Squeezes (SR2 R)) (hsi : SInb 0 j)
    {hsc : (cSl 0 j R hc hq4 : Memref sig (Dev.tc p : Thread nD τ).2.kind .vmem (SR2 R) .f32).view.ref.isScScratch = false}
    {hsrc : (xCh a R hx hq3).view.WordExact} {hdst : (cSl 0 j R hc hq4).view.WordExact}
    {hsem : DmaTarget.Typed .vmem (.dma (rSem 0 j hsi)) (.remote (Dev.tc p : Thread nD τ) (cSl 0 j R hc hq4) (.dma (sSem 0 j hsi)) hsc)}
    (k : ℕ) (hk : k + j = 35) (W : Waits sig Unit)
    {α : Type} {Q : α → sProp 𝕄} {kont : PUnit → Prog (TpuEff nD τ sig (Elt F) Λ₀ .tc) α} :
    iprop(records m K ∗ St0 m c j hj ∗ owes (c : Thread nD τ) (owedRem c (k + 1)) W)
      ⊢ iprop(((St1 (F := F) c j hj ∗ ∃ W', owes (c : Thread nD τ) (owedRem c k) W')
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xCh a R hx hq3) (.remote (Dev.tc p : Thread nD τ) (cSl 0 j R hc hq4) (.dma (sSem 0 j hsi)) hsc) (.dma (rSem 0 j hsi)) hsrc hdst hsem) kont) Q) := by
  subst hp; subst ha; subst hR
  iintro ⟨#Hrec, HS, HO⟩ Hk
  unfold St0 stageRes dSlot
  icases HS with ⟨⟨Hts, Htr, Hps, Hpr, Hcr, Hd⟩, S1, S2, Hx, Ho⟩
  unfold xPts slotPts
  iapply (step_send m K c (peer c 0 j) 0 j (crows j) (by decide) hj rfl rfl (xCh (cstart j) (crows j) hx hq3) hc hq4 hsi (xs m c)
      (by rw [sendPay_zero]; exact Entails.of_eq rfl)
      (fun fd => by unfold recvPay; exact Entails.of_eq (landing0 m c j hj fd))
      k (by omega) W) $$ [Hx Hts Htr Hd HO]
  · isplitr; · iexact Hrec
    isplitl [Hx]; · iexact Hx
    isplitl [Hts]; · iexact Hts
    isplitl [Htr]; · iexact Htr
    isplitl [Hd]; · iexact Hd
    iexact HO
  iintro ⟨HcS, HO⟩
  iapply Hk
  unfold St1 flying
  isplitr [HO]
  · isplitl [Hps Hpr Hcr HcS]
    · isplitl [Hps]; · iexact Hps
      isplitl [Hpr]; · iexact Hpr
      isplitl [Hcr]; · iexact Hcr
      iexact HcS
    isplitl [S1]; · unfold stageRes dSlot slotPts; iexact S1
    isplitl [S2]; · unfold stageRes dSlot slotPts; iexact S2
    unfold oPts; iexact Ho
  · iexists W; iexact HO

end Cert.Kernel.Hand

end
-- ==== Proof.BitsSide.StepB.lean ====
/-
  Chunk by chunk: the first transfer's waits, the first addition, the second transfer.
-/
import proofs.«900610_g7700000000000611_dist_treered_v7x_i8_m256_n256_f32_1_alg».proof.Proof.BitsSide.Steps

noncomputable section

namespace Cert.Kernel.Hand

open Cert.Kernel Cert.Kernel.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 73 → ℕ)

set_option maxHeartbeats 800000 in
/-- Chunk `j`: the first transfer's waits, the first addition, the second transfer. -/
theorem stepB (c p : Dev nD) (j a R : ℕ) (hj : j < 12) (hp : p = peer c 1 j) (ha : a = cstart j) (hR : R = crows j)
    (hx : XInb a R) (hq3 : (SR3 R).Squeezes (SR2 R)) (hc0 : CInb 0 j R) (hq4 : (SR4 R).Squeezes (SR2 R)) (ho : OInb a R) (hc1 : CInb 1 j R)
    (hsi0 : SInb 0 j) (hsi1 : SInb 1 j)
    {h1 : (cSl 0 j R hc0 hq4).view.WordExact} {h2 : (xCh a R hx hq3).view.WordExact} {h3 : (xCh a R hx hq3).view.WordExact} {h4 : (cSl 0 j R hc0 hq4).view.WordExact}
    {hl1 : (xM : Memref sig .tc .vmem S1x256x256 .f32).view.LoadsAt (xRect a R hx).toLoadRect}
    {hl2 : (cM : Memref sig .tc .vmem S3x12x24x256 .f32).view.LoadsAt (cRect 0 j R hc0).toLoadRect}
    {hl3 : (oM : Memref sig .tc .vmem S256x256 .f32).view.LoadsAt (oRect a R ho).toLoadRect}
    {hst : ((oM : Memref sig .tc .vmem S256x256 .f32).access (oRect a R ho)).Stores Finset.univ}
    {hm : (Finset.univ : Finset (oRect a R ho).shape.Idx) = Finset.univ ∨ ∀ i, (oRect a R ho).stride i = 1}
    (h₁ : (SR3 R).ShapeCasts (SR2 R)) (h₂ : (SR4 R).ShapeCasts (SR2 R))
    {hsc : (cSl 1 j R hc1 hq4 : Memref sig (Dev.tc p : Thread nD τ).2.kind .vmem (SR2 R) .f32).view.ref.isScScratch = false}
    {hsrc : (oCh a R ho).view.WordExact} {hdst : (cSl 1 j R hc1 hq4).view.WordExact}
    {hsem : DmaTarget.Typed .vmem (.dma (rSem 1 j hsi1)) (.remote (Dev.tc p : Thread nD τ) (cSl 1 j R hc1 hq4) (.dma (sSem 1 j hsi1)) hsc)}
    (k : ℕ) (hk : k + (12 + j) = 35) (W : Waits sig Unit)
    {α : Type} {Q : α → sProp 𝕄} {kont : PUnit → Prog (TpuEff nD τ sig (Elt F) Λ₀ .tc) α} :
    iprop(records m K ∗ levAts L lv ∗ St1 (F := F) c j hj ∗ owes (c : Thread nD τ) (owedRem c (k + 1)) W)
      ⊢ iprop(((St2 m c j hj ∗ ∃ W', owes (c : Thread nD τ) (owedRem c k) W')
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sSem 0 j hsi0) (cSl 0 j R hc0 hq4) (xCh a R hx hq3) h1 h2) fun _ =>
                .op (.waitDma2 (rSem 0 j hsi0) (xCh a R hx hq3) (cSl 0 j R hc0 hq4) h3 h4) fun _ =>
                .op (.load xM (xRect a R hx).toLoadRect hl1) fun v₁ =>
                .op (.load cM (cRect 0 j R hc0).toLoadRect hl2) fun v₂ =>
                .op (.load oM (oRect a R ho).toLoadRect hl3) fun _ =>
                .op (.store oM (oRect a R ho) (pay (F := F) (R := R) v₁ v₂ h₁ h₂) Finset.univ hst hm) fun _ =>
                .op (.enqueueDma (oCh a R ho) (.remote (Dev.tc p : Thread nD τ) (cSl 1 j R hc1 hq4) (.dma (sSem 1 j hsi1)) hsc) (.dma (rSem 1 j hsi1)) hsrc hdst hsem) kont) Q) := by
  subst hp; subst ha; subst hR
  have h03 : (0 : ℕ) < 3 := by decide
  have h13 : (1 : ℕ) < 3 := by decide
  have h01 : (0 : ℕ) < 1 := by decide
  have hpay₁ : (((oCh (cstart j) (crows j) ho).view.loc (c : Thread nD τ) ↦[(oCh (cstart j) (crows j) ho).view.set]{fullShare} (acc m c 1) : sProp 𝕄))
      ⊢ sendPay m c 1 j hj := by
    rw [sendPay_pos m c 1 j hj h01]; unfold oPts; exact Entails.of_eq rfl
  have hpay₂ : ∀ fd, (((cSl 1 j (crows j) hc1 hq4).view.loc ((peer c 1 j : Dev nD) : Thread nD τ) ↦[(cSl 1 j (crows j) hc1 hq4).view.set]{fullShare}
        ((cSl 1 j (crows j) hc1 hq4).view.write (Elt F) fd ((oCh (cstart j) (crows j) ho).view.read (Elt F) (acc m c 1)) Finset.univ) : sProp 𝕄))
      ⊢ recvPay m (peer c 1 j) 1 j h13 hj := by
    intro fd
    have h := landingS m c 1 j h01 h13 hj fd
    unfold slotPts at h
    unfold recvPay slotPts
    exact Entails.of_eq h
  iintro ⟨#Hrec, #Hlev, HS, HO⟩ Hk
  unfold St1
  icases HS with ⟨Hfly, S1, S2, Ho⟩
  iapply (step_waits m K c 0 j (crows j) h03 hj rfl hsi0 _ _ _ _ (k + 1) (by omega) W) $$ [Hfly HO]
  · isplitr; · iexact Hrec
    isplitr; · iexact Hlev
    isplitl [Hfly]; · iexact Hfly
    iexact HO
  iintro ⟨Hx0, Hc0, HzS, HzR, ⟨%W1, HO⟩⟩
  ihave Hx := (Entails.of_eq (sendPay_zero m c j hj)) $$ Hx0
  ihave Hc := (Entails.of_eq (recvPay_eq m c 0 j h03 hj)) $$ Hc0
  iapply (step_reduce0 m c j (cstart j) (crows j) hj rfl rfl hx hc0 ho h₁ h₂) $$ [Hx Hc Ho]
  · isplitl [Hx]; · iexact Hx
    isplitl [Hc]; · iexact Hc
    iexact Ho
  iintro ⟨Hx, Hc, Ho⟩
  unfold stageRes dSlot
  icases S1 with ⟨Hts, Htr, Hps, Hpr, Hcr, Hd⟩
  unfold oPts slotPts
  iapply (step_send m K c (peer c 1 j) 1 j (crows j) h13 hj rfl rfl (oCh (cstart j) (crows j) ho) hc1 hq4 hsi1 (acc m c 1)
      hpay₁ hpay₂ k (by omega) W1) $$ [Ho Hts Htr Hd HO]
  · isplitr; · iexact Hrec
    isplitl [Ho]; · iexact Ho
    isplitl [Hts]; · iexact Hts
    isplitl [Htr]; · iexact Htr
    isplitl [Hd]; · iexact Hd
    iexact HO
  iintro ⟨HcS, HO⟩
  iapply Hk
  unfold St2 done flying
  isplitr [HO]
  · isplitl [HzS HzR Hc]
    · isplitl [HzS]; · iexact HzS
      isplitl [HzR]; · iexact HzR
      unfold slotPts; iexact Hc
    isplitl [Hps Hpr Hcr HcS]
    · isplitl [Hps]; · iexact Hps
      isplitl [Hpr]; · iexact Hpr
      isplitl [Hcr]; · iexact Hcr
      iexact HcS
    isplitl [S2]; · unfold stageRes dSlot slotPts; iexact S2
    unfold xPts; iexact Hx
  · iexists W1; iexact HO

end Cert.Kernel.Hand

end
-- ==== Proof.BitsSide.StepC.lean ====
/-
  Chunk by chunk: the second transfer's waits, the second addition, the third transfer.
-/
import proofs.«900610_g7700000000000611_dist_treered_v7x_i8_m256_n256_f32_1_alg».proof.Proof.BitsSide.Steps

noncomputable section

namespace Cert.Kernel.Hand

open Cert.Kernel Cert.Kernel.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 73 → ℕ)

/-! ## The chunk's second and third states, taken apart and put together -/

/-- The state with the second transfer under way, in its pieces; the partner's slot for the third transfer at its points-to. -/
theorem St2_elim (c : Dev nD) (j : ℕ) (hj : j < 12) :
    St2 m c j hj ⊢ iprop(done m c 0 j (by decide) hj ∗ flying (F := F) c 1 j
      ∗ (sTok (F := F) c 2 j ∗ rTok (F := F) c 2 j ∗ sPos (F := F) c 2 j ∗ rPos (F := F) c 2 j ∗ rCred (F := F) c 2 j
        ∗ ∃ fd, ((cSl 2 j (crows j) (cinb 2 j (by decide) hj) (sq4 j)).view.loc ((peer c 2 j : Dev nD) : Thread nD τ)
            ↦[(cSl 2 j (crows j) (cinb 2 j (by decide) hj) (sq4 j)).view.set]{fullShare} fd))
      ∗ xPts c j hj (xs m c)) :=
  Entails.of_eq rfl

/-- The state with the third transfer under way, from its pieces. -/
theorem St3_intro (c : Dev nD) (j : ℕ) (hj : j < 12) :
    iprop(done m c 0 j (by decide) hj
      ∗ (semVal (dCell c (sQ 1 j)) 0 ∗ semVal (dCell c (rQ 1 j)) 0 ∗ slotPts c 1 j (by decide) hj (landed m c))
      ∗ (sPos (F := F) c 2 j ∗ rPos (F := F) c 2 j ∗ rCred (F := F) c 2 j ∗ sCred (F := F) c 2 j)
      ∗ xPts c j hj (xs m c)) ⊢ St3 m c j hj :=
  Entails.of_eq rfl

/-- The chunk of the result block at the running sum after two stages, as the rows the third transfer sends. -/
theorem oPts_two (c : Dev nD) (j : ℕ) (hj : j < 12) (ho : OInb (cstart j) (crows j)) :
    oPts (F := F) c j hj (acc m c (1 + 1))
      ⊢ ((oCh (cstart j) (crows j) ho).view.loc (c : Thread nD τ) ↦[(oCh (cstart j) (crows j) ho).view.set]{fullShare} (acc m c 2) : sProp 𝕄) :=
  Entails.of_eq rfl

/-- The rows the third transfer sends are what its departure hands back. -/
theorem send2_pay₁ (c : Dev nD) (j : ℕ) (hj : j < 12) (ho : OInb (cstart j) (crows j)) (h02 : 0 < 2) :
    ((oCh (cstart j) (crows j) ho).view.loc (c : Thread nD τ) ↦[(oCh (cstart j) (crows j) ho).view.set]{fullShare} (acc m c 2) : sProp 𝕄)
      ⊢ sendPay m c 2 j hj :=
  Entails.of_eq (sendPay_pos m c 2 j hj h02).symm

/-- The partner's slot, once the rows sent have landed in it, is what the arrival hands the partner. -/
theorem send2_pay₂ (c : Dev nD) (j : ℕ) (hj : j < 12) (ho : OInb (cstart j) (crows j)) (hc2 : CInb 2 j (crows j))
    (hq4 : (SR4 (crows j)).Squeezes (SR2 (crows j))) (h02 : 0 < 2) (h23 : 2 < 3)
    (fd : Buf (Elt F) ((cSl 2 j (crows j) hc2 hq4).view.loc ((peer c 2 j : Dev nD) : Thread nD τ))) :
    ((cSl 2 j (crows j) hc2 hq4).view.loc ((peer c 2 j : Dev nD) : Thread nD τ) ↦[(cSl 2 j (crows j) hc2 hq4).view.set]{fullShare}
        ((cSl 2 j (crows j) hc2 hq4).view.write (Elt F) fd ((oCh (cstart j) (crows j) ho).view.read (Elt F) (acc m c 2)) Finset.univ) : sProp 𝕄)
      ⊢ recvPay m (peer c 2 j) 2 j h23 hj :=
  Entails.of_eq (landingS m c 2 j h02 h23 hj fd)

set_option maxHeartbeats 800000 in
/-- Chunk `j`: the second transfer's waits, the second addition, the third transfer. -/
theorem stepC (c p : Dev nD) (j a R : ℕ) (hj : j < 12) (hp : p = peer c 2 j) (ha : a = cstart j) (hR : R = crows j)
    (hq4 : (SR4 R).Squeezes (SR2 R)) (ho : OInb a R) (hc1 : CInb 1 j R) (hc2 : CInb 2 j R)
    (hsi1 : SInb 1 j) (hsi2 : SInb 2 j)
    {h1 : (cSl 1 j R hc1 hq4).view.WordExact} {h2 : (oCh a R ho).view.WordExact} {h3 : (oCh a R ho).view.WordExact} {h4 : (cSl 1 j R hc1 hq4).view.WordExact}
    {hl1 : (oM : Memref sig .tc .vmem S256x256 .f32).view.LoadsAt (oRect a R ho).toLoadRect}
    {hl2 : (cM : Memref sig .tc .vmem S3x12x24x256 .f32).view.LoadsAt (cRect 1 j R hc1).toLoadRect}
    {hl3 : (oM : Memref sig .tc .vmem S256x256 .f32).view.LoadsAt (oRect a R ho).toLoadRect}
    {hst : ((oM : Memref sig .tc .vmem S256x256 .f32).access (oRect a R ho)).Stores Finset.univ}
    {hm : (Finset.univ : Finset (oRect a R ho).shape.Idx) = Finset.univ ∨ ∀ i, (oRect a R ho).stride i = 1}
    (h₁ : (SR2 R).ShapeCasts (SR2 R)) (h₂ : (SR4 R).ShapeCasts (SR2 R))
    {hsc : (cSl 2 j R hc2 hq4 : Memref sig (Dev.tc p : Thread nD τ).2.kind .vmem (SR2 R) .f32).view.ref.isScScratch = false}
    {hsrc : (oCh a R ho).view.WordExact} {hdst : (cSl 2 j R hc2 hq4).view.WordExact}
    {hsem : DmaTarget.Typed .vmem (.dma (rSem 2 j hsi2)) (.remote (Dev.tc p : Thread nD τ) (cSl 2 j R hc2 hq4) (.dma (sSem 2 j hsi2)) hsc)}
    (k : ℕ) (hk : k + (24 + j) = 35) (W : Waits sig Unit)
    {α : Type} {Q : α → sProp 𝕄} {kont : PUnit → Prog (TpuEff nD τ sig (Elt F) Λ₀ .tc) α} :
    iprop(records m K ∗ levAts L lv ∗ St2 m c j hj ∗ owes (c : Thread nD τ) (owedRem c (k + 1)) W)
      ⊢ iprop(((St3 m c j hj ∗ ∃ W', owes (c : Thread nD τ) (owedRem c k) W')
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sSem 1 j hsi1) (cSl 1 j R hc1 hq4) (oCh a R ho) h1 h2) fun _ =>
                .op (.waitDma2 (rSem 1 j hsi1) (oCh a R ho) (cSl 1 j R hc1 hq4) h3 h4) fun _ =>
                .op (.load oM (oRect a R ho).toLoadRect hl1) fun v₁ =>
                .op (.load cM (cRect 1 j R hc1).toLoadRect hl2) fun v₂ =>
                .op (.load oM (oRect a R ho).toLoadRect hl3) fun _ =>
                .op (.store oM (oRect a R ho) (pay (F := F) (R := R) v₁ v₂ h₁ h₂) Finset.univ hst hm) fun _ =>
                .op (.enqueueDma (oCh a R ho) (.remote (Dev.tc p : Thread nD τ) (cSl 2 j R hc2 hq4) (.dma (sSem 2 j hsi2)) hsc) (.dma (rSem 2 j hsi2)) hsrc hdst hsem) kont) Q) := by
  subst hp; subst ha; subst hR
  have h01 : (0 : ℕ) < 1 := by decide
  have h02 : (0 : ℕ) < 2 := by decide
  have h13 : (1 : ℕ) < 3 := by decide
  have h23 : (2 : ℕ) < 3 := by decide
  have hk1 : (k + 1) + 12 * 1 + j < 36 := by omega
  have hk2 : k + (12 * 2 + j) = 35 := by omega
  iintro ⟨#Hrec, #Hlev, HS, HO⟩ Hk
  ihave HS' := (St2_elim m c j hj) $$ HS
  icases HS' with ⟨D0, Hfly, ⟨Hts, Htr, Hps, Hpr, Hcr, Hd⟩, Hx⟩
  iapply (step_waits m K c 1 j (crows j) h13 hj rfl hsi1 _ _ _ _ (k + 1) hk1 W) $$ [Hfly HO]
  · isplitr; · iexact Hrec
    isplitr; · iexact Hlev
    isplitl [Hfly]; · iexact Hfly
    iexact HO
  iintro ⟨Ho0, Hc0, HzS, HzR, ⟨%W1, HO⟩⟩
  ihave Ho := (Entails.of_eq (sendPay_pos m c 1 j hj h01)) $$ Ho0
  ihave Hc := (Entails.of_eq (recvPay_eq m c 1 j h13 hj)) $$ Hc0
  iapply (step_reduceS m c 1 j (cstart j) (crows j) h01 h13 hj rfl rfl hc1 ho h₁ h₂) $$ [Hc Ho]
  · isplitl [Hc]; · iexact Hc
    iexact Ho
  iintro ⟨Hc, Ho1⟩
  ihave Ho := (oPts_two m c j hj ho) $$ Ho1
  iapply (step_send m K c (peer c 2 j) 2 j (crows j) h23 hj rfl rfl (oCh (cstart j) (crows j) ho) hc2 hq4 hsi2 (acc m c 2)
      (send2_pay₁ m c j hj ho h02) (fun fd => send2_pay₂ m c j hj ho hc2 hq4 h02 h23 fd) k hk2 W1) $$ [Ho Hts Htr Hd HO]
  · isplitr; · iexact Hrec
    isplitl [Ho]; · iexact Ho
    isplitl [Hts]; · iexact Hts
    isplitl [Htr]; · iexact Htr
    isplitl [Hd]; · iexact Hd
    iexact HO
  iintro ⟨HcS, HO⟩
  iapply Hk
  isplitr [HO]
  · iapply (St3_intro m c j hj)
    isplitl [D0]; · iexact D0
    isplitl [HzS HzR Hc]
    · isplitl [HzS]; · iexact HzS
      isplitl [HzR]; · iexact HzR
      iexact Hc
    isplitl [Hps Hpr Hcr HcS]
    · isplitl [Hps]; · iexact Hps
      isplitl [Hpr]; · iexact Hpr
      isplitl [Hcr]; · iexact Hcr
      iexact HcS
    iexact Hx
  · iexists W1; iexact HO

end Cert.Kernel.Hand

end
-- ==== Proof.BitsSide.StepD.lean ====
/-
  Chunk by chunk: the third transfer's waits and the third addition.
-/
import proofs.«900610_g7700000000000611_dist_treered_v7x_i8_m256_n256_f32_1_alg».proof.Proof.BitsSide.Steps

noncomputable section

namespace Cert.Kernel.Hand

open Cert.Kernel Cert.Kernel.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 73 → ℕ)

set_option maxHeartbeats 800000 in
/-- Chunk `j`: the third transfer's waits and the third addition. -/
theorem stepD (c : Dev nD) (j a R : ℕ) (hj : j < 12) (ha : a = cstart j) (hR : R = crows j)
    (hq4 : (SR4 R).Squeezes (SR2 R)) (ho : OInb a R) (hc2 : CInb 2 j R) (hsi2 : SInb 2 j)
    {h1 : (cSl 2 j R hc2 hq4).view.WordExact} {h2 : (oCh a R ho).view.WordExact} {h3 : (oCh a R ho).view.WordExact} {h4 : (cSl 2 j R hc2 hq4).view.WordExact}
    {hl1 : (oM : Memref sig .tc .vmem S256x256 .f32).view.LoadsAt (oRect a R ho).toLoadRect}
    {hl2 : (cM : Memref sig .tc .vmem S3x12x24x256 .f32).view.LoadsAt (cRect 2 j R hc2).toLoadRect}
    {hl3 : (oM : Memref sig .tc .vmem S256x256 .f32).view.LoadsAt (oRect a R ho).toLoadRect}
    {hst : ((oM : Memref sig .tc .vmem S256x256 .f32).access (oRect a R ho)).Stores Finset.univ}
    {hm : (Finset.univ : Finset (oRect a R ho).shape.Idx) = Finset.univ ∨ ∀ i, (oRect a R ho).stride i = 1}
    (h₁ : (SR2 R).ShapeCasts (SR2 R)) (h₂ : (SR4 R).ShapeCasts (SR2 R)) (W : Waits sig Unit)
    {α : Type} {Q : α → sProp 𝕄} {kont : PUnit → Prog (TpuEff nD τ sig (Elt F) Λ₀ .tc) α} :
    iprop(records m K ∗ levAts L lv ∗ St3 m c j hj ∗ owes (c : Thread nD τ) (owedRem c 0) W)
      ⊢ iprop(((St4 m c j hj ∗ ∃ W', owes (c : Thread nD τ) (owedRem c 0) W')
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sSem 2 j hsi2) (cSl 2 j R hc2 hq4) (oCh a R ho) h1 h2) fun _ =>
                .op (.waitDma2 (rSem 2 j hsi2) (oCh a R ho) (cSl 2 j R hc2 hq4) h3 h4) fun _ =>
                .op (.load oM (oRect a R ho).toLoadRect hl1) fun v₁ =>
                .op (.load cM (cRect 2 j R hc2).toLoadRect hl2) fun v₂ =>
                .op (.load oM (oRect a R ho).toLoadRect hl3) fun _ =>
                .op (.store oM (oRect a R ho) (pay (F := F) (R := R) v₁ v₂ h₁ h₂) Finset.univ hst hm) kont) Q) := by
  subst ha; subst hR
  have h23 : (2 : ℕ) < 3 := by decide
  have h02 : (0 : ℕ) < 2 := by decide
  iintro ⟨#Hrec, #Hlev, HS, HO⟩ Hk
  unfold St3
  icases HS with ⟨D0, D1, Hfly, Hx⟩
  iapply (step_waits m K c 2 j (crows j) h23 hj rfl hsi2 _ _ _ _ 0 (by omega) W) $$ [Hfly HO]
  · isplitr; · iexact Hrec
    isplitr; · iexact Hlev
    isplitl [Hfly]; · iexact Hfly
    iexact HO
  iintro ⟨Ho0, Hc0, HzS, HzR, HO⟩
  ihave Ho := (Entails.of_eq (sendPay_pos m c 2 j hj h02)) $$ Ho0
  ihave Hc := (Entails.of_eq (recvPay_eq m c 2 j h23 hj)) $$ Hc0
  iapply (step_reduceS m c 2 j (cstart j) (crows j) h02 h23 hj rfl rfl hc2 ho h₁ h₂) $$ [Hc Ho]
  · isplitl [Hc]; · iexact Hc
    iexact Ho
  iintro ⟨Hc, Ho1⟩
  ihave Ho := (Entails.of_eq (show oPts (F := F) c j hj (acc m c (2 + 1)) = oPts c j hj (acc m c 3) from rfl)) $$ Ho1
  iapply Hk
  unfold St4
  isplitr [HO]
  · isplitl [D0]; · iexact D0
    isplitl [D1]; · iexact D1
    isplitl [HzS HzR Hc]
    · unfold done
      isplitl [HzS]; · iexact HzS
      isplitl [HzR]; · iexact HzR
      iexact Hc
    isplitl [Hx]; · iexact Hx
    iexact Ho
  · iexact HO

end Cert.Kernel.Hand

end
-- ==== Proof.BitsSide.Regroup.lean ====
/-
  Dealing what a device holds at launch out to its twelve chunks, and collecting the chunks again at the end.
-/
import proofs.«900610_g7700000000000611_dist_treered_v7x_i8_m256_n256_f32_1_alg».proof.Proof.BitsSide.Bundles
import proofs.«900610_g7700000000000611_dist_treered_v7x_i8_m256_n256_f32_1_alg».proof.Proof.BitsSide.Parts
import proofs.«900610_g7700000000000611_dist_treered_v7x_i8_m256_n256_f32_1_alg».proof.Proof.BitsSide.Sched

noncomputable section

namespace Cert.Kernel.Hand

open Cert.Kernel Cert.Kernel.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Re-indexing: the 36 transfers by (stage, chunk), the 73 cells by kind -/

/-- Transfer `n` is stage `n / 12` of chunk `n % 12`. -/
def e36 : Fin 3 × Fin 12 ≃ Fin 36 where
  toFun sj := ⟨12 * sj.1.val + sj.2.val, by have := sj.1.isLt; have := sj.2.isLt; omega⟩
  invFun n := (⟨n.val / 12, by have := n.isLt; omega⟩, ⟨n.val % 12, Nat.mod_lt _ (by decide)⟩)
  left_inv sj := by
    have h1 := sj.1.isLt; have h2 := sj.2.isLt
    refine Prod.ext (Fin.ext ?_) (Fin.ext ?_)
    · show (12 * sj.1.val + sj.2.val) / 12 = sj.1.val; omega
    · show (12 * sj.1.val + sj.2.val) % 12 = sj.2.val; omega
  right_inv n := by
    refine Fin.ext ?_
    show 12 * (n.val / 12) + n.val % 12 = n.val; omega

/-- Separating conjunction, as the assertion notation spells it, is commutative and associative. -/
local instance sep_comm_cls : Std.Commutative (α := sProp 𝕄) BIBase.sep :=
  ⟨fun a b => Std.Commutative.comm (op := fun (P Q : sProp 𝕄) => BI.sep P Q) a b⟩
local instance sep_assoc_cls : Std.Associative (α := sProp 𝕄) BIBase.sep :=
  ⟨fun a b c => Std.Associative.assoc (op := fun (P Q : sProp 𝕄) => BI.sep P Q) a b c⟩

/-- Equal assertions entail one another. -/
theorem entails_of_eq {P Q : sProp 𝕄} (h : P = Q) : Idealize.SL.BI.Entails P Q := h ▸ Idealize.SL.BI.Entails.refl P

theorem bigSep_fin3' (Φ : Fin 3 → sProp 𝕄) : bigSep Finset.univ Φ = iprop(Φ 0 ∗ Φ 1 ∗ Φ 2) :=
  bigSep_univ_eq_bigSepL [0, 1, 2] (by decide) (by decide) Φ

/-- A family over (stage, chunk), chunk by chunk. -/
theorem bigSep_3x12 (Ψ : Fin 3 × Fin 12 → sProp 𝕄) :
    bigSep Finset.univ Ψ = bigSep Finset.univ fun j : Fin 12 => iprop(Ψ (0, j) ∗ Ψ (1, j) ∗ Ψ (2, j)) := by
  rw [bigSep_univ_equiv (Equiv.prodComm (Fin 12) (Fin 3)) Ψ, bigSep_univ_prod]
  exact bigSep_congr fun j _ => bigSep_fin3' fun s => Ψ (s, j)

/-- A family over the 36 transfers, chunk by chunk. -/
theorem bigSep_36 (Φ : ℕ → ℕ → sProp 𝕄) :
    (bigSep Finset.univ fun n : Fin 36 => Φ (n.val / 12) (n.val % 12))
      = bigSep Finset.univ fun j : Fin 12 => iprop(Φ 0 j.val ∗ Φ 1 j.val ∗ Φ 2 j.val) := by
  rw [bigSep_univ_equiv e36 fun n : Fin 36 => Φ (n.val / 12) (n.val % 12)]
  have e : (fun sj : Fin 3 × Fin 12 => Φ ((e36 sj).val / 12) ((e36 sj).val % 12)) = fun sj => Φ sj.1.val sj.2.val := by
    funext sj
    have h1 := sj.1.isLt; have h2 := sj.2.isLt
    have a : (e36 sj).val / 12 = sj.1.val := by show (12 * sj.1.val + sj.2.val) / 12 = sj.1.val; omega
    have b : (e36 sj).val % 12 = sj.2.val := by show (12 * sj.1.val + sj.2.val) % 12 = sj.2.val; omega
    rw [a, b]
  rw [e, bigSep_3x12 fun sj => Φ sj.1.val sj.2.val]
  rfl

/-- A family over `Fin (a + b)`: the first `a`, then the last `b`. -/
theorem bigSep_fin_add (a b : ℕ) (Φ : Fin (a + b) → sProp 𝕄) :
    bigSep Finset.univ Φ = iprop((bigSep Finset.univ fun i : Fin a => Φ (Fin.castAdd b i))
      ∗ bigSep Finset.univ fun i : Fin b => Φ (Fin.natAdd a i)) := by
  rw [bigSep_univ_equiv finSumFinEquiv Φ, bigSep_univ_sum]; rfl

/-! ## The stage at which a mask is used, and back -/

theorem maskIx_stageOf (k : Fin 3) (j : ℕ) : maskIx (stageOf k j) j = k := by
  refine Fin.ext ?_
  show (j + (k.val + 3 - j % 3) % 3) % 3 = k.val
  have := k.isLt; omega
theorem stageOf_maskIx (s j : ℕ) (hs : s < 3) : stageOf (maskIx s j) j = s := by
  show ((j + s) % 3 + 3 - j % 3) % 3 = s; omega
theorem peer_stageOf (c : Dev nD) (k : Fin 3) (j : ℕ) : peer c (stageOf k j) j = xorDev c k := by
  unfold peer; rw [maskIx_stageOf]

/-- For each chunk, mask numbers and stages correspond one to one. -/
def stEquiv : Fin 3 × Fin 12 ≃ Fin 3 × Fin 12 where
  toFun kj := (⟨stageOf kj.1 kj.2.val, stageOf_lt _ _⟩, kj.2)
  invFun sj := (maskIx sj.1.val sj.2.val, sj.2)
  left_inv kj := Prod.ext (maskIx_stageOf kj.1 kj.2.val) rfl
  right_inv sj := Prod.ext (Fin.ext (stageOf_maskIx sj.1.val sj.2.val sj.1.isLt)) rfl

/-- The numbered cells `1 + n` and `37 + n` are the departure and arrival cells of transfer `n`. -/
theorem kcell_dep (c : Dev nD) (n : Fin 36) : kcell (c, Fin.natAdd 1 (Fin.castAdd 36 n)) = dCell c (sQ (n.val / 12) (n.val % 12)) := by
  have hn := n.isLt
  rw [← kcell_s c (n.val / 12) (n.val % 12) (by omega) (Nat.mod_lt _ (by decide))]
  exact congrArg (fun i : Fin 73 => kcell (c, i)) (Fin.ext (by show 1 + n.val = 1 + 12 * (n.val / 12) + n.val % 12; omega))
theorem kcell_arr (c : Dev nD) (n : Fin 36) : kcell (c, Fin.natAdd 1 (Fin.natAdd 36 n)) = dCell c (rQ (n.val / 12) (n.val % 12)) := by
  have hn := n.isLt
  rw [← kcell_r c (n.val / 12) (n.val % 12) (by omega) (Nat.mod_lt _ (by decide))]
  exact congrArg (fun i : Fin 73 => kcell (c, i)) (Fin.ext (by show 1 + (36 + n.val) = 37 + 12 * (n.val / 12) + n.val % 12; omega))

theorem positions_eq (c : Dev nD) :
    (positions (F := F) c : sProp 𝕄)
      = iprop(atPos ER (barCell c) 0 ∅ 0
          ∗ (bigSep Finset.univ fun n : Fin 36 => sPos (F := F) c (n.val / 12) (n.val % 12))
          ∗ bigSep Finset.univ fun n : Fin 36 => rPos (F := F) c (n.val / 12) (n.val % 12)) := by
  unfold positions
  rw [bigSep_fin_add 1 72 (fun i : Fin 73 => (atPos ER (kcell (c, i)) 0 ∅ 0 : sProp 𝕄)),
    bigSep_univ_of_subsingleton (0 : Fin 1),
    bigSep_fin_add 36 36 (fun i : Fin 72 => (atPos ER (kcell (c, Fin.natAdd 1 i)) 0 ∅ 0 : sProp 𝕄))]
  have e0 : kcell (c, Fin.castAdd 72 (0 : Fin 1)) = barCell c := kcell_bar c
  have hS : (bigSep Finset.univ fun n : Fin 36 => (atPos ER (kcell (c, Fin.natAdd 1 (Fin.castAdd 36 n))) 0 ∅ 0 : sProp 𝕄))
      = bigSep Finset.univ fun n : Fin 36 => sPos (F := F) c (n.val / 12) (n.val % 12) :=
    bigSep_congr fun n _ => by rw [kcell_dep c n]; rfl
  have hR : (bigSep Finset.univ fun n : Fin 36 => (atPos ER (kcell (c, Fin.natAdd 1 (Fin.natAdd 36 n))) 0 ∅ 0 : sProp 𝕄))
      = bigSep Finset.univ fun n : Fin 36 => rPos (F := F) c (n.val / 12) (n.val % 12) :=
    bigSep_congr fun n _ => by rw [kcell_arr c n]; rfl
  rw [e0, hS, hR]

/-- A device's positions: the entry barrier's, the 36 departures', the 36 arrivals'. -/
theorem positions_split (c : Dev nD) :
    (positions (F := F) c : sProp 𝕄)
      ⊣⊢ iprop(atPos ER (barCell c) 0 ∅ 0
          ∗ (bigSep Finset.univ fun n : Fin 36 => sPos (F := F) c (n.val / 12) (n.val % 12))
          ∗ bigSep Finset.univ fun n : Fin 36 => rPos (F := F) c (n.val / 12) (n.val % 12)) :=
  .of_eq (positions_eq c)

/-- What the entry signal under a mask says of one (stage, chunk) of device `p`: the slot, at any contents, and that its
    arrival cell is at the first round. -/
def slotWord (p : Dev nD) (sj : Fin 3 × Fin 12) : sProp 𝕄 :=
  iprop((∃ g, slotPts (F := F) p sj.1.val sj.2.val sj.1.isLt sj.2.isLt g) ∗ reached ER (dCell p (rQ sj.1.val sj.2.val)) 0)

/-- The three entry signals of one device, over (stage, chunk). -/
theorem barPays_eq (p : Dev nD) :
    iprop(barPay (F := F) p 0 ∗ barPay (F := F) p 1 ∗ barPay (F := F) p 2) = bigSep Finset.univ (slotWord (F := F) p) := by
  rw [bigSep_univ_equiv stEquiv (slotWord (F := F) p), bigSep_univ_prod, bigSep_fin3']
  rfl

/-- A device's own 36 landing slots, at any contents, with the records' word that their arrival cells are at the
    first round, are what its three entry signals hand its partners. -/
theorem own_slots_to_pays (K : Dev nD × Fin 73 → ℕ) (c : Dev nD) (f : Buf (Elt F) ((c : Thread nD τ).loc cc0_scratch0)) :
    iprop(records m K ∗ bigSep Finset.univ fun sj : Fin 3 × Fin 12 => slotPts (F := F) c sj.1.val sj.2.val sj.1.isLt sj.2.isLt f)
      ⊢ iprop(barPay (F := F) c 0 ∗ barPay (F := F) c 1 ∗ barPay (F := F) c 2) := by
  rw [barPays_eq]
  refine bigSep_with_persistent fun sj _ => ?_
  unfold slotWord
  iintro ⟨#R, H⟩
  isplitl [H]
  · iexists f; iexact H
  · iapply (reached_r m K c sj.1.val sj.2.val sj.1.isLt sj.2.isLt); iexact R

/-- The partner's slot a device writes at one (stage, chunk). -/
def dSlotAt (c : Dev nD) (sj : Fin 3 × Fin 12) : sProp 𝕄 := dSlot (F := F) c sj.1.val sj.2.val sj.1.isLt sj.2.isLt

/-- What the partner under mask `k` says of chunk `j`. -/
def payAt (c : Dev nD) (kj : Fin 3 × Fin 12) : sProp 𝕄 :=
  iprop((∃ f, slotPts (F := F) (xorDev c kj.1) (stageOf kj.1 kj.2.val) kj.2.val (stageOf_lt kj.1 kj.2.val) kj.2.isLt f)
    ∗ reached ER (dCell (xorDev c kj.1) (rQ (stageOf kj.1 kj.2.val) kj.2.val)) 0)

theorem payAt_dSlot (c : Dev nD) (kj : Fin 3 × Fin 12) : payAt (F := F) c kj ⊢ dSlotAt (F := F) c (stEquiv kj) := by
  show payAt (F := F) c kj ⊢ iprop(∃ f, slotPts (F := F) (peer c (stageOf kj.1 kj.2.val) kj.2.val) (stageOf kj.1 kj.2.val) kj.2.val
    (stageOf_lt kj.1 kj.2.val) kj.2.isLt f)
  rw [peer_stageOf]
  exact sep_elim_left

/-- The three partners' entry signals hand a device, chunk by chunk, the three slots it will write. -/
theorem pays_to_dslots (c : Dev nD) :
    iprop(barPay (F := F) (xorDev c 0) 0 ∗ barPay (F := F) (xorDev c 1) 1 ∗ barPay (F := F) (xorDev c 2) 2)
      ⊢ bigSep Finset.univ fun j : Fin 12 => iprop(dSlot (F := F) c 0 j.val (by decide) j.isLt
          ∗ dSlot (F := F) c 1 j.val (by decide) j.isLt ∗ dSlot (F := F) c 2 j.val (by decide) j.isLt) := by
  have e : iprop(barPay (F := F) (xorDev c 0) 0 ∗ barPay (F := F) (xorDev c 1) 1 ∗ barPay (F := F) (xorDev c 2) 2)
      = bigSep Finset.univ (payAt (F := F) c) := by
    rw [bigSep_univ_prod, bigSep_fin3']; rfl
  have h1 : bigSep Finset.univ (payAt (F := F) c) ⊢ bigSep Finset.univ fun kj => dSlotAt (F := F) c (stEquiv kj) :=
    bigSep_mono fun kj _ => payAt_dSlot c kj
  have h2 : (bigSep Finset.univ fun kj => dSlotAt (F := F) c (stEquiv kj))
      = bigSep Finset.univ fun j : Fin 12 => iprop(dSlotAt (F := F) c (0, j) ∗ dSlotAt (F := F) c (1, j) ∗ dSlotAt (F := F) c (2, j)) := by
    rw [← bigSep_univ_equiv stEquiv (dSlotAt (F := F) c), bigSep_3x12]
  rw [e]
  exact h1.trans (Entails.of_eq h2)

/-- The positions, tokens and credits of the 36 transfers, the partners' slots the entry barrier handed over, the
    input block and the result block at any contents: chunk by chunk, the state before the first transfer. -/
theorem chunks_intro (c : Dev nD) (fo : Buf (Elt F) ((c : Thread nD τ).loc cc0_stg1_0)) :
    iprop(((bigSep Finset.univ fun n : Fin 36 => sPos (F := F) c (n.val / 12) (n.val % 12))
          ∗ bigSep Finset.univ fun n : Fin 36 => rPos (F := F) c (n.val / 12) (n.val % 12))
        ∗ ((bigSep Finset.univ fun n : Fin 36 => sTok (F := F) c (n.val / 12) (n.val % 12))
          ∗ bigSep Finset.univ fun n : Fin 36 => rTok (F := F) c (n.val / 12) (n.val % 12))
        ∗ (bigSep Finset.univ fun n : Fin 36 => rCred (F := F) c (n.val / 12) (n.val % 12))
        ∗ (barPay (F := F) (xorDev c 0) 0 ∗ barPay (F := F) (xorDev c 1) 1 ∗ barPay (F := F) (xorDev c 2) 2)
        ∗ ((((c : Thread nD τ).loc cc0_stg0_0) ↦{fullShare} xs m c))
        ∗ ((((c : Thread nD τ).loc cc0_stg1_0) ↦{fullShare} fo)))
      ⊢ bigSep Finset.univ fun j : Fin 12 => St0 m c j.val j.isLt := by
  rw [bigSep_36 fun s j => sPos (F := F) c s j, bigSep_36 fun s j => rPos (F := F) c s j,
    bigSep_36 fun s j => sTok (F := F) c s j, bigSep_36 fun s j => rTok (F := F) c s j,
    bigSep_36 fun s j => rCred (F := F) c s j]
  have hO : ((((c : Thread nD τ).loc cc0_stg1_0) ↦{fullShare} fo : sProp 𝕄))
      ⊢ bigSep Finset.univ fun j : Fin 12 => iprop(∃ f, oPts (F := F) c j.val j.isLt f) :=
    (o_split (F := F) c fo).mp.trans (bigSep_mono fun j _ => exists_intro (Φ := fun f => oPts (F := F) c j.val j.isLt f) fo)
  refine (sep_mono_right (sep_mono_right (sep_mono_right
    (BIClass.sep_mono (pays_to_dslots c) (BIClass.sep_mono (x_split (F := F) c (xs m c)).mp hO))))).trans ?_
  simp only [← bigSep_sep']
  refine bigSep_mono fun j _ => ?_
  refine entails_of_eq ?_
  unfold St0 stageRes
  ac_rfl

/-- The kernel's own 72 semaphores at zero, chunk by chunk: departures, then arrivals. -/
theorem ownSems0_split (c : Dev nD) :
    (Pipeline.ownSems0 (Ix := Unit) (Name := ℕ) (U := UU) (Lvl := ℕ) (Val := Elt F) (τ := τ) osem c : sProp 𝕄)
      = iprop((bigSep Finset.univ fun j : Fin 12 => iprop(semVal (dCell c (sQ 0 j.val)) 0 ∗ semVal (dCell c (sQ 1 j.val)) 0 ∗ semVal (dCell c (sQ 2 j.val)) 0))
          ∗ bigSep Finset.univ fun j : Fin 12 => iprop(semVal (dCell c (rQ 0 j.val)) 0 ∗ semVal (dCell c (rQ 1 j.val)) 0 ∗ semVal (dCell c (rQ 2 j.val)) 0)) := by
  unfold Pipeline.ownSems0
  rw [bigSep_fin_add 36 36 (fun k : Fin 72 => (semVal ((c.tc : Thread nD τ), osem k) 0 : sProp 𝕄))]
  have es : ∀ n : Fin 36, osem (Fin.castAdd 36 n) = SemLoc.dma (sQ (n.val / 12) (n.val % 12)) := fun n => by
    have hn := n.isLt
    unfold osem
    exact congrArg SemLoc.dma (Fin.ext (by show (n.val + 2) % 74 = (2 + 12 * (n.val / 12) + n.val % 12) % 74; omega))
  have er : ∀ n : Fin 36, osem (Fin.natAdd 36 n) = SemLoc.dma (rQ (n.val / 12) (n.val % 12)) := fun n => by
    have hn := n.isLt
    unfold osem
    exact congrArg SemLoc.dma (Fin.ext (by show (36 + n.val + 2) % 74 = (38 + 12 * (n.val / 12) + n.val % 12) % 74; omega))
  have hS : (bigSep Finset.univ fun n : Fin 36 => (semVal ((c.tc : Thread nD τ), osem (Fin.castAdd 36 n)) 0 : sProp 𝕄))
      = bigSep Finset.univ fun n : Fin 36 => semVal (dCell c (sQ (n.val / 12) (n.val % 12))) 0 :=
    bigSep_congr fun n _ => by rw [es n]
  have hR : (bigSep Finset.univ fun n : Fin 36 => (semVal ((c.tc : Thread nD τ), osem (Fin.natAdd 36 n)) 0 : sProp 𝕄))
      = bigSep Finset.univ fun n : Fin 36 => semVal (dCell c (rQ (n.val / 12) (n.val % 12))) 0 :=
    bigSep_congr fun n _ => by rw [er n]
  rw [hS, hR, bigSep_36 fun s j => (semVal (dCell c (sQ s j)) 0 : sProp 𝕄), bigSep_36 fun s j => (semVal (dCell c (rQ s j)) 0 : sProp 𝕄)]

/-- At the end: the input block as it was, the result block at the running sum after three stages, the 36 own
    slots at what landed, and every own semaphore at zero. -/
theorem chunks_elim (c : Dev nD) :
    (bigSep Finset.univ fun j : Fin 12 => St4 m c j.val j.isLt)
      ⊢ iprop(((((c : Thread nD τ).loc cc0_stg0_0) ↦{fullShare} xs m c))
          ∗ ((((c : Thread nD τ).loc cc0_stg1_0) ↦{fullShare} acc m c 3))
          ∗ (bigSep Finset.univ fun sj : Fin 3 × Fin 12 => slotPts (F := F) c sj.1.val sj.2.val sj.1.isLt sj.2.isLt (landed m c))
          ∗ Pipeline.ownSems0 (Ix := Unit) (Name := ℕ) (U := UU) (Lvl := ℕ) (Val := Elt F) (τ := τ) osem c) := by
  have hx : ((((c : Thread nD τ).loc cc0_stg0_0) ↦{fullShare} xs m c : sProp 𝕄))
      = bigSep Finset.univ fun j : Fin 12 => xPts (F := F) c j.val j.isLt (xs m c) :=
    equiv_iff.mp ⟨(x_split (F := F) c (xs m c)).mp, (x_split (F := F) c (xs m c)).mpr⟩
  have ho : ((((c : Thread nD τ).loc cc0_stg1_0) ↦{fullShare} acc m c 3 : sProp 𝕄))
      = bigSep Finset.univ fun j : Fin 12 => oPts (F := F) c j.val j.isLt (acc m c 3) :=
    equiv_iff.mp ⟨(o_split (F := F) c (acc m c 3)).mp, (o_split (F := F) c (acc m c 3)).mpr⟩
  have hs : (bigSep Finset.univ fun sj : Fin 3 × Fin 12 => slotPts (F := F) c sj.1.val sj.2.val sj.1.isLt sj.2.isLt (landed m c))
      = bigSep Finset.univ fun j : Fin 12 => iprop(slotPts (F := F) c 0 j.val (by decide) j.isLt (landed m c)
          ∗ slotPts (F := F) c 1 j.val (by decide) j.isLt (landed m c) ∗ slotPts (F := F) c 2 j.val (by decide) j.isLt (landed m c)) :=
    bigSep_3x12 fun sj : Fin 3 × Fin 12 => slotPts (F := F) c sj.1.val sj.2.val sj.1.isLt sj.2.isLt (landed m c)
  rw [hx, ho, hs, ownSems0_split]
  simp only [← bigSep_sep']
  refine bigSep_mono fun j _ => ?_
  refine entails_of_eq ?_
  unfold St4 done
  ac_rfl

end Cert.Kernel.Hand

end
-- ==== Proof.BitsSide.Prologue.lean ====
/-
  The entry handshake: a device tells its three partners it is inside the kernel, handing each the landing slots
  that partner will write, and waits until its three partners have told it the same.
-/
import proofs.«900610_g7700000000000611_dist_treered_v7x_i8_m256_n256_f32_1_alg».proof.Proof.BitsSide.Bundles
import proofs.«900610_g7700000000000611_dist_treered_v7x_i8_m256_n256_f32_1_alg».proof.Proof.BitsSide.Sched

noncomputable section

namespace Cert.Kernel.Hand

open Cert.Kernel Cert.Kernel.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 73 → ℕ)

/-- A device's posts reach each of its three partners: both are TensorCores. -/
theorem routes_xor (c : Dev nD) (k : Fin 3) :
    τ.routes (c : Thread nD τ) (Dev.tc (xorDev c k) : Thread nD τ) = true := by routes

/-- The three entry signals and the wait for three, at the head of any program: the device pays duty `k` of the
    entry barrier of its partner under mask `k` with its own slots of that partner's stages, and receives from its
    own barrier's round the three partners' slots. What it owes goes from everything to the 36 transfers' credits. -/
theorem step_prologue (c : Dev nD) (W : Waits sig Unit)
    {α : Type} {Q : α → sProp 𝕄} {kont : PUnit → Prog (TpuEff nD τ sig (Elt F) Λ₀ .tc) α} :
    iprop(records m K ∗ levAts L lv ∗ atPos ER (barCell c) 0 ∅ 0
        ∗ (bigSep Finset.univ fun k : Fin 3 => dutyTok ER (barCell (xorDev c k)) 0 k)
        ∗ cred (tallyAt (barCell c) () 3)
        ∗ (barPay (F := F) c 0 ∗ barPay (F := F) c 1 ∗ barPay (F := F) c 2)
        ∗ owes (c : Thread nD τ) (O₀ c) W)
      ⊢ iprop((((barPay (F := F) (xorDev c 0) 0 ∗ barPay (F := F) (xorDev c 1) 1 ∗ barPay (F := F) (xorDev c 2) 2)
              ∗ ∃ W', owes (c : Thread nD τ) (owedRem c 36) W')
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal (Dev.tc (xorDev c 0) : Thread nD τ) barS (1#32).toNat) fun _ =>
                .op (.semSignal (Dev.tc (xorDev c 1) : Thread nD τ) barS (1#32).toNat) fun _ =>
                .op (.semSignal (Dev.tc (xorDev c 2) : Thread nD τ) barS (1#32).toNat) fun _ =>
                .op (.semWait barS (3#32).toNat) kont) Q) := by
  have e1 : (1#32).toNat = 1 := by decide
  have e3 : (3#32).toNat = 3 := by decide
  have h3 : ∀ Φ : Fin 3 → sProp 𝕄, bigSep Finset.univ Φ = iprop(Φ 0 ∗ Φ 1 ∗ Φ 2) :=
    fun Φ => bigSep_univ_eq_bigSepL [0, 1, 2] (by decide) (by decide) Φ
  rw [e1, e3, h3]
  iintro ⟨#Hrec, Hlev, Hat, ⟨Ht0, Ht1, Ht2⟩, Hc, ⟨Hp0, Hp1, Hp2⟩, HO⟩ Hk
  -- the signal to the partner under mask 0: duty 0 of that partner's entry barrier is this device's to pay
  iapply (Rounds.wp_signal 𝒱₀ ER (treeRd (F := F) m) (c : Thread nD τ) none (dst := (Dev.tc (xorDev c 0) : Thread nD τ))
      (κ := K (xorDev c 0, 0)) (d := (0 : Fin 3)) (r := 0) (k' := 1)
      (by rw [duties_bar]; exact Finset.mem_univ _) (amount_bar m (xorDev c 0) 0) ()
      ((owedRem c 36 + tallyBar c 2) + tallyBar c 1) rfl (routes_xor c 0)) $$ [HO Ht0 Hp0]
  · isplitr; · iapply (inv_bar m K (xorDev c 0)); iexact Hrec
    isplitl [HO]; · iexact HO
    isplitl [Ht0]; · iexact Ht0
    isplitl [Hp0]; · rw [payload_bar, xorDev_xorDev]; iexact Hp0
    iapply (reached_bar m K (xorDev c 0)); iexact Hrec
  iintro HO
  -- the signal to the partner under mask 1
  iapply (Rounds.wp_signal 𝒱₀ ER (treeRd (F := F) m) (c : Thread nD τ) none (dst := (Dev.tc (xorDev c 1) : Thread nD τ))
      (κ := K (xorDev c 1, 0)) (d := (1 : Fin 3)) (r := 0) (k' := 1)
      (by rw [duties_bar]; exact Finset.mem_univ _) (amount_bar m (xorDev c 1) 1) ()
      (owedRem c 36 + tallyBar c 2) rfl (routes_xor c 1)) $$ [HO Ht1 Hp1]
  · isplitr; · iapply (inv_bar m K (xorDev c 1)); iexact Hrec
    isplitl [HO]; · iexact HO
    isplitl [Ht1]; · iexact Ht1
    isplitl [Hp1]; · rw [payload_bar, xorDev_xorDev]; iexact Hp1
    iapply (reached_bar m K (xorDev c 1)); iexact Hrec
  iintro HO
  -- the signal to the partner under mask 2
  iapply (Rounds.wp_signal 𝒱₀ ER (treeRd (F := F) m) (c : Thread nD τ) none (dst := (Dev.tc (xorDev c 2) : Thread nD τ))
      (κ := K (xorDev c 2, 0)) (d := (2 : Fin 3)) (r := 0) (k' := 1)
      (by rw [duties_bar]; exact Finset.mem_univ _) (amount_bar m (xorDev c 2) 2) ()
      (owedRem c 36) rfl (routes_xor c 2)) $$ [HO Ht2 Hp2]
  · isplitr; · iapply (inv_bar m K (xorDev c 2)); iexact Hrec
    isplitl [HO]; · iexact HO
    isplitl [Ht2]; · iexact Ht2
    isplitl [Hp2]; · rw [payload_bar, xorDev_xorDev]; iexact Hp2
    iapply (reached_bar m K (xorDev c 2)); iexact Hrec
  iintro HO
  -- the wait for the three units of the own entry barrier's first round: what is still owed, the 36 arrival
  -- credits, lies above the barrier, and the round hands over the three partners' slots
  iapply (Rounds.wp_wait_rest_token 𝒱₀ ER (treeRd (F := F) m) (c : Thread nD τ) none (κ := K (c, 0))
      (wpE_semWait_eq 𝒱₀ (c : Thread nD τ) none Set.univ) (Set.mem_univ _) () (O := owedRem c 36) (W := W)
      (R := 0) (m := 0) (T := ∅) (by rw [expect_bar])) $$ [Hc HO Hlev Hat]
  · isplitr; · iapply (inv_bar m K c); iexact Hrec
    isplitl [Hc]; · iexact Hc
    isplitl [HO]; · iexact HO
    isplitl [Hlev]; · iapply (mayWait_bar c); iexact Hlev
    iexact Hat
  iintro ⟨HO, -, -, Hpay⟩
  iapply Hk
  isplitl [Hpay]
  · iapply (Entails.of_eq (rest_bar m c)); iexact Hpay
  · iexists _; iexact HO

end Cert.Kernel.Hand

end
-- ==== Proof.BitsSide.Devs.lean ====
/-
  The device numbers the kernel computes (its own number xor a mask) are the partners.
-/
import proofs.«900610_g7700000000000611_dist_treered_v7x_i8_m256_n256_f32_1_alg».proof.Proof.BitsSide.Proto
import Lean.Elab.Command

noncomputable section

namespace Cert.Kernel.Hand

open Cert.Kernel Cert.Kernel.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The three entry signals go to the partners under masks 0, 1, 2. -/
theorem dev1_eq (c : Dev nD) : (⟨k0_dev1 c, k0_dev1_lt c⟩ : Dev nD) = xorDev c 0 := by revert c; decide
theorem dev2_eq (c : Dev nD) : (⟨k0_dev2 c, k0_dev2_lt c⟩ : Dev nD) = xorDev c 1 := by revert c; decide
theorem dev3_eq (c : Dev nD) : (⟨k0_dev3 c, k0_dev3_lt c⟩ : Dev nD) = xorDev c 2 := by revert c; decide

open Lean Elab Command in
/-- The `n`-th transfer in program order (`n = 0 .. 35`) is the one of stage `n / 12` and chunk `n % 12`, and
    the device it addresses is the partner of that stage and chunk: one equation per transfer, `dev4_eq` for
    `n = 0` up to `dev39_eq` for `n = 35`, stage and chunk written as numerals. -/
local elab "transfer_device_equations" : command => do
  for n in [0:36] do
    let thm := mkIdent (Name.mkSimple s!"dev{n + 4}_eq")
    let dev := mkIdent (Name.mkSimple s!"k0_dev{n + 4}")
    let devLt := mkIdent (Name.mkSimple s!"k0_dev{n + 4}_lt")
    let st := Syntax.mkNumLit (toString (n / 12))
    let ch := Syntax.mkNumLit (toString (n % 12))
    elabCommand (← `(theorem $thm (c : Dev nD) : (⟨$dev c, $devLt c⟩ : Dev nD) = peer c $st $ch := by revert c; decide))

transfer_device_equations

end Cert.Kernel.Hand

end
-- ==== Proof.BitsSide.BodyRun.lean ====
/-
  One device's whole body: the entry handshake, the twelve first transfers, then stage by stage and chunk by chunk
  the waits, the addition and the next transfer.
-/
import proofs.«900610_g7700000000000611_dist_treered_v7x_i8_m256_n256_f32_1_alg».proof.Proof.BitsSide.Steps
import proofs.«900610_g7700000000000611_dist_treered_v7x_i8_m256_n256_f32_1_alg».proof.Proof.BitsSide.StepB
import proofs.«900610_g7700000000000611_dist_treered_v7x_i8_m256_n256_f32_1_alg».proof.Proof.BitsSide.StepC
import proofs.«900610_g7700000000000611_dist_treered_v7x_i8_m256_n256_f32_1_alg».proof.Proof.BitsSide.StepD
import proofs.«900610_g7700000000000611_dist_treered_v7x_i8_m256_n256_f32_1_alg».proof.Proof.BitsSide.Regroup
import proofs.«900610_g7700000000000611_dist_treered_v7x_i8_m256_n256_f32_1_alg».proof.Proof.BitsSide.Prologue
import proofs.«900610_g7700000000000611_dist_treered_v7x_i8_m256_n256_f32_1_alg».proof.Proof.BitsSide.Devs
import Lean.Elab.Tactic
import proofs.«900610_g7700000000000611_dist_treered_v7x_i8_m256_n256_f32_1_alg».proof.Proof.Gen.Kernel.Points

noncomputable section

namespace Cert.Kernel.Hand

open Cert.Kernel Cert.Kernel.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 73 → ℕ)

theorem cfg0_N : cfg0.N = 1 := by decide
/-- The one grid point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A whole staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, the names of the cells' invariants fixed. -/
def bodyPre (c : Dev nD) : sProp 𝕄 :=
  iprop((ghost m K c ∗ creds (F := F) c ∗ levAts L lv ∗ ∃ f, (((c : Thread nD τ).loc cc0_scratch0) ↦{fullShare} f))
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- What it ends in. -/
def bodyPost (c : Dev nD) : sProp 𝕄 :=
  iprop(Φ₁ (F := F) c ∗ (dats m 0 c).owesAt () t₀.succ ∗ stg c cc0_stg0_0 (xs m c) ∗ stg c cc0_stg1_0 (acc m c 3))

omit [FloatOps F] in
/-- Twelve chunks, one by one. -/
theorem bigSep_fin12 (Φ : Fin 12 → sProp 𝕄) :
    bigSep Finset.univ Φ = iprop(Φ ⟨0, by decide⟩ ∗ Φ ⟨1, by decide⟩ ∗ Φ ⟨2, by decide⟩ ∗ Φ ⟨3, by decide⟩ ∗ Φ ⟨4, by decide⟩ ∗ Φ ⟨5, by decide⟩
      ∗ Φ ⟨6, by decide⟩ ∗ Φ ⟨7, by decide⟩ ∗ Φ ⟨8, by decide⟩ ∗ Φ ⟨9, by decide⟩ ∗ Φ ⟨10, by decide⟩ ∗ Φ ⟨11, by decide⟩) :=
  bigSep_univ_eq_bigSepL ([⟨0, by decide⟩, ⟨1, by decide⟩, ⟨2, by decide⟩, ⟨3, by decide⟩, ⟨4, by decide⟩, ⟨5, by decide⟩,
    ⟨6, by decide⟩, ⟨7, by decide⟩, ⟨8, by decide⟩, ⟨9, by decide⟩, ⟨10, by decide⟩, ⟨11, by decide⟩] : List (Fin 12)) (by decide) (by decide) Φ

theorem fetch_0 (t : Fin cfg0.N) : (cfg0.win (0 : Fin 2)).fetch t = true := by rw [fin_N t]; rfl

/-! The chunk's four steps at the head of the remaining program: chunk `C` at rows `a .. a + R`, the device equation
    of the transfer issued, and how many transfers remain after it. -/

set_option hygiene false in
macro "runA " C:ident d:ident j:num a:num R:num k:num : tactic => `(tactic| (
  icases HO with ⟨%Wn, HO⟩
  iapply (stepA m K c _ $j $a $R (by decide) ($d c) rfl rfl (by decide) (by decide) (by decide) (by decide) (by decide) $k (by decide) Wn) $$ [$C:ident HO]
  · isplitr; · iexact Hrec
    isplitl [$C:ident]; · iexact $C:ident
    iexact HO
  iintro ⟨$C:ident, HO⟩))

set_option hygiene false in
macro "runB " C:ident d:ident j:num a:num R:num k:num : tactic => `(tactic| (
  icases HO with ⟨%Wn, HO⟩
  iapply (stepB m K c _ $j $a $R (by decide) ($d c) rfl rfl (by decide) (by decide) (by decide) (by decide) (by decide) (by decide) (by decide) (by decide)
      (by decide) (by decide) $k (by decide) Wn) $$ [$C:ident HO]
  · isplitr; · iexact Hrec
    isplitr; · iexact Hlev
    isplitl [$C:ident]; · iexact $C:ident
    iexact HO
  iintro ⟨$C:ident, HO⟩))

set_option hygiene false in
macro "runC " C:ident d:ident j:num a:num R:num k:num : tactic => `(tactic| (
  icases HO with ⟨%Wn, HO⟩
  iapply (stepC m K c _ $j $a $R (by decide) ($d c) rfl rfl (by decide) (by decide) (by decide) (by decide) (by decide) (by decide)
      (by decide) (by decide) $k (by decide) Wn) $$ [$C:ident HO]
  · isplitr; · iexact Hrec
    isplitr; · iexact Hlev
    isplitl [$C:ident]; · iexact $C:ident
    iexact HO
  iintro ⟨$C:ident, HO⟩))

set_option hygiene false in
macro "runD " C:ident j:num a:num R:num : tactic => `(tactic| (
  icases HO with ⟨%Wn, HO⟩
  iapply (stepD m K c $j $a $R (by decide) rfl rfl (by decide) (by decide) (by decide) (by decide) (by decide) (by decide) Wn) $$ [$C:ident HO]
  · isplitr; · iexact Hrec
    isplitr; · iexact Hlev
    isplitl [$C:ident]; · iexact $C:ident
    iexact HO
  iintro ⟨$C:ident, HO⟩))

/-! The twelve chunks of a stage in order: chunk `j` starts at row `24 j` (eight chunks of 24 rows) or `192 + 16 (j - 8)`
    (four of 16); the `n`-th transfer's device equation is number `4 + n`; after it `35 - n` transfers remain. -/

open Lean Elab Tactic in
elab "run_stage_A" : tactic => do
  for j in [0:12] do
    let a := if j < 8 then 24 * j else 192 + 16 * (j - 8)
    let R := if j < 8 then 24 else 16
    let C := mkIdent (Name.mkSimple s!"C{j}")
    let d := mkIdent (Name.mkSimple s!"dev{4 + j}_eq")
    evalTactic (← `(tactic| runA $C $d $(Syntax.mkNumLit (toString j)) $(Syntax.mkNumLit (toString a)) $(Syntax.mkNumLit (toString R)) $(Syntax.mkNumLit (toString (35 - j)))))

open Lean Elab Tactic in
elab "run_stage_B" : tactic => do
  for j in [0:12] do
    let a := if j < 8 then 24 * j else 192 + 16 * (j - 8)
    let R := if j < 8 then 24 else 16
    let C := mkIdent (Name.mkSimple s!"C{j}")
    let d := mkIdent (Name.mkSimple s!"dev{16 + j}_eq")
    evalTactic (← `(tactic| runB $C $d $(Syntax.mkNumLit (toString j)) $(Syntax.mkNumLit (toString a)) $(Syntax.mkNumLit (toString R)) $(Syntax.mkNumLit (toString (23 - j)))))

open Lean Elab Tactic in
elab "run_stage_C" : tactic => do
  for j in [0:12] do
    let a := if j < 8 then 24 * j else 192 + 16 * (j - 8)
    let R := if j < 8 then 24 else 16
    let C := mkIdent (Name.mkSimple s!"C{j}")
    let d := mkIdent (Name.mkSimple s!"dev{28 + j}_eq")
    evalTactic (← `(tactic| runC $C $d $(Syntax.mkNumLit (toString j)) $(Syntax.mkNumLit (toString a)) $(Syntax.mkNumLit (toString R)) $(Syntax.mkNumLit (toString (11 - j)))))

open Lean Elab Tactic in
elab "run_stage_D" : tactic => do
  for j in [0:12] do
    let a := if j < 8 then 24 * j else 192 + 16 * (j - 8)
    let R := if j < 8 then 24 else 16
    let C := mkIdent (Name.mkSimple s!"C{j}")
    evalTactic (← `(tactic| runD $C $(Syntax.mkNumLit (toString j)) $(Syntax.mkNumLit (toString a)) $(Syntax.mkNumLit (toString R))))

set_option maxRecDepth 65536 in
set_option maxHeartbeats 40000000 in
/-- The body, from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (F := F) xM (Memref.isWhole_whole _) oM (Memref.isWhole_whole _) cM (Memref.isWhole_whole _) cc0_scratch1 cc0_scratch2) Kt := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel,
    semSignalWord, semWaitWord, Prog.lift, Prog.bind_op, Prog.bind_ret, Prog.pure_eq_ret, wp_deviceId]
  simp only [dev1_eq c, dev2_eq c, dev3_eq c]
  unfold bodyPre ghost
  iintro ⟨⟨⟨⟨#Hrec, Hpos, Htoks⟩, Hcr, #Hlev, ⟨%f0, Hcomm⟩⟩, Ho, ⟨%d0, %g0, %hg0, Hx⟩, ⟨%d1, %g1, %hg1, Hout⟩⟩, Hk⟩
  have hx : g0 = xs m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  -- the launch's dealing, taken apart
  ihave Hpos' := (positions_split c).1 $$ Hpos
  icases Hpos' with ⟨HatB, HsP, HrP⟩
  unfold payToks creds
  icases Htoks with ⟨HtB, HtS, HtR⟩
  icases Hcr with ⟨HcB, HcR⟩
  -- the own landing slots go to the partners with the entry signals
  ihave Hsl := (c_split c f0).1 $$ Hcomm
  icases Hsl with ⟨Hslots, Hrest⟩
  ihave Hpays := (own_slots_to_pays m K c f0) $$ [Hslots]
  · isplitr; · iexact Hrec
    iexact Hslots
  iapply (step_prologue m K c W) $$ [HatB HtB HcB Hpays HO]
  · isplitr; · iexact Hrec
    isplitr; · iexact Hlev
    isplitl [HatB]; · iexact HatB
    isplitl [HtB]; · iexact HtB
    isplitl [HcB]; · iexact HcB
    isplitl [Hpays]; · iexact Hpays
    iexact HO
  iintro ⟨Hpp, HO⟩
  -- chunk by chunk
  ihave Hch := (chunks_intro m c g1) $$ [HsP HrP HtS HtR HcR Hpp Hx Hout]
  · isplitl [HsP HrP]
    · isplitl [HsP]; · iexact HsP
      iexact HrP
    isplitl [HtS HtR]
    · isplitl [HtS]; · iexact HtS
      iexact HtR
    isplitl [HcR]; · iexact HcR
    isplitl [Hpp]; · iexact Hpp
    isplitl [Hx]; · iexact Hx
    iexact Hout
  ihave Hch' := (Entails.of_eq (bigSep_fin12 _)) $$ Hch
  icases Hch' with ⟨C0, C1, C2, C3, C4, C5, C6, C7, C8, C9, C10, C11⟩
  run_stage_A
  run_stage_B
  run_stage_C
  run_stage_D
  -- the chunks collected
  icases HO with ⟨%Wn, HO⟩
  ihave Hall := (Entails.of_eq (bigSep_fin12 (fun j : Fin 12 => St4 m c j.val j.isLt)).symm) $$ [C0 C1 C2 C3 C4 C5 C6 C7 C8 C9 C10 C11]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    iexact C11
  ihave Hend := (chunks_elim m c) $$ Hall
  icases Hend with ⟨Hx, Hout, Hslots, Hsems⟩
  ihave Hcomm := (c_join c (landed m c) f0) $$ [Hslots Hrest]
  · isplitl [Hslots]; · iexact Hslots
    iexact Hrest
  rw [wp_ret]; imodintro
  iapply Hk
  unfold bodyPost Φ₁ Dat.owesAt Pipeline.owesWithin
  rw [show (dats m 0 c).owed t₀.succ = 0 from rfl]
  isplitl [Hcomm Hsems]
  · isplitl [Hcomm]; · iexact Hcomm
    iexact Hsems
  isplitl [HO]
  · iexists Wn
    isplitr; · ipureintro; exact fun _ _ => Or.inl trivial
    iexact HO
  isplitl [Hx]
  · iexists _; isplitr; · (ipureintro; rfl)
    iexact Hx
  iexists _; isplitr; · (ipureintro; rfl)
  iexact Hout

end Cert.Kernel.Hand

end
-- ==== Proof.BitsSide.Body.lean ====
/-
  The library's body obligation from the body's run.
-/
import proofs.«900610_g7700000000000611_dist_treered_v7x_i8_m256_n256_f32_1_alg».proof.Proof.BitsSide.BodyRun

noncomputable section

namespace Cert.Kernel.Hand

open Cert.Kernel Cert.Kernel.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A whole buffer owned at contents `X` is that buffer at some contents that equal `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A separating product over the two windows, written out. -/
theorem bigSep_W (Φ : Fin cfg0.W → sProp 𝕄) : bigSep Finset.univ Φ = iprop(Φ (0 : Fin 2) ∗ Φ (1 : Fin 2)) := bigSep_W0 Φ

/-- The obligation's precondition at the one grid point: the invariant before the body, what the device owes, and
    the two staging buffers at what they then hold. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (F := F) xM (Memref.isWhole_whole _) oM (Memref.isWhole_whole _) cM (Memref.isWhole_whole _) cc0_scratch1 cc0_scratch2)
    (fun _ => bodyPost m c)
  unfold bodyPre' Φ₀ start
  iintro ⟨⟨⟨⟨%K, Hg⟩, Hc, Hl⟩, Hscr⟩, Ho, Hx, Hout⟩
  iapply (sound_body m K c fun _ => bodyPost m c)
  unfold bodyPre
  isplitr []
  · isplitl [Hg Hc Hl Hscr]
    · isplitl [Hg]; · iexact Hg
      isplitl [Hc]; · iexact Hc
      isplitl [Hl]; · iexact Hl
      iexact Hscr
    isplitl [Ho]; · iexact Ho
    isplitl [Hx] <;> iassumption
  · iintro H; iexact H

end Cert.Kernel.Hand

end
-- ==== Proof.BitsSide.Launch.lean ====
/-
  The launch: from each device's body to the run of the whole mesh.
-/
import proofs.«900610_g7700000000000611_dist_treered_v7x_i8_m256_n256_f32_1_alg».proof.Proof.BitsSide.Body

noncomputable section

namespace Cert.Kernel.Hand

open Cert.Kernel Cert.Kernel.Gen Cert.TreeSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m 0 c).share w = fullShare := by unfold Dat.share; split <;> rfl

theorem L_of_ne (g : GSem nD τ sig) (h : g.1.2 ≠ .tc) : L g = ∅ := if_neg h

theorem csem_injective : Function.Injective csem := by
  intro i i' h
  unfold csem at h
  by_cases h0 : i.val = 0 <;> by_cases h0' : i'.val = 0
  · exact Fin.ext (h0.trans h0'.symm)
  · rw [if_pos h0, if_neg h0'] at h; cases h
  · rw [if_neg h0, if_pos h0'] at h; cases h
  · rw [if_neg h0, if_neg h0'] at h
    have h1 := congrArg Fin.val (SemLoc.dma.inj h)
    have h2 : (i.val + 1) % 74 = (i'.val + 1) % 74 := h1
    exact Fin.ext (by omega)

theorem kcell_injective : Function.Injective (kcell : Dev nD × Fin 73 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def treeCells : Finset (GSem nD τ sig) := Finset.univ.map ⟨kcell, kcell_injective⟩

/-- The duties of a device's own cells: the three of its entry barrier, one per departure, one per arrival. -/
abbrev TI : Type := Fin 3 ⊕ (Fin 36 ⊕ Fin 36)

/-- A device's own cells' duty tokens as minted. -/
def tokOf (cj : Dev nD × TI) : GSem nD τ sig × ℕ × Fin 3 := match cj.2 with
  | .inl k => (barCell cj.1, 0, k)
  | .inr (.inl n) => (dCell cj.1 (sQ (n.val / 12) (n.val % 12)), 0, 0)
  | .inr (.inr n) => (dCell cj.1 (rQ (n.val / 12) (n.val % 12)), 0, 0)

theorem sQn_val (n : Fin 36) : (sQ (n.val / 12) (n.val % 12)).val = 2 + n.val := by
  rw [sQ_val _ _ (by omega) (by omega)]; omega
theorem rQn_val (n : Fin 36) : (rQ (n.val / 12) (n.val % 12)).val = 38 + n.val := by
  rw [rQ_val _ _ (by omega) (by omega)]; omega

theorem tokOf_injective : Function.Injective (tokOf : Dev nD × TI → GSem nD τ sig × ℕ × Fin 3) := by
  rintro ⟨c, j⟩ ⟨c', j'⟩ h
  have h1 : c = c' := by
    have := congrArg (fun x : GSem nD τ sig × ℕ × Fin 3 => x.1.1.1) h
    rcases j with k | n | n <;> rcases j' with k' | n' | n' <;> exact this
  subst h1
  have h2 := congrArg (fun x : GSem nD τ sig × ℕ × Fin 3 => (x.1.2, x.2.2)) h
  have : j = j' := by
    rcases j with k | n | n <;> rcases j' with k' | n' | n' <;> simp only [tokOf, Prod.mk.injEq] at h2
    · rw [h2.2]
    · exact absurd h2.1 (by intro h'; cases h')
    · exact absurd h2.1 (by intro h'; cases h')
    · exact absurd h2.1 (by intro h'; cases h')
    · have := congrArg Fin.val (SemLoc.dma.inj h2.1); rw [sQn_val, sQn_val] at this
      exact congrArg _ (congrArg _ (Fin.ext (by omega)))
    · have := congrArg Fin.val (SemLoc.dma.inj h2.1); rw [sQn_val, rQn_val] at this
      exact absurd this (by omega)
    · exact absurd h2.1 (by intro h'; cases h')
    · have := congrArg Fin.val (SemLoc.dma.inj h2.1); rw [rQn_val, sQn_val] at this
      exact absurd this (by omega)
    · have := congrArg Fin.val (SemLoc.dma.inj h2.1); rw [rQn_val, rQn_val] at this
      exact congrArg _ (congrArg _ (Fin.ext (by omega)))
  subst this; rfl
def treeToks : Finset (GSem nD τ sig × ℕ × Fin 3) := Finset.univ.map ⟨tokOf, tokOf_injective⟩

def u₀ : UU :=
  (initOf (Pipeline.cells cfgs cellOf_inj) (Pipeline.launchToks cfgs cellOf_inj), initOf treeCells treeToks)

/-- The duty tokens of device `c`'s own cells. -/
def toks (c : Dev nD) : sProp 𝕄 :=
  iprop((bigSep Finset.univ fun k : Fin 3 => dutyTok ER (barCell c) 0 k)
    ∗ (bigSep Finset.univ fun n : Fin 36 => dutyTok ER (dCell c (sQ (n.val / 12) (n.val % 12))) 0 (0 : Fin 3))
    ∗ (bigSep Finset.univ fun n : Fin 36 => dutyTok ER (dCell c (rQ (n.val / 12) (n.val % 12))) 0 (0 : Fin 3)))

/-- What the launch element deals device `c`. -/
def G (c : Dev nD) : sProp 𝕄 :=
  iprop((bigSep Finset.univ fun i : Fin 73 => roundState ER (treeRd m) (kcell (c, i)) 0)
    ∗ (bigSep Finset.univ fun i : Fin 73 => iprop(atPos ER (kcell (c, i)) 0 ∅ 0 ∗ reached ER (kcell (c, i)) 0)) ∗ toks c)

/-- What the global step makes of it. -/
def G' (c : Dev nD) : sProp 𝕄 := iprop(∃ K, ghost m K c)

theorem fund_tree : BI.own (ER (initOf treeCells treeToks)) ⊢ (|==> bigSep Finset.univ (G m) : sProp 𝕄) := by
  have hX (Φ : GSem nD τ sig → sProp 𝕄) : bigSep treeCells Φ = bigSep Finset.univ fun c : Dev nD => bigSep Finset.univ fun i : Fin 73 => Φ (kcell (c, i)) := by
    unfold treeCells; rw [bigSep_map, bigSep_univ_prod]; rfl
  have hT : bigSep treeToks (fun x => (dutyTok ER x.1 x.2.1 x.2.2 : sProp 𝕄)) = bigSep Finset.univ fun c : Dev nD => toks c := by
    unfold treeToks; rw [bigSep_map, bigSep_univ_prod]
    exact bigSep_congr fun c _ => by unfold toks; rw [bigSep_univ_sum, bigSep_univ_sum]; rfl
  iintro HX
  imod (Rounds.fund ER (treeRd m) treeCells treeToks) $$ HX with ⟨Hst, Hr, Hat, Htok⟩
  imodintro
  ihave Hst' := (Entails.of_eq (hX fun g => roundState ER (treeRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- Every payload of the schedule can be kept in an invariant. -/
instance treeRd_payload_storable_L (g : GSem nD τ sig) (r : ℕ) (d : Fin 3) :
    BI.Storable (upEmb : UEmb _ 𝕄) ((treeRd (F := F) m).payload g r d) := by
  dsimp only [treeRd]
  unfold barPay sendPay recvPay slotPts xPts oPts
  (repeat' split) <;> infer_instance

/-! ### The semaphores at zero, cell by cell -/

theorem bigSep_fin_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp [Fin.succ_ne_zero]), bigSep_map]; rfl

/-- The runtime's entry-barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem osem_eq (k : Fin 72) : osem k = csem k.succ := by
  unfold osem csem
  rw [if_neg (by simp)]
  exact congrArg SemLoc.dma (Fin.ext (by simp only [Fin.val_succ]))

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 73 => semVal (kcell (c, i)) 0 : sProp 𝕄) := by
  rw [unscopedSems0_eq, bigSep_fin_succ]
  unfold Pipeline.ownSems0
  iintro ⟨HS, HB⟩
  isplitl [HB]
  · rw [kcell_bar]; iexact HB
  · iapply (Entails.of_eq (bigSep_congr (s := Finset.univ) fun (k : Fin 72) _ =>
      show (semVal ((c.tc : Thread nD τ), osem k) 0 : sProp 𝕄) = semVal (kcell (c, k.succ)) 0 from by rw [osem_eq]))
    iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 73 => iprop(∃ κ : ℕ, cellInv ER (treeRd m) κ (kcell (c, i))))
          ∗ (bigSep Finset.univ fun i : Fin 73 => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Fin 73 => semVal (kcell (c, i)) 0) ∗ bigSep Finset.univ fun i : Fin 73 => roundState ER (treeRd m) (kcell (c, i)) 0)
      ⊢ (|={Set.univ}=> bigSep Finset.univ fun i : Fin 73 => iprop(∃ κ : ℕ, cellInv ER (treeRd m) κ (kcell (c, i))) : sProp 𝕄) from by
        rw [← bigSep_sep']
        exact (bigSep_mono fun i _ => (Rounds.body_intro ER (treeRd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt to the devices that pay them -/

/-- The partner under mask `k`, as a permutation of the devices. -/
def xorEquiv (k : Fin 3) : Dev nD ≃ Dev nD :=
  ⟨fun c => xorDev c k, fun c => xorDev c k, fun c => xorDev_xorDev c k, fun c => xorDev_xorDev c k⟩

/-- One duty name's tokens, dealt along the mask's permutation. -/
theorem deal (k : Fin 3) (Φ : Dev nD → sProp 𝕄) :
    (bigSep Finset.univ fun c : Dev nD => Φ c) = bigSep Finset.univ fun c : Dev nD => Φ (xorDev c k) :=
  bigSep_univ_equiv (xorEquiv k) Φ

/-- A family of tokens over the devices and an index, each index's dealt along its own permutation. -/
theorem deal_all {J : Type} [Fintype J] (κ : J → Fin 3) (Φ : Dev nD → J → sProp 𝕄) :
    (bigSep Finset.univ fun c : Dev nD => bigSep Finset.univ fun j : J => Φ c j)
      = bigSep Finset.univ fun c : Dev nD => bigSep Finset.univ fun j : J => Φ (xorDev c (κ j)) j := by
  rw [bigSep_univ_comm, bigSep_univ_comm (fun (c : Dev nD) (j : J) => Φ (xorDev c (κ j)) j)]
  exact bigSep_congr fun j _ => deal (κ j) fun c => Φ c j

/-- The entry token `k` of a device goes to its partner under mask `k`; the arrival token of `(s, j)` to the partner
    at that stage of that chunk; the departure tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal_all (fun k : Fin 3 => k) (fun (c : Dev nD) (k : Fin 3) => (dutyTok ER (barCell c) 0 k : sProp 𝕄)),
    deal_all (fun n : Fin 36 => maskIx (n.val / 12) (n.val % 12))
      (fun (c : Dev nD) (n : Fin 36) => (dutyTok ER (dCell c (rQ (n.val / 12) (n.val % 12))) 0 (0 : Fin 3) : sProp 𝕄))]
  exact BI.Entails.refl _

/-! ### From the allocated cells to what each device starts from -/

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 73 → ℕ) (c : Dev nD) : iprop(records m K ∗ positions c ∗ payToks c) ⊢ G' m c := by
  unfold G' ghost
  iintro H
  iexists K
  iexact H

theorem regroup :
    (bigSep Finset.univ fun c : Dev nD => iprop((bigSep Finset.univ fun i : Fin 73 => iprop(∃ κ : ℕ, cellInv ER (treeRd m) κ (kcell (c, i))))
          ∗ (bigSep Finset.univ fun i : Fin 73 => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × Fin 73 => iprop(∃ κ : ℕ, cellInv ER (treeRd m) κ (kcell ck))),
    bigSep_congr (s := Finset.univ) (fun (c : Dev nD) _ => bigSep_sep' Finset.univ (fun i : Fin 73 => (atPos ER (kcell (c, i)) 0 ∅ 0 : sProp 𝕄)) (fun i => reached ER (kcell (c, i)) 0)),
    bigSep_sep', ← bigSep_univ_prod (fun ck : Dev nD × Fin 73 => (reached ER (kcell ck) 0 : sProp 𝕄))]
  iintro ⟨HI, ⟨Hat, #HR⟩, Htok⟩
  ihave HK := (BI.bigSep_exists_pi Finset.univ (fun (ck : Dev nD × Fin 73) (κ : ℕ) => (cellInv ER (treeRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- The partner under mask `k` owes a device's entry barrier one unit. -/
theorem cred_bar (k : Fin 3) (c : Dev nD) :
    (Pipeline.launchCred (fun d => tallyBar d k) c : sProp 𝕄) ⊢ cred (tallyAt (barCell c) () 1) :=
  Pipeline.launchCred_tallyAt (SemLoc.reg barS) (fun d => xorDev d k) (fun d => xorDev d k) (fun c => xorDev_xorDev c k) (fun d => xorDev_xorDev d k) () 1 c

/-- The partner at the `n`-th transfer's stage and chunk owes the arrival cell of that transfer the chunk's credit. -/
theorem cred_send (n : ℕ) (c : Dev nD) :
    (Pipeline.launchCred (fun d => tallySend d n) c : sProp 𝕄)
      ⊢ cred (tallyAt (dCell c (rQ (n / 12) (n % 12))) () (NR (crows (n % 12)))) :=
  Pipeline.launchCred_tallyAt (SemLoc.dma (rQ (n / 12) (n % 12))) (fun d => peer d (n / 12) (n % 12)) (fun d => peer d (n / 12) (n % 12))
    (fun c => peer_peer c _ _) (fun d => peer_peer d _ _) () (NR (crows (n % 12))) c

theorem bigSep_insert_i {I : Type} [DecidableEq I] {s : Finset I} {i : I} (hi : i ∉ s) (Φ : I → sProp 𝕄) :
    bigSep (insert i s) Φ = iprop(Φ i ∗ bigSep s Φ) := BI.bigSep_insert hi

/-- The credits of the last `k` transfers. -/
theorem cred_rem (c : Dev nD) : ∀ k, k ≤ 36 →
    (Pipeline.launchCred (fun d => owedRem d k) c : sProp 𝕄)
      ⊢ bigSep (Finset.univ.filter fun n : Fin 36 => 36 - k ≤ n.val)
          fun n => cred (tallyAt (dCell c (rQ (n.val / 12) (n.val % 12))) () (NR (crows (n.val % 12))))
  | 0, _ => by
    rw [show (fun d : Dev nD => owedRem d 0) = fun _ => (0 : CellTallies nD τ sig Unit) from rfl, Pipeline.launchCred_zero,
      Finset.filter_false_of_mem (fun n _ => by have := n.isLt; omega)]
    exact Entails.of_eq rfl
  | k + 1, hk => by
    have hs : (Finset.univ.filter fun n : Fin 36 => 36 - (k + 1) ≤ n.val)
        = insert (⟨35 - k, by omega⟩ : Fin 36) (Finset.univ.filter fun n : Fin 36 => 36 - k ≤ n.val) := by
      ext n; simp only [Finset.mem_filter, Finset.mem_univ, true_and, Finset.mem_insert, Fin.ext_iff]; omega
    rw [show (fun d : Dev nD => owedRem d (k + 1)) = fun d => owedRem d k + tallySend d (35 - k) from rfl, Pipeline.launchCred_add, hs,
      bigSep_insert_i (by simp only [Finset.mem_filter, Finset.mem_univ, true_and]; omega)]
    iintro ⟨H1, H2⟩
    isplitl [H2]
    · iapply (cred_send (F := F) (35 - k) c); iexact H2
    · iapply (cred_rem c k (by omega)); iexact H1

theorem cred3 (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

/-- What the launch credits a device: three units on its entry barrier, each arrival's credit. -/
theorem creds_intro (c : Dev nD) : (Pipeline.launchCred O₀ c : sProp 𝕄) ⊢ creds c := by
  rw [show (O₀ : Dev nD → CellTallies nD τ sig Unit) = fun d => ((owedRem d 36 + tallyBar d 2) + tallyBar d 1) + tallyBar d 0 from rfl,
    Pipeline.launchCred_add, Pipeline.launchCred_add, Pipeline.launchCred_add]
  unfold creds
  iintro ⟨⟨⟨HR, H2⟩, H1⟩, H0⟩
  ihave H2' := (cred_bar (F := F) 2 c) $$ H2
  ihave H1' := (cred_bar (F := F) 1 c) $$ H1
  ihave H0' := (cred_bar (F := F) 0 c) $$ H0
  ihave HR' := (cred_rem (F := F) c 36 le_rfl) $$ HR
  isplitl [H0' H1' H2']
  · iapply (cred3 (F := F) (barCell c))
    isplitl [H0']; · iexact H0'
    isplitl [H1'] <;> iassumption
  · rw [Finset.filter_true_of_mem (fun n _ => by omega)]
    iexact HR'

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁
  iintro ⟨Hr, Hz⟩
  isplitr; · iempintro
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The statements -/

/-- What device `c`'s result array holds after the run. -/
def result (c : Dev nD) : Buf (Elt F) ((c.tc : Thread nD τ).loc main_v1) := (dats m 0 c).arrAt (1 : Fin 2) cfg0.N

/-- It is the running sum after three stages. -/
theorem result_eq (c : Dev nD) : result m c = acc m c 3 := by
  unfold result
  -- the one grid point writes the result window back
  have h := (dats m 0 c).arrAt_succ (1 : Fin 2) (⟨0, by decide⟩ : Fin cfg0.N)
  rw [if_pos (flush0_1 _)] at h
  refine h.trans ?_
  -- the window's one block is the whole 256 x 256 array at block index 0: reading it reads the array
  have hz : (fun a => (win0_1.index (⟨0, by decide⟩ : Fin grid0.N)) a * main_v1.ty.shape.size a) = fun _ => 0 :=
    funext fun a => by fin_cases a <;> decide
  have hr := fun f => Memref.read_access_unit_zero (Elt F) main_v1 hz (fun a => by fin_cases a <;> decide) f
  refine (hr _).symm.trans ?_
  -- and what was written over the whole block is what is read back: the body's result
  refine (View.read_write_univ _ _).trans ?_
  rfl

set_option maxRecDepth 100000 in
/-- At the compiled mesh of eight devices, from any memory with every semaphore at zero: every weakly fair execution
    terminates without a fault, each device's result array ends at its running sum after three stages, and its
    input array ends as it was. -/
theorem run_main : θ_run defs (onTc (τ := τ) (main (F := F))) ⟨m, fun _ => 0, ρ⟩ (fun r => ∀ c : Dev nD,
    r.2.mem ((c.tc : Thread nD τ).loc main_v1) = result m c
    ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_tree m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c => ⟨(h c).1 (1 : Fin 2), ((h c).1 (0 : Fin 2)).trans ((dats (F := F) m 0 c).arrAt_in (0 : Fin 2) rfl _)⟩)

end Cert.Kernel.Hand

end
-- ==== Proof.lean ====
/- Eight devices each hold one 256 x 256 block x_d of an 8 x 256 x 256 array; the kernel is a butterfly all-reduce over
   three exchange stages, after which every device holds, entry by entry, the sum over d of x_d. The reference
   reduces the whole array along its first axis from zero. On the extended reals both are the same sum, so the
   replicated result of every device is the reference's; the frames are the runs with the values dropped. -/
import proofs.«900610_g7700000000000611_dist_treered_v7x_i8_m256_n256_f32_1_alg».proof.Defs
import proofs.«900610_g7700000000000611_dist_treered_v7x_i8_m256_n256_f32_1_alg».proof.Proof.Gen.Kernel
import proofs.«900610_g7700000000000611_dist_treered_v7x_i8_m256_n256_f32_1_alg».proof.Proof.Gen.Kernel.Skeleton
import proofs.«900610_g7700000000000611_dist_treered_v7x_i8_m256_n256_f32_1_alg».proof.Proof.Gen.Kernel.Launch
import proofs.«900610_g7700000000000611_dist_treered_v7x_i8_m256_n256_f32_1_alg».proof.Proof.Gen.Kernel.Points
import proofs.«900610_g7700000000000611_dist_treered_v7x_i8_m256_n256_f32_1_alg».proof.Proof.Gen.Kernel.Frame
import proofs.«900610_g7700000000000611_dist_treered_v7x_i8_m256_n256_f32_1_alg».proof.Proof.Gen.KernelIdeal
import proofs.«900610_g7700000000000611_dist_treered_v7x_i8_m256_n256_f32_1_alg».proof.Proof.Gen.KernelIdeal.Skeleton
import proofs.«900610_g7700000000000611_dist_treered_v7x_i8_m256_n256_f32_1_alg».proof.Proof.Gen.KernelIdeal.Launch
import proofs.«900610_g7700000000000611_dist_treered_v7x_i8_m256_n256_f32_1_alg».proof.Proof.Gen.KernelIdeal.Points
import proofs.«900610_g7700000000000611_dist_treered_v7x_i8_m256_n256_f32_1_alg».proof.Proof.Gen.KernelIdeal.Frame
import proofs.«900610_g7700000000000611_dist_treered_v7x_i8_m256_n256_f32_1_alg».proof.Proof.Gen.ReferenceIdeal
import proofs.«900610_g7700000000000611_dist_treered_v7x_i8_m256_n256_f32_1_alg».proof.Proof.Gen.Pre_finite_inputs_Kernel
import proofs.«900610_g7700000000000611_dist_treered_v7x_i8_m256_n256_f32_1_alg».proof.Proof.Gen.Pre_finite_inputs_ReferenceIdeal
import proofs.«900610_g7700000000000611_dist_treered_v7x_i8_m256_n256_f32_1_alg».proof.Proof.RefSide
import proofs.«900610_g7700000000000611_dist_treered_v7x_i8_m256_n256_f32_1_alg».proof.Proof.IdealSide.Launch
import proofs.«900610_g7700000000000611_dist_treered_v7x_i8_m256_n256_f32_1_alg».proof.Proof.BitsSide.Launch
import Idealize.ShloMosaic.Adequacy
import Idealize.ShloMosaic.Init

noncomputable section

namespace Cert.Proof

open Idealize.ShloMosaic Idealize.SL.Sem Cert.Kernel

/-- The word-level program's run with the result's value dropped. -/
theorem frame_kernel : Cert.frame_Kernel := fun m g _ =>
  (θ_run _ _ _).mono (fun _ h c => (h c).2) (Cert.Kernel.Hand.run_main (F := Bits) m g)

/-- The idealized program's run with the result's value dropped. -/
theorem frame_kernelIdeal : Cert.frame_KernelIdeal := fun m g _ =>
  (θ_run _ _ _).mono (fun _ h c => (h c).2) (Cert.KernelIdeal.Hand.run_main (F := Ideal) m g)

/-- The reference's run with the result's value dropped. -/
theorem frame_referenceIdeal : Cert.frame_ReferenceIdeal := fun m g _ =>
  (θ_run Cert.ReferenceIdeal.defs _ _).mono (fun _ h c => (h c).2) (Cert.ReferenceIdeal.Value.run (F := Ideal) m g)

/-- On the extended reals both programs end at the sum over the eight blocks of the whole input: every device's
    running sum after the three stages is that sum, and the reference's reduction from zero is that sum. -/
theorem algebraic : Cert.algebraic_KernelIdeal_ReferenceIdeal := by
  intro m g m' g' _ hb
  refine ⟨Cert.ReferenceIdeal.RefValue.total
    (m' (((0 : Dev Cert.ReferenceIdeal.nD).tc : Thread Cert.ReferenceIdeal.nD Cert.ReferenceIdeal.τ).loc Cert.ReferenceIdeal.main_arg0)), ?_, ?_⟩
  · exact (θ_run _ _ _).mono
      (fun _ h c => ⟨(h c).1.trans ((Cert.KernelIdeal.Hand.result_eq m c).trans (Cert.TreeBridge.acc_three_eq m _ hb c)), (h c).2⟩)
      (Cert.KernelIdeal.Hand.run_main (F := Ideal) m g)
  · exact (θ_run Cert.ReferenceIdeal.defs _ _).mono
      (fun _ h => ⟨(h 0).1.trans (Cert.ReferenceIdeal.RefValue.reduce_eq _), (h 0).2⟩)
      (Cert.ReferenceIdeal.Value.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, frame_kernelIdeal, frame_referenceIdeal, trivial, algebraic⟩

end Cert.Proof

end
